-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x92 : Shape := ⟨3, ![16, 1024, 92]⟩
abbrev S16x1024x4 : Shape := ⟨3, ![16, 1024, 4]⟩
abbrev S16x64 : Shape := ⟨2, ![16, 64]⟩
abbrev S16x64x4 : Shape := ⟨3, ![16, 64, 4]⟩
abbrev S16x1024 : Shape := ⟨2, ![16, 1024]⟩
abbrev S92 : Shape := ⟨1, ![92]⟩
abbrev S_ : Shape := ⟨0, ![]⟩

class Facts : Prop where
  bcast_S_S16x1024x92 : S_.BroadcastsInDim S16x1024x92 (![] : Fin 0 → Fin S16x1024x92.rank)
  reducesTo_S16x1024x92_S_d0_1_2 : S16x1024x92.ReducesTo [0, 1, 2] S_
  h_S_ : 0 < S_.numel
  bcast_S_S16x1024x4 : S_.BroadcastsInDim S16x1024x4 (![] : Fin 0 → Fin S16x1024x4.rank)
  reducesTo_S16x1024x4_S_d0_1_2 : S16x1024x4.ReducesTo [0, 1, 2] S_
  bcast_S_S16x64x4 : S_.BroadcastsInDim S16x64x4 (![] : Fin 0 → Fin S16x64x4.rank)
  reducesTo_S16x64x4_S_d0_1_2 : S16x64x4.ReducesTo [0, 1, 2] S_
  bcast_S_S92 : S_.BroadcastsInDim S92 (![] : Fin 0 → Fin S92.rank)
  reducesTo_S92_S_d0 : S92.ReducesTo [0] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg2 : IVec S16x64 32) (main_v13 : IVec S_ 1) (main_v16 : IVec S92 1) : IVec S_ 1 :=
  let main_c_5 : IVec S_ 1 := constantI S_ 1 1#1
  let main_v17 : IVec S_ 1 := (fun x v => Host.reduce IntOp.andi x v reducesTo_S92_S_d0 h_S_) main_v16 main_c_5
  let main_v18 : IVec S_ 1 := andi main_v13 main_v17
  let main_c_6 : IVec S_ 32 := constantI S_ 32 0#32
  let main_v19 : IVec S16x64 32 := broadcastInDim S16x64 ![] bcast_S_S16x64 main_c_6
  let main_v20 : IVec S16x64 1 := cmpi .sge main_arg2 main_v19
  let main_c_7 : IVec S_ 1 := constantI S_ 1 1#1
  let main_v21 : IVec S_ 1 := (fun x v => Host.reduce IntOp.andi x v reducesTo_S16x64_S_d0_1 h_S_) main_v20 main_c_7
  let main_v22 : IVec S_ 1 := andi main_v18 main_v21
  let main_c_8 : IVec S_ 32 := constantI S_ 32 92#32
  let main_v23 : IVec S16x64 32 := broadcastInDim S16x64 ![] bcast_S_S16x64 main_c_8
  let main_v24 : IVec S16x64 1 := cmpi .slt main_arg2 main_v23
  let main_c_9 : IVec S_ 1 := constantI S_ 1 1#1
  let main_v25 : IVec S_ 1 := (fun x v => Host.reduce IntOp.andi x v reducesTo_S16x64_S_d0_1 h_S_) main_v24 main_c_9
  let main_v26 : IVec S_ 1 := andi main_v22 main_v25
  main_v26

def fn {F : FTy → Type} [FloatOps F] (main_arg0 : FVec F S16x1024x92 .f32) (main_arg1 : FVec F S16x1024x4 .f32) (main_arg2 : IVec S16x64 32) (main_arg3 : FVec F S16x64x4 .f32) (main_arg4 : IVec S16x1024 32) (main_arg5 : IVec S16x64 32) (main_arg6 : FVec F S92 .f32) : IVec S_ 1 :=
  let main_v0 : FVec F S16x1024x92 .f32 := Host.absf main_arg0
  let main_cst : FVec F S_ .f32 := constant S_ .f32 0x7F800000#32
  let main_v1 : FVec F S16x1024x92 .f32 := broadcastInDim S16x1024x92 ![] bcast_S_S16x1024x92 main_cst
  let main_v2 : IVec S16x1024x92 1 := cmpf .olt main_v0 main_v1
  let main_c : IVec S_ 1 := constantI S_ 1 1#1
  let main_v3 : IVec S_ 1 := (fun x v => Host.reduce IntOp.andi x v reducesTo_S16x1024x92_S_d0_1_2 h_S_) main_v2 main_c
  let main_v4 : FVec F S16x1024x4 .f32 := Host.absf main_arg1
  let main_cst_0 : FVec F S_ .f32 := constant S_ .f32 0x7F800000#32
  let main_v5 : FVec F S16x1024x4 .f32 := broadcastInDim S16x1024x4 ![] bcast_S_S16x1024x4 main_cst_0
  let main_v6 : IVec S16x1024x4 1 := cmpf .olt main_v4 main_v5
  let main_c_1 : IVec S_ 1 := constantI S_ 1 1#1
  let main_v7 : IVec S_ 1 := (fun x v => Host.reduce IntOp.andi x v reducesTo_S16x1024x4_S_d0_1_2 h_S_) main_v6 main_c_1
  let main_v8 : IVec S_ 1 := andi main_v3 main_v7
  let main_v9 : FVec F S16x64x4 .f32 := Host.absf main_arg3
  let main_cst_2 : FVec F S_ .f32 := constant S_ .f32 0x7F800000#32
  let main_v10 : FVec F S16x64x4 .f32 := broadcastInDim S16x64x4 ![] bcast_S_S16x64x4 main_cst_2
  let main_v11 : IVec S16x64x4 1 := cmpf .olt main_v9 main_v10
  let main_c_3 : IVec S_ 1 := constantI S_ 1 1#1
  let main_v12 : IVec S_ 1 := (fun x v => Host.reduce IntOp.andi x v reducesTo_S16x64x4_S_d0_1_2 h_S_) main_v11 main_c_3
  let main_v13 : IVec S_ 1 := andi main_v8 main_v12
  let main_v14 : FVec F S92 .f32 := Host.absf main_arg6
  let main_cst_4 : FVec F S_ .f32 := constant S_ .f32 0x7F800000#32
  let main_v15 : FVec F S92 .f32 := broadcastInDim S92 ![] bcast_S_S92 main_cst_4
  let main_v16 : IVec S92 1 := cmpf .olt main_v14 main_v15
  fn_part1 (F := F) main_arg2 main_v13 main_v16
-- ==== Kernel.lean ====
abbrev S16x1024x92 : Shape := ⟨3, ![16, 1024, 92]⟩
abbrev S16x1024x4 : Shape := ⟨3, ![16, 1024, 4]⟩
abbrev S16x64 : Shape := ⟨2, ![16, 64]⟩
abbrev S16x64x4 : Shape := ⟨3, ![16, 64, 4]⟩
abbrev S16x1024 : Shape := ⟨2, ![16, 1024]⟩
abbrev S92 : Shape := ⟨1, ![92]⟩
abbrev S16 : Shape := ⟨1, ![16]⟩
abbrev S16x1 : Shape := ⟨2, ![16, 1]⟩
abbrev S_ : Shape := ⟨0, ![]⟩
abbrev S16x64x1 : Shape := ⟨3, ![16, 64, 1]⟩
abbrev S16x64x2 : Shape := ⟨3, ![16, 64, 2]⟩
abbrev S16x1024x1 : Shape := ⟨3, ![16, 1024, 1]⟩
abbrev S16x4x1024 : Shape := ⟨3, ![16, 4, 1024]⟩
abbrev S16x8x1024 : Shape := ⟨3, ![16, 8, 1024]⟩
abbrev S16x1x1024 : Shape := ⟨3, ![16, 1, 1024]⟩
abbrev S16x2x1024 : Shape := ⟨3, ![16, 2, 1024]⟩
abbrev S1x1x92 : Shape := ⟨3, ![1, 1, 92]⟩
abbrev S4x8x128 : Shape := ⟨3, ![4, 8, 128]⟩
abbrev S4x1024x92 : Shape := ⟨3, ![4, 1024, 92]⟩
abbrev S4x1024x1 : Shape := ⟨3, ![4, 1024, 1]⟩
abbrev S4x8x1024 : Shape := ⟨3, ![4, 8, 1024]⟩
abbrev S4x2x1024 : Shape := ⟨3, ![4, 2, 1024]⟩
abbrev S1x8x128 : Shape := ⟨3, ![1, 8, 128]⟩
abbrev S4x1024 : Shape := ⟨2, ![4, 1024]⟩
abbrev S4x1x1024 : Shape := ⟨3, ![4, 1, 1024]⟩
abbrev S4 : Shape := ⟨1, ![4]⟩
abbrev S4x1 : Shape := ⟨2, ![4, 1]⟩
abbrev S1 : Shape := ⟨1, ![1]⟩
abbrev S1x1 : Shape := ⟨2, ![1, 1]⟩
abbrev S8x128 : Shape := ⟨2, ![8, 128]⟩

abbrev nBuf : Space → Nat
  | .hbm => 88
  | .vmem => 11
  | .smem => 0
  | _ => 0

abbrev bufTy : (tb : Table) → Fin (tcTables nBuf tb) → BufTy
  | .hbm, ⟨0, _⟩ => ⟨S16x1024x92, .f32⟩
  | .hbm, ⟨1, _⟩ => ⟨S16x1024x4, .f32⟩
  | .hbm, ⟨2, _⟩ => ⟨S16x64, .i32⟩
  | .hbm, ⟨3, _⟩ => ⟨S16x64x4, .f32⟩
  | .hbm, ⟨4, _⟩ => ⟨S16x1024, .i32⟩
  | .hbm, ⟨5, _⟩ => ⟨S16x64, .i32⟩
  | .hbm, ⟨6, _⟩ => ⟨S92, .f32⟩
  | .hbm, ⟨7, _⟩ => ⟨S16, .i32⟩
  | .hbm, ⟨8, _⟩ => ⟨S16x1, .i32⟩
  | .hbm, ⟨9, _⟩ => ⟨S_, .i32⟩
  | .hbm, ⟨10, _⟩ => ⟨S16x1024, .i32⟩
  | .hbm, ⟨11, _⟩ => ⟨S_, .i32⟩
  | .hbm, ⟨12, _⟩ => ⟨S16x1, .i32⟩
  | .hbm, ⟨13, _⟩ => ⟨S16x1, .i1⟩
  | .hbm, ⟨14, _⟩ => ⟨S_, .i32⟩
  | .hbm, ⟨15, _⟩ => ⟨S16x1, .i32⟩
  | .hbm, ⟨16, _⟩ => ⟨S16x1, .i32⟩
  | .hbm, ⟨17, _⟩ => ⟨S16x1, .i32⟩
  | .hbm, ⟨18, _⟩ => ⟨S_, .i32⟩
  | .hbm, ⟨19, _⟩ => ⟨S16x64, .i32⟩
  | .hbm, ⟨20, _⟩ => ⟨S16x64, .i1⟩
  | .hbm, ⟨21, _⟩ => ⟨S_, .i32⟩
  | .hbm, ⟨22, _⟩ => ⟨S16x64, .i32⟩
  | .hbm, ⟨23, _⟩ => ⟨S16x64, .i32⟩
  | .hbm, ⟨24, _⟩ => ⟨S16x64, .i32⟩
  | .hbm, ⟨25, _⟩ => ⟨S16x64, .i32⟩
  | .hbm, ⟨26, _⟩ => ⟨S16x64x1, .i32⟩
  | .hbm, ⟨27, _⟩ => ⟨S16x64x1, .i32⟩
  | .hbm, ⟨28, _⟩ => ⟨S16x64x2, .i32⟩
  | .hbm, ⟨29, _⟩ => ⟨S16x1024, .i32⟩
  | .hbm, ⟨30, _⟩ => ⟨S_, .f32⟩
  | .hbm, ⟨31, _⟩ => ⟨S16x1024x4, .f32⟩
  | .hbm, ⟨32, _⟩ => ⟨S_, .i32⟩
  | .hbm, ⟨33, _⟩ => ⟨S16x1, .i32⟩
  | .hbm, ⟨34, _⟩ => ⟨S16x1, .i1⟩
  | .hbm, ⟨35, _⟩ => ⟨S_, .i32⟩
  | .hbm, ⟨36, _⟩ => ⟨S16x1, .i32⟩
  | .hbm, ⟨37, _⟩ => ⟨S16x1, .i32⟩
  | .hbm, ⟨38, _⟩ => ⟨S16x1, .i32⟩
  | .hbm, ⟨39, _⟩ => ⟨S_, .i32⟩
  | .hbm, ⟨40, _⟩ => ⟨S16x64, .i32⟩
  | .hbm, ⟨41, _⟩ => ⟨S16x64, .i1⟩
  | .hbm, ⟨42, _⟩ => ⟨S_, .i32⟩
  | .hbm, ⟨43, _⟩ => ⟨S16x64, .i32⟩
  | .hbm, ⟨44, _⟩ => ⟨S16x64, .i32⟩
  | .hbm, ⟨45, _⟩ => ⟨S16x64, .i32⟩
  | .hbm, ⟨46, _⟩ => ⟨S16x64, .i32⟩
  | .hbm, ⟨47, _⟩ => ⟨S16x64x1, .i32⟩
  | .hbm, ⟨48, _⟩ => ⟨S16x64x1, .i32⟩
  | .hbm, ⟨49, _⟩ => ⟨S16x64x2, .i32⟩
  | .hbm, ⟨50, _⟩ => ⟨S16x1024x4, .f32⟩
  | .hbm, ⟨51, _⟩ => ⟨S16x1024x1, .i32⟩
  | .hbm, ⟨52, _⟩ => ⟨S16x4x1024, .f32⟩
  | .hbm, ⟨53, _⟩ => ⟨S16x4x1024, .f32⟩
  | .hbm, ⟨54, _⟩ => ⟨S16x8x1024, .f32⟩
  | .hbm, ⟨55, _⟩ => ⟨S16x1x1024, .i32⟩
  | .hbm, ⟨56, _⟩ => ⟨S16x1x1024, .i32⟩
  | .hbm, ⟨57, _⟩ => ⟨S16x2x1024, .i32⟩
  | .hbm, ⟨58, _⟩ => ⟨S1x1x92, .f32⟩
  | .hbm, ⟨59, _⟩ => ⟨S4x8x128, .f32⟩
  | .hbm, ⟨60, _⟩ => ⟨S_, .f32⟩
  | .hbm, ⟨61, _⟩ => ⟨S8x128, .f32⟩
  | .hbm, ⟨62, _⟩ => ⟨S1x1, .f32⟩
  | .hbm, ⟨63, _⟩ => ⟨S_, .f32⟩
  | .hbm, ⟨64, _⟩ => ⟨S1x1, .f32⟩
  | .hbm, ⟨65, _⟩ => ⟨S_, .f32⟩
  | .hbm, ⟨66, _⟩ => ⟨S1x1, .f32⟩
  | .hbm, ⟨67, _⟩ => ⟨S_, .f32⟩
  | .hbm, ⟨68, _⟩ => ⟨S1x1, .f32⟩
  | .hbm, ⟨69, _⟩ => ⟨S_, .f32⟩
  | .hbm, ⟨70, _⟩ => ⟨S1x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .local _ .vmem, ⟨0, _⟩ => ⟨S4x1024x92, .f32⟩
  | .local _ .vmem, ⟨1, _⟩ => ⟨S4x1024x92, .f32⟩
  | .local _ .vmem, ⟨2, _⟩ => ⟨S4x1024x1, .i32⟩
  | .local _ .vmem, ⟨3, _⟩ => ⟨S4x1024x1, .i32⟩
  | .local _ .vmem, ⟨4, _⟩ => ⟨S1x1x92, .f32⟩
  | .local _ .vmem, ⟨5, _⟩ => ⟨S4x8x1024, .f32⟩
  | .local _ .vmem, ⟨6, _⟩ => ⟨S4x8x1024, .f32⟩
  | .local _ .vmem, ⟨7, _⟩ => ⟨S4x2x1024, .i32⟩
  | .local _ .vmem, ⟨8, _⟩ => ⟨S4x2x1024, .i32⟩
  | .local _ .vmem, ⟨9, _⟩ => ⟨S1x8x128, .f32⟩
  | .local _ .vmem, ⟨10, _⟩ => ⟨S1x8x128, .f32⟩
  | _, _ => ⟨S16x1024x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x92 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S16_S16x1_0 : S16.BroadcastsInDim S16x1 (![0] : Fin 1 → Fin S16x1.rank)
  bcast_S_S16x1024 : S_.BroadcastsInDim S16x1024 (![] : Fin 0 → Fin S16x1024.rank)
  bcast_S_S16x1 : S_.BroadcastsInDim S16x1 (![] : Fin 0 → Fin S16x1.rank)
  bcast_S_S16x64 : S_.BroadcastsInDim S16x64 (![] : Fin 0 → Fin S16x64.rank)
  bcast_S16x1_S16x64_0_1 : S16x1.BroadcastsInDim S16x64 (![0, 1] : Fin 2 → Fin S16x64.rank)
  bcast_S16x64_S16x64x1_0_1 : S16x64.BroadcastsInDim S16x64x1 (![0, 1] : Fin 2 → Fin S16x64x1.rank)
  concatenates_S16x64x1_S16x64x1_S16x64x2_d2 : Shape.Concatenates [S16x64x1, S16x64x1] S16x64x2 2
  bcast_S_S16x1024x4 : S_.BroadcastsInDim S16x1024x4 (![] : Fin 0 → Fin S16x1024x4.rank)
  bcast_S16x1024_S16x1024x1_0_1 : S16x1024.BroadcastsInDim S16x1024x1 (![0, 1] : Fin 2 → Fin S16x1024x1.rank)
  transposes_S16x1024x4_S16x4x1024_0_2_1 : S16x1024x4.Transposes [0, 2, 1] S16x4x1024
  concatenates_S16x4x1024_S16x4x1024_S16x8x1024_d1 : Shape.Concatenates [S16x4x1024, S16x4x1024] S16x8x1024 1
  bcast_S16x1024_S16x1x1024_0_2 : S16x1024.BroadcastsInDim S16x1x1024 (![0, 2] : Fin 2 → Fin S16x1x1024.rank)
  concatenates_S16x1x1024_S16x1x1024_S16x2x1024_d1 : Shape.Concatenates [S16x1x1024, S16x1x1024] S16x2x1024 1
  shapeCasts_S92_S1x1x92 : S92.ShapeCasts S1x1x92
  inb_S4x1024x92_S4x1024x92_0_0_0 : ∀ a, (![0, 0, 0] : Fin 3 → Nat) a + S4x1024x92.size a ≤ S4x1024x92.size a
  h_S4x1024x92 : 0 < S4x1024x92.numel
  inb_S4x1024x1_S4x1024x1_0_0_0 : ∀ a, (![0, 0, 0] : Fin 3 → Nat) a + S4x1024x1.size a ≤ S4x1024x1.size a
  h_S4x1024x1 : 0 < S4x1024x1.numel
  shapeCasts_S4x1024x1_S4x1024x1 : S4x1024x1.ShapeCasts S4x1024x1
  inb_S1x1x92_S1x1x92_0_0_0 : ∀ a, (![0, 0, 0] : Fin 3 → Nat) a + S1x1x92.size a ≤ S1x1x92.size a
  h_S1x1x92 : 0 < S1x1x92.numel
  shapeCasts_S1x1x92_S1x1x92 : S1x1x92.ShapeCasts S1x1x92
  iota_S4x1024x92_d2_w32 : S4x1024x92.Iotas .tc 32 [2]
  broadcasts_S4x1024x1_S4x1024x92 : S4x1024x1.Broadcasts S4x1024x92
  natLt_1_32 : 1 < 32
  reduces_S4x1024x92_S4x1024 : S4x1024x92.Reduces [2] S4x1024
  shapeCasts_S4x1024_S4x1024x1 : S4x1024.ShapeCasts S4x1024x1
  broadcasts_S1x1x92_S4x1024x92 : S1x1x92.Broadcasts S4x1024x92
  inb_S4x8x1024_S4x8x1024_0_0_0 : ∀ a, (![0, 0, 0] : Fin 3 → Nat) a + S4x8x1024.size a ≤ S4x8x1024.size a
  h_S4x8x1024 : 0 < S4x8x1024.numel
  shapeCasts_S4x8x1024_S4x8x1024 : S4x8x1024.ShapeCasts S4x8x1024
  inb_S4x2x1024_S4x2x1024_0_0_0 : ∀ a, (![0, 0, 0] : Fin 3 → Nat) a + S4x2x1024.size a ≤ S4x2x1024.size a
  h_S4x2x1024 : 0 < S4x2x1024.numel
  shapeCasts_S4x2x1024_S4x2x1024 : S4x2x1024.ShapeCasts S4x2x1024
  slices_S4x2x1024_o0_0_0_S4x1x1024 : S4x2x1024.Slices ![0, 0, 0] S4x1x1024
  shapeCasts_S4x1x1024_S4x1024 : S4x1x1024.ShapeCasts S4x1024
  slices_S4x2x1024_o0_1_0_S4x1x1024 : S4x2x1024.Slices ![0, 1, 0] S4x1x1024
  slices_S4x8x1024_o0_0_0_S4x1x1024 : S4x8x1024.Slices ![0, 0, 0] S4x1x1024
  slices_S4x8x1024_o0_1_0_S4x1x1024 : S4x8x1024.Slices ![0, 1, 0] S4x1x1024
  slices_S4x8x1024_o0_2_0_S4x1x1024 : S4x8x1024.Slices ![0, 2, 0] S4x1x1024
  slices_S4x8x1024_o0_3_0_S4x1x1024 : S4x8x1024.Slices ![0, 3, 0] S4x1x1024
  slices_S4x8x1024_o0_4_0_S4x1x1024 : S4x8x1024.Slices ![0, 4, 0] S4x1x1024
  slices_S4x8x1024_o0_5_0_S4x1x1024 : S4x8x1024.Slices ![0, 5, 0] S4x1x1024
  slices_S4x8x1024_o0_6_0_S4x1x1024 : S4x8x1024.Slices ![0, 6, 0] S4x1x1024
  slices_S4x8x1024_o0_7_0_S4x1x1024 : S4x8x1024.Slices ![0, 7, 0] S4x1x1024
  reduces_S4x1024_S4 : S4x1024.Reduces [1] S4
  shapeCasts_S4_S4x1 : S4.ShapeCasts S4x1
  reduces_S4x1_S1 : S4x1.Reduces [0] S1
  shapeCasts_S1_S1x1 : S1.ShapeCasts S1x1
  iota_S8x128_d0_w32 : S8x128.Iotas .tc 32 [0]
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S4x8x128_S8x128_d0 : S4x8x128.ReducesTo [0] S8x128
  h_S_ : 0 < S_.numel
  slices_S8x128_S1x1_0_0 : S8x128.Slices ![0, 0] S1x1
  shapeCasts_S1x1_S_ : S1x1.ShapeCasts S_
  slices_S8x128_S1x1_1_0 : S8x128.Slices ![1, 0] S1x1
  slices_S8x128_S1x1_2_0 : S8x128.Slices ![2, 0] S1x1
  slices_S8x128_S1x1_3_0 : S8x128.Slices ![3, 0] S1x1
  slices_S8x128_S1x1_4_0 : S8x128.Slices ![4, 0] S1x1
  scatter_S16x1024_S16x64x2_S16x64_n_01_01_2_wf : ScatterDims.WF S16x1024 S16x64x2 S16x64 [] [0, 1] [0, 1] 2
  scatter_S16x1024x4_S16x64x2_S16x64x4_2_01_01_2_wf : ScatterDims.WF S16x1024x4 S16x64x2 S16x64x4 [2] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x92.size a ≤ S16x1024x92.size a
  hwx0_0 : ∀ i : grid0.Coords, EltTy.bits .f32 = 32 ∨ (Rect.block (s := S16x1024x92) S4x1024x92.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x1.size a ≤ S16x1024x1.size a
  hwx0_1 : ∀ i : grid0.Coords, EltTy.bits .i32 = 32 ∨ (Rect.block (s := S16x1024x1) S4x1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x92.size a ≤ S1x1x92.size a
  hwx0_2 : ∀ i : grid0.Coords, EltTy.bits .f32 = 32 ∨ (Rect.block (s := S1x1x92) S1x1x92.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x8x1024.size a ≤ S16x8x1024.size a
  hwx0_3 : ∀ i : grid0.Coords, EltTy.bits .f32 = 32 ∨ (Rect.block (s := S16x8x1024) S4x8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x2x1024.size a ≤ S16x2x1024.size a
  hwx0_4 : ∀ i : grid0.Coords, EltTy.bits .i32 = 32 ∨ (Rect.block (s := S16x2x1024) S4x2x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S4x8x128.size a
  hwx0_5 : ∀ i : grid0.Coords, EltTy.bits .f32 = 32 ∨ (Rect.block (s := S4x8x128) S1x8x128.size (cc0_transform_5 i) (hinb0_5 i)).WholeWords (EltTy.packing .f32)

variable [Facts₀]

def scatter_S16x1024_S16x64x2_S16x64_n_01_01_2 : ScatterDims S16x1024 S16x64x2 S16x64 where
  updateWindowDims := []
  insertedWindowDims := [0, 1]
  scatterDimsToOperandDims := [0, 1]
  indexVectorDim := 2
  wf := scatter_S16x1024_S16x64x2_S16x64_n_01_01_2_wf
def scatter_S16x1024x4_S16x64x2_S16x64x4_2_01_01_2 : ScatterDims S16x1024x4 S16x64x2 S16x64x4 where
  updateWindowDims := [2]
  insertedWindowDims := [0, 1]
  scatterDimsToOperandDims := [0, 1]
  indexVectorDim := 2
  wf := scatter_S16x1024x4_S16x64x2_S16x64x4_2_01_01_2_wf

abbrev win0_0 : Pipeline.Window sig grid0 :=
  Pipeline.Window.ofSpec (Memref.whole main_arg0) S4x1024x92.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S4x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x1x92.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S4x8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S4x2x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1024x92 : Shape := ⟨3, ![16, 1024, 92]⟩
abbrev S16x1024x4 : Shape := ⟨3, ![16, 1024, 4]⟩
abbrev S16x64 : Shape := ⟨2, ![16, 64]⟩
abbrev S16x64x4 : Shape := ⟨3, ![16, 64, 4]⟩
abbrev S16x1024 : Shape := ⟨2, ![16, 1024]⟩
abbrev S92 : Shape := ⟨1, ![92]⟩
abbrev S16 : Shape := ⟨1, ![16]⟩
abbrev S16x1 : Shape := ⟨2, ![16, 1]⟩
abbrev S_ : Shape := ⟨0, ![]⟩
abbrev S16x64x1 : Shape := ⟨3, ![16, 64, 1]⟩
abbrev S16x64x2 : Shape := ⟨3, ![16, 64, 2]⟩
abbrev S16x1024x1 : Shape := ⟨3, ![16, 1024, 1]⟩
abbrev S16384x92 : Shape := ⟨2, ![16384, 92]⟩
abbrev S16384 : Shape := ⟨1, ![16384]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S16x1024x2 : Shape := ⟨3, ![16, 1024, 2]⟩
abbrev S16x1024x1x2 : Shape := ⟨4, ![16, 1024, 1, 2]⟩
abbrev S16x1x1024x2 : Shape := ⟨4, ![16, 1, 1024, 2]⟩
abbrev S16x1024x1024x2 : Shape := ⟨4, ![16, 1024, 1024, 2]⟩
abbrev S16x1024x1024x1 : Shape := ⟨4, ![16, 1024, 1024, 1]⟩
abbrev S16x1024x1024 : Shape := ⟨3, ![16, 1024, 1024]⟩
abbrev S16x1x1024 : Shape := ⟨3, ![16, 1, 1024]⟩
abbrev S1024 : Shape := ⟨1, ![1024]⟩
abbrev S1024x1 : Shape := ⟨2, ![1024, 1]⟩
abbrev S1024x2 : Shape := ⟨2, ![1024, 2]⟩

abbrev nBuf : Space → Nat
  | .hbm => 258
  | .vmem => 0
  | .smem => 0
  | _ => 0

abbrev hbmTy0_0 (i : Nat) : BufTy := match i % 128 with
  | 0 => ⟨S16x1024x92, .f32⟩
  | 1 => ⟨S16x1024x4, .f32⟩
  | 2 => ⟨S16x64, .i32⟩
  | 3 => ⟨S16x64x4, .f32⟩
  | 4 => ⟨S16x1024, .i32⟩
  | 5 => ⟨S16x64, .i32⟩
  | 6 => ⟨S92, .f32⟩
  | 7 => ⟨S16, .i32⟩
  | 8 => ⟨S16x1, .i32⟩
  | 9 => ⟨S_, .i32⟩
  | 10 => ⟨S16x1024, .i32⟩
  | 11 => ⟨S_, .i32⟩
  | 12 => ⟨S16x1, .i32⟩
  | 13 => ⟨S16x1, .i1⟩
  | 14 => ⟨S_, .i32⟩
  | 15 => ⟨S16x1, .i32⟩
  | 16 => ⟨S16x1, .i32⟩
  | 17 => ⟨S16x1, .i32⟩
  | 18 => ⟨S_, .i32⟩
  | 19 => ⟨S16x64, .i32⟩
  | 20 => ⟨S16x64, .i1⟩
  | 21 => ⟨S_, .i32⟩
  | 22 => ⟨S16x64, .i32⟩
  | 23 => ⟨S16x64, .i32⟩
  | 24 => ⟨S16x64, .i32⟩
  | 25 => ⟨S16x64, .i32⟩
  | 26 => ⟨S16x64x1, .i32⟩
  | 27 => ⟨S16x64x1, .i32⟩
  | 28 => ⟨S16x64x2, .i32⟩
  | 29 => ⟨S16x1024, .i32⟩
  | 30 => ⟨S_, .f32⟩
  | 31 => ⟨S16x1024x4, .f32⟩
  | 32 => ⟨S_, .i32⟩
  | 33 => ⟨S16x1, .i32⟩
  | 34 => ⟨S16x1, .i1⟩
  | 35 => ⟨S_, .i32⟩
  | 36 => ⟨S16x1, .i32⟩
  | 37 => ⟨S16x1, .i32⟩
  | 38 => ⟨S16x1, .i32⟩
  | 39 => ⟨S_, .i32⟩
  | 40 => ⟨S16x64, .i32⟩
  | 41 => ⟨S16x64, .i1⟩
  | 42 => ⟨S_, .i32⟩
  | 43 => ⟨S16x64, .i32⟩
  | 44 => ⟨S16x64, .i32⟩
  | 45 => ⟨S16x64, .i32⟩
  | 46 => ⟨S16x64, .i32⟩
  | 47 => ⟨S16x64x1, .i32⟩
  | 48 => ⟨S16x64x1, .i32⟩
  | 49 => ⟨S16x64x2, .i32⟩
  | 50 => ⟨S16x1024x4, .f32⟩
  | 51 => ⟨S_, .f32⟩
  | 52 => ⟨S16x1024, .f32⟩
  | 53 => ⟨S_, .f32⟩
  | 54 => ⟨S16x1024, .f32⟩
  | 55 => ⟨S16x1024, .f32⟩
  | 56 => ⟨S16x1024x1, .f32⟩
  | 57 => ⟨S16x1024x92, .f32⟩
  | 58 => ⟨S16x1024x92, .f32⟩
  | 59 => ⟨S16x1024x92, .f32⟩
  | 60 => ⟨S_, .f32⟩
  | 61 => ⟨S16x1024, .f32⟩
  | 62 => ⟨S16x1024x1, .f32⟩
  | 63 => ⟨S16x1024x1, .f32⟩
  | 64 => ⟨S16x1024x92, .f32⟩
  | 65 => ⟨S16x1024x92, .f32⟩
  | 66 => ⟨S16384x92, .f32⟩
  | 67 => ⟨S16384, .i32⟩
  | 68 => ⟨S16384x1, .i32⟩
  | 69 => ⟨S_, .i32⟩
  | 70 => ⟨S16384x1, .i32⟩
  | 71 => ⟨S16384x1, .i1⟩
  | 72 => ⟨S_, .i32⟩
  | 73 => ⟨S16384x1, .i32⟩
  | 74 => ⟨S16384x1, .i32⟩
  | 75 => ⟨S16384x1, .i32⟩
  | 76 => ⟨S16384x1x1, .i32⟩
  | 77 => ⟨S1, .i32⟩
  | 78 => ⟨S_, .i32⟩
  | 79 => ⟨S16384x1x1, .i32⟩
  | 80 => ⟨S16384x1x1, .i1⟩
  | 81 => ⟨S1x1x1, .i32⟩
  | 82 => ⟨S16384x1x1, .i32⟩
  | 83 => ⟨S16384x1x1, .i1⟩
  | 84 => ⟨S16384x1x1, .i1⟩
  | 85 => ⟨S_, .i1⟩
  | 86 => ⟨S16384x1, .i1⟩
  | 87 => ⟨S16384x1, .f32⟩
  | 88 => ⟨S_, .f32⟩
  | 89 => ⟨S16384x1, .f32⟩
  | 90 => ⟨S16384x1, .f32⟩
  | 91 => ⟨S16384, .f32⟩
  | 92 => ⟨S16384, .f32⟩
  | 93 => ⟨S_, .i32⟩
  | 94 => ⟨S16384, .i32⟩
  | 95 => ⟨S16384, .i1⟩
  | 96 => ⟨S_, .i32⟩
  | 97 => ⟨S16384, .i32⟩
  | 98 => ⟨S16384, .i32⟩
  | 99 => ⟨S16384, .i32⟩
  | 100 => ⟨S16384x1, .i32⟩
  | 101 => ⟨S16384, .f32⟩
  | 102 => ⟨S16384, .f32⟩
  | 103 => ⟨S_, .f32⟩
  | 104 => ⟨S_, .f32⟩
  | 105 => ⟨S_, .f32⟩
  | 106 => ⟨S_, .f32⟩
  | 107 => ⟨S_, .f32⟩
  | 108 => ⟨S_, .i32⟩
  | 109 => ⟨S16x1024, .i32⟩
  | 110 => ⟨S16x1024, .i1⟩
  | 111 => ⟨S16x1024x1, .i1⟩
  | 112 => ⟨S_, .i32⟩
  | 113 => ⟨S16x1024, .i32⟩
  | 114 => ⟨S16x1024, .i1⟩
  | 115 => ⟨S16x1024x1, .i1⟩
  | 116 => ⟨S16x1024x1, .i1⟩
  | 117 => ⟨S_, .f32⟩
  | 118 => ⟨S_, .f32⟩
  | 119 => ⟨S16x1024x4, .i1⟩
  | 120 => ⟨S16x1024x4, .f32⟩
  | 121 => ⟨S16x1024x4, .f32⟩
  | 122 => ⟨S_, .f32⟩
  | 123 => ⟨S_, .f32⟩
  | 124 => ⟨S16x1024x4, .i1⟩
  | 125 => ⟨S16x1024x4, .f32⟩
  | 126 => ⟨S16x1024x4, .f32⟩
  | 127 => ⟨S16x1024x1, .i32⟩
  | _ => ⟨S16x1024x92, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .f32⟩
  | 5 => ⟨S16x1024x4, .f32⟩
  | 6 => ⟨S16x1024x4, .f32⟩
  | 7 => ⟨S_, .f32⟩
  | 8 => ⟨S_, .f32⟩
  | 9 => ⟨S_, .f32⟩
  | 10 => ⟨S16x1024x1, .f32⟩
  | 11 => ⟨S16x1024, .f32⟩
  | 12 => ⟨S16x1024x1, .f32⟩
  | 13 => ⟨S16x1024, .f32⟩
  | 14 => ⟨S16x1024, .f32⟩
  | 15 => ⟨S16x1024x1, .f32⟩
  | 16 => ⟨S16x1024, .f32⟩
  | 17 => ⟨S16x1024x1, .f32⟩
  | 18 => ⟨S16x1024, .f32⟩
  | 19 => ⟨S16x1024, .f32⟩
  | 20 => ⟨S16x1024, .f32⟩
  | 21 => ⟨S16x1024x1, .f32⟩
  | 22 => ⟨S16x1024, .f32⟩
  | 23 => ⟨S16x1024x1, .f32⟩
  | 24 => ⟨S16x1024, .f32⟩
  | 25 => ⟨S16x1024, .f32⟩
  | 26 => ⟨S16x1024x1, .f32⟩
  | 27 => ⟨S16x1024, .f32⟩
  | 28 => ⟨S16x1024x1, .f32⟩
  | 29 => ⟨S16x1024, .f32⟩
  | 30 => ⟨S16x1024, .f32⟩
  | 31 => ⟨S16x1024, .f32⟩
  | 32 => ⟨S16x1024x2, .f32⟩
  | 33 => ⟨S16x1024x1x2, .f32⟩
  | 34 => ⟨S16x1024x2, .f32⟩
  | 35 => ⟨S16x1x1024x2, .f32⟩
  | 36 => ⟨S16x1024x1024x2, .f32⟩
  | 37 => ⟨S16x1024x1024x2, .f32⟩
  | 38 => ⟨S16x1024x1024x2, .f32⟩
  | 39 => ⟨S16x1024x2, .f32⟩
  | 40 => ⟨S16x1024x1x2, .f32⟩
  | 41 => ⟨S16x1024x2, .f32⟩
  | 42 => ⟨S16x1x1024x2, .f32⟩
  | 43 => ⟨S16x1024x1024x2, .f32⟩
  | 44 => ⟨S16x1024x1024x2, .f32⟩
  | 45 => ⟨S16x1024x1024x2, .f32⟩
  | 46 => ⟨S16x1024x1024x2, .f32⟩
  | 47 => ⟨S_, .f32⟩
  | 48 => ⟨S_, .f32⟩
  | 49 => ⟨S16x1024x1024x2, .f32⟩
  | 50 => ⟨S16x1024x1024x2, .f32⟩
  | 51 => ⟨S16x1024x1024x1, .f32⟩
  | 52 => ⟨S16x1024x1024, .f32⟩
  | 53 => ⟨S16x1024x1024x1, .f32⟩
  | 54 => ⟨S16x1024x1024, .f32⟩
  | 55 => ⟨S16x1024x1024, .f32⟩
  | 56 => ⟨S16x1024x1, .f32⟩
  | 57 => ⟨S16x1x1024, .f32⟩
  | 58 => ⟨S16x1024x1024, .f32⟩
  | 59 => ⟨S16x1024x1024, .f32⟩
  | 60 => ⟨S16x1024x1024, .f32⟩
  | 61 => ⟨S16x1024x1024, .f32⟩
  | 62 => ⟨S_, .f32⟩
  | 63 => ⟨S16x1024x1024, .f32⟩
  | 64 => ⟨S16x1024x1024, .f32⟩
  | 65 => ⟨S16x1024x1024, .f32⟩
  | 66 => ⟨S16x1024x2, .f32⟩
  | 67 => ⟨S16x1024x1x2, .f32⟩
  | 68 => ⟨S16x1024x2, .f32⟩
  | 69 => ⟨S16x1x1024x2, .f32⟩
  | 70 => ⟨S16x1024x1024x2, .f32⟩
  | 71 => ⟨S16x1024x1024x2, .f32⟩
  | 72 => ⟨S16x1024x1024x2, .f32⟩
  | 73 => ⟨S16x1024x2, .f32⟩
  | 74 => ⟨S16x1024x1x2, .f32⟩
  | 75 => ⟨S16x1024x2, .f32⟩
  | 76 => ⟨S16x1x1024x2, .f32⟩
  | 77 => ⟨S16x1024x1024x2, .f32⟩
  | 78 => ⟨S16x1024x1024x2, .f32⟩
  | 79 => ⟨S16x1024x1024x2, .f32⟩
  | 80 => ⟨S16x1024x1024x2, .f32⟩
  | 81 => ⟨S_, .f32⟩
  | 82 => ⟨S_, .f32⟩
  | 83 => ⟨S16x1024x1024x2, .f32⟩
  | 84 => ⟨S16x1024x1024x2, .f32⟩
  | 85 => ⟨S16x1024x1024x1, .f32⟩
  | 86 => ⟨S16x1024x1024, .f32⟩
  | 87 => ⟨S16x1024x1024x1, .f32⟩
  | 88 => ⟨S16x1024x1024, .f32⟩
  | 89 => ⟨S16x1024x1024, .f32⟩
  | 90 => ⟨S16x1024x1024, .f32⟩
  | 91 => ⟨S_, .f32⟩
  | 92 => ⟨S16x1024x1024, .f32⟩
  | 93 => ⟨S16x1024x1024, .f32⟩
  | 94 => ⟨S16x1024x1024, .f32⟩
  | 95 => ⟨S16x1024x1024, .f32⟩
  | 96 => ⟨S1024, .i32⟩
  | 97 => ⟨S1024, .i32⟩
  | 98 => ⟨S_, .i32⟩
  | 99 => ⟨S1024, .i32⟩
  | 100 => ⟨S1024, .i1⟩
  | 101 => ⟨S_, .i32⟩
  | 102 => ⟨S1024, .i32⟩
  | 103 => ⟨S1024, .i32⟩
  | 104 => ⟨S1024, .i32⟩
  | 105 => ⟨S_, .i32⟩
  | 106 => ⟨S1024, .i32⟩
  | 107 => ⟨S1024, .i1⟩
  | 108 => ⟨S_, .i32⟩
  | 109 => ⟨S1024, .i32⟩
  | 110 => ⟨S1024, .i32⟩
  | 111 => ⟨S1024, .i32⟩
  | 112 => ⟨S1024x1, .i32⟩
  | 113 => ⟨S1024x1, .i32⟩
  | 114 => ⟨S1024x2, .i32⟩
  | 115 => ⟨S16x1024, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16x1024x92, .f32⟩

abbrev hbmTy0_2 (i : Nat) : BufTy := match i % 128 with
  | 0 => ⟨S_, .f32⟩
  | 1 => ⟨S_, .f32⟩
  | _ => ⟨S16x1024x92, .f32⟩

abbrev hbmTy (i : Nat) : BufTy := match i / 128 with
  | 0 => hbmTy0_0 i
  | 1 => hbmTy0_1 i
  | 2 => hbmTy0_2 i
  | _ => ⟨S16x1024x92, .f32⟩

abbrev bufTy : (tb : Table) → Fin (tcTables nBuf tb) → BufTy
  | .hbm, ⟨i, _⟩ => hbmTy i
  | _, _ => ⟨S16x1024x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_cst : Ref sig .tc := ⟨.hbm, 51, rfl⟩
abbrev main_call0_v0 : Ref sig .tc := ⟨.hbm, 52, rfl⟩
abbrev main_call0_cst_0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_cst_1 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_cst : Ref sig .tc := ⟨.hbm, 88, rfl⟩
abbrev main_call1_v14 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_c_8 : Ref sig .tc := ⟨.hbm, 93, rfl⟩
abbrev main_v41 : Ref sig .tc := ⟨.hbm, 94, rfl⟩
abbrev main_v42 : Ref sig .tc := ⟨.hbm, 95, rfl⟩
abbrev main_c_9 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_cst_10 : Ref sig .tc := ⟨.hbm, 103, rfl⟩
abbrev main_v49 : Ref sig .tc := ⟨.hbm, 104, rfl⟩
abbrev main_cst_11 : Ref sig .tc := ⟨.hbm, 105, rfl⟩
abbrev main_v50 : Ref sig .tc := ⟨.hbm, 106, rfl⟩
abbrev main_v51 : Ref sig .tc := ⟨.hbm, 107, rfl⟩
abbrev main_c_12 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_c_13 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_14 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_v59 : Ref sig .tc := ⟨.hbm, 121, rfl⟩
abbrev main_cst_15 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_v60 : Ref sig .tc := ⟨.hbm, 126, rfl⟩
abbrev main_v61 : Ref sig .tc := ⟨.hbm, 127, rfl⟩
abbrev main_c_16 : Ref sig .tc := ⟨.hbm, 128, rfl⟩
abbrev main_v62 : Ref sig .tc := ⟨.hbm, 129, rfl⟩
abbrev main_c_17 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_cst_18 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_cst_19 : Ref sig .tc := ⟨.hbm, 175, rfl⟩
abbrev main_call4_v0 : Ref sig .tc := ⟨.hbm, 176, rfl⟩
abbrev main_call4_v1 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_20 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_cst_21 : Ref sig .tc := ⟨.hbm, 209, rfl⟩
abbrev main_call5_v0 : Ref sig .tc := ⟨.hbm, 210, rfl⟩
abbrev main_call5_v1 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_cst_22 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_call6_v0 : Ref sig .tc := ⟨.hbm, 224, rfl⟩
abbrev main_call6_v1 : Ref sig .tc := ⟨.hbm, 225, rfl⟩
abbrev main_call6_c : Ref sig .tc := ⟨.hbm, 226, rfl⟩
abbrev main_call6_v2 : Ref sig .tc := ⟨.hbm, 227, rfl⟩
abbrev main_call6_v3 : Ref sig .tc := ⟨.hbm, 228, rfl⟩
abbrev main_call6_c_0 : Ref sig .tc := ⟨.hbm, 229, rfl⟩
abbrev main_call6_v4 : Ref sig .tc := ⟨.hbm, 230, rfl⟩
abbrev main_call6_v5 : Ref sig .tc := ⟨.hbm, 231, rfl⟩
abbrev main_call6_v6 : Ref sig .tc := ⟨.hbm, 232, rfl⟩
abbrev main_call6_c_1 : Ref sig .tc := ⟨.hbm, 233, rfl⟩
abbrev main_call6_v7 : Ref sig .tc := ⟨.hbm, 234, rfl⟩
abbrev main_call6_v8 : Ref sig .tc := ⟨.hbm, 235, rfl⟩
abbrev main_call6_c_2 : Ref sig .tc := ⟨.hbm, 236, rfl⟩
abbrev main_call6_v9 : Ref sig .tc := ⟨.hbm, 237, rfl⟩
abbrev main_call6_v10 : Ref sig .tc := ⟨.hbm, 238, rfl⟩
abbrev main_call6_v11 : Ref sig .tc := ⟨.hbm, 239, rfl⟩
abbrev main_call6_v12 : Ref sig .tc := ⟨.hbm, 240, rfl⟩
abbrev main_call6_v13 : Ref sig .tc := ⟨.hbm, 241, rfl⟩
abbrev main_call6_v14 : Ref sig .tc := ⟨.hbm, 242, rfl⟩
abbrev main_v147 : Ref sig .tc := ⟨.hbm, 243, rfl⟩
abbrev main_cst_23 : Ref sig .tc := ⟨.hbm, 244, rfl⟩
abbrev main_v148 : Ref sig .tc := ⟨.hbm, 245, rfl⟩
abbrev main_cst_24 : Ref sig .tc := ⟨.hbm, 246, rfl⟩
abbrev main_v149 : Ref sig .tc := ⟨.hbm, 247, rfl⟩
abbrev main_cst_25 : Ref sig .tc := ⟨.hbm, 248, rfl⟩
abbrev main_v150 : Ref sig .tc := ⟨.hbm, 249, rfl⟩
abbrev main_cst_26 : Ref sig .tc := ⟨.hbm, 250, rfl⟩
abbrev main_v151 : Ref sig .tc := ⟨.hbm, 251, rfl⟩
abbrev main_cst_27 : Ref sig .tc := ⟨.hbm, 252, rfl⟩
abbrev main_v152 : Ref sig .tc := ⟨.hbm, 253, rfl⟩
abbrev main_v153 : Ref sig .tc := ⟨.hbm, 254, rfl⟩
abbrev main_cst_28 : Ref sig .tc := ⟨.hbm, 255, rfl⟩
abbrev main_v154 : Ref sig .tc := ⟨.hbm, 256, rfl⟩
abbrev main_v155 : Ref sig .tc := ⟨.hbm, 257, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S_S16x1024 : S_.BroadcastsInDim S16x1024 (![] : Fin 0 → Fin S16x1024.rank)
  bcast_S_S16x1 : S_.BroadcastsInDim S16x1 (![] : Fin 0 → Fin S16x1.rank)
  bcast_S_S16x64 : S_.BroadcastsInDim S16x64 (![] : Fin 0 → Fin S16x64.rank)
  bcast_S16x1_S16x64_0_1 : S16x1.BroadcastsInDim S16x64 (![0, 1] : Fin 2 → Fin S16x64.rank)
  bcast_S16x64_S16x64x1_0_1 : S16x64.BroadcastsInDim S16x64x1 (![0, 1] : Fin 2 → Fin S16x64x1.rank)
  concatenates_S16x64x1_S16x64x1_S16x64x2_d2 : Shape.Concatenates [S16x64x1, S16x64x1] S16x64x2 2
  bcast_S_S16x1024x4 : S_.BroadcastsInDim S16x1024x4 (![] : Fin 0 → Fin S16x1024x4.rank)
  reducesTo_S16x1024x92_S16x1024_d2 : S16x1024x92.ReducesTo [2] S16x1024
  h_S_ : 0 < S_.numel
  bcast_S16x1024_S16x1024x1_0_1 : S16x1024.BroadcastsInDim S16x1024x1 (![0, 1] : Fin 2 → Fin S16x1024x1.rank)
  bcast_S16x1024x1_S16x1024x92_0_1_2 : S16x1024x1.BroadcastsInDim S16x1024x92 (![0, 1, 2] : Fin 3 → Fin S16x1024x92.rank)
  shapeCasts_S16x1024x92_S16384x92 : S16x1024x92.ShapeCasts S16384x92
  shapeCasts_S16x1024_S16384 : S16x1024.ShapeCasts S16384
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16384 : S_.BroadcastsInDim S16384 (![] : Fin 0 → Fin S16384.rank)
  reducesTo_S16384_S_d0 : S16384.ReducesTo [0] S_
  bcast_S16x1024x1_S16x1024x4_0_1_2 : S16x1024x1.BroadcastsInDim S16x1024x4 (![0, 1, 2] : Fin 3 → Fin S16x1024x4.rank)
  natLt_1_32 : 1 < 32
  reducesTo_S16x1024x1_S_d0_1_2 : S16x1024x1.ReducesTo [0, 1, 2] S_
  reducesTo_S16x1024x4_S_d0_1_2 : S16x1024x4.ReducesTo [0, 1, 2] S_
  slices_S16x1024x4_S16x1024x1_0_0_2 : S16x1024x4.Slices ![0, 0, 2] S16x1024x1
  shapeCasts_S16x1024x1_S16x1024 : S16x1024x1.ShapeCasts S16x1024
  slices_S16x1024x4_S16x1024x1_0_0_0 : S16x1024x4.Slices ![0, 0, 0] S16x1024x1
  slices_S16x1024x4_S16x1024x1_0_0_3 : S16x1024x4.Slices ![0, 0, 3] S16x1024x1
  slices_S16x1024x4_S16x1024x1_0_0_1 : S16x1024x4.Slices ![0, 0, 1] S16x1024x1
  slices_S16x1024x4_S16x1024x2_0_0_0 : S16x1024x4.Slices ![0, 0, 0] S16x1024x2
  bcast_S16x1024x2_S16x1024x1x2_0_1_3 : S16x1024x2.BroadcastsInDim S16x1024x1x2 (![0, 1, 3] : Fin 3 → Fin S16x1024x1x2.rank)
  bcast_S16x1024x2_S16x1x1024x2_0_2_3 : S16x1024x2.BroadcastsInDim S16x1x1024x2 (![0, 2, 3] : Fin 3 → Fin S16x1x1024x2.rank)
  bcast_S16x1024x1x2_S16x1024x1024x2_0_1_2_3 : S16x1024x1x2.BroadcastsInDim S16x1024x1024x2 (![0, 1, 2, 3] : Fin 4 → Fin S16x1024x1024x2.rank)
  bcast_S16x1x1024x2_S16x1024x1024x2_0_1_2_3 : S16x1x1024x2.BroadcastsInDim S16x1024x1024x2 (![0, 1, 2, 3] : Fin 4 → Fin S16x1024x1024x2.rank)
  slices_S16x1024x4_S16x1024x2_0_0_2 : S16x1024x4.Slices ![0, 0, 2] S16x1024x2
  bcast_S_S16x1024x1024x2 : S_.BroadcastsInDim S16x1024x1024x2 (![] : Fin 0 → Fin S16x1024x1024x2.rank)
  slices_S16x1024x1024x2_S16x1024x1024x1_0_0_0_0 : S16x1024x1024x2.Slices ![0, 0, 0, 0] S16x1024x1024x1
  shapeCasts_S16x1024x1024x1_S16x1024x1024 : S16x1024x1024x1.ShapeCasts S16x1024x1024
  slices_S16x1024x1024x2_S16x1024x1024x1_0_0_0_1 : S16x1024x1024x2.Slices ![0, 0, 0, 1] S16x1024x1024x1
  bcast_S16x1024_S16x1x1024_0_2 : S16x1024.BroadcastsInDim S16x1x1024 (![0, 2] : Fin 2 → Fin S16x1x1024.rank)
  bcast_S16x1024x1_S16x1024x1024_0_1_2 : S16x1024x1.BroadcastsInDim S16x1024x1024 (![0, 1, 2] : Fin 3 → Fin S16x1024x1024.rank)
  bcast_S16x1x1024_S16x1024x1024_0_1_2 : S16x1x1024.BroadcastsInDim S16x1024x1024 (![0, 1, 2] : Fin 3 → Fin S16x1024x1024.rank)
  bcast_S_S16x1024x1024 : S_.BroadcastsInDim S16x1024x1024 (![] : Fin 0 → Fin S16x1024x1024.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  reducesTo_S16x1024_S_d0_1 : S16x1024.ReducesTo [0, 1] S_
  scatter_S16x1024_S16x64x2_S16x64_n_01_01_2_wf : ScatterDims.WF S16x1024 S16x64x2 S16x64 [] [0, 1] [0, 1] 2
  scatter_S16x1024x4_S16x64x2_S16x64x4_2_01_01_2_wf : ScatterDims.WF S16x1024x4 S16x64x2 S16x64x4 [2] [0, 1] [0, 1] 2
  gather_S16384x92_S16384x1x1_S16384x1_n_1_0_0_1_2_11_wf : GatherDims.WF S16384x92 S16384x1x1 S16384x1 [] [1] [0] [1] [0] 2 ![1, 1]
  gather_S92_S16384x1_S16384_n_0_n_n_0_1_1_wf : GatherDims.WF S92 S16384x1 S16384 [] [0] [] [0] [] 1 ![1]
  gather_S16x1024x1024_S1024x2_S16x1024_0_12_n_n_12_1_1611_wf : GatherDims.WF S16x1024x1024 S1024x2 S16x1024 [0] [1, 2] [] [1, 2] [] 1 ![16, 1, 1]

variable [Facts₀]

def scatter_S16x1024_S16x64x2_S16x64_n_01_01_2 : ScatterDims S16x1024 S16x64x2 S16x64 where
  updateWindowDims := []
  insertedWindowDims := [0, 1]
  scatterDimsToOperandDims := [0, 1]
  indexVectorDim := 2
  wf := scatter_S16x1024_S16x64x2_S16x64_n_01_01_2_wf
def scatter_S16x1024x4_S16x64x2_S16x64x4_2_01_01_2 : ScatterDims S16x1024x4 S16x64x2 S16x64x4 where
  updateWindowDims := [2]
  insertedWindowDims := [0, 1]
  scatterDimsToOperandDims := [0, 1]
  indexVectorDim := 2
  wf := scatter_S16x1024x4_S16x64x2_S16x64x4_2_01_01_2_wf
def gather_S16384x92_S16384x1x1_S16384x1_n_1_0_0_1_2_11 : GatherDims S16384x92 S16384x1x1 S16384x1 where
  offsetDims := []
  collapsedSliceDims := [1]
  operandBatchingDims := [0]
  startIndicesBatchingDims := [0]
  startIndexMap := [1]
  indexVectorDim := 2
  sliceSizes := ![1, 1]
  wf := gather_S16384x92_S16384x1x1_S16384x1_n_1_0_0_1_2_11_wf
def gather_S92_S16384x1_S16384_n_0_n_n_0_1_1 : GatherDims S92 S16384x1 S16384 where
  offsetDims := []
  collapsedSliceDims := [0]
  operandBatchingDims := []
  startIndicesBatchingDims := []
  startIndexMap := [0]
  indexVectorDim := 1
  sliceSizes := ![1]
  wf := gather_S92_S16384x1_S16384_n_0_n_n_0_1_1_wf
def gather_S16x1024x1024_S1024x2_S16x1024_0_12_n_n_12_1_1611 : GatherDims S16x1024x1024 S1024x2 S16x1024 where
  offsetDims := [0]
  collapsedSliceDims := [1, 2]
  operandBatchingDims := []
  startIndicesBatchingDims := []
  startIndexMap := [1, 2]
  indexVectorDim := 1
  sliceSizes := ![16, 1, 1]
  wf := gather_S16x1024x1024_S1024x2_S16x1024_0_12_n_n_12_1_1611_wf

class Facts : Prop extends Facts₀ where

variable [Facts]
-- ==== Proof.Spec.lean ====
/-
  The matching loss both programs compute, as ONE function of the argument arrays, over the extended reals.

  For every batch row b (16 of them) and query q (1024 per row) there are: the 92 class logits x = pred_class[b, q, :],
  a predicted box p = pred_bbox[b, q, :], a label ℓ[b, q] and a ground-truth box g[b, q, :] (the ground-truth classes and
  boxes written at the matched queries into arrays of zeros), and the row index r = row_inds[b, q]. A query is
  "unmatched" when r = -1 and "background" when ℓ = 0. Per query:
    weight  w    = empty_weight[ℓ]
    nll          = -(log-softmax of x)[ℓ]
    l1           = Σ_k |p'_k - g'_k|, p' = p zeroed when unmatched or background, g' = g zeroed when unmatched
    giou         = the generalised intersection over union of the two zeroed boxes
    obj          = 1 when background, else 0
  and the loss is  1·(Σ w·nll / Σ w) + 5·(Σ l1 / max(Σ obj, 1)) + 2·(1 - Σ giou / 16384), every Σ over all (b, q).
  Float literals stay the extended reals their f32 words denote; a label is read as a class by `cls`.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

/-- The class a label word names: its value when below 92 (the proofs only meet labels in that range). -/
def cls (l : BitVec 32) : Fin 92 := ⟨l.toNat % 92, Nat.mod_lt _ (by decide)⟩

theorem cls_val {l : BitVec 32} (h : l.toNat < 92) : (cls l).val = l.toNat := Nat.mod_eq_of_lt h

/-- -∞ as both programs write it: the f32 word 0xFF800000. -/
abbrev negInf : EReal := Ideal.ofBits .f32 0xFF800000#32
/-- The guard 1e-7 under both quotients of the GIoU, as its f32 word. -/
abbrev tiny : EReal := Ideal.ofBits .f32 0x33D6BF95#32
abbrev one : EReal := Ideal.ofBits .f32 0x3F800000#32
abbrev two : EReal := Ideal.ofBits .f32 0x40000000#32
abbrev five : EReal := Ideal.ofBits .f32 0x40A00000#32
abbrev nQueries : EReal := Ideal.ofBits .f32 0x46800000#32

/-- The shift of a row of logits: its maximum (folded from -∞, and once more against -∞). -/
def shift (x : Fin 92 → EReal) : EReal := max negInf ((Finset.univ : Finset (Fin 92)).fold max negInf x)

/-- The log-softmax of a row of logits at class c. -/
def logSoftmax (x : Fin 92 → EReal) (c : Fin 92) : EReal :=
  (x c - shift x) - Ideal.log (∑ k : Fin 92, Ideal.exp (x k - shift x))

/-- A query is unmatched when its row index is -1. -/
def unmatched (r : BitVec 32) : Prop := r = 4294967295#32
/-- A query is background when its label is 0. -/
def background (l : BitVec 32) : Prop := l = 0#32
instance (r : BitVec 32) : Decidable (unmatched r) := by unfold unmatched; infer_instance
instance (l : BitVec 32) : Decidable (background l) := by unfold background; infer_instance

/-- The class weight of a query. -/
def wOf (ew : Fin 92 → EReal) (l : BitVec 32) : EReal := ew (cls l)
/-- The negative log-likelihood of a query's label under its logits. -/
def nllOf (x : Fin 92 → EReal) (l : BitVec 32) : EReal := -(logSoftmax x (cls l))

/-- The predicted box as the losses see it: zero when the query is unmatched or background. -/
def predBox (p : Fin 4 → EReal) (l r : BitVec 32) (k : Fin 4) : EReal := if unmatched r ∨ background l then 0 else p k
/-- The ground-truth box as the losses see it: zero when the query is unmatched. -/
def gtBox (g : Fin 4 → EReal) (r : BitVec 32) (k : Fin 4) : EReal := if unmatched r then 0 else g k

/-- |a| on the extended reals. -/
def absE (a : EReal) : EReal := max a (-a)

/-- The L1 distance of the two boxes (coordinates added in order). -/
def l1Boxes (P G : Fin 4 → EReal) : EReal :=
  ((absE (P 0 - G 0) + absE (P 1 - G 1)) + absE (P 2 - G 2)) + absE (P 3 - G 3)

/-- The union area of the two boxes (x1, y1, x2, y2): the two areas less the intersection. -/
def unionArea (P G : Fin 4 → EReal) : EReal :=
  ((P 2 - P 0) * (P 3 - P 1) + (G 2 - G 0) * (G 3 - G 1))
    - max 0 (min (P 2) (G 2) - max (P 0) (G 0)) * max 0 (min (P 3) (G 3) - max (P 1) (G 1))

/-- The intersection area of the two boxes. -/
def interArea (P G : Fin 4 → EReal) : EReal :=
  max 0 (min (P 2) (G 2) - max (P 0) (G 0)) * max 0 (min (P 3) (G 3) - max (P 1) (G 1))

/-- The area of the smallest box enclosing both. -/
def encloseArea (P G : Fin 4 → EReal) : EReal :=
  max 0 (max (P 2) (G 2) - min (P 0) (G 0)) * max 0 (max (P 3) (G 3) - min (P 1) (G 1))

/-- The generalised intersection over union of two boxes. -/
def giouBoxes (P G : Fin 4 → EReal) : EReal :=
  Ideal.div (interArea P G) (max (unionArea P G) tiny)
    - Ideal.div (encloseArea P G - unionArea P G) (max (encloseArea P G) tiny)

def l1Of (p g : Fin 4 → EReal) (l r : BitVec 32) : EReal := l1Boxes (predBox p l r) (gtBox g r)
def giouOf (p g : Fin 4 → EReal) (l r : BitVec 32) : EReal := giouBoxes (predBox p l r) (gtBox g r)
/-- 1 for a background query, else 0. -/
def objOf (l : BitVec 32) : EReal := if background l then 1 else 0

/-! ## Over the arrays -/

abbrev SBQC : Shape := ⟨3, ![16, 1024, 92]⟩
abbrev SBQ4 : Shape := ⟨3, ![16, 1024, 4]⟩
abbrev SBQ : Shape := ⟨2, ![16, 1024]⟩
abbrev SC : Shape := ⟨1, ![92]⟩

section
variable (pc : SBQC.Idx → EReal) (pb : SBQ4.Idx → EReal) (lab : SBQ.Idx → BitVec 32) (gb : SBQ4.Idx → EReal)
  (ri : SBQ.Idx → BitVec 32) (ew : SC.Idx → EReal)

def wAt (b : Fin 16) (q : Fin 1024) : EReal := wOf (fun c => ew (ix1 c)) (lab (ix2 b q))
def nllAt (b : Fin 16) (q : Fin 1024) : EReal := nllOf (fun c => pc (ix3 b q c)) (lab (ix2 b q))
def l1At (b : Fin 16) (q : Fin 1024) : EReal :=
  l1Of (fun k => pb (ix3 b q k)) (fun k => gb (ix3 b q k)) (lab (ix2 b q)) (ri (ix2 b q))
def giouAt (b : Fin 16) (q : Fin 1024) : EReal :=
  giouOf (fun k => pb (ix3 b q k)) (fun k => gb (ix3 b q k)) (lab (ix2 b q)) (ri (ix2 b q))
def objAt (b : Fin 16) (q : Fin 1024) : EReal := objOf (lab (ix2 b q))

/-- A sum over every query of every batch row. -/
def total (f : Fin 16 → Fin 1024 → EReal) : EReal := ∑ b : Fin 16, ∑ q : Fin 1024, f b q

/-- The loss from the five totals. -/
def combine (sWnll sW sL1 sGiou sObj : EReal) : EReal :=
  (one * Ideal.div sWnll sW + five * Ideal.div sL1 (max sObj one)) + two * (one - Ideal.div sGiou nQueries)

/-- The loss. -/
def loss : EReal :=
  combine (total fun b q => wAt lab ew b q * nllAt pc lab b q) (total (wAt lab ew)) (total (l1At pb lab gb ri))
    (total (giouAt pb lab gb ri)) (total (objAt lab))
end

/-! ## The kernel's view: four batch rows per grid point, five sums packed into rows of a tile -/

/-- The batch row that grid point t's block holds at its local row b. -/
def rowOf (t b : Fin 4) : Fin 16 := ⟨4 * t.val + b.val, by omega⟩

/-- A sum over the 4 × 1024 queries of one block. -/
def blockSum (f : Fin 4 → Fin 1024 → EReal) : EReal := ∑ b : Fin 4, ∑ q : Fin 1024, f b q

/-- The sums over the blocks are the sums over the batch: 16 rows are 4 blocks of 4. -/
theorem sum_blockSum (f : Fin 16 → Fin 1024 → EReal) :
    (∑ t : Fin 4, blockSum fun b q => f (rowOf t b) q) = total f := by
  unfold blockSum total
  rw [← Finset.sum_product']
  refine Finset.sum_bij' (fun p _ => rowOf p.1 p.2) (fun b _ => (⟨b.val / 4, by omega⟩, ⟨b.val % 4, by omega⟩))
    (fun _ _ => Finset.mem_univ _) (fun _ _ => Finset.mem_univ _) ?_ ?_ ?_
  · rintro ⟨t, b⟩ _; ext <;> simp [rowOf] <;> omega
  · intro b _; ext; simp [rowOf]; omega
  · intro _ _; rfl

/-- A value on row k of the 8-row tile: there on that row, zero on the others. -/
def place (r : Fin 8) (k : Nat) (v : EReal) : EReal := if r.val = k then v else 0

/-- The tile's row r: the five sums on rows 0 to 4, added in order. -/
def packRow (r : Fin 8) (a0 a1 a2 a3 a4 : EReal) : EReal :=
  (((place r 0 a0 + place r 1 a1) + place r 2 a2) + place r 3 a3) + place r 4 a4

theorem packRow_0 (a0 a1 a2 a3 a4 : EReal) : packRow 0 a0 a1 a2 a3 a4 = a0 := by simp [packRow, place]
theorem packRow_1 (a0 a1 a2 a3 a4 : EReal) : packRow 1 a0 a1 a2 a3 a4 = a1 := by simp [packRow, place]
theorem packRow_2 (a0 a1 a2 a3 a4 : EReal) : packRow 2 a0 a1 a2 a3 a4 = a2 := by simp [packRow, place]
theorem packRow_3 (a0 a1 a2 a3 a4 : EReal) : packRow 3 a0 a1 a2 a3 a4 = a3 := by simp [packRow, place]
theorem packRow_4 (a0 a1 a2 a3 a4 : EReal) : packRow 4 a0 a1 a2 a3 a4 = a4 := by simp [packRow, place]

/-- Grid point t's block of the logits. -/
def blkLogits (pc : SBQC.Idx → EReal) (t : Fin 4) : (⟨3, ![4, 1024, 92]⟩ : Shape).Idx → EReal :=
  fun y => pc (ix3 (rowOf t (y 0)) (y 1) (y 2))
/-- Grid point t's block of the labels, as a column. -/
def blkLabel (lab : SBQ.Idx → BitVec 32) (t : Fin 4) : (⟨3, ![4, 1024, 1]⟩ : Shape).Idx → BitVec 32 :=
  fun y => lab (ix2 (rowOf t (y 0)) (y 1))
/-- The class weights as every grid point sees them. -/
def blkWeights (ew : SC.Idx → EReal) : (⟨3, ![1, 1, 92]⟩ : Shape).Idx → EReal := fun y => ew (ix1 (y 2))
/-- Grid point t's block of the boxes, coordinates on the middle axis: 0 to 3 the predicted box, 4 to 7 the ground truth. -/
def blkBoxes (pb gb : SBQ4.Idx → EReal) (t : Fin 4) : (⟨3, ![4, 8, 1024]⟩ : Shape).Idx → EReal :=
  fun y => if h : (y 1).val < 4 then pb (ix3 (rowOf t (y 0)) (y 2) ⟨(y 1).val, h⟩)
    else gb (ix3 (rowOf t (y 0)) (y 2) ⟨(y 1).val - 4, by have h8 : (y 1).val < 8 := (y 1).isLt; omega⟩)
/-- Grid point t's block of the two integer rows: 0 the labels, 1 the row indices. -/
def blkAux (lab ri : SBQ.Idx → BitVec 32) (t : Fin 4) : (⟨3, ![4, 2, 1024]⟩ : Shape).Idx → BitVec 32 :=
  fun y => if (y 1).val = 0 then lab (ix2 (rowOf t (y 0)) (y 2)) else ri (ix2 (rowOf t (y 0)) (y 2))

/-- The tile a grid point writes, from its five blocks: row r holds the block's five sums, packed. -/
def tileOf (x0 : (⟨3, ![4, 1024, 92]⟩ : Shape).Idx → EReal) (x1 : (⟨3, ![4, 1024, 1]⟩ : Shape).Idx → BitVec 32)
    (x2 : (⟨3, ![1, 1, 92]⟩ : Shape).Idx → EReal) (x3 : (⟨3, ![4, 8, 1024]⟩ : Shape).Idx → EReal)
    (x4 : (⟨3, ![4, 2, 1024]⟩ : Shape).Idx → BitVec 32) (r : Fin 8) : EReal :=
  packRow r
    (blockSum fun b q => wOf (fun c => x2 (ix3 0 0 c)) (x1 (ix3 b q 0)) * nllOf (fun c => x0 (ix3 b q c)) (x1 (ix3 b q 0)))
    (blockSum fun b q => wOf (fun c => x2 (ix3 0 0 c)) (x1 (ix3 b q 0)))
    (blockSum fun b q => l1Of (fun k => x3 (ix3 b ⟨k.val, by omega⟩ q)) (fun k => x3 (ix3 b ⟨k.val + 4, by omega⟩ q))
      (x4 (ix3 b 0 q)) (x4 (ix3 b 1 q)))
    (blockSum fun b q => giouOf (fun k => x3 (ix3 b ⟨k.val, by omega⟩ q)) (fun k => x3 (ix3 b ⟨k.val + 4, by omega⟩ q))
      (x4 (ix3 b 0 q)) (x4 (ix3 b 1 q)))
    (blockSum fun b q => objOf (x4 (ix3 b 0 q)))

end Cert.Loss

end
-- ==== Proof.KClass.lean ====
/-
  The class sums of one block and the packing of a block's five sums into its tile.

  For a block of 4 × 1024 queries, each with 92 logits and a label ℓ below 92: the kernel multiplies by the one-hot of ℓ
  over the classes and sums, which reads off the entry at ℓ, so its weight sum is Σ w_ℓ and its weighted sum is
  Σ w_ℓ · (−logsoftmax(x)_ℓ), both over every query of the block. Five such scalars are laid on rows 0 to 4 of an
  8 × 128 tile, each row holding its scalar on every lane, the other rows zero.
-/
import proofs.«407362_j87308095193844_3_alg».proof.Proof.Gen.KernelIdeal.Frame
import proofs.«407362_j87308095193844_3_alg».proof.Proof.Spec
import Idealize.ShloMosaic.Lib.ValueIdx
import Idealize.ShloMosaic.PureOps.Ideal.Laws
import Idealize.ShloMosaic.Lib.Pipeline.Value
import Idealize.ShloMosaic.Lib.ValueLayout

noncomputable section

namespace Cert.KernelIdeal.ClassSums

open Idealize.ShloMosaic Idealize.ShloMosaic.ValueIdx Cert.KernelIdeal Cert.KernelIdeal.Gen Cert.Loss

/-! ## Words -/

/-- A bit made from a Boolean is set exactly when the Boolean holds. -/
theorem ofBool_eq_one_iff (b : Bool) : BitVec.ofBool b = (1 : BitVec 1) ↔ b = true := by cases b <;> decide

/-- The equality compare of two words is set exactly when the words are equal. -/
theorem cmpi_eq_one_iff {w : Nat} (x y : BitVec w) : IntOp.cmpi .eq x y = (1 : BitVec 1) ↔ x = y := by
  simp only [IntOp.cmpi, ofBool_eq_one_iff, beq_iff_eq]

/-- The word of a number below 2³² is a given word exactly when the number is that word's value. -/
theorem ofNat_eq_iff (a : Nat) (ha : a < 2 ^ 32) (y : BitVec 32) : BitVec.ofNat 32 a = y ↔ a = y.toNat := by
  constructor
  · rintro rfl
    rw [BitVec.toNat_ofNat, Nat.mod_eq_of_lt ha]
  · intro h
    apply BitVec.eq_of_toNat_eq
    rw [BitVec.toNat_ofNat, Nat.mod_eq_of_lt ha, h]

/-! ## The tile -/

/-- One summand of the tile: on row r, the row number compared with k keeps the scalar when r = k and gives zero
    otherwise, on every lane. -/
theorem select_row (v : FVec Ideal S1x1 .f32) (k : Nat) (hk : k < 8) (r : Fin 8) (l : Fin 128) :
    select (cmpi .eq (iota .tc S8x128 32 [0] iota_S8x128_d0_w32) (broadcast S8x128 (BitVec.ofNat 32 k)))
        (broadcastTo S8x128 (shapeCast S1x1 v shapeCasts_S1x1_S1x1) broadcasts_S1x1_S8x128)
        (broadcast S8x128 (Scalar.ofBits (F := Ideal) .f32 0x00000000#32)) (ix2 r l)
      = place r k (v (ix2 0 0)) := by
  have hio : iota .tc S8x128 32 [0] iota_S8x128_d0_w32 (ix2 r l) = BitVec.ofNat 32 r.val :=
    iota_single_apply .tc S8x128 32 0 iota_S8x128_d0_w32 (ix2 r l)
  have hb : broadcastTo S8x128 v broadcasts_S1x1_S8x128 (ix2 r l) = v (ix2 0 0) :=
    broadcastTo_apply v _ _ _ (fun a => match a with | ⟨0, _⟩ => rfl | ⟨1, _⟩ => rfl)
  rw [shapeCast_self]
  show Scalar.select (IntOp.cmpi .eq (iota .tc S8x128 32 [0] iota_S8x128_d0_w32 (ix2 r l)) (BitVec.ofNat 32 k))
      (broadcastTo S8x128 v broadcasts_S1x1_S8x128 (ix2 r l)) (Ideal.ofBits .f32 0x00000000#32) = _
  rw [hio, hb, Ideal.ofBits_zero_f32]
  unfold place Scalar.select
  have hr : r.val < 2 ^ 32 := lt_trans r.isLt (by norm_num)
  have hk' : k < 2 ^ 32 := lt_trans hk (by norm_num)
  have hiff : IntOp.cmpi .eq (BitVec.ofNat 32 r.val) (BitVec.ofNat 32 k) = (1 : BitVec 1) ↔ r.val = k := by
    rw [cmpi_eq_one_iff, ofNat_eq_iff _ hr, BitVec.toNat_ofNat, Nat.mod_eq_of_lt hk']
  by_cases h : r.val = k
  · rw [if_pos (hiff.mpr h), if_pos h]
  · rw [if_neg (fun hc => h (hiff.mp hc)), if_neg h]

/-- The tile at row r, lane l: the five scalars placed on rows 0 to 4 and added in order. -/
theorem pack_apply (v123 v127 v131 v135 : FVec Ideal S1x1 .f32) (v138 : FVec Ideal S1 .f32) (r : Fin 8) (l : Fin 128) :
    k0_pay1 (F := Ideal) v123 v127 v131 v135 v138 (ix3 0 r l)
      = packRow r (v123 (ix2 0 0)) (v127 (ix2 0 0)) (v131 (ix2 0 0)) (v135 (ix2 0 0)) (v138 (ix1 0)) := by
  unfold k0_pay1
  refine (shapeCast_ab_1ab_apply _ shapeCasts_S8x128_S1x8x128 0 r l).trans ?_
  unfold packRow
  have h4 : shapeCast S1x1 v138 shapeCasts_S1_S1x1 (ix2 0 0) = v138 (ix1 0) :=
    shapeCast_a_1a_apply v138 shapeCasts_S1_S1x1 0 0
  rw [← h4]
  exact congrArg₂ (· + ·) (congrArg₂ (· + ·) (congrArg₂ (· + ·) (congrArg₂ (· + ·)
    (select_row v123 0 (by norm_num) r l) (select_row v127 1 (by norm_num) r l))
    (select_row v131 2 (by norm_num) r l)) (select_row v135 3 (by norm_num) r l))
    (select_row (shapeCast S1x1 v138 shapeCasts_S1_S1x1) 4 (by norm_num) r l)

/-! ## The reductions' inserted indices -/

/-- The class axis put back into a (row, query) index. -/
theorem lift_class (b : Fin 4) (q : Fin 1024) (c : Fin 92) :
    reduces_S4x1024x92_S4x1024.lift (ix2 b q) c = ix3 b q c := by
  funext a
  match a with
  | ⟨0, _⟩ => exact Fin.ext rfl
  | ⟨1, _⟩ => exact Fin.ext rfl
  | ⟨2, _⟩ => exact Fin.ext rfl

/-- The query axis put back into a row index. -/
theorem lift_lane (b : Fin 4) (q : Fin 1024) : reduces_S4x1024_S4.lift (ix1 b) q = ix2 b q := by
  funext a
  match a with
  | ⟨0, _⟩ => exact Fin.ext rfl
  | ⟨1, _⟩ => exact Fin.ext rfl

/-- The row axis put back into the one index of the column's sum. -/
theorem lift_rows (b : Fin 4) : reduces_S4x1_S1.lift (ix1 0) b = ix2 b 0 := by
  funext a
  match a with
  | ⟨0, _⟩ => exact Fin.ext rfl
  | ⟨1, _⟩ => exact Fin.ext rfl

/-- Summing a 4 × 1024 array along its queries and then along its rows sums it over the block. -/
theorem rows_lanes_sum (v : FVec Ideal S4x1024 .f32) :
    shapeCast S1x1 (multiReduction (F := Ideal) .add [0] S1
        (shapeCast S4x1 (multiReduction (F := Ideal) .add [1] S4 v 0x00000000#32 reduces_S4x1024_S4 (.inl rfl) rfl) shapeCasts_S4_S4x1)
        0x00000000#32 reduces_S4x1_S1 (.inl rfl) rfl) shapeCasts_S1_S1x1 (ix2 0 0)
      = blockSum fun b q => v (ix2 b q) := by
  refine (shapeCast_a_1a_apply _ shapeCasts_S1_S1x1 0 0).trans ?_
  refine (Ideal.multiReduction_add_single _ _ reduces_S4x1_S1 _ _ (ix1 0)).trans ?_
  unfold blockSum
  refine Finset.sum_congr rfl fun (b : Fin 4) _ => ?_
  rw [lift_rows]
  refine (shapeCast_apply _ shapeCasts_S4_S4x1 (ix2 b 0) (ix1 b) ?_).trans ?_
  · rw [Shape.rowMajor_val_one, Shape.rowMajor_val_two]
    show b.val = b.val * 1 + 0
    omega
  refine (Ideal.multiReduction_add_single v _ reduces_S4x1024_S4 _ _ (ix1 b)).trans ?_
  refine Finset.sum_congr rfl fun (q : Fin 1024) _ => ?_
  rw [lift_lane]

/-! ## The one-hot of the label -/

/-- A sum against the indicator of one class keeps that class's term: the others are a product with zero. -/
theorem sum_onehot_mul (c0 : Fin 92) (f : Fin 92 → EReal) :
    (∑ c : Fin 92, (if c = c0 then (1 : EReal) else 0) * f c) = f c0 := by
  rw [Finset.sum_eq_single c0]
  · rw [if_pos rfl, one_mul]
  · intro c _ hc
    rw [if_neg hc, zero_mul]
  · intro h
    exact absurd (Finset.mem_univ c0) h

/-- The same with the indicator on the right. -/
theorem sum_mul_onehot (c0 : Fin 92) (f : Fin 92 → EReal) :
    (∑ c : Fin 92, f c * (if c = c0 then (1 : EReal) else 0)) = f c0 := by
  rw [Finset.sum_eq_single c0]
  · rw [if_pos rfl, mul_one]
  · intro c _ hc
    rw [if_neg hc, mul_zero]
  · intro h
    exact absurd (Finset.mem_univ c0) h

/-- The one-hot array at (b, q, c): 1 when c is the class of the query's label, else 0. The class number, as a word, is the
    label exactly when it is the label's value; the set bit widened and read signed is 1, the cleared one 0. -/
theorem onehot_apply (x1 : Vec Ideal S4x1024x1 .i32) (hx1 : ∀ (b : Fin 4) (q : Fin 1024), (x1 (ix3 b q 0)).toNat < 92)
    (b : Fin 4) (q : Fin 1024) (c : Fin 92) :
    k0_pay2 (F := Ideal) x1 (ix3 b q c) = if c = cls (x1 (ix3 b q 0)) then (1 : EReal) else 0 := by
  unfold k0_pay2
  rw [shapeCast_self]
  have hio : iota .tc S4x1024x92 32 [2] iota_S4x1024x92_d2_w32 (ix3 b q c) = BitVec.ofNat 32 c.val :=
    iota_single_apply .tc S4x1024x92 32 2 iota_S4x1024x92_d2_w32 (ix3 b q c)
  have hb : broadcastTo S4x1024x92 x1 broadcasts_S4x1024x1_S4x1024x92 (ix3 b q c) = x1 (ix3 b q 0) :=
    broadcastTo_apply x1 _ _ _ (fun a => match a with | ⟨0, _⟩ => rfl | ⟨1, _⟩ => rfl | ⟨2, _⟩ => rfl)
  show ((((IntOp.cmpi .eq (iota .tc S4x1024x92 32 [2] iota_S4x1024x92_d2_w32 (ix3 b q c))
      (broadcastTo S4x1024x92 x1 broadcasts_S4x1024x1_S4x1024x92 (ix3 b q c))).setWidth 32).toInt : ℝ) : EReal) = _
  rw [hio, hb]
  have hc : c.val < 2 ^ 32 := lt_trans c.isLt (by norm_num)
  have hiff : IntOp.cmpi .eq (BitVec.ofNat 32 c.val) (x1 (ix3 b q 0)) = (1 : BitVec 1) ↔ c = cls (x1 (ix3 b q 0)) := by
    rw [cmpi_eq_one_iff, ofNat_eq_iff _ hc, ← cls_val (hx1 b q)]
    exact Fin.val_inj
  by_cases h : c = cls (x1 (ix3 b q 0))
  · rw [hiff.mpr h, if_pos h]
    have h1 : ((1 : BitVec 1).setWidth 32).toInt = 1 := by decide
    rw [h1]
    norm_num
  · rw [eq_zero_of_ne_one (fun hc1 => h (hiff.mp hc1)), if_neg h]
    have h0 : ((0#1 : BitVec 1).setWidth 32).toInt = 0 := by decide
    rw [h0]
    norm_num

/-! ## The weight of a query, and the block's weight sum -/

/-- The weight row at (b, q): the class weights against the one-hot of the label, which is the label's weight. -/
theorem weight_apply (x1 : Vec Ideal S4x1024x1 .i32) (x2 : Vec Ideal S1x1x92 .f32)
    (hx1 : ∀ (b : Fin 4) (q : Fin 1024), (x1 (ix3 b q 0)).toNat < 92) (b : Fin 4) (q : Fin 1024) :
    k0_pay4 (F := Ideal) x1 x2 (ix2 b q) = wOf (fun c => x2 (ix3 0 0 c)) (x1 (ix3 b q 0)) := by
  unfold k0_pay4
  refine (Ideal.multiReduction_add_single _ _ reduces_S4x1024x92_S4x1024 _ _ (ix2 b q)).trans ?_
  unfold wOf
  refine Eq.trans (Finset.sum_congr rfl fun (c : Fin 92) _ => ?_) (sum_onehot_mul (cls (x1 (ix3 b q 0))) fun c => x2 (ix3 0 0 c))
  rw [lift_class, shapeCast_self, shapeCast_self]
  have hb : broadcastTo S4x1024x92 x2 broadcasts_S1x1x92_S4x1024x92 (ix3 b q c) = x2 (ix3 0 0 c) :=
    broadcastTo_apply x2 _ _ _ (fun a => match a with | ⟨0, _⟩ => rfl | ⟨1, _⟩ => rfl | ⟨2, _⟩ => rfl)
  show k0_pay2 (F := Ideal) x1 (ix3 b q c) * broadcastTo S4x1024x92 x2 broadcasts_S1x1x92_S4x1024x92 (ix3 b q c) = _
  rw [onehot_apply x1 hx1, hb]

/-- The block's weight sum. -/
theorem weight_sum (x1 : Vec Ideal S4x1024x1 .i32) (x2 : Vec Ideal S1x1x92 .f32)
    (hx1 : ∀ (b : Fin 4) (q : Fin 1024), (x1 (ix3 b q 0)).toNat < 92) :
    k0_pay27 (F := Ideal) (k0_pay4 x1 x2) (ix2 0 0)
      = blockSum fun b q => wOf (fun c => x2 (ix3 0 0 c)) (x1 (ix3 b q 0)) := by
  unfold k0_pay27
  refine (rows_lanes_sum _).trans ?_
  unfold blockSum
  exact Finset.sum_congr rfl fun b _ => Finset.sum_congr rfl fun q _ => weight_apply x1 x2 hx1 b q

/-! ## The log-softmax of a query's logits, and the block's weighted sum -/

/-- A column broadcast along the classes reads the column. -/
theorem bcast_last {α : Type} (w : S4x1024x1.Idx → α) (b : Fin 4) (q : Fin 1024) (c : Fin 92) :
    broadcastTo S4x1024x92 w broadcasts_S4x1024x1_S4x1024x92 (ix3 b q c) = w (ix3 b q 0) :=
  broadcastTo_apply w _ _ _ (fun a => match a with | ⟨0, _⟩ => rfl | ⟨1, _⟩ => rfl | ⟨2, _⟩ => rfl)

/-- A 4 × 1024 array viewed as a column reads the array. -/
theorem cast_col {α : Type} (v : S4x1024.Idx → α) (b : Fin 4) (q : Fin 1024) :
    shapeCast S4x1024x1 v shapeCasts_S4x1024_S4x1024x1 (ix3 b q 0) = v (ix2 b q) :=
  shapeCast_apply v _ _ _ (by
    rw [Shape.rowMajor_val_two, Shape.rowMajor_val_three]
    show b.val * 1024 + q.val = (b.val * 1024 + q.val) * 1 + 0
    omega)

/-- The logits less their row's shift, as the kernel forms them. -/
def centered (x0 : Vec Ideal S4x1024x92 .f32) : FVec Ideal S4x1024x92 .f32 :=
  subf x0 (broadcastTo S4x1024x92 (shapeCast S4x1024x1
    (maximumf (broadcast S4x1024 (Scalar.ofBits (F := Ideal) .f32 0xFF800000#32))
      (multiReduction (F := Ideal) .maximumf [2] S4x1024 x0 0xFF800000#32 reduces_S4x1024x92_S4x1024 (.inl rfl) rfl))
    shapeCasts_S4x1024_S4x1024x1) broadcasts_S4x1024x1_S4x1024x92)

/-- The kernel's log-softmax array: the centered logits less the log of the row's sum of their exponentials. -/
def lsm (x0 : Vec Ideal S4x1024x92 .f32) : FVec Ideal S4x1024x92 .f32 :=
  subf (centered x0) (broadcastTo S4x1024x92 (log (shapeCast S4x1024x1
    (multiReduction (F := Ideal) .add [2] S4x1024 (exp (centered x0)) 0x00000000#32 reduces_S4x1024x92_S4x1024 (.inl rfl) rfl)
    shapeCasts_S4x1024_S4x1024x1)) broadcasts_S4x1024x1_S4x1024x92)

/-- The row maximum the kernel takes, once more against -∞, is the shift of the row. -/
theorem centered_apply (x0 : Vec Ideal S4x1024x92 .f32) (b : Fin 4) (q : Fin 1024) (c : Fin 92) :
    centered x0 (ix3 b q c) = x0 (ix3 b q c) - shift (fun k => x0 (ix3 b q k)) := by
  unfold centered
  show x0 (ix3 b q c) - broadcastTo S4x1024x92 _ broadcasts_S4x1024x1_S4x1024x92 (ix3 b q c) = _
  rw [bcast_last, cast_col]
  show x0 (ix3 b q c) - max (Ideal.ofBits .f32 0xFF800000#32)
      (multiReduction (F := Ideal) .maximumf [2] S4x1024 x0 0xFF800000#32 reduces_S4x1024x92_S4x1024 (.inl rfl) rfl (ix2 b q)) = _
  refine (congrArg (fun m => x0 (ix3 b q c) - max (Ideal.ofBits .f32 0xFF800000#32) m)
    (Ideal.multiReduction_maximumf_single x0 _ reduces_S4x1024x92_S4x1024 _ _ (ix2 b q))).trans ?_
  have hf : (x0 ∘ reduces_S4x1024x92_S4x1024.lift (ix2 b q)) = fun k : Fin 92 => x0 (ix3 b q k) :=
    funext fun k => congrArg x0 (lift_class b q k)
  unfold shift
  exact congrArg (fun g : Fin 92 → EReal => x0 (ix3 b q c) - max negInf ((Finset.univ : Finset (Fin 92)).fold max negInf g)) hf

/-- The kernel's log-softmax array at (b, q, c) is the log-softmax of the query's logits at c. -/
theorem lsm_apply (x0 : Vec Ideal S4x1024x92 .f32) (b : Fin 4) (q : Fin 1024) (c : Fin 92) :
    lsm x0 (ix3 b q c) = logSoftmax (fun k => x0 (ix3 b q k)) c := by
  unfold lsm
  show centered x0 (ix3 b q c) - broadcastTo S4x1024x92 _ broadcasts_S4x1024x1_S4x1024x92 (ix3 b q c) = _
  rw [bcast_last, centered_apply]
  show _ - Ideal.log (shapeCast S4x1024x1 _ shapeCasts_S4x1024_S4x1024x1 (ix3 b q 0)) = _
  rw [cast_col]
  have hs : multiReduction (F := Ideal) .add [2] S4x1024 (exp (centered x0)) 0x00000000#32
        reduces_S4x1024x92_S4x1024 (.inl rfl) rfl (ix2 b q)
      = ∑ k : Fin 92, Ideal.exp (x0 (ix3 b q k) - shift (fun k => x0 (ix3 b q k))) := by
    refine (Ideal.multiReduction_add_single _ _ reduces_S4x1024x92_S4x1024 _ _ (ix2 b q)).trans ?_
    refine Finset.sum_congr rfl fun (k : Fin 92) _ => ?_
    rw [lift_class]
    show Ideal.exp (centered x0 (ix3 b q k)) = _
    rw [centered_apply]
  unfold logSoftmax
  exact congrArg (fun s => (x0 (ix3 b q c) - shift (fun k => x0 (ix3 b q k))) - Ideal.log s) hs

/-- The kernel's per-query loss array is zero less the sum of the log-softmax against the one-hot. -/
theorem pay3_eq (x0 : Vec Ideal S4x1024x92 .f32) (x1 : Vec Ideal S4x1024x1 .i32) :
    k0_pay3 (F := Ideal) x0 x1
      = subf (broadcast S4x1024 (Scalar.ofBits (F := Ideal) .f32 0x00000000#32))
          (multiReduction (F := Ideal) .add [2] S4x1024 (mulf (lsm x0) (k0_pay2 x1)) 0x00000000#32
            reduces_S4x1024x92_S4x1024 (.inl rfl) rfl) := rfl

/-- The per-query loss at (b, q): minus the log-softmax at the label's class. -/
theorem nll_apply (x0 : Vec Ideal S4x1024x92 .f32) (x1 : Vec Ideal S4x1024x1 .i32)
    (hx1 : ∀ (b : Fin 4) (q : Fin 1024), (x1 (ix3 b q 0)).toNat < 92) (b : Fin 4) (q : Fin 1024) :
    k0_pay3 (F := Ideal) x0 x1 (ix2 b q) = nllOf (fun c => x0 (ix3 b q c)) (x1 (ix3 b q 0)) := by
  rw [pay3_eq]
  have hs : multiReduction (F := Ideal) .add [2] S4x1024 (mulf (lsm x0) (k0_pay2 x1)) 0x00000000#32
        reduces_S4x1024x92_S4x1024 (.inl rfl) rfl (ix2 b q)
      = logSoftmax (fun k => x0 (ix3 b q k)) (cls (x1 (ix3 b q 0))) := by
    refine (Ideal.multiReduction_add_single _ _ reduces_S4x1024x92_S4x1024 _ _ (ix2 b q)).trans ?_
    refine Eq.trans (Finset.sum_congr rfl fun (c : Fin 92) _ => ?_)
      (sum_mul_onehot (cls (x1 (ix3 b q 0))) fun c => logSoftmax (fun k => x0 (ix3 b q k)) c)
    rw [lift_class]
    show lsm x0 (ix3 b q c) * k0_pay2 (F := Ideal) x1 (ix3 b q c) = _
    rw [lsm_apply, onehot_apply x1 hx1]
  show Ideal.ofBits .f32 0x00000000#32
      - multiReduction (F := Ideal) .add [2] S4x1024 (mulf (lsm x0) (k0_pay2 x1)) 0x00000000#32
          reduces_S4x1024x92_S4x1024 (.inl rfl) rfl (ix2 b q) = _
  refine (congrArg₂ (· - ·) Ideal.ofBits_zero_f32 hs).trans ?_
  unfold nllOf
  exact zero_sub _

/-- The block's weighted sum. -/
theorem weightedNll_sum (x0 : Vec Ideal S4x1024x92 .f32) (x1 : Vec Ideal S4x1024x1 .i32) (x2 : Vec Ideal S1x1x92 .f32)
    (hx1 : ∀ (b : Fin 4) (q : Fin 1024), (x1 (ix3 b q 0)).toNat < 92) :
    k0_pay26 (F := Ideal) (k0_pay3 x0 x1) (k0_pay4 x1 x2) (ix2 0 0)
      = blockSum fun b q => wOf (fun c => x2 (ix3 0 0 c)) (x1 (ix3 b q 0))
          * nllOf (fun c => x0 (ix3 b q c)) (x1 (ix3 b q 0)) := by
  unfold k0_pay26
  refine (rows_lanes_sum _).trans ?_
  unfold blockSum
  refine Finset.sum_congr rfl fun b _ => Finset.sum_congr rfl fun q _ => ?_
  show k0_pay4 (F := Ideal) x1 x2 (ix2 b q) * k0_pay3 (F := Ideal) x0 x1 (ix2 b q) = _
  rw [weight_apply x1 x2 hx1, nll_apply x0 x1 hx1]

end Cert.KernelIdeal.ClassSums

end
-- ==== Proof.KBoxes.lean ====
import proofs.«407362_j87308095193844_3_alg».proof.Proof.Gen.KernelIdeal.Frame
import proofs.«407362_j87308095193844_3_alg».proof.Proof.Spec
import Idealize.ShloMosaic.Lib.ValueIdx
import Idealize.ShloMosaic.PureOps.Ideal.Laws
import Idealize.ShloMosaic.Lib.Pipeline.Value
import Idealize.ShloMosaic.Lib.ValueLayout

noncomputable section

namespace Cert.KernelIdeal.BoxSums

open Idealize.ShloMosaic Idealize.ShloMosaic.ValueIdx Cert.KernelIdeal Cert.KernelIdeal.Gen Cert.Loss

/-! ## Reading the blocks at a query

The box block is [4, 8, 1024] (batch row, coordinate, query) and the integer block [4, 2, 1024]; every value the sums
use is a row of the middle axis, taken as a [4, 1, 1024] slice and viewed [4, 1024]. -/

/-- A [4, 1, 1024] array viewed [4, 1024] reads (b, 0, q) at (b, q): both have row-major position 1024·b + q. -/
theorem squeeze_apply {α : Type} (v : S4x1x1024.Idx → α) (h : S4x1x1024.ShapeCasts S4x1024) (b : Fin 4) (q : Fin 1024) :
    shapeCast S4x1024 v h (ix2 b q) = v (ix3 b 0 q) :=
  shapeCast_apply v h _ _ (by
    rw [Shape.rowMajor_val_three, Shape.rowMajor_val_two]
    show (b.val * 1 + 0) * 1024 + q.val = b.val * 1024 + q.val
    omega)

/-- Row o of the box block, viewed [4, 1024], at (b, q) is the block at (b, o, q). -/
theorem box_row (x : S4x8x1024.Idx → EReal) (o : Nat) (hs : S4x8x1024.Slices ![0, o, 0] S4x1x1024)
    (hc : S4x1x1024.ShapeCasts S4x1024) (k : Fin 8) (hk : k.val = o) (b : Fin 4) (q : Fin 1024) :
    shapeCast S4x1024 (extractStridedSlice S4x1x1024 ![0, o, 0] x hs) hc (ix2 b q) = x (ix3 b k q) :=
  (squeeze_apply _ hc b q).trans (slice3_axis1_apply o x hs b 0 q k (by simpa using hk))

/-- Row o of the integer block, viewed [4, 1024], at (b, q) is the block at (b, o, q). -/
theorem aux_row (x : S4x2x1024.Idx → BitVec 32) (o : Nat) (hs : S4x2x1024.Slices ![0, o, 0] S4x1x1024)
    (hc : S4x1x1024.ShapeCasts S4x1024) (k : Fin 2) (hk : k.val = o) (b : Fin 4) (q : Fin 1024) :
    shapeCast S4x1024 (extractStridedSlice S4x1x1024 ![0, o, 0] x hs) hc (ix2 b q) = x (ix3 b k q) :=
  (squeeze_apply _ hc b q).trans (slice3_axis1_apply o x hs b 0 q k (by simpa using hk))

/-- The recast box block is the block. -/
theorem pay5_eq (x3 : Vec Ideal S4x8x1024 .f32) : k0_pay5 (F := Ideal) x3 = x3 :=
  shapeCast_self x3 _

/-- The labels: row 0 of the integer block. -/
theorem label_apply (x4 : Vec Ideal S4x2x1024 .i32) (b : Fin 4) (q : Fin 1024) :
    k0_pay7 (F := Ideal) x4 (ix2 b q) = x4 (ix3 b 0 q) := by
  unfold k0_pay7 k0_pay6
  refine (aux_row _ 0 _ _ 0 rfl b q).trans ?_
  rw [shapeCast_self]

/-- The row indices: row 1 of the integer block. -/
theorem rowind_apply (x4 : Vec Ideal S4x2x1024 .i32) (b : Fin 4) (q : Fin 1024) :
    k0_pay8 (F := Ideal) x4 (ix2 b q) = x4 (ix3 b 1 q) := by
  unfold k0_pay8 k0_pay6
  refine (aux_row _ 1 _ _ 1 rfl b q).trans ?_
  rw [shapeCast_self]

/-! ## The masks and the masked coordinates -/

/-- An equality compare's bit is 1 exactly when the two words are equal. -/
theorem cmpi_eq_bit {w : Nat} (a b : BitVec w) : IntOp.cmpi .eq a b = if a = b then 1#1 else 0#1 := by
  unfold IntOp.cmpi
  by_cases h : a = b
  · rw [if_pos h, beq_iff_eq.2 h]; rfl
  · rw [if_neg h, beq_eq_false_iff_ne.2 h]; rfl

/-- The bitwise or of two one-bit words is 1 exactly when one of them is. -/
theorem ori_bit (P Q : Prop) [Decidable P] [Decidable Q] :
    IntOp.ori (if P then 1#1 else 0#1) (if Q then 1#1 else 0#1) = if P ∨ Q then 1#1 else 0#1 := by
  by_cases hP : P <;> by_cases hQ : Q <;> simp [hP, hQ, IntOp.ori]

/-- The unmatched mask at a query: the row index is -1. -/
theorem unmatched_bit (x4 : Vec Ideal S4x2x1024 .i32) (b : Fin 4) (q : Fin 1024) :
    k0_pay9 (k0_pay8 (F := Ideal) x4) (ix2 b q) = if unmatched (x4 (ix3 b 1 q)) then 1#1 else 0#1 := by
  unfold k0_pay9
  show IntOp.cmpi .eq (k0_pay8 (F := Ideal) x4 (ix2 b q)) 4294967295#32 = _
  rw [rowind_apply, cmpi_eq_bit]
  rfl

/-- The background mask at a query: the label is 0. -/
theorem background_bit (x4 : Vec Ideal S4x2x1024 .i32) (b : Fin 4) (q : Fin 1024) :
    k0_pay10 (k0_pay7 (F := Ideal) x4) (ix2 b q) = if background (x4 (ix3 b 0 q)) then 1#1 else 0#1 := by
  unfold k0_pay10
  show IntOp.cmpi .eq (k0_pay7 (F := Ideal) x4 (ix2 b q)) 0#32 = _
  rw [label_apply, cmpi_eq_bit]
  rfl

/-- The predicted box's mask at a query: unmatched or background. -/
theorem either_bit (x4 : Vec Ideal S4x2x1024 .i32) (b : Fin 4) (q : Fin 1024) :
    k0_pay11 (k0_pay7 (F := Ideal) x4) (k0_pay8 (F := Ideal) x4) (ix2 b q)
      = if unmatched (x4 (ix3 b 1 q)) ∨ background (x4 (ix3 b 0 q)) then 1#1 else 0#1 := by
  unfold k0_pay11
  show IntOp.ori (k0_pay9 (k0_pay8 (F := Ideal) x4) (ix2 b q)) (k0_pay10 (k0_pay7 (F := Ideal) x4) (ix2 b q)) = _
  rw [unmatched_bit, background_bit, ori_bit]

/-- A select on a decided bit is the conditional. -/
theorem select_bit {α : Type} (P : Prop) [Decidable P] (u v : α) :
    Scalar.select (if P then 1#1 else 0#1) u v = if P then u else v := by
  by_cases hP : P
  · rw [if_pos hP, if_pos hP]; exact select_one u v
  · rw [if_neg hP, if_neg hP]; exact select_zero u v

/-- The zero vector the selects write is the extended real 0. -/
theorem zero_apply (i : S4x1024.Idx) : k0_pay12 (F := Ideal) i = 0 := Ideal.ofBits_zero_f32

/-- Row o (o < 4) of the box block under the predicted box's mask is the specification's predicted coordinate o. -/
theorem pred_row (x3 : Vec Ideal S4x8x1024 .f32) (x4 : Vec Ideal S4x2x1024 .i32) (o : Nat)
    (hs : S4x8x1024.Slices ![0, o, 0] S4x1x1024) (hc : S4x1x1024.ShapeCasts S4x1024) (k : Fin 4) (hk : k.val = o)
    (b : Fin 4) (q : Fin 1024) :
    select (k0_pay11 (k0_pay7 (F := Ideal) x4) (k0_pay8 (F := Ideal) x4)) (k0_pay12 (F := Ideal))
        (shapeCast S4x1024 (extractStridedSlice S4x1x1024 ![0, o, 0] (k0_pay5 (F := Ideal) x3) hs) hc) (ix2 b q)
      = predBox (fun k => x3 (ix3 b ⟨k.val, by omega⟩ q)) (x4 (ix3 b 0 q)) (x4 (ix3 b 1 q)) k := by
  rw [select_apply, either_bit, select_bit, zero_apply, pay5_eq, box_row x3 o hs hc ⟨k.val, by omega⟩ hk b q]
  rfl

/-- Row o (4 ≤ o) of the box block under the unmatched mask is the specification's ground-truth coordinate o - 4. -/
theorem gt_row (x3 : Vec Ideal S4x8x1024 .f32) (x4 : Vec Ideal S4x2x1024 .i32) (o : Nat)
    (hs : S4x8x1024.Slices ![0, o, 0] S4x1x1024) (hc : S4x1x1024.ShapeCasts S4x1024) (k : Fin 4) (hk : k.val + 4 = o)
    (b : Fin 4) (q : Fin 1024) :
    select (k0_pay9 (k0_pay8 (F := Ideal) x4)) (k0_pay12 (F := Ideal))
        (shapeCast S4x1024 (extractStridedSlice S4x1x1024 ![0, o, 0] (k0_pay5 (F := Ideal) x3) hs) hc) (ix2 b q)
      = gtBox (fun k => x3 (ix3 b ⟨k.val + 4, by omega⟩ q)) (x4 (ix3 b 1 q)) k := by
  rw [select_apply, unmatched_bit, select_bit, zero_apply, pay5_eq, box_row x3 o hs hc ⟨k.val + 4, by omega⟩ hk b q]
  rfl

section Coordinates
variable (x3 : Vec Ideal S4x8x1024 .f32) (x4 : Vec Ideal S4x2x1024 .i32) (b : Fin 4) (q : Fin 1024)

theorem pred_coord0 : k0_pay13 (F := Ideal) (k0_pay5 x3) (k0_pay7 x4) (k0_pay8 x4) (ix2 b q)
    = predBox (fun k => x3 (ix3 b ⟨k.val, by omega⟩ q)) (x4 (ix3 b 0 q)) (x4 (ix3 b 1 q)) 0 :=
  pred_row x3 x4 0 _ _ 0 rfl b q
theorem pred_coord1 : k0_pay14 (F := Ideal) (k0_pay5 x3) (k0_pay7 x4) (k0_pay8 x4) (ix2 b q)
    = predBox (fun k => x3 (ix3 b ⟨k.val, by omega⟩ q)) (x4 (ix3 b 0 q)) (x4 (ix3 b 1 q)) 1 :=
  pred_row x3 x4 1 _ _ 1 rfl b q
theorem pred_coord2 : k0_pay15 (F := Ideal) (k0_pay5 x3) (k0_pay7 x4) (k0_pay8 x4) (ix2 b q)
    = predBox (fun k => x3 (ix3 b ⟨k.val, by omega⟩ q)) (x4 (ix3 b 0 q)) (x4 (ix3 b 1 q)) 2 :=
  pred_row x3 x4 2 _ _ 2 rfl b q
theorem pred_coord3 : k0_pay16 (F := Ideal) (k0_pay5 x3) (k0_pay7 x4) (k0_pay8 x4) (ix2 b q)
    = predBox (fun k => x3 (ix3 b ⟨k.val, by omega⟩ q)) (x4 (ix3 b 0 q)) (x4 (ix3 b 1 q)) 3 :=
  pred_row x3 x4 3 _ _ 3 rfl b q

theorem gt_coord0 : k0_pay17 (F := Ideal) (k0_pay5 x3) (k0_pay8 x4) (ix2 b q)
    = gtBox (fun k => x3 (ix3 b ⟨k.val + 4, by omega⟩ q)) (x4 (ix3 b 1 q)) 0 :=
  gt_row x3 x4 4 _ _ 0 rfl b q
theorem gt_coord1 : k0_pay18 (F := Ideal) (k0_pay5 x3) (k0_pay8 x4) (ix2 b q)
    = gtBox (fun k => x3 (ix3 b ⟨k.val + 4, by omega⟩ q)) (x4 (ix3 b 1 q)) 1 :=
  gt_row x3 x4 5 _ _ 1 rfl b q
theorem gt_coord2 : k0_pay19 (F := Ideal) (k0_pay5 x3) (k0_pay8 x4) (ix2 b q)
    = gtBox (fun k => x3 (ix3 b ⟨k.val + 4, by omega⟩ q)) (x4 (ix3 b 1 q)) 2 :=
  gt_row x3 x4 6 _ _ 2 rfl b q
theorem gt_coord3 : k0_pay20 (F := Ideal) (k0_pay5 x3) (k0_pay8 x4) (ix2 b q)
    = gtBox (fun k => x3 (ix3 b ⟨k.val + 4, by omega⟩ q)) (x4 (ix3 b 1 q)) 3 :=
  gt_row x3 x4 7 _ _ 3 rfl b q

end Coordinates

/-! ## The sums over the block -/

/-- The lane sum of a [4, 1024] vector followed by the sum of its 4 rows is the sum over the block's 4 × 1024 queries. -/
theorem rows_lanes_sum (v : FVec Ideal S4x1024 .f32) (h1 : S4x1024.Reduces [1] S4) (hc : S4.ShapeCasts S4x1)
    (h0 : S4x1.Reduces [0] S1) (hφ hφ' : FKind.Formats .f32)
    (ha : (0x00000000#32 : BitVec 32) = FKind.add.neutral .f32 hφ)
    (ha' : (0x00000000#32 : BitVec 32) = FKind.add.neutral .f32 hφ') :
    multiReduction (F := Ideal) .add [0] S1
        (shapeCast S4x1 (multiReduction (F := Ideal) .add [1] S4 v 0x00000000#32 h1 hφ ha) hc) 0x00000000#32 h0 hφ' ha' (ix1 0)
      = blockSum fun b q => v (ix2 b q) := by
  rw [Ideal.multiReduction_add_single]
  unfold blockSum
  show (∑ b : Fin 4, _) = _
  refine Finset.sum_congr rfl fun b _ => ?_
  -- row b of the [4, 1] column is entry b of the vector of lane sums
  refine (shapeCast_apply _ hc _ (ix1 b) (by
    rw [Shape.rowMajor_val_one, Shape.rowMajor_val_two]
    show b.val = b.val * 1 + 0
    omega)).trans ?_
  rw [Ideal.multiReduction_add_single]
  show (∑ q : Fin 1024, _) = _
  refine Finset.sum_congr rfl fun q _ => ?_
  refine congrArg v (funext fun c => ?_)
  match c with
  | ⟨0, _⟩ => exact Fin.ext rfl
  | ⟨1, _⟩ => exact Fin.ext rfl

/-- The kernel's L1 sum of a block is the block sum of the specification's per-query L1 distance. -/
theorem l1_sum (x3 : Vec Ideal S4x8x1024 .f32) (x4 : Vec Ideal S4x2x1024 .i32) :
    k0_pay28 (F := Ideal) (k0_pay21 (k0_pay5 x3) (k0_pay7 x4) (k0_pay8 x4)) (ix2 0 0)
      = blockSum fun b q => l1Of (fun k => x3 (ix3 b ⟨k.val, by omega⟩ q)) (fun k => x3 (ix3 b ⟨k.val + 4, by omega⟩ q))
          (x4 (ix3 b 0 q)) (x4 (ix3 b 1 q)) := by
  unfold k0_pay28
  refine (shapeCast_a_1a_apply _ _ 0 0).trans ?_
  refine (rows_lanes_sum _ _ _ _ _ _ _ _).trans ?_
  unfold blockSum
  refine Finset.sum_congr rfl fun b _ => Finset.sum_congr rfl fun q _ => ?_
  unfold k0_pay21
  simp only [addf_apply]
  show ((FloatOps.absf _ + FloatOps.absf _) + FloatOps.absf _) + FloatOps.absf _ = _
  simp only [Ideal.absf_def, subf_apply]
  rw [pred_coord0, pred_coord1, pred_coord2, pred_coord3, gt_coord0, gt_coord1, gt_coord2, gt_coord3]
  rfl

/-- The widened background bit as a float: 1 on a background query, else 0. -/
theorem background_float (x4 : Vec Ideal S4x2x1024 .i32) (b : Fin 4) (q : Fin 1024) :
    sitofp (F := Ideal) .f32 (extui 32 (k0_pay10 (k0_pay7 (F := Ideal) x4)) natLt_1_32) (ix2 b q) = objOf (x4 (ix3 b 0 q)) := by
  rw [sitofp_apply, extui_apply, background_bit]
  unfold objOf
  by_cases hb : background (x4 (ix3 b 0 q))
  · rw [if_pos hb, if_pos hb]
    show (((BitVec.setWidth 32 1#1).toInt : ℝ) : EReal) = 1
    norm_num
  · rw [if_neg hb, if_neg hb]
    show (((BitVec.setWidth 32 0#1).toInt : ℝ) : EReal) = 0
    norm_num

/-- The kernel's background count of a block is the block sum of the specification's per-query indicator. -/
theorem obj_sum (x4 : Vec Ideal S4x2x1024 .i32) :
    k0_pay30 (F := Ideal) (k0_pay10 (k0_pay7 x4)) (ix1 0) = blockSum fun b q => objOf (x4 (ix3 b 0 q)) := by
  unfold k0_pay30
  refine (rows_lanes_sum _ _ _ _ _ _ _ _).trans ?_
  unfold blockSum
  exact Finset.sum_congr rfl fun b _ => Finset.sum_congr rfl fun q _ => background_float x4 b q

end Cert.KernelIdeal.BoxSums

end
-- ==== Proof.KGiou.lean ====
/-
  The GIoU sum of one block of the kernel body, as the sum Spec states.

  For every row b (4 of them) and lane q (1024 per row) of a block, the body reads the eight box coordinates off the
  [4, 8, 1024] box block (rows 0 to 3 the predicted box, 4 to 7 the ground truth) and the label and row index off the
  [4, 2, 1024] integer block, zeroes the predicted coordinates where the query is unmatched or background and the
  ground-truth ones where it is unmatched, forms the generalised intersection over union of the two zeroed boxes
  (intersection over the guarded union, less the part of the enclosing box outside the union over the guarded
  enclosing area), and adds it over the lanes and then over the rows. Here: each masked coordinate is `predBox` /
  `gtBox` at that coordinate, the row is `giouBoxes` of them operation for operation, and the two reductions are
  `blockSum`.
-/
import proofs.«407362_j87308095193844_3_alg».proof.Proof.Gen.KernelIdeal.Frame
import proofs.«407362_j87308095193844_3_alg».proof.Proof.Spec
import Idealize.ShloMosaic.Lib.ValueIdx
import Idealize.ShloMosaic.PureOps.Ideal.Laws
import Idealize.ShloMosaic.Lib.Pipeline.Value
import Idealize.ShloMosaic.Lib.ValueLayout

noncomputable section

namespace Cert.KernelIdeal.GiouSum

open Idealize.ShloMosaic Idealize.ShloMosaic.ValueIdx Cert.KernelIdeal Cert.KernelIdeal.Gen Cert.Loss

variable {α : Type}

/-! ## The layout operations of the block, read at (b, q) -/

/-- A [4, 1, 1024] array cast to [4, 1024] reads, at (b, q), the operand at (b, 0, q): the two row-major positions are
    b * 1024 + q. -/
private theorem cast_mid (X : (⟨3, ![4, 1, 1024]⟩ : Shape).Idx → α)
    (h : (⟨3, ![4, 1, 1024]⟩ : Shape).ShapeCasts ⟨2, ![4, 1024]⟩) (b : Fin 4) (q : Fin 1024) :
    shapeCast ⟨2, ![4, 1024]⟩ X h (ix2 b q) = X (ix3 b (0 : Fin 1) q) :=
  shapeCast_apply X h _ _ (by
    rw [Shape.rowMajor_val_three, Shape.rowMajor_val_two]
    show (b.val * 1 + 0) * 1024 + q.val = b.val * 1024 + q.val
    omega)

/-- Row o of a [4, n, 1024] array, cut out as a [4, 1, 1024] array, reads at (b, 0, q) the array at (b, o, q). -/
private theorem row_apply {n : Nat} (o : Nat) (X : (⟨3, ![4, n, 1024]⟩ : Shape).Idx → α)
    (h : (⟨3, ![4, n, 1024]⟩ : Shape).Slices ![0, o, 0] ⟨3, ![4, 1, 1024]⟩) (b : Fin 4) (q : Fin 1024) (k : Fin n)
    (hk : k.val = o) :
    extractStridedSlice ⟨3, ![4, 1, 1024]⟩ ![0, o, 0] X h (ix3 b (0 : Fin 1) q) = X (ix3 b k q) :=
  slice3_axis1_apply o X h b 0 q k (by rw [hk]; rfl)

/-- The labels: row 0 of the integer block. -/
private theorem pay7_apply (x4 : Vec Ideal S4x2x1024 .i32) (b : Fin 4) (q : Fin 1024) :
    k0_pay7 x4 (ix2 b q) = x4 (ix3 b 0 q) := by
  unfold k0_pay7 k0_pay6
  dsimp only
  rw [shapeCast_self]
  exact (cast_mid _ _ b q).trans (row_apply 0 _ _ b q 0 rfl)

/-- The row indices: row 1 of the integer block. -/
private theorem pay8_apply (x4 : Vec Ideal S4x2x1024 .i32) (b : Fin 4) (q : Fin 1024) :
    k0_pay8 x4 (ix2 b q) = x4 (ix3 b 1 q) := by
  unfold k0_pay8 k0_pay6
  dsimp only
  rw [shapeCast_self]
  exact (cast_mid _ _ b q).trans (row_apply 1 _ _ b q 1 rfl)

/-- Row o of the recast box block, as a [4, 1024] array, at (b, q): the box block at (b, o, q). -/
private theorem coord_apply (o : Nat) (x3 : Vec Ideal S4x8x1024 .f32) (h : S4x8x1024.Slices ![0, o, 0] S4x1x1024)
    (hc : S4x1x1024.ShapeCasts S4x1024) (b : Fin 4) (q : Fin 1024) (k : Fin 8) (hk : k.val = o) :
    shapeCast S4x1024 (extractStridedSlice S4x1x1024 ![0, o, 0] (k0_pay5 x3) h) hc (ix2 b q) = x3 (ix3 b k q) := by
  unfold k0_pay5
  dsimp only
  rw [shapeCast_self]
  exact (cast_mid _ _ b q).trans (row_apply o _ _ b q k hk)

/-! ## The two masks -/

/-- A select on "unmatched or background" between the zero word and v is Spec's zeroing of a predicted coordinate. -/
private theorem sel_pred (l r : BitVec 32) (v : EReal) :
    Scalar.select (IntOp.ori (IntOp.cmpi .eq r 4294967295#32) (IntOp.cmpi .eq l 0#32))
        (Scalar.ofBits (F := Ideal) .f32 0x00000000#32) v
      = if unmatched r ∨ background l then 0 else v := by
  have hz : (Scalar.ofBits (F := Ideal) .f32 0x00000000#32 : EReal) = 0 := Ideal.ofBits_zero_f32
  have h11 : IntOp.ori 1#1 1#1 = 1#1 := by decide
  have h10 : IntOp.ori 1#1 0#1 = 1#1 := by decide
  have h01 : IntOp.ori 0#1 1#1 = 1#1 := by decide
  have h00 : IntOp.ori 0#1 0#1 = 0#1 := by decide
  rw [hz]
  by_cases hr : unmatched r
  · have cr : IntOp.cmpi .eq r 4294967295#32 = 1#1 := IntOp.cmpi_eq.mpr hr
    by_cases hl : background l
    · have cl : IntOp.cmpi .eq l 0#32 = 1#1 := IntOp.cmpi_eq.mpr hl
      rw [cr, cl, h11, select_one, if_pos (Or.inl hr)]
    · have cl : IntOp.cmpi .eq l 0#32 = 0#1 := eq_zero_of_ne_one fun h => hl (IntOp.cmpi_eq.mp h)
      rw [cr, cl, h10, select_one, if_pos (Or.inl hr)]
  · have cr : IntOp.cmpi .eq r 4294967295#32 = 0#1 := eq_zero_of_ne_one fun h => hr (IntOp.cmpi_eq.mp h)
    by_cases hl : background l
    · have cl : IntOp.cmpi .eq l 0#32 = 1#1 := IntOp.cmpi_eq.mpr hl
      rw [cr, cl, h01, select_one, if_pos (Or.inr hl)]
    · have cl : IntOp.cmpi .eq l 0#32 = 0#1 := eq_zero_of_ne_one fun h => hl (IntOp.cmpi_eq.mp h)
      rw [cr, cl, h00, select_zero, if_neg (fun h => h.elim hr hl)]

/-- A select on "unmatched" between the zero word and v is Spec's zeroing of a ground-truth coordinate. -/
private theorem sel_gt (r : BitVec 32) (v : EReal) :
    Scalar.select (IntOp.cmpi .eq r 4294967295#32) (Scalar.ofBits (F := Ideal) .f32 0x00000000#32) v
      = if unmatched r then 0 else v := by
  have hz : (Scalar.ofBits (F := Ideal) .f32 0x00000000#32 : EReal) = 0 := Ideal.ofBits_zero_f32
  rw [hz]
  by_cases hr : unmatched r
  · have cr : IntOp.cmpi .eq r 4294967295#32 = 1#1 := IntOp.cmpi_eq.mpr hr
    rw [cr, select_one, if_pos hr]
  · have cr : IntOp.cmpi .eq r 4294967295#32 = 0#1 := eq_zero_of_ne_one fun h => hr (IntOp.cmpi_eq.mp h)
    rw [cr, select_zero, if_neg hr]

/-! ## The eight masked coordinates at (b, q) -/

section Coords
variable (x3 : Vec Ideal S4x8x1024 .f32) (x4 : Vec Ideal S4x2x1024 .i32) (b : Fin 4) (q : Fin 1024)

/-- The predicted box of query (b, q): rows 0 to 3 of the box block. -/
private abbrev pB : Fin 4 → EReal := fun k => x3 (ix3 b ⟨k.val, by omega⟩ q)
/-- The ground-truth box of query (b, q): rows 4 to 7 of the box block. -/
private abbrev gB : Fin 4 → EReal := fun k => x3 (ix3 b ⟨k.val + 4, by omega⟩ q)

/-- Row k of the box block under the "unmatched or background" mask is coordinate k of Spec's predicted box. -/
private theorem pred_apply (o : Nat) (h : S4x8x1024.Slices ![0, o, 0] S4x1x1024) (hc : S4x1x1024.ShapeCasts S4x1024)
    (k : Fin 4) (hk : k.val = o) :
    select (k0_pay11 (k0_pay7 x4) (k0_pay8 x4)) (k0_pay12 (F := Ideal))
        (shapeCast S4x1024 (extractStridedSlice S4x1x1024 ![0, o, 0] (k0_pay5 x3) h) hc) (ix2 b q)
      = predBox (pB x3 b q) (x4 (ix3 b 0 q)) (x4 (ix3 b 1 q)) k := by
  show Scalar.select (IntOp.ori (IntOp.cmpi .eq (k0_pay8 x4 (ix2 b q)) 4294967295#32) (IntOp.cmpi .eq (k0_pay7 x4 (ix2 b q)) 0#32))
      (Scalar.ofBits (F := Ideal) .f32 0x00000000#32)
      (shapeCast S4x1024 (extractStridedSlice S4x1x1024 ![0, o, 0] (k0_pay5 x3) h) hc (ix2 b q)) = _
  rw [pay7_apply, pay8_apply, coord_apply o x3 h hc b q ⟨k.val, by omega⟩ hk, sel_pred]
  rfl

/-- Row k + 4 of the box block under the "unmatched" mask is coordinate k of Spec's ground-truth box. -/
private theorem gt_apply (o : Nat) (h : S4x8x1024.Slices ![0, o, 0] S4x1x1024) (hc : S4x1x1024.ShapeCasts S4x1024)
    (k : Fin 4) (hk : k.val + 4 = o) :
    select (k0_pay9 (k0_pay8 x4)) (k0_pay12 (F := Ideal))
        (shapeCast S4x1024 (extractStridedSlice S4x1x1024 ![0, o, 0] (k0_pay5 x3) h) hc) (ix2 b q)
      = gtBox (gB x3 b q) (x4 (ix3 b 1 q)) k := by
  show Scalar.select (IntOp.cmpi .eq (k0_pay8 x4 (ix2 b q)) 4294967295#32)
      (Scalar.ofBits (F := Ideal) .f32 0x00000000#32)
      (shapeCast S4x1024 (extractStridedSlice S4x1x1024 ![0, o, 0] (k0_pay5 x3) h) hc (ix2 b q)) = _
  rw [pay8_apply, coord_apply o x3 h hc b q ⟨k.val + 4, by omega⟩ hk, sel_gt]
  rfl

private theorem p0 : k0_pay13 (k0_pay5 x3) (k0_pay7 x4) (k0_pay8 x4) (ix2 b q)
    = predBox (pB x3 b q) (x4 (ix3 b 0 q)) (x4 (ix3 b 1 q)) 0 := pred_apply x3 x4 b q 0 _ _ 0 rfl
private theorem p1 : k0_pay14 (k0_pay5 x3) (k0_pay7 x4) (k0_pay8 x4) (ix2 b q)
    = predBox (pB x3 b q) (x4 (ix3 b 0 q)) (x4 (ix3 b 1 q)) 1 := pred_apply x3 x4 b q 1 _ _ 1 rfl
private theorem p2 : k0_pay15 (k0_pay5 x3) (k0_pay7 x4) (k0_pay8 x4) (ix2 b q)
    = predBox (pB x3 b q) (x4 (ix3 b 0 q)) (x4 (ix3 b 1 q)) 2 := pred_apply x3 x4 b q 2 _ _ 2 rfl
private theorem p3 : k0_pay16 (k0_pay5 x3) (k0_pay7 x4) (k0_pay8 x4) (ix2 b q)
    = predBox (pB x3 b q) (x4 (ix3 b 0 q)) (x4 (ix3 b 1 q)) 3 := pred_apply x3 x4 b q 3 _ _ 3 rfl
private theorem g0 : k0_pay17 (k0_pay5 x3) (k0_pay8 x4) (ix2 b q)
    = gtBox (gB x3 b q) (x4 (ix3 b 1 q)) 0 := gt_apply x3 x4 b q 4 _ _ 0 rfl
private theorem g1 : k0_pay18 (k0_pay5 x3) (k0_pay8 x4) (ix2 b q)
    = gtBox (gB x3 b q) (x4 (ix3 b 1 q)) 1 := gt_apply x3 x4 b q 5 _ _ 1 rfl
private theorem g2 : k0_pay19 (k0_pay5 x3) (k0_pay8 x4) (ix2 b q)
    = gtBox (gB x3 b q) (x4 (ix3 b 1 q)) 2 := gt_apply x3 x4 b q 6 _ _ 2 rfl
private theorem g3 : k0_pay20 (k0_pay5 x3) (k0_pay8 x4) (ix2 b q)
    = gtBox (gB x3 b q) (x4 (ix3 b 1 q)) 3 := gt_apply x3 x4 b q 7 _ _ 3 rfl

end Coords

/-! ## The block's sum -/

/-- A [4] array cast to [4, 1] reads, at (b, 0), the operand at b. -/
private theorem cast_col (X : (⟨1, ![4]⟩ : Shape).Idx → α) (h : (⟨1, ![4]⟩ : Shape).ShapeCasts ⟨2, ![4, 1]⟩) (b : Fin 4) :
    shapeCast ⟨2, ![4, 1]⟩ X h (ix2 b (0 : Fin 1)) = X (ix1 b) :=
  shapeCast_apply X h _ _ (by
    rw [Shape.rowMajor_val_one, Shape.rowMajor_val_two]
    show b.val = b.val * 1 + 0
    omega)

/-- The lane sums of a [4, 1024] array, then the sum of the 4 row sums, read at the one index of the [1, 1] result:
    the sum over all rows b and lanes q. -/
private theorem sum_rows (V : FVec Ideal S4x1024 .f32) :
    shapeCast S1x1 (multiReduction .add [0] S1
        (shapeCast S4x1 (multiReduction .add [1] S4 V 0x00000000#32 reduces_S4x1024_S4 (.inl rfl) rfl) shapeCasts_S4_S4x1)
        0x00000000#32 reduces_S4x1_S1 (.inl rfl) rfl) shapeCasts_S1_S1x1 (ix2 0 0)
      = ∑ b : Fin 4, ∑ q : Fin 1024, V (ix2 b q) := by
  refine (shapeCast_a_1a_apply _ _ 0 0).trans ?_
  refine (Ideal.multiReduction_add_single _ _ reduces_S4x1_S1 _ _ (ix1 0)).trans ?_
  refine Finset.sum_congr rfl fun b _ => ?_
  have hl : reduces_S4x1_S1.lift (ix1 0) b = ix2 b 0 := by
    funext c; match c with | ⟨0, _⟩ => exact Fin.ext rfl | ⟨1, _⟩ => exact Fin.ext rfl
  rw [hl]
  refine (cast_col _ _ b).trans ?_
  refine (Ideal.multiReduction_add_single _ _ reduces_S4x1024_S4 _ _ (ix1 b)).trans ?_
  refine Finset.sum_congr rfl fun q _ => ?_
  have hq : reduces_S4x1024_S4.lift (ix1 b) q = ix2 b q := by
    funext c; match c with | ⟨0, _⟩ => exact Fin.ext rfl | ⟨1, _⟩ => exact Fin.ext rfl
  exact congrArg V hq

/-! ## The GIoU row and its sum over the block -/

/-- The block's GIoU sum: each masked coordinate is Spec's zeroed box coordinate, the row is Spec's generalised
    intersection over union of the two zeroed boxes, operation for operation, and the two reductions add it over the
    4 rows and 1024 lanes of the block. -/
theorem giou_sum (x3 : Vec Ideal S4x8x1024 .f32) (x4 : Vec Ideal S4x2x1024 .i32) :
    k0_pay29 (F := Ideal) (k0_pay13 (k0_pay5 x3) (k0_pay7 x4) (k0_pay8 x4)) (k0_pay14 (k0_pay5 x3) (k0_pay7 x4) (k0_pay8 x4))
      (k0_pay15 (k0_pay5 x3) (k0_pay7 x4) (k0_pay8 x4)) (k0_pay16 (k0_pay5 x3) (k0_pay7 x4) (k0_pay8 x4))
      (k0_pay17 (k0_pay5 x3) (k0_pay8 x4)) (k0_pay18 (k0_pay5 x3) (k0_pay8 x4))
      (k0_pay19 (k0_pay5 x3) (k0_pay8 x4)) (k0_pay20 (k0_pay5 x3) (k0_pay8 x4))
      (k0_pay22 (k0_pay5 x3) (k0_pay7 x4) (k0_pay8 x4)) (k0_pay23 (k0_pay5 x3) (k0_pay8 x4))
      (k0_pay24 (k0_pay5 x3) (k0_pay7 x4) (k0_pay8 x4)) (k0_pay25 (k0_pay5 x3) (k0_pay7 x4) (k0_pay8 x4))
      (Scalar.ofBits .f32 0x00000000#32) (ix2 0 0)
    = blockSum fun b q => giouOf (fun k => x3 (ix3 b ⟨k.val, by omega⟩ q)) (fun k => x3 (ix3 b ⟨k.val + 4, by omega⟩ q))
        (x4 (ix3 b 0 q)) (x4 (ix3 b 1 q)) := by
  unfold k0_pay29
  refine (sum_rows _).trans ?_
  unfold blockSum
  refine Finset.sum_congr rfl fun b _ => Finset.sum_congr rfl fun q _ => ?_
  unfold k0_pay22 k0_pay23 k0_pay24 k0_pay25
  simp only [subf_apply, divf_apply, maximumf_apply, minimumf_apply, mulf_apply, addf_apply, broadcast_apply]
  rw [p0 x3 x4 b q, p1 x3 x4 b q, p2 x3 x4 b q, p3 x3 x4 b q, g0 x3 x4 b q, g1 x3 x4 b q, g2 x3 x4 b q, g3 x3 x4 b q]
  have hz : (FloatOps.ofBits (F := Ideal) .f32 0x00000000#32 : EReal) = 0 := Ideal.ofBits_zero_f32
  rw [hz]
  rfl

end Cert.KernelIdeal.GiouSum

end
-- ==== Proof.KTile.lean ====
/-
  What one grid point writes: its tile. The body stores ONE payload over its whole (1, 8, 128) output block: the five
  block sums — weighted nll, weight, L1, GIoU, background count — placed on rows 0 to 4.
-/
import proofs.«407362_j87308095193844_3_alg».proof.Proof.KClass
import proofs.«407362_j87308095193844_3_alg».proof.Proof.KBoxes
import proofs.«407362_j87308095193844_3_alg».proof.Proof.KGiou

noncomputable section

namespace Cert.KernelIdeal.Tile

open Idealize.ShloMosaic Idealize.ShloMosaic.ValueIdx Cert.KernelIdeal Cert.KernelIdeal.Gen Cert.Loss

theorem origin3 : (![0, 0, 0] : Fin 3 → Nat) = fun _ => 0 := funext fun a => by fin_cases a <;> rfl

/-- The output block after the body, entry (0, r, l): row r of the tile of the five input blocks. -/
theorem out0_5_apply (x0 : Vec Ideal S4x1024x92 .f32) (x1 : Vec Ideal S4x1024x1 .i32) (x2 : Vec Ideal S1x1x92 .f32)
    (x3 : Vec Ideal S4x8x1024 .f32) (x4 : Vec Ideal S4x2x1024 .i32)
    (hx1 : ∀ (b : Fin 4) (q : Fin 1024), (x1 (ix3 b q 0)).toNat < 92) (r : Fin 8) (l : Fin 128) :
    out0_5 (F := Ideal) x0 x1 x2 x3 x4 (ix3 0 r l) = tileOf x0 x1 x2 x3 x4 r := by
  unfold out0_5
  rw [View.canon_unit_zero origin3]
  simp only [View.ld_unit_zero (S := S4x1024x92) origin3, View.ld_unit_zero (S := S4x1024x1) origin3,
    View.ld_unit_zero (S := S1x1x92) origin3, View.ld_unit_zero (S := S4x8x1024) origin3,
    View.ld_unit_zero (S := S4x2x1024) origin3]
  rw [ClassSums.pack_apply, ClassSums.weightedNll_sum x0 x1 x2 hx1, ClassSums.weight_sum x1 x2 hx1, BoxSums.l1_sum x3 x4,
    GiouSum.giou_sum x3 x4, BoxSums.obj_sum x4]
  rfl

end Cert.KernelIdeal.Tile

end
-- ==== Proof.KBlocks.lean ====
import proofs.«407362_j87308095193844_3_alg».proof.Proof.Gen.KernelIdeal.Frame
import proofs.«407362_j87308095193844_3_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Blocks

open Idealize.ShloMosaic Idealize.ShloMosaic.TcCoe Idealize.ShloMosaic.ValueIdx Idealize.SL.Sem Cert.KernelIdeal Cert.KernelIdeal.Gen Cert.Loss

variable (m : (ℓ : Loc nD τ sig) → Buf (Elt Ideal) ℓ)

/-- The labels as the kernel's host lines build them: the ground-truth classes scattered into zeros. -/
def labels (c : Dev nD) : Cert.Loss.SBQ.Idx → BitVec 32 := V m c main_v17

/-- The ground-truth boxes as the kernel's host lines build them: scattered into zeros. -/
def gtBoxes (c : Dev nD) : Cert.Loss.SBQ4.Idx → EReal := V m c main_v33

/-- The scatters' index pairs: (batch row, matched query) per target, a negative entry wrapped by the axis length. -/
abbrev scatterIdx (a5 : (⟨S16x64, .i32⟩ : BufTy).Contents (Elt Ideal)) : (⟨S16x64x2, .i32⟩ : BufTy).Contents (Elt Ideal) :=
  concatenate S16x64x2 2
    [⟨S16x64x1, broadcastInDim S16x64x1 ![0, 1] bcast_S16x64_S16x64x1_0_1
        (broadcastInDim S16x64 ![0, 1] bcast_S16x1_S16x64_0_1
          (select
            (cmpi .slt (broadcastInDim S16x1 ![0] bcast_S16_S16x1_0 (iotaInDim S16 32 0))
              (broadcastInDim S16x1 ![] bcast_S_S16x1 (constantI S_ 32 0#32)))
            (addi (broadcastInDim S16x1 ![0] bcast_S16_S16x1_0 (iotaInDim S16 32 0))
              (broadcastInDim S16x1 ![] bcast_S_S16x1 (constantI S_ 32 16#32)))
            (broadcastInDim S16x1 ![0] bcast_S16_S16x1_0 (iotaInDim S16 32 0))))⟩,
     ⟨S16x64x1, broadcastInDim S16x64x1 ![0, 1] bcast_S16x64_S16x64x1_0_1
        (select (cmpi .slt a5 (broadcastInDim S16x64 ![] bcast_S_S16x64 (constantI S_ 32 0#32)))
          (addi a5 (broadcastInDim S16x64 ![] bcast_S_S16x64 (constantI S_ 32 1024#32))) a5)⟩]
    concatenates_S16x64x1_S16x64x1_S16x64x2_d2

set_option maxHeartbeats 2000000 in
/-- The labels are the scatter of the ground-truth classes, at the index pairs, into the zero array. -/
theorem labels_eq (c : Dev nD) :
    labels m c = Host.scatter scatter_S16x1024_S16x64x2_S16x64_n_01_01_2 (fun _ b => b)
      (broadcastInDim S16x1024 ![] bcast_S_S16x1024 (constantI S_ 32 0#32))
      (scatterIdx (m ((c.tc : Thread nD τ).loc main_arg5)))
      (m ((c.tc : Thread nD τ).loc main_arg2)) := by
  unfold labels
  dsimp only [Gen.V, Gen.V0]
  simp only [List.flatten_cons, List.flatten_nil, List.append_nil]
  after_results_simp
  rfl

set_option maxHeartbeats 2000000 in
/-- The ground-truth boxes are the scatter of the target boxes, at the same index pairs, into the zero array. -/
theorem gtBoxes_eq (c : Dev nD) :
    gtBoxes m c = Host.scatter scatter_S16x1024x4_S16x64x2_S16x64x4_2_01_01_2 (fun _ b => b)
      (broadcastInDim S16x1024x4 ![] bcast_S_S16x1024x4 (constant (F := Ideal) S_ .f32 0x00000000#32))
      (scatterIdx (m ((c.tc : Thread nD τ).loc main_arg5)))
      (m ((c.tc : Thread nD τ).loc main_arg3)) := by
  unfold gtBoxes
  dsimp only [Gen.V, Gen.V0]
  simp only [List.flatten_cons, List.flatten_nil, List.append_nil]
  after_results_simp
  rfl

/-! ## The windows' arrays as the host lines before the call leave them -/

set_option maxHeartbeats 2000000 in
/-- Window 1's array: the labels as a column. -/
theorem V34 (c : Dev nD) : (V m c main_v34 : S16x1024x1.Idx → BitVec 32)
    = broadcastInDim S16x1024x1 ![0, 1] bcast_S16x1024_S16x1024x1_0_1 (labels m c) := by
  unfold labels
  dsimp only [Gen.V, Gen.V0]
  simp only [List.flatten_cons, List.flatten_nil, List.append_nil]
  after_results_simp

set_option maxHeartbeats 2000000 in
/-- Window 2's array: the class weights with two unit axes in front. -/
theorem V41 (c : Dev nD) : (V m c main_v41 : S1x1x92.Idx → EReal)
    = shapeCast S1x1x92 (m ((c.tc : Thread nD τ).loc main_arg6)) shapeCasts_S92_S1x1x92 := by
  dsimp only [Gen.V, Gen.V0]
  simp only [List.flatten_cons, List.flatten_nil, List.append_nil]
  after_results_simp <;> rfl

/-- The host lines before the call, cut after the two scatters: the last eight lines (the windows' arrays) run from
    what the first forty-four leave. -/
theorem V_split (c : Dev nD) (b : Ref sig .tc) :
    V m c b = StableHlo.after (List.drop 44 (hostOps0 (F := Ideal)))
      (StableHlo.after (List.take 44 (hostOps0 (F := Ideal))) (fun b => m (c, b))) (Proc.devRef .tc b) := by
  dsimp only [Gen.V, Gen.V0]
  simp only [List.flatten_cons, List.flatten_nil, List.append_nil]
  rw [← StableHlo.after_append, List.take_append_drop]

set_option maxHeartbeats 2000000 in
/-- Window 3's array: the predicted boxes and the ground-truth boxes, each with its coordinate axis moved to the
    middle, stacked along that axis. -/
theorem V37 (c : Dev nD) : (V m c main_v37 : S16x8x1024.Idx → EReal)
    = concatenate S16x8x1024 1
        [⟨S16x4x1024, transpose S16x4x1024 [0, 2, 1] (m ((c.tc : Thread nD τ).loc main_arg1)) transposes_S16x1024x4_S16x4x1024_0_2_1⟩,
         ⟨S16x4x1024, transpose S16x4x1024 [0, 2, 1] (gtBoxes m c) transposes_S16x1024x4_S16x4x1024_0_2_1⟩]
        concatenates_S16x4x1024_S16x4x1024_S16x8x1024_d1 := by
  rw [← V_main_arg1 m c]
  unfold gtBoxes
  rw [V_split m c main_v37, V_split m c main_arg1, V_split m c main_v33]
  generalize StableHlo.after (List.take 44 (hostOps0 (F := Ideal))) (fun b => m (c, b)) = W
  obtain ⟨suf, hsuf⟩ : ∃ suf, suf = List.drop 44 (hostOps0 (F := Ideal)) := ⟨_, rfl⟩
  rw [← hsuf]
  simp only [List.drop_succ_cons, List.drop_zero] at hsuf
  have h1 : StableHlo.after suf W (Proc.devRef .tc main_arg1) = W (Proc.devRef .tc main_arg1) := by
    subst hsuf; after_results
  have h2 : StableHlo.after suf W (Proc.devRef .tc main_v33) = W (Proc.devRef .tc main_v33) := by
    subst hsuf; after_results
  have h3 : (StableHlo.after suf W (Proc.devRef .tc main_v37) : S16x8x1024.Idx → EReal)
      = concatenate S16x8x1024 1
        [⟨S16x4x1024, transpose S16x4x1024 [0, 2, 1] (W (Proc.devRef .tc main_arg1)) transposes_S16x1024x4_S16x4x1024_0_2_1⟩,
         ⟨S16x4x1024, transpose S16x4x1024 [0, 2, 1] (W (Proc.devRef .tc main_v33)) transposes_S16x1024x4_S16x4x1024_0_2_1⟩]
        concatenates_S16x4x1024_S16x4x1024_S16x8x1024_d1 := by
    subst hsuf; after_results
  rw [h3, h1, h2]

set_option maxHeartbeats 2000000 in
/-- Window 4's array: the labels and the row indices, each as a row, stacked. -/
theorem V40 (c : Dev nD) : (V m c main_v40 : S16x2x1024.Idx → BitVec 32)
    = concatenate S16x2x1024 1
        [⟨S16x1x1024, broadcastInDim S16x1x1024 ![0, 2] bcast_S16x1024_S16x1x1024_0_2 (labels m c)⟩,
         ⟨S16x1x1024, broadcastInDim S16x1x1024 ![0, 2] bcast_S16x1024_S16x1x1024_0_2 (m ((c.tc : Thread nD τ).loc main_arg4))⟩]
        concatenates_S16x1x1024_S16x1x1024_S16x2x1024_d1 := by
  rw [← V_main_arg4 m c]
  unfold labels
  rw [V_split m c main_v40, V_split m c main_v17, V_split m c main_arg4]
  generalize StableHlo.after (List.take 44 (hostOps0 (F := Ideal))) (fun b => m (c, b)) = W
  obtain ⟨suf, hsuf⟩ : ∃ suf, suf = List.drop 44 (hostOps0 (F := Ideal)) := ⟨_, rfl⟩
  rw [← hsuf]
  simp only [List.drop_succ_cons, List.drop_zero] at hsuf
  have h1 : StableHlo.after suf W (Proc.devRef .tc main_v17) = W (Proc.devRef .tc main_v17) := by
    subst hsuf; after_results
  have h2 : StableHlo.after suf W (Proc.devRef .tc main_arg4) = W (Proc.devRef .tc main_arg4) := by
    subst hsuf; after_results
  have h3 : (StableHlo.after suf W (Proc.devRef .tc main_v40) : S16x2x1024.Idx → BitVec 32)
      = concatenate S16x2x1024 1
        [⟨S16x1x1024, broadcastInDim S16x1x1024 ![0, 2] bcast_S16x1024_S16x1x1024_0_2 (W (Proc.devRef .tc main_v17))⟩,
         ⟨S16x1x1024, broadcastInDim S16x1x1024 ![0, 2] bcast_S16x1024_S16x1x1024_0_2 (W (Proc.devRef .tc main_arg4))⟩]
        concatenates_S16x1x1024_S16x1x1024_S16x2x1024_d1 := by
    subst hsuf; after_results
  rw [h3, h1, h2]

/-! ## The host lines' layout operations, read at explicit coordinates -/

/-- A column made of a [16,1024] array reads the array at the first two coordinates. -/
theorem col_at (lab : S16x1024.Idx → BitVec 32) (b : Fin 16) (q : Fin 1024) (z : Fin 1) :
    broadcastInDim S16x1024x1 ![0, 1] bcast_S16x1024_S16x1024x1_0_1 lab (ix3 b q z) = lab (ix2 b q) :=
  broadcastInDim_apply _ _ lab (ix3 b q z) (ix2 b q) fun a => by
    match a with
    | ⟨0, _⟩ => rfl
    | ⟨1, _⟩ => rfl

/-- A row made of a [16,1024] array reads the array at the outer two coordinates. -/
theorem row_at (lab : S16x1024.Idx → BitVec 32) (b : Fin 16) (z : Fin 1) (q : Fin 1024) :
    broadcastInDim S16x1x1024 ![0, 2] bcast_S16x1024_S16x1x1024_0_2 lab (ix3 b z q) = lab (ix2 b q) :=
  broadcastInDim_apply _ _ lab (ix3 b z q) (ix2 b q) fun a => by
    match a with
    | ⟨0, _⟩ => rfl
    | ⟨1, _⟩ => rfl

/-- The weights behind two unit axes read the weights at the last coordinate. -/
theorem wts_at (ew : S92.Idx → EReal) (z0 z1 : Fin 1) (k : Fin 92) :
    shapeCast S1x1x92 ew shapeCasts_S92_S1x1x92 (ix3 z0 z1 k) = ew (ix1 k) := by
  refine shapeCast_apply ew _ (ix3 z0 z1 k) (ix1 k) ?_
  rw [Shape.rowMajor_val_one, Shape.rowMajor_val_three]
  show k.val = (z0.val * 1 + z1.val) * 92 + k.val
  have h0 := z0.isLt
  have h1 := z1.isLt
  omega

/-- The stacked boxes at (row, coordinate, query): coordinates 0 to 3 are the first array's, 4 to 7 the second's. -/
theorem boxes_at (pb gb : S16x1024x4.Idx → EReal) (b : Fin 16) (k : Fin 8) (q : Fin 1024) :
    concatenate S16x8x1024 1
      [⟨S16x4x1024, transpose S16x4x1024 [0, 2, 1] pb transposes_S16x1024x4_S16x4x1024_0_2_1⟩,
       ⟨S16x4x1024, transpose S16x4x1024 [0, 2, 1] gb transposes_S16x1024x4_S16x4x1024_0_2_1⟩]
      concatenates_S16x4x1024_S16x4x1024_S16x8x1024_d1 (ix3 b k q)
    = if h : k.val < 4 then pb (ix3 b q ⟨k.val, h⟩)
      else gb (ix3 b q ⟨k.val - 4, by have h8 : k.val < 8 := k.isLt; omega⟩) := by
  by_cases h : k.val < 4
  · rw [dif_pos h]
    refine (concatenate_pair_apply_left (s₁ := S16x4x1024) (s₂ := S16x4x1024) (1 : Fin S16x8x1024.rank) _ _ _ (ix3 b k q)
      (rfl : S16x4x1024.rank = S16x8x1024.rank) (ix3 b (⟨k.val, h⟩ : Fin 4) q) fun a => ?_).trans ?_
    · match a with
      | ⟨0, _⟩ => rfl
      | ⟨1, _⟩ => rfl
      | ⟨2, _⟩ => rfl
    · exact transpose_apply [0, 2, 1] pb _ (ix3 b (⟨k.val, h⟩ : Fin 4) q) (ix3 b q (⟨k.val, h⟩ : Fin 4)) fun a => by
        match a with
        | ⟨0, _⟩ => rfl
        | ⟨1, _⟩ => rfl
        | ⟨2, _⟩ => rfl
  · rw [dif_neg h]
    have h8 : k.val < 8 := k.isLt
    refine (concatenate_pair_apply_right (s₁ := S16x4x1024) (s₂ := S16x4x1024) (1 : Fin S16x8x1024.rank) _ _ _ (ix3 b k q)
      (rfl : S16x4x1024.rank = S16x8x1024.rank) (rfl : S16x4x1024.rank = S16x8x1024.rank)
      (ix3 b (⟨k.val - 4, by omega⟩ : Fin 4) q) (fun a ha => ?_) ?_).trans ?_
    · match a, ha with
      | ⟨0, _⟩, _ => rfl
      | ⟨1, _⟩, ha => exact absurd rfl ha
      | ⟨2, _⟩, _ => rfl
    · show k.val - 4 + 4 = k.val
      omega
    · exact transpose_apply [0, 2, 1] gb _ (ix3 b (⟨k.val - 4, by omega⟩ : Fin 4) q) (ix3 b q (⟨k.val - 4, by omega⟩ : Fin 4)) fun a => by
        match a with
        | ⟨0, _⟩ => rfl
        | ⟨1, _⟩ => rfl
        | ⟨2, _⟩ => rfl

/-- The stacked integer rows at (row, which, query): row 0 is the first array, row 1 the second. -/
theorem aux_at (lab ri : S16x1024.Idx → BitVec 32) (b : Fin 16) (k : Fin 2) (q : Fin 1024) :
    concatenate S16x2x1024 1
      [⟨S16x1x1024, broadcastInDim S16x1x1024 ![0, 2] bcast_S16x1024_S16x1x1024_0_2 lab⟩,
       ⟨S16x1x1024, broadcastInDim S16x1x1024 ![0, 2] bcast_S16x1024_S16x1x1024_0_2 ri⟩]
      concatenates_S16x1x1024_S16x1x1024_S16x2x1024_d1 (ix3 b k q)
    = if k.val = 0 then lab (ix2 b q) else ri (ix2 b q) := by
  have h2 : k.val < 2 := k.isLt
  by_cases h : k.val = 0
  · rw [if_pos h]
    refine (concatenate_pair_apply_left (s₁ := S16x1x1024) (s₂ := S16x1x1024) (1 : Fin S16x2x1024.rank) _ _ _ (ix3 b k q)
      (rfl : S16x1x1024.rank = S16x2x1024.rank) (ix3 b (0 : Fin 1) q) fun a => ?_).trans ?_
    · match a with
      | ⟨0, _⟩ => rfl
      | ⟨1, _⟩ => exact h.symm
      | ⟨2, _⟩ => rfl
    · exact row_at lab b _ q
  · rw [if_neg h]
    refine (concatenate_pair_apply_right (s₁ := S16x1x1024) (s₂ := S16x1x1024) (1 : Fin S16x2x1024.rank) _ _ _ (ix3 b k q)
      (rfl : S16x1x1024.rank = S16x2x1024.rank) (rfl : S16x1x1024.rank = S16x2x1024.rank)
      (ix3 b (0 : Fin 1) q) (fun a ha => ?_) ?_).trans ?_
    · match a, ha with
      | ⟨0, _⟩, _ => rfl
      | ⟨1, _⟩, ha => exact absurd rfl ha
      | ⟨2, _⟩, _ => rfl
    · show 0 + 1 = k.val
      omega
    · exact row_at ri b _ q

/-- A grid point as the block's index along the batch axis. -/
def gp (t : Fin cfg0.N) : Fin 4 := ⟨t.val, Nat.lt_of_lt_of_eq t.isLt (show cfg0.N = 4 from N_0)⟩

/-- The windows' index maps over the grid: every window but the weights' moves along the batch axis with the
    point and sits at block 0 on the other axes; the weights' window is the whole array at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-! ## The five input blocks at a grid point -/

/-- Grid point t's block of the logits is batch rows 4t … 4t+3 of the argument. -/
theorem blk0 (c : Dev nD) (t : Fin cfg0.N) :
    (iblk m c 0 t : Vec Ideal S4x1024x92 .f32) = blkLogits (m ((c.tc : Thread nD τ).loc main_arg0)) (gp t) := by
  obtain ⟨e0, e1, e2, -⟩ := idx_facts t
  funext y
  unfold iblk
  rw [View.read_apply]
  show V m c main_arg0 _ = _
  rw [V_main_arg0]
  unfold blkLogits
  refine congrArg _ (funext fun a => Fin.ext ?_)
  match a with
  | ⟨0, _⟩ => show win0_0.index t (0 : Fin 3) * 4 + 1 * (y 0).val = 4 * t.val + (y 0).val; rw [e0]; omega
  | ⟨1, _⟩ => show win0_0.index t (1 : Fin 3) * 1024 + 1 * (y 1).val = (y 1).val; rw [e1]; omega
  | ⟨2, _⟩ => show win0_0.index t (2 : Fin 3) * 92 + 1 * (y 2).val = (y 2).val; rw [e2]; omega

/-- Grid point t's block of the label column is the labels of batch rows 4t … 4t+3. -/
theorem blk1 (c : Dev nD) (t : Fin cfg0.N) :
    (iblk m c 1 t : Vec Ideal S4x1024x1 .i32) = blkLabel (labels m c) (gp t) := by
  obtain ⟨-, -, -, e0, e1, e2, -⟩ := idx_facts t
  funext y
  obtain ⟨b, q, z, rfl⟩ : ∃ (b : Fin 4) (q : Fin 1024) (z : Fin 1), y = ix3 b q z := ⟨y 0, y 1, y 2, eq_ix3 y⟩
  unfold iblk
  rw [View.read_apply]
  show V m c main_v34 _ = _
  rw [V34]
  have he : (((cfg0.win 1).blk t).view.emb (ix3 b q z) : S16x1024x1.Idx) = ix3 (rowOf (gp t) b) q z :=
    funext fun a => Fin.ext (by
      match a with
      | ⟨0, _⟩ => show win0_1.index t (0 : Fin 3) * 4 + 1 * b.val = 4 * t.val + b.val; rw [e0]; omega
      | ⟨1, _⟩ => show win0_1.index t (1 : Fin 3) * 1024 + 1 * q.val = q.val; rw [e1]; omega
      | ⟨2, _⟩ => show win0_1.index t (2 : Fin 3) * 1 + 1 * z.val = z.val; rw [e2]; omega)
  refine (congrArg _ he).trans ?_
  exact col_at (labels m c) (rowOf (gp t) b) q z

/-- Every grid point's block of the weights is the whole weight vector. -/
theorem blk2 (c : Dev nD) (t : Fin cfg0.N) :
    (iblk m c 2 t : Vec Ideal S1x1x92 .f32) = blkWeights (m ((c.tc : Thread nD τ).loc main_arg6)) := by
  obtain ⟨-, -, -, -, -, -, e0, e1, e2, -⟩ := idx_facts t
  funext y
  obtain ⟨z0, z1, k, rfl⟩ : ∃ (z0 z1 : Fin 1) (k : Fin 92), y = ix3 z0 z1 k := ⟨y 0, y 1, y 2, eq_ix3 y⟩
  unfold iblk
  rw [View.read_apply]
  show V m c main_v41 _ = _
  rw [V41]
  have he : (((cfg0.win 2).blk t).view.emb (ix3 z0 z1 k) : S1x1x92.Idx) = ix3 z0 z1 k :=
    funext fun a => Fin.ext (by
      match a with
      | ⟨0, _⟩ => show win0_2.index t (0 : Fin 3) * 1 + 1 * z0.val = z0.val; rw [e0]; omega
      | ⟨1, _⟩ => show win0_2.index t (1 : Fin 3) * 1 + 1 * z1.val = z1.val; rw [e1]; omega
      | ⟨2, _⟩ => show win0_2.index t (2 : Fin 3) * 92 + 1 * k.val = k.val; rw [e2]; omega)
  refine (congrArg _ he).trans ?_
  exact wts_at (m ((c.tc : Thread nD τ).loc main_arg6)) z0 z1 k

/-- Grid point t's block of the stacked boxes: coordinates 0 to 3 the predicted box, 4 to 7 the ground truth, of batch
    rows 4t … 4t+3. -/
theorem blk3 (c : Dev nD) (t : Fin cfg0.N) :
    (iblk m c 3 t : Vec Ideal S4x8x1024 .f32)
      = blkBoxes (m ((c.tc : Thread nD τ).loc main_arg1)) (gtBoxes m c) (gp t) := by
  obtain ⟨-, -, -, -, -, -, -, -, -, e0, e1, e2, -⟩ := idx_facts t
  funext y
  obtain ⟨b, k, q, rfl⟩ : ∃ (b : Fin 4) (k : Fin 8) (q : Fin 1024), y = ix3 b k q := ⟨y 0, y 1, y 2, eq_ix3 y⟩
  unfold iblk
  rw [View.read_apply]
  show V m c main_v37 _ = _
  rw [V37]
  have he : (((cfg0.win 3).blk t).view.emb (ix3 b k q) : S16x8x1024.Idx) = ix3 (rowOf (gp t) b) k q :=
    funext fun a => Fin.ext (by
      match a with
      | ⟨0, _⟩ => show win0_3.index t (0 : Fin 3) * 4 + 1 * b.val = 4 * t.val + b.val; rw [e0]; omega
      | ⟨1, _⟩ => show win0_3.index t (1 : Fin 3) * 8 + 1 * k.val = k.val; rw [e1]; omega
      | ⟨2, _⟩ => show win0_3.index t (2 : Fin 3) * 1024 + 1 * q.val = q.val; rw [e2]; omega)
  refine (congrArg _ he).trans ?_
  exact boxes_at (m ((c.tc : Thread nD τ).loc main_arg1)) (gtBoxes m c) (rowOf (gp t) b) k q

/-- Grid point t's block of the two integer rows: the labels and the row indices of batch rows 4t … 4t+3. -/
theorem blk4 (c : Dev nD) (t : Fin cfg0.N) :
    (iblk m c 4 t : Vec Ideal S4x2x1024 .i32)
      = blkAux (labels m c) (m ((c.tc : Thread nD τ).loc main_arg4)) (gp t) := by
  obtain ⟨-, -, -, -, -, -, -, -, -, -, -, -, e0, e1, e2, -⟩ := idx_facts t
  funext y
  obtain ⟨b, k, q, rfl⟩ : ∃ (b : Fin 4) (k : Fin 2) (q : Fin 1024), y = ix3 b k q := ⟨y 0, y 1, y 2, eq_ix3 y⟩
  unfold iblk
  rw [View.read_apply]
  show V m c main_v40 _ = _
  rw [V40]
  have he : (((cfg0.win 4).blk t).view.emb (ix3 b k q) : S16x2x1024.Idx) = ix3 (rowOf (gp t) b) k q :=
    funext fun a => Fin.ext (by
      match a with
      | ⟨0, _⟩ => show win0_4.index t (0 : Fin 3) * 4 + 1 * b.val = 4 * t.val + b.val; rw [e0]; omega
      | ⟨1, _⟩ => show win0_4.index t (1 : Fin 3) * 2 + 1 * k.val = k.val; rw [e1]; omega
      | ⟨2, _⟩ => show win0_4.index t (2 : Fin 3) * 1024 + 1 * q.val = q.val; rw [e2]; omega)
  refine (congrArg _ he).trans ?_
  exact aux_at (labels m c) (m ((c.tc : Thread nD τ).loc main_arg4)) (rowOf (gp t) b) k q

/-! ## From the blocks to the output array -/

/-- Entry (r, l) of the tile the body stores at grid point t, from the point's five blocks. -/
def tileAt (c : Dev nD) (t : Fin 4) (r : Fin 8) (l : Fin 128) : EReal :=
  out0_5 (F := Ideal) (blkLogits (m ((c.tc : Thread nD τ).loc main_arg0)) t) (blkLabel (labels m c) t)
    (blkWeights (m ((c.tc : Thread nD τ).loc main_arg6)))
    (blkBoxes (m ((c.tc : Thread nD τ).loc main_arg1)) (gtBoxes m c) t)
    (blkAux (labels m c) (m ((c.tc : Thread nD τ).loc main_arg4)) t) (ix3 0 r l)

/-- The array the tiles make: tile t is plane t of the leading axis. -/
def outArr (c : Dev nD) : S4x8x128.Idx → EReal := fun i => tileAt m c (i 0) (i 1) (i 2)

/-- The output window's blocks are whole: what is written back of a staging buffer is all of it. -/
theorem cut_out (t : Fin cfg0.N) (X : S1x8x128.Idx → EReal) :
    ((cfg0.win 5).cut (grid0.coords t) X : S1x8x128.Idx → EReal) = X := rfl

/-- Point t's block of the output array starts at plane t. -/
theorem emb_out (t : Fin cfg0.N) (r : Fin 8) (l : Fin 128) :
    (((cfg0.win 5).blk t).view.emb (ix3 (0 : Fin 1) r l) : S4x8x128.Idx) = ix3 (gp t) r l := by
  obtain ⟨-, -, -, -, -, -, -, -, -, -, -, -, -, -, -, e0, e1, e2⟩ := idx_facts t
  refine funext fun a => Fin.ext ?_
  match a with
  | ⟨0, _⟩ => show win0_5.index t (0 : Fin 3) * 1 + 1 * 0 = t.val; rw [e0]; omega
  | ⟨1, _⟩ => show win0_5.index t (1 : Fin 3) * 8 + 1 * r.val = r.val; rw [e1]; omega
  | ⟨2, _⟩ => show win0_5.index t (2 : Fin 3) * 128 + 1 * l.val = l.val; rw [e2]; omega

/-- What grid point t writes back is its block of that array: plane t. -/
theorem flushed_eq (c : Dev nD) (t : Fin cfg0.N) :
    (dats m 0 c).flushed 5 t = ((cfg0.win 5).blk t).view.read (Elt Ideal) (outArr m c) := by
  show ((cfg0.win 5).cut (grid0.coords t) ((dats m 0 c).after 5 t) : S1x8x128.Idx → EReal) = _
  rw [cut_out, after0_5, blk0, blk1, blk2, blk3, blk4]
  funext y
  obtain ⟨z, r, l, rfl⟩ : ∃ (z : Fin 1) (r : Fin 8) (l : Fin 128), y = ix3 z r l := ⟨y 0, y 1, y 2, eq_ix3 y⟩
  obtain rfl : z = 0 := Fin.ext (by have := z.isLt; omega)
  rw [View.read_apply]
  rw [emb_out t r l]
  exact (cast_eq _ _).symm

/-- Every index of the output array lies in the block of the grid point its leading coordinate names. -/
theorem covered (i : S4x8x128.Idx) :
    ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 128 := (i 2).isLt
  obtain ⟨t, ht⟩ : ∃ t : Fin cfg0.N, t.val = (i 0).val :=
    ⟨⟨(i 0).val, Nat.lt_of_lt_of_eq h0 (show cfg0.N = 4 from N_0).symm⟩, rfl⟩
  obtain ⟨-, -, -, -, -, -, -, -, -, -, -, -, -, -, -, e0, e1, e2⟩ := idx_facts t
  refine ⟨t, flush0_5 t, ?_⟩
  show i ∈ ((View.whole main_v42).slice (win0_5.rect t)).set
  rw [View.set_slice_whole, Rect.mem_set_unit]
  intro a
  match a with
  | ⟨0, _⟩ =>
    show win0_5.index t (0 : Fin 3) * 1 ≤ (i 0).val ∧ (i 0).val < win0_5.index t (0 : Fin 3) * 1 + 1
    rw [e0]; omega
  | ⟨1, _⟩ =>
    show win0_5.index t (1 : Fin 3) * 8 ≤ (i 1).val ∧ (i 1).val < win0_5.index t (1 : Fin 3) * 8 + 8
    rw [e1]; omega
  | ⟨2, _⟩ =>
    show win0_5.index t (2 : Fin 3) * 128 ≤ (i 2).val ∧ (i 2).val < win0_5.index t (2 : Fin 3) * 128 + 128
    rw [e2]; omega

/-- The output array after the run is the array of the tiles. -/
theorem final (c : Dev nD) : ((dats m 0 c).arrAt 5 cfg0.N : S4x8x128.Idx → EReal) = outArr m c :=
  (dats m 0 c).arrAt_eq_of_cover 5 (outArr m c) (fun t _ => flushed_eq m c t) covered

/-- The output array, entry by entry: plane t is the tile the body makes of grid point t's five blocks. -/
theorem out_array (c : Dev nD) (t : Fin 4) (r : Fin 8) (l : Fin 128) :
    ((dats m 0 c).arrAt 5 cfg0.N : S4x8x128.Idx → EReal) (ix3 t r l)
      = out0_5 (F := Ideal) (blkLogits (m ((c.tc : Thread nD τ).loc main_arg0)) t) (blkLabel (labels m c) t)
          (blkWeights (m ((c.tc : Thread nD τ).loc main_arg6)))
          (blkBoxes (m ((c.tc : Thread nD τ).loc main_arg1)) (gtBoxes m c) t)
          (blkAux (labels m c) (m ((c.tc : Thread nD τ).loc main_arg4)) t) (ix3 0 r l) :=
  congrFun (final m c) (ix3 t r l)

end Cert.KernelIdeal.Blocks

end
-- ==== Proof.KTail.lean ====
import proofs.«407362_j87308095193844_3_alg».proof.Proof.Gen.KernelIdeal.Frame
import proofs.«407362_j87308095193844_3_alg».proof.Proof.Spec
import Idealize.ShloMosaic.Lib.ValueIdx
import Idealize.ShloMosaic.PureOps.Ideal.Laws
import Idealize.ShloMosaic.Lib.Pipeline.Value
import Idealize.ShloMosaic.Lib.ValueLayout
import Idealize.ShloMosaic.Lib.StableHlo.Run

noncomputable section

namespace Cert.KernelIdeal.Tail

open Idealize.ShloMosaic Idealize.ShloMosaic.TcCoe Idealize.ShloMosaic.ValueIdx Idealize.SL.Sem Cert.KernelIdeal Cert.KernelIdeal.Gen Cert.Loss

variable (m : (ℓ : Loc nD τ sig) → Buf (Elt Ideal) ℓ) (ρ : Dev nD → PrngReg)

/-! ## The host lines after the region, as a function of the tile array

The region leaves a [4, 8, 128] array: grid point t's tile on its leading index. The host then adds the four tiles entry
by entry (starting from the zero word), reads the entries (k, 0) for k = 0 … 4 of the sum as scalars, and combines the five
scalars into the loss. -/

/-- The four tiles added entry by entry, from the zero word. -/
def tileSum (A : FVec Ideal S4x8x128 .f32) : FVec Ideal S8x128 .f32 :=
  Host.reduceAdd A (constant (F := Ideal) S_ .f32 0x00000000#32) reducesTo_S4x8x128_S8x128_d0 h_S_

/-- The entry (o, 0) of an [8, 128] array as a scalar: the one-by-one slice at (o, 0), reshaped to rank 0. -/
def entry (R : FVec Ideal S8x128 .f32) (o : Nat) (hs : S8x128.Slices ![o, 0] S1x1) : FVec Ideal S_ .f32 :=
  shapeCast S_ (extractStridedSlice S1x1 ![o, 0] R hs) shapeCasts_S1x1_S_

/-- The host lines after the region, applied to the tile array. -/
def tailFn (A : FVec Ideal S4x8x128 .f32) : FVec Ideal S_ .f32 :=
  addf
    (addf
      (mulf (constant (F := Ideal) S_ .f32 0x3F800000#32)
        (Host.divf (entry (tileSum A) 0 slices_S8x128_S1x1_0_0) (entry (tileSum A) 1 slices_S8x128_S1x1_1_0)))
      (mulf (constant (F := Ideal) S_ .f32 0x40A00000#32)
        (Host.divf (entry (tileSum A) 2 slices_S8x128_S1x1_2_0)
          (maximumf (entry (tileSum A) 4 slices_S8x128_S1x1_4_0) (constant (F := Ideal) S_ .f32 0x3F800000#32)))))
    (mulf (constant (F := Ideal) S_ .f32 0x40000000#32)
      (subf (constant (F := Ideal) S_ .f32 0x3F800000#32)
        (Host.divf (entry (tileSum A) 3 slices_S8x128_S1x1_3_0) (constant (F := Ideal) S_ .f32 0x46800000#32))))

/-- The sum of the tiles at (k, l) is the sum over the grid points of their tiles' entries there: the reduced index (k, l)
    with the grid point inserted in front is (t, k, l), and the initial value is zero. -/
theorem tileSum_apply (A : FVec Ideal S4x8x128 .f32) (k : Fin 8) (l : Fin 128) :
    tileSum A (ix2 k l) = ∑ t : Fin 4, A (ix3 t k l) := by
  have h : S4x8x128.Reduces [0] S8x128 := by decide
  unfold tileSum Host.reduceAdd
  refine (Ideal.hostReduceAdd_single reducesTo_S4x8x128_S8x128_d0 h A _ (ix2 k l)).trans ?_
  rw [constant_apply, Ideal.ofBits_zero_f32, zero_add]
  refine Finset.sum_congr rfl fun t _ => congrArg A ?_
  funext a
  apply Fin.ext
  rw [h.lift_val]
  unfold Shape.Reduces.liftVal
  match a with
  | ⟨0, _⟩ => rfl
  | ⟨1, _⟩ => rfl
  | ⟨2, _⟩ => rfl

/-- The scalar read off at (o, 0) is the array's entry there: the rank-0 index and the one-by-one slice's only index have
    the same row-major position 0, and the slice's index (0, 0) sits at (o, 0) of the array. -/
theorem entry_apply (R : FVec Ideal S8x128 .f32) (o : Nat) (ho : o < 8) (hs : S8x128.Slices ![o, 0] S1x1) (i : S_.Idx) :
    entry R o hs i = R (ix2 ⟨o, ho⟩ 0) := by
  unfold entry
  refine (shapeCast_apply _ shapeCasts_S1x1_S_ i (ix2 0 0) ?_).trans ?_
  · rw [Shape.rowMajor_val_two]
    show _ = (Shape.rowMajorPi _ i).val
    rw [Shape.rowMajorPi_zero]
    rfl
  · refine extractStridedSlice_apply _ R hs (ix2 0 0) (ix2 ⟨o, ho⟩ 0) ?_
    intro a
    match a with
    | ⟨0, _⟩ => rfl
    | ⟨1, _⟩ => rfl

/-- The host lines' result from the tile array: the loss combined from the five sums, over the grid points, of the tiles'
    entries (0, 0) … (4, 0). -/
theorem tailFn_eq (A : FVec Ideal S4x8x128 .f32) :
    tailFn A = fun _ => combine (∑ t : Fin 4, A (ix3 t 0 0)) (∑ t : Fin 4, A (ix3 t 1 0)) (∑ t : Fin 4, A (ix3 t 2 0))
      (∑ t : Fin 4, A (ix3 t 3 0)) (∑ t : Fin 4, A (ix3 t 4 0)) := by
  funext i
  unfold tailFn
  rw [addf_apply, addf_apply, mulf_apply, mulf_apply, mulf_apply, subf_apply]
  unfold Host.divf
  rw [maximumf_apply]
  simp only [constant_apply, Ideal.hostDivf_def]
  rw [entry_apply _ 0 (by decide), entry_apply _ 1 (by decide), entry_apply _ 2 (by decide), entry_apply _ 3 (by decide),
    entry_apply _ 4 (by decide)]
  simp only [tileSum_apply]
  rfl

/-- The same over any array G that the tile array agrees with entry by entry. -/
theorem tailFn_of (A : FVec Ideal S4x8x128 .f32) (G : S4x8x128.Idx → EReal)
    (hG : ∀ (t : Fin 4) (r : Fin 8) (l : Fin 128), A (ix3 t r l) = G (ix3 t r l)) :
    tailFn A = fun _ => combine (∑ t : Fin 4, G (ix3 t 0 0)) (∑ t : Fin 4, G (ix3 t 1 0)) (∑ t : Fin 4, G (ix3 t 2 0))
      (∑ t : Fin 4, G (ix3 t 3 0)) (∑ t : Fin 4, G (ix3 t 4 0)) := by
  have e (k : Fin 8) : (∑ t : Fin 4, A (ix3 t k 0)) = ∑ t : Fin 4, G (ix3 t k 0) :=
    Finset.sum_congr rfl fun t _ => hG t k 0
  rw [tailFn_eq, e 0, e 1, e 2, e 3, e 4]

/-! ## The run -/

/-- What the host lines leave at the result on core c: they run from the region's final contents, in which the output
    window's array holds the tiles G; every other line of the tail writes only its own result. -/
theorem tail_value (c : Dev nD) (G : S4x8x128.Idx → EReal)
    (hG : ∀ (t : Fin 4) (r : Fin 8) (l : Fin 128), (dats m 0 c).arrAt 5 cfg0.N (ix3 t r l) = G (ix3 t r l)) :
    Pipeline.afterTail₀ cfgs (dats m) 0 (V0 m) [hostOps1] c main_v63
      = (fun _ => combine (∑ t : Fin 4, G (ix3 t 0 0)) (∑ t : Fin 4, G (ix3 t 1 0)) (∑ t : Fin 4, G (ix3 t 2 0))
          (∑ t : Fin 4, G (ix3 t 3 0)) (∑ t : Fin 4, G (ix3 t 4 0))) := by
  have hA : Pipeline.withArrays (cfgs 0).spec c (V0 m c) (fun w => (dats m 0 c).arrAt w (cfgs 0).N) (Proc.devRef .tc main_v42)
      = (dats m 0 c).arrAt 5 cfg0.N := Pipeline.withArrays_arr spec0 launch0.win.arr_inj c _ _ 5
  unfold Pipeline.afterTail₀
  show StableHlo.after hostOps1 _ (Proc.devRef .tc main_v63) = _
  after_results_simp
  exact (congrArg tailFn hA).trans (tailFn_of _ G hG)

/-- The kernel program runs; its result is the loss combined from the five sums over the grid points of the tiles'
    entries (0, 0) … (4, 0), and its argument arrays end as launched. -/
theorem kernel_run (G : Dev nD → S4x8x128.Idx → EReal)
    (hG : ∀ (c : Dev nD) (t : Fin 4) (r : Fin 8) (l : Fin 128), (dats m 0 c).arrAt 5 cfg0.N (ix3 t r l) = G c (ix3 t r l)) :
    θ_run (defs (F := Ideal)) (onTc (τ := τ) (main (F := Ideal))) ⟨m, fun _ => 0, ρ⟩ (fun r => ∀ c : Dev nD,
      r.2.mem ((c.tc : Thread nD τ).loc main_v63) = (fun _ => combine (∑ t : Fin 4, G c (ix3 t 0 0)) (∑ t : Fin 4, G c (ix3 t 1 0))
          (∑ t : Fin 4, G c (ix3 t 2 0)) (∑ t : Fin 4, G c (ix3 t 3 0)) (∑ t : Fin 4, G c (ix3 t 4 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v63 (Pipeline.mem_restRefs_of main_v63 (by decide) (by decide))).trans (tail_value m c (G c) (hG c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Tail

end
-- ==== Proof.SpecTiles.lean ====
/-
  The kernel's tiles add up to the loss. Grid point t holds batch rows 4t … 4t+3; its tile's row k is its block's k-th sum;
  summing row k over the four grid points gives the k-th total over the whole batch (16 rows are 4 blocks of 4), and the
  loss is the combination of the five totals.
-/
import proofs.«407362_j87308095193844_3_alg».proof.Proof.Spec

noncomputable section

namespace Cert.Loss

open Idealize.ShloMosaic Idealize.ShloMosaic.ValueIdx

section
variable (pc : SBQC.Idx → EReal) (pb : SBQ4.Idx → EReal) (lab : SBQ.Idx → BitVec 32) (gb : SBQ4.Idx → EReal)
  (ri : SBQ.Idx → BitVec 32) (ew : SC.Idx → EReal)

/-- A block's predicted-box coordinates are the array's at the block's batch row. -/
theorem blkBoxes_pred (t b : Fin 4) (q : Fin 1024) (k : Fin 4) :
    blkBoxes pb gb t (ix3 b ⟨k.val, by omega⟩ q) = pb (ix3 (rowOf t b) q k) := by
  unfold blkBoxes
  have h : ((ix3 b (⟨k.val, by omega⟩ : Fin 8) q : (⟨3, ![4, 8, 1024]⟩ : Shape).Idx) 1).val < 4 := k.isLt
  rw [dif_pos h]

/-- A block's ground-truth coordinates are the array's at the block's batch row. -/
theorem blkBoxes_gt (t b : Fin 4) (q : Fin 1024) (k : Fin 4) :
    blkBoxes pb gb t (ix3 b ⟨k.val + 4, by omega⟩ q) = gb (ix3 (rowOf t b) q k) := by
  unfold blkBoxes
  have h : ¬ ((ix3 b (⟨k.val + 4, by omega⟩ : Fin 8) q : (⟨3, ![4, 8, 1024]⟩ : Shape).Idx) 1).val < 4 := by
    show ¬ k.val + 4 < 4; omega
  rw [dif_neg h]
  congr 1

/-- Grid point t's tile, in terms of the arrays: row r packs the five sums over the block's batch rows. -/
theorem tileOf_blocks (t : Fin 4) (r : Fin 8) :
    tileOf (blkLogits pc t) (blkLabel lab t) (blkWeights ew) (blkBoxes pb gb t) (blkAux lab ri t) r
      = packRow r (blockSum fun b q => wAt lab ew (rowOf t b) q * nllAt pc lab (rowOf t b) q)
          (blockSum fun b q => wAt lab ew (rowOf t b) q) (blockSum fun b q => l1At pb lab gb ri (rowOf t b) q)
          (blockSum fun b q => giouAt pb lab gb ri (rowOf t b) q) (blockSum fun b q => objAt lab (rowOf t b) q) := by
  unfold tileOf wAt nllAt l1At giouAt objAt
  simp only [blkBoxes_pred, blkBoxes_gt]
  rfl

/-- The five totals from the four tiles, and the loss from them. -/
theorem loss_of_tiles :
    combine (∑ t : Fin 4, tileOf (blkLogits pc t) (blkLabel lab t) (blkWeights ew) (blkBoxes pb gb t) (blkAux lab ri t) 0)
      (∑ t : Fin 4, tileOf (blkLogits pc t) (blkLabel lab t) (blkWeights ew) (blkBoxes pb gb t) (blkAux lab ri t) 1)
      (∑ t : Fin 4, tileOf (blkLogits pc t) (blkLabel lab t) (blkWeights ew) (blkBoxes pb gb t) (blkAux lab ri t) 2)
      (∑ t : Fin 4, tileOf (blkLogits pc t) (blkLabel lab t) (blkWeights ew) (blkBoxes pb gb t) (blkAux lab ri t) 3)
      (∑ t : Fin 4, tileOf (blkLogits pc t) (blkLabel lab t) (blkWeights ew) (blkBoxes pb gb t) (blkAux lab ri t) 4)
      = loss pc pb lab gb ri ew := by
  simp only [tileOf_blocks, packRow_0, packRow_1, packRow_2, packRow_3, packRow_4]
  unfold loss
  rw [sum_blockSum (fun b q => wAt lab ew b q * nllAt pc lab b q), sum_blockSum (wAt lab ew), sum_blockSum (l1At pb lab gb ri),
    sum_blockSum (giouAt pb lab gb ri), sum_blockSum (objAt lab)]
end

end Cert.Loss

end
-- ==== Proof.LibScatterSet.lean ====
/-
  A scatter whose body returns the update (`x.at[idx].set(upd)`) only ever writes update elements into the operand: whatever
  the index words are — repeated, negative, out of range — every element of the result is an element of the operand or
  of the updates. So a property that holds of every operand element and of every update element holds of every result
  element. (The scatter is a left fold over the update indices; the property is an invariant of the fold.)
-/
import Idealize.ShloMosaic.PureOps.ShapeOps

namespace Idealize.ShloMosaic

/-- The invariant of the fold: one step of a set-scatter keeps "every element satisfies P". -/
theorem Host.scatter_set_forall {α : Type} {s si u : Shape} {w : Nat} (d : ScatterDims s si u) (P : α → Prop)
    (x : s.Idx → α) (idx : IVec si w) (upd : u.Idx → α) (hx : ∀ i, P (x i)) (hu : ∀ j, P (upd j)) :
    ∀ i, P (Host.scatter d (fun _ b => b) x idx upd i) := by
  unfold Host.scatter
  generalize List.finRange u.numel = l
  induction l generalizing x with
  | nil => exact hx
  | cons n l ih =>
    rw [List.foldl_cons]
    apply ih
    intro i
    generalize d.resultIdx? (u.rowMajor.symm n) idx = o
    cases o with
    | none => exact hx i
    | some k =>
      show P (if i = k then upd (u.rowMajor.symm n) else x i)
      split
      · exact hu _
      · exact hx _

end Idealize.ShloMosaic
-- ==== Proof.LabelRange.lean ====
/-
  What the precondition says of the ground-truth classes, and what that gives the labels.
  The precondition's last two conjuncts are `all (gt_class ≥ 0)` and `all (gt_class < 92)`: every ground-truth class word,
  read signed, lies in [0, 92), so read unsigned it is below 92. The labels are those words scattered into an array of
  zero words, so every label is below 92 as well.
-/
import proofs.«407362_j87308095193844_3_alg».proof.Pre_finite_inputs
import proofs.«407362_j87308095193844_3_alg».proof.Proof.LibScatterSet
import Idealize.ShloMosaic.PureOps.Ideal
import Idealize.ShloMosaic.Lib.ReduceAll
import Idealize.ShloMosaic.Lib.ValueIdx

noncomputable section

namespace Cert.LabelRange

open Idealize.ShloMosaic Idealize.ShloMosaic.ValueIdx Cert.Pre_finite_inputs

instance : Subsingleton S_.Idx := ⟨fun a b => funext fun d => d.elim0⟩

/-- A word that is ≥ 0 and < 92 read signed is below 92 read unsigned. -/
theorem toNat_lt_of_signed (a : BitVec 32) (h0 : (0#32 : BitVec 32).toInt ≤ a.toInt) (h1 : a.toInt < (92#32 : BitVec 32).toInt) :
    a.toNat < 92 := by
  have e0 : (0#32 : BitVec 32).toInt = 0 := by decide
  have e1 : (92#32 : BitVec 32).toInt = 92 := by decide
  rw [e0] at h0; rw [e1] at h1
  rw [BitVec.toInt_eq_toNat_cond] at h0 h1
  split at h0 <;> omega

/-- Under the precondition every ground-truth class word is below 92. -/
theorem gtClass_lt [Facts] (a0 : FVec Ideal S16x1024x92 .f32) (a1 : FVec Ideal S16x1024x4 .f32) (a2 : IVec S16x64 32)
    (a3 : FVec Ideal S16x64x4 .f32) (a4 : IVec S16x1024 32) (a5 : IVec S16x64 32) (a6 : FVec Ideal S92 .f32)
    (h : fn (F := Ideal) a0 a1 a2 a3 a4 a5 a6 = fun _ => 1#1) (i : S16x64.Idx) : (a2 i).toNat < 92 := by
  have h0 := congrFun h ix0
  dsimp only [fn, fn_part1] at h0
  obtain ⟨h1, hlt⟩ := IntOp.andi_eq_one.1 h0
  obtain ⟨_, hge⟩ := IntOp.andi_eq_one.1 h1
  have hge' := Host.reduce_andi_all _ _ _ _ _ hge i
  have hlt' := Host.reduce_andi_all _ _ _ _ _ hlt i
  exact toNat_lt_of_signed (a2 i) (IntOp.cmpi_sge.1 hge') (IntOp.cmpi_slt.1 hlt')

end Cert.LabelRange

end
-- ==== Proof.KValue.lean ====
/-
  The kernel program computes the loss. The region leaves, for every grid point, the tile of that point's four batch rows;
  the host lines after it add the four tiles and combine five of the sum's entries; regrouped over the 16 batch rows
  that is the loss of the arguments with the labels and ground-truth boxes the host lines before the region scatter.
  The labels are ground-truth classes or zero words, so they are below 92 under the precondition, which is what lets the
  body's one-hot compare pick the label's class.
-/
import proofs.«407362_j87308095193844_3_alg».proof.Proof.KTile
import proofs.«407362_j87308095193844_3_alg».proof.Proof.KBlocks
import proofs.«407362_j87308095193844_3_alg».proof.Proof.KTail
import proofs.«407362_j87308095193844_3_alg».proof.Proof.SpecTiles
import proofs.«407362_j87308095193844_3_alg».proof.Proof.LabelRange
import proofs.«407362_j87308095193844_3_alg».proof.Proof.Gen.Pre_finite_inputs

noncomputable section

namespace Cert.KernelIdeal.LossValue

open Idealize.ShloMosaic Idealize.ShloMosaic.TcCoe Idealize.ShloMosaic.ValueIdx Idealize.SL.Sem Cert.KernelIdeal Cert.KernelIdeal.Gen Cert.Loss

variable (m : (ℓ : Loc nD τ sig) → Buf (Elt Ideal) ℓ)

/-- The precondition, on one core's argument arrays. -/
abbrev PreAt (c : Dev nD) : Prop :=
  Cert.Pre_finite_inputs.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) = fun _ => 1#1

/-- Under the precondition every label the host lines scatter is below 92. -/
theorem labels_lt (c : Dev nD) (hpre : PreAt m c) (i : Cert.Loss.SBQ.Idx) : (Blocks.labels m c i).toNat < 92 := by
  rw [Blocks.labels_eq]
  refine Host.scatter_set_forall _ (fun v : BitVec 32 => v.toNat < 92) _ _ _ (fun j => ?_)
    (Cert.LabelRange.gtClass_lt _ _ _ _ _ _ _ hpre) i
  rw [broadcastInDim_apply _ bcast_S_S16x1024 _ j ix0 (fun a => a.elim0)]
  decide

/-- The tile array the region leaves, entry by entry. -/
def tiles (c : Dev nD) : S4x8x128.Idx → EReal := fun i =>
  tileOf (blkLogits (m ((c.tc : Thread nD τ).loc main_arg0)) (i 0)) (blkLabel (Blocks.labels m c) (i 0))
    (blkWeights (m ((c.tc : Thread nD τ).loc main_arg6)))
    (blkBoxes (m ((c.tc : Thread nD τ).loc main_arg1)) (Blocks.gtBoxes m c) (i 0))
    (blkAux (Blocks.labels m c) (m ((c.tc : Thread nD τ).loc main_arg4)) (i 0)) (i 1)

set_option maxHeartbeats 2000000 in
/-- The kernel program's run: its result is the loss, its arguments end unchanged. -/
theorem run (ρ : Dev nD → PrngReg) (hpre : ∀ c, PreAt m c) :
    θ_run (defs (F := Ideal)) (onTc (τ := τ) (main (F := Ideal))) ⟨m, fun _ => 0, ρ⟩ (fun r => ∀ c : Dev nD,
      r.2.mem ((c.tc : Thread nD τ).loc main_v63)
          = (fun _ => loss (m ((c.tc : Thread nD τ).loc main_arg0)) (m ((c.tc : Thread nD τ).loc main_arg1)) (Blocks.labels m c)
              (Blocks.gtBoxes m c) (m ((c.tc : Thread nD τ).loc main_arg4)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hG : ∀ (c : Dev nD) (t : Fin 4) (r : Fin 8) (l : Fin 128),
      (dats m 0 c).arrAt 5 cfg0.N (ix3 t r l) = tiles m c (ix3 t r l) := by
    intro c t r l
    have h2 := Tile.out0_5_apply (blkLogits (m ((c.tc : Thread nD τ).loc main_arg0)) t) (blkLabel (Blocks.labels m c) t)
      (blkWeights (m ((c.tc : Thread nD τ).loc main_arg6)))
      (blkBoxes (m ((c.tc : Thread nD τ).loc main_arg1)) (Blocks.gtBoxes m c) t)
      (blkAux (Blocks.labels m c) (m ((c.tc : Thread nD τ).loc main_arg4)) t)
      (fun b q => labels_lt m c (hpre c) (ix2 (rowOf t b) q)) r l
    exact (Blocks.out_array m c t r l).trans h2
  refine (θ_run (defs (F := Ideal)) _ _).mono (fun r h c => ⟨(h c).1.trans ?_, (h c).2⟩) (Tail.kernel_run m ρ (tiles m) hG)
  exact congrArg (fun v : EReal => fun _ => v)
    (loss_of_tiles (m ((c.tc : Thread nD τ).loc main_arg0)) (m ((c.tc : Thread nD τ).loc main_arg1)) (Blocks.labels m c)
      (Blocks.gtBoxes m c) (m ((c.tc : Thread nD τ).loc main_arg4)) (m ((c.tc : Thread nD τ).loc main_arg6)))

end Cert.KernelIdeal.LossValue

end
-- ==== Proof.RefValue.lean ====
/-
  The reference's result, from its five sums. Its labels are the ground-truth classes scattered into zeros, so they are
  below 92 when the classes are; and its last operations combine the five sums exactly as the loss does:
  1·(Σ w·nll / Σ w) + 5·(Σ l1 / max(count, 1)) + 2·(1 − Σ giou / 16384).
-/
import proofs.«407362_j87308095193844_3_alg».proof.Proof.RefRead
import proofs.«407362_j87308095193844_3_alg».proof.Proof.Spec
import proofs.«407362_j87308095193844_3_alg».proof.Proof.LibScatterSet

noncomputable section

namespace Cert.ReferenceIdeal.LossValue

open Idealize.ShloMosaic Idealize.ShloMosaic.ValueIdx Cert.ReferenceIdeal Cert.ReferenceIdeal.Gen Cert.ReferenceIdeal.ReadP Cert.Loss

/-- Every label is below 92 when every ground-truth class is: a label is a zero word or one of the classes. -/
theorem labels_lt (x2 x5 : (⟨S16x64, .i32⟩ : BufTy).Contents (Elt Ideal)) (hx2 : ∀ i, (x2 i).toNat < 92) (i : S16x1024.Idx) :
    (val_main_v17 (F := Ideal) x2 x5 i).toNat < 92 := by
  unfold val_main_v17
  refine Host.scatter_set_forall _ (fun v : BitVec 32 => v.toNat < 92) _ _ _ (fun j => ?_) hx2 i
  rw [val_main_v2_apply, val_main_c_apply]; decide

/-- The last operations of the reference: the loss's combination of the five sums. -/
theorem value_of_sums (x0 : (⟨S16x1024x92, .f32⟩ : BufTy).Contents (Elt Ideal)) (x1 : (⟨S16x1024x4, .f32⟩ : BufTy).Contents (Elt Ideal))
    (x2 : (⟨S16x64, .i32⟩ : BufTy).Contents (Elt Ideal)) (x3 : (⟨S16x64x4, .f32⟩ : BufTy).Contents (Elt Ideal))
    (x4 : (⟨S16x1024, .i32⟩ : BufTy).Contents (Elt Ideal)) (x5 : (⟨S16x64, .i32⟩ : BufTy).Contents (Elt Ideal))
    (x6 : (⟨S92, .f32⟩ : BufTy).Contents (Elt Ideal)) (sWnll sW sL1 sGiou sObj : EReal)
    (h49 : val_main_v49 (F := Ideal) x0 x2 x5 x6 ix0 = sWnll) (h50 : val_main_v50 (F := Ideal) x2 x5 x6 ix0 = sW)
    (h67 : val_main_v67 (F := Ideal) x1 x2 x3 x4 x5 ix0 = sL1) (h64 : val_main_v64 (F := Ideal) x2 x5 ix0 = max sObj one)
    (h148 : val_main_v148 (F := Ideal) x1 x2 x3 x4 x5 ix0 = sGiou) :
    val_main_v155 (F := Ideal) x0 x1 x2 x3 x4 x5 x6 ix0 = combine sWnll sW sL1 sGiou sObj := by
  rw [val_main_v155_apply, val_main_v153_apply, val_main_v151_apply, val_main_v152_apply, val_main_v154_apply, val_main_v150_apply,
    val_main_v149_apply, val_main_v51_apply, val_main_v68_apply, h49, h50, h67, h64, h148]
  rfl

end Cert.ReferenceIdeal.LossValue

end
-- ==== Proof.RefClass.lean ====
import proofs.«407362_j87308095193844_3_alg».proof.Proof.RefRead
import proofs.«407362_j87308095193844_3_alg».proof.Proof.Spec
import Idealize.ShloMosaic.Lib.ValueIdx
import Idealize.ShloMosaic.PureOps.Ideal.Laws
import Idealize.ShloMosaic.Lib.Pipeline.Value
import Idealize.ShloMosaic.Lib.ValueLayout
import Idealize.ShloMosaic.Lib.StableHlo.Predicate

noncomputable section

namespace Cert.ReferenceIdeal.ClassTerm

open Idealize.ShloMosaic Idealize.ShloMosaic.ValueIdx Cert.ReferenceIdeal Cert.ReferenceIdeal.Gen Cert.ReferenceIdeal.ReadP Cert.Loss

/-! ## Label words below 92 -/

/-- A word below 92 read signed is the word read unsigned. -/
theorem toInt_label {l : BitVec 32} (h : l.toNat < 92) : l.toInt = (l.toNat : Int) :=
  BitVec.toInt_eq_toNat_of_lt (by omega)

/-- Such a word is not negative … -/
theorem slt_zero_label {l : BitVec 32} (h : l.toNat < 92) : IntOp.cmpi .slt l 0#32 = 0#1 := by
  refine eq_zero_of_ne_one fun e => ?_
  rw [IntOp.cmpi_slt, toInt_label h] at e
  have : (0#32 : BitVec 32).toInt = 0 := by decide
  omega

/-- … it is at least 0 … -/
theorem sge_zero_label {l : BitVec 32} (h : l.toNat < 92) : IntOp.cmpi .sge l 0#32 = 1#1 := by
  rw [IntOp.cmpi_sge, toInt_label h]
  have : (0#32 : BitVec 32).toInt = 0 := by decide
  omega

/-- … and at most 91. -/
theorem sle_91_label {l : BitVec 32} (h : l.toNat < 92) : IntOp.cmpi .sle l 91#32 = 1#1 := by
  rw [IntOp.cmpi_sle, toInt_label h]
  have : (91#32 : BitVec 32).toInt = 91 := by decide
  omega

/-- Clamped into [0, 91] it names its own class. -/
theorem clamp_label {l : BitVec 32} (h : l.toNat < 92) : min l.toInt.toNat (92 - 1) = (cls l).val := by
  rw [cls_val h, toInt_label h]
  omega

/-! ## The labels, flattened to 16384 rows -/

section
variable (x0 : (⟨S16x1024x92, .f32⟩ : BufTy).Contents (Elt Ideal))
  (x2 x5 : (⟨S16x64, .i32⟩ : BufTy).Contents (Elt Ideal)) (x6 : (⟨S92, .f32⟩ : BufTy).Contents (Elt Ideal))

/-- The rank-1 index at a coordinate: its two definitions are one index. -/
theorem ofFin_eq_ix1 {n : Nat} (p : Fin n) : Shape.Idx.ofFin p = ix1 p := by
  funext a; match a with | ⟨0, _⟩ => rfl

/-- Row n of the flattened labels is the label of query n % 1024 of batch row n / 1024; being in [0, 92) it is kept by the
    wrap of negative indices. -/
theorem v45_label (hlab : ∀ i, (val_main_v17 (F := Ideal) x2 x5 i).toNat < 92) (j : S16384.Idx) :
    val_main_v45 (F := Ideal) x2 x5 j = val_main_v17 (F := Ideal) x2 x5 (idx_main_v36 j) := by
  rw [val_main_v45_apply, val_main_v42_apply, val_main_v41_apply, val_main_c_8_apply, val_main_v36_apply,
    slt_zero_label (hlab _), select_zero]

/-- The class weight gathered at row n is the weight of the row's label. -/
theorem v47_apply (hlab : ∀ i, (val_main_v17 (F := Ideal) x2 x5 i).toNat < 92) (j : S16384.Idx) :
    val_main_v47 (F := Ideal) x2 x5 x6 j
      = wOf (fun c => x6 (ix1 c)) (val_main_v17 (F := Ideal) x2 x5 (idx_main_v36 j)) := by
  obtain ⟨n, rfl⟩ : ∃ n, j = ix1 n := ⟨j 0, eq_ix1 j⟩
  unfold val_main_v47 wOf
  rw [← ofFin_eq_ix1 n]
  refine (StableHlo.Predicate.gather_take gather_S92_S16384x1_S16384_n_0_n_n_0_1_1 rfl rfl rfl rfl x6
    (val_main_v46 (F := Ideal) x2 x5) n (by decide)).trans ?_
  rw [ofFin_eq_ix1]
  refine congrArg x6 (congrArg ix1 (Fin.ext ?_))
  have e : val_main_v46 (F := Ideal) x2 x5 (StableHlo.Predicate.ixP n)
      = val_main_v17 (F := Ideal) x2 x5 (idx_main_v36 (ix1 n)) := by
    rw [val_main_v46_apply]
    exact v45_label x2 x5 hlab _
  show min (val_main_v46 (F := Ideal) x2 x5 (StableHlo.Predicate.ixP n)).toInt.toNat (92 - 1) = _
  rw [e, ofFin_eq_ix1]
  exact clamp_label (hlab _)

/-! ## The sum over the 16384 rows is the sum over batch rows and queries -/

/-- Row n is query n % 1024 of batch row n / 1024, and (b, q) is row 1024·b + q. -/
def rowEquiv : S16384.Idx ≃ S16x1024.Idx where
  toFun j := idx_main_v36 j
  invFun i := ix1 ⟨1024 * (i 0).val + (i 1).val, by have h0 := idx2_lt0 i; have h1 := idx2_lt1 i; omega⟩
  left_inv j := by
    funext a
    match a with
    | ⟨0, _⟩ => exact Fin.ext (show 1024 * ((j 0).val / 1024) + (j 0).val % 1024 = (j 0).val by omega)
  right_inv i := by
    have h1 := idx2_lt1 i
    funext a
    match a with
    | ⟨0, _⟩ => exact Fin.ext (show (1024 * (i 0).val + (i 1).val) / 1024 = (i 0).val by omega)
    | ⟨1, _⟩ => exact Fin.ext (show (1024 * (i 0).val + (i 1).val) % 1024 = (i 1).val by omega)

/-- A sum over the rows of a function of the row's (batch row, query) pair is the sum over the pairs. -/
theorem sum_rows (g : S16x1024.Idx → EReal) :
    ∑ j : S16384.Idx, g (idx_main_v36 j) = total fun b q => g (ix2 b q) :=
  (Equiv.sum_comp rowEquiv g).trans (sum_idx2 g)

/-! ## The sum of the class weights -/

theorem weight_sum (hlab : ∀ i, (val_main_v17 (F := Ideal) x2 x5 i).toNat < 92) :
    val_main_v50 (F := Ideal) x2 x5 x6 ix0 = total (wAt (val_main_v17 (F := Ideal) x2 x5) x6) := by
  rw [val_main_v50_apply, val_main_cst_11_apply, Ideal.ofBits_def, Ideal.ofBits_zero_f32, zero_add]
  refine (Finset.sum_congr rfl fun j _ => v47_apply x2 x5 x6 hlab j).trans ?_
  exact sum_rows fun i => wOf (fun c => x6 (ix1 c)) (val_main_v17 (F := Ideal) x2 x5 i)

/-! ## The log-softmax of a row of logits -/

/-- The maximum of a row of logits, folded from -∞. -/
theorem call0_v0_apply (b : Fin 16) (q : Fin 1024) :
    val_main_call0_v0 (F := Ideal) x0 (ix2 b q)
      = (Finset.univ : Finset (Fin 92)).fold max negInf fun c => x0 (ix3 b q c) := by
  have h : S16x1024x92.Reduces [2] S16x1024 := by decide
  unfold val_main_call0_v0
  refine (Host.reduce_eq_fold_single (FloatOps.maximumf (F := Ideal) (φ := .f32)) x0 _
    reducesTo_S16x1024x92_S16x1024_d2 h h_S_ (ix2 b q)).trans ?_
  have hf : (x0 ∘ h.lift (ix2 b q)) = fun c : Fin 92 => x0 (ix3 b q c) :=
    funext fun k => congrArg x0 (by funext c; apply Fin.ext; fin_cases c <;> rfl)
  exact congrArg (fun f => Finset.fold max negInf f (Finset.univ : Finset (Fin 92))) hf

/-- The shift subtracted from every logit of the row. -/
theorem v4_apply (b : Fin 16) (q : Fin 1024) (k : Fin 92) :
    val_main_call0_v4 (F := Ideal) x0 (ix3 b q k) = shift fun c => x0 (ix3 b q c) := by
  have hidx : idx_main_call0_v3 (idx_main_call0_v4 (ix3 b q k)) = ix2 b q := by
    funext a; match a with | ⟨0, _⟩ => rfl | ⟨1, _⟩ => rfl
  rw [val_main_call0_v4_apply, val_main_call0_v3_apply, hidx, val_main_call0_v2_apply, val_main_call0_v1_apply,
    val_main_call0_cst_0_apply, call0_v0_apply]
  rfl

theorem v5_apply (b : Fin 16) (q : Fin 1024) (k : Fin 92) :
    val_main_call0_v5 (F := Ideal) x0 (ix3 b q k) = x0 (ix3 b q k) - shift fun c => x0 (ix3 b q c) := by
  rw [val_main_call0_v5_apply, v4_apply]
  rfl

/-- The sum of the exponentials of the shifted logits. -/
theorem v7_apply (b : Fin 16) (q : Fin 1024) :
    val_main_call0_v7 (F := Ideal) x0 (ix2 b q)
      = ∑ k : Fin 92, Ideal.exp (x0 (ix3 b q k) - shift fun c => x0 (ix3 b q c)) := by
  rw [val_main_call0_v7_apply, val_main_call0_cst_1_apply, Ideal.ofBits_def, Ideal.ofBits_zero_f32, zero_add]
  refine Finset.sum_congr rfl fun k _ => ?_
  have hidx : idx_main_call0_v7 (ix2 b q) k = ix3 b q k := by
    funext a; match a with | ⟨0, _⟩ => rfl | ⟨1, _⟩ => rfl | ⟨2, _⟩ => rfl
  rw [hidx, val_main_call0_v6_apply, v5_apply]
  rfl

theorem v10_apply (b : Fin 16) (q : Fin 1024) (k : Fin 92) :
    val_main_call0_v10 (F := Ideal) x0 (ix3 b q k)
      = Ideal.log (∑ k : Fin 92, Ideal.exp (x0 (ix3 b q k) - shift fun c => x0 (ix3 b q c))) := by
  have hidx : idx_main_call0_v8 (idx_main_call0_v10 (ix3 b q k)) = ix2 b q := by
    funext a; match a with | ⟨0, _⟩ => rfl | ⟨1, _⟩ => rfl
  rw [val_main_call0_v10_apply, val_main_call0_v9_apply, val_main_call0_v8_apply, hidx, v7_apply]
  rfl

/-- The reference's log-softmax at (b, q, c) is the log-softmax of row (b, q) at class c. -/
theorem v34_apply (b : Fin 16) (q : Fin 1024) (c : Fin 92) :
    val_main_v34 (F := Ideal) x0 (ix3 b q c) = logSoftmax (fun k => x0 (ix3 b q k)) c := by
  rw [val_main_v34_apply, v5_apply, v10_apply]
  rfl

/-! ## The log-softmax taken at the row's label -/

/-- The start index of row n: the row's label (in [0, 92), so the wrap of negative indices keeps it). -/
theorem call1_v5_label (hlab : ∀ i, (val_main_v17 (F := Ideal) x2 x5 i).toNat < 92) (i : S16384x1x1.Idx) :
    val_main_call1_v5 (F := Ideal) x2 x5 i
      = val_main_v17 (F := Ideal) x2 x5 (idx_main_v36 (idx_main_v37 (idx_main_call1_v5 i))) := by
  rw [val_main_call1_v5_apply, val_main_call1_v4_apply, val_main_call1_v1_apply, val_main_call1_v0_apply,
    val_main_call1_c_apply, val_main_v37_apply, val_main_v36_apply, slt_zero_label (hlab _), select_zero]

/-- Every start index is in range: 0 ≤ label ≤ 91. -/
theorem call1_v11_true (hlab : ∀ i, (val_main_v17 (F := Ideal) x2 x5 i).toNat < 92) (i : S16384x1x1.Idx) :
    val_main_call1_v11 (F := Ideal) x2 x5 i = 1#1 := by
  rw [val_main_call1_v11_apply, val_main_call1_v7_apply, val_main_call1_v10_apply, val_main_call1_v6_apply,
    val_main_call1_c_2_apply, val_main_call1_v9_apply, val_main_call1_v8_apply, val_main_call1_c_1_apply,
    call1_v5_label x2 x5 hlab, sge_zero_label (hlab _), sle_91_label (hlab _)]
  rfl

/-- An "and" of ones, from one, is one. -/
theorem fold_andi_one {ι : Type} (s : Finset ι) (f : ι → BitVec 1) (hf : ∀ k, f k = 1#1) :
    s.fold IntOp.andi 1#1 f = 1#1 := by
  classical
  obtain rfl : f = fun _ => 1#1 := funext hf
  induction s using Finset.induction_on with
  | empty => rfl
  | insert a s ha ih => rw [Finset.fold_insert ha, ih]; rfl

/-- So the in-range mask is set on every row. -/
theorem call1_v12_true (hlab : ∀ i, (val_main_v17 (F := Ideal) x2 x5 i).toNat < 92) (i : S16384x1.Idx) :
    val_main_call1_v12 (F := Ideal) x2 x5 i = 1#1 := by
  have h : S16384x1x1.Reduces [2] S16384x1 := by decide
  unfold val_main_call1_v12
  refine (Host.reduce_eq_fold_single (IntOp.andi (w := 1)) (val_main_call1_v11 (F := Ideal) x2 x5) _
    reducesTo_S16384x1x1_S16384x1_d2 h h_S_ i).trans ?_
  exact fold_andi_one _ _ fun k => call1_v11_true x2 x5 hlab _

/-- The gather with a batching axis: element (n, 0) of the result is the operand's row n at the row's start index, read
    signed and clamped into [0, 91]. -/
theorem gather_rows {α : Type} (x : S16384x92.Idx → α) (idx : IVec S16384x1x1 32) (n : Fin 16384) :
    Host.gather gather_S16384x92_S16384x1x1_S16384x1_n_1_0_0_1_2_11 x idx (ix2 n 0)
      = x (ix2 n ⟨min (idx (ix3 n 0 0)).toInt.toNat (92 - 1), by omega⟩) := by
  unfold Host.gather
  refine congrArg x ?_
  funext a
  refine Fin.ext ?_
  match a with
  | ⟨0, _⟩ =>
    -- the batching axis: no start, the row's own coordinate, no offset
    have hs : gather_S16384x92_S16384x1x1_S16384x1_n_1_0_0_1_2_11.start (ix2 n 0) idx 0 = 0 := rfl
    have hb : gather_S16384x92_S16384x1x1_S16384x1_n_1_0_0_1_2_11.batchCoord (ix2 n 0) 0 = n.val := rfl
    have ho : gather_S16384x92_S16384x1x1_S16384x1_n_1_0_0_1_2_11.offCoord (ix2 n 0) 0 = 0 := rfl
    show gather_S16384x92_S16384x1x1_S16384x1_n_1_0_0_1_2_11.start (ix2 n 0) idx 0 + gather_S16384x92_S16384x1x1_S16384x1_n_1_0_0_1_2_11.batchCoord (ix2 n 0) 0 + gather_S16384x92_S16384x1x1_S16384x1_n_1_0_0_1_2_11.offCoord (ix2 n 0) 0 = n.val
    rw [hs, hb, ho, Nat.zero_add, Nat.add_zero]
  | ⟨1, _⟩ =>
    -- the collapsed axis: the clamped start index, no batching coordinate, no offset
    have hb : gather_S16384x92_S16384x1x1_S16384x1_n_1_0_0_1_2_11.batchCoord (ix2 n 0) 1 = 0 := rfl
    have ho : gather_S16384x92_S16384x1x1_S16384x1_n_1_0_0_1_2_11.offCoord (ix2 n 0) 1 = 0 := rfl
    show gather_S16384x92_S16384x1x1_S16384x1_n_1_0_0_1_2_11.start (ix2 n 0) idx 1 + gather_S16384x92_S16384x1x1_S16384x1_n_1_0_0_1_2_11.batchCoord (ix2 n 0) 1 + gather_S16384x92_S16384x1x1_S16384x1_n_1_0_0_1_2_11.offCoord (ix2 n 0) 1 = _
    rw [hb, ho, Nat.add_zero]
    unfold GatherDims.start
    rw [dif_pos (show (1 : Fin 2) ∈ gather_S16384x92_S16384x1x1_S16384x1_n_1_0_0_1_2_11.startIndexMap from List.mem_singleton.mpr rfl)]
    have hsi : gather_S16384x92_S16384x1x1_S16384x1_n_1_0_0_1_2_11.siIdx (ix2 n 0) ⟨List.idxOf (1 : Fin 2) gather_S16384x92_S16384x1x1_S16384x1_n_1_0_0_1_2_11.startIndexMap,
        List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [hsi]
    rfl

/-- Element (n, c) of the flattened log-softmax is element (n / 1024, n % 1024, c) of the log-softmax. -/
theorem idx35 (n : Fin 16384) (c : Fin 92) :
    idx_main_v35 (ix2 n c) = ix3 ((idx_main_v36 (ix1 n)) 0) ((idx_main_v36 (ix1 n)) 1) c := by
  have hc := c.isLt
  funext a
  match a with
  | ⟨0, _⟩ => exact Fin.ext (show (n.val * 92 + c.val) / 94208 = n.val / 1024 by omega)
  | ⟨1, _⟩ => exact Fin.ext (show (n.val * 92 + c.val) / 92 % 1024 = n.val % 1024 by omega)
  | ⟨2, _⟩ => exact Fin.ext (show (n.val * 92 + c.val) % 92 = c.val by omega)

/-- The pick of row n: the row's log-softmax at the class of its label. -/
theorem v13_apply (hlab : ∀ i, (val_main_v17 (F := Ideal) x2 x5 i).toNat < 92) (n : Fin 16384) :
    val_main_call1_v13 (F := Ideal) x0 x2 x5 (ix2 n 0)
      = logSoftmax (fun k => x0 (ix3 ((idx_main_v36 (ix1 n)) 0) ((idx_main_v36 (ix1 n)) 1) k))
          (cls (val_main_v17 (F := Ideal) x2 x5 (idx_main_v36 (ix1 n)))) := by
  have e : val_main_call1_v5 (F := Ideal) x2 x5 (ix3 n 0 0)
      = val_main_v17 (F := Ideal) x2 x5 (idx_main_v36 (ix1 n)) := by
    rw [call1_v5_label x2 x5 hlab]
    refine congrArg (fun i => val_main_v17 (F := Ideal) x2 x5 (idx_main_v36 i)) ?_
    funext a
    match a with
    | ⟨0, _⟩ => exact Fin.ext (show ((n.val * 1 + 0) * 1 + 0) / 1 = n.val by omega)
  have hc : (⟨min (val_main_call1_v5 (F := Ideal) x2 x5 (ix3 n 0 0)).toInt.toNat (92 - 1), by omega⟩ : Fin 92)
      = cls (val_main_v17 (F := Ideal) x2 x5 (idx_main_v36 (ix1 n))) :=
    Fin.ext (by
      show min (val_main_call1_v5 (F := Ideal) x2 x5 (ix3 n 0 0)).toInt.toNat (92 - 1) = _
      rw [e]; exact clamp_label (hlab _))
  unfold val_main_call1_v13
  refine (gather_rows (val_main_v35 (F := Ideal) x0) (val_main_call1_v5 (F := Ideal) x2 x5) n).trans ?_
  rw [hc, val_main_v35_apply, idx35]
  exact v34_apply x0 _ _ _

/-- The negated pick of row n: the negative log-likelihood of the row's label under the row's logits. -/
theorem v40_apply (hlab : ∀ i, (val_main_v17 (F := Ideal) x2 x5 i).toNat < 92) (j : S16384.Idx) :
    val_main_v40 (F := Ideal) x0 x2 x5 j
      = nllOf (fun c => x0 (ix3 ((idx_main_v36 j) 0) ((idx_main_v36 j) 1) c))
          (val_main_v17 (F := Ideal) x2 x5 (idx_main_v36 j)) := by
  obtain ⟨n, rfl⟩ : ∃ n, j = ix1 n := ⟨j 0, eq_ix1 j⟩
  have hidx : idx_main_v39 (ix1 n) = ix2 n 0 := by
    funext a
    match a with
    | ⟨0, _⟩ => exact Fin.ext (show n.val / 1 = n.val from Nat.div_one _)
    | ⟨1, _⟩ => rfl
  rw [val_main_v40_apply, val_main_v39_apply, hidx, val_main_v38_apply, call1_v12_true x2 x5 hlab, select_one,
    v13_apply x0 x2 x5 hlab]
  rfl

/-! ## The sum of the weighted negative log-likelihoods -/

theorem weightedNll_sum (hlab : ∀ i, (val_main_v17 (F := Ideal) x2 x5 i).toNat < 92) :
    val_main_v49 (F := Ideal) x0 x2 x5 x6 ix0
      = total fun b q => wAt (val_main_v17 (F := Ideal) x2 x5) x6 b q * nllAt x0 (val_main_v17 (F := Ideal) x2 x5) b q := by
  rw [val_main_v49_apply, val_main_cst_10_apply, Ideal.ofBits_def, Ideal.ofBits_zero_f32, zero_add]
  refine (Finset.sum_congr rfl fun j _ => ?_).trans
    (sum_rows fun i => wOf (fun c => x6 (ix1 c)) (val_main_v17 (F := Ideal) x2 x5 i)
      * nllOf (fun c => x0 (ix3 (i 0) (i 1) c)) (val_main_v17 (F := Ideal) x2 x5 i))
  rw [val_main_v48_apply, v47_apply x2 x5 x6 hlab, v40_apply x0 x2 x5 hlab]
  rfl

end

end Cert.ReferenceIdeal.ClassTerm

end
-- ==== Proof.RefBoxes.lean ====
import proofs.«407362_j87308095193844_3_alg».proof.Proof.RefRead
import proofs.«407362_j87308095193844_3_alg».proof.Proof.Spec
import Idealize.ShloMosaic.Lib.ValueIdx
import Idealize.ShloMosaic.PureOps.Ideal.Laws
import Idealize.ShloMosaic.Lib.Pipeline.Value
import Idealize.ShloMosaic.Lib.ValueLayout
import Idealize.ShloMosaic.Lib.StableHlo.Predicate

noncomputable section

namespace Cert.ReferenceIdeal.BoxTerm

open Idealize.ShloMosaic Idealize.ShloMosaic.ValueIdx Cert.ReferenceIdeal Cert.ReferenceIdeal.Gen Cert.ReferenceIdeal.ReadP Cert.Loss

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The two masks at a query -/

section
variable (x1 : (⟨S16x1024x4, .f32⟩ : BufTy).Contents (Elt Ideal)) (x2 : (⟨S16x64, .i32⟩ : BufTy).Contents (Elt Ideal))
  (x3 : (⟨S16x64x4, .f32⟩ : BufTy).Contents (Elt Ideal)) (x4 : (⟨S16x1024, .i32⟩ : BufTy).Contents (Elt Ideal))
  (x5 : (⟨S16x64, .i32⟩ : BufTy).Contents (Elt Ideal))

/-- The coordinate a [16, 1024, 1] column keeps of a query. -/
theorem idx54_at (b : Fin 16) (q : Fin 1024) : idx_main_v54 (ix3 b q (0 : Fin 1)) = ix2 b q := by
  funext a; match a with | ⟨0, _⟩ => rfl | ⟨1, _⟩ => rfl

theorem idx57_at (b : Fin 16) (q : Fin 1024) : idx_main_v57 (ix3 b q (0 : Fin 1)) = ix2 b q := by
  funext a; match a with | ⟨0, _⟩ => rfl | ⟨1, _⟩ => rfl

theorem idxc2_at (b : Fin 16) (q : Fin 1024) (k : Fin 4) : idx_main_call2_v1 (ix3 b q k) = ix3 b q (0 : Fin 1) := by
  funext a; match a with | ⟨0, _⟩ => rfl | ⟨1, _⟩ => rfl | ⟨2, _⟩ => rfl

theorem idxc3_at (b : Fin 16) (q : Fin 1024) (k : Fin 4) : idx_main_call3_v1 (ix3 b q k) = ix3 b q (0 : Fin 1) := by
  funext a; match a with | ⟨0, _⟩ => rfl | ⟨1, _⟩ => rfl | ⟨2, _⟩ => rfl

/-- The row-index mask is set exactly at the unmatched queries. -/
theorem v53_at (b : Fin 16) (q : Fin 1024) :
    val_main_v53 (F := Ideal) x4 (ix2 b q) = 1#1 ↔ unmatched (x4 (ix2 b q)) := by
  rw [val_main_v53_apply, val_main_v52_apply, val_main_c_12_apply]
  exact StableHlo.Predicate.cmpi_eq_iff

/-- The label mask is set exactly at the background queries. -/
theorem v56_at (b : Fin 16) (q : Fin 1024) :
    val_main_v56 (F := Ideal) x2 x5 (ix2 b q) = 1#1 ↔ background (val_main_v17 (F := Ideal) x2 x5 (ix2 b q)) := by
  rw [val_main_v56_apply, val_main_v55_apply, val_main_c_13_apply]
  exact StableHlo.Predicate.cmpi_eq_iff

/-- The predicted box the reference keeps: zero at an unmatched or background query. -/
theorem v59_at (b : Fin 16) (q : Fin 1024) (k : Fin 4) :
    val_main_v59 (F := Ideal) x1 x2 x4 x5 (ix3 b q k)
      = predBox (fun k => x1 (ix3 b q k)) (val_main_v17 (F := Ideal) x2 x5 (ix2 b q)) (x4 (ix2 b q)) k := by
  rw [val_main_v59_apply, val_main_call2_v1_apply, val_main_v58_apply, val_main_v54_apply, val_main_v57_apply,
    val_main_call2_v2_apply, val_main_call2_v0_apply, val_main_cst_14_apply, idxc2_at, idx54_at, idx57_at,
    Ideal.ofBits_def, Ideal.ofBits_zero_f32]
  unfold predBox Scalar.select
  exact if_congr (IntOp.ori_eq_one.trans (or_congr (v53_at x4 b q) (v56_at x2 x5 b q))) rfl rfl

/-- The ground-truth box the reference keeps: zero at an unmatched query. -/
theorem v60_at (b : Fin 16) (q : Fin 1024) (k : Fin 4) :
    val_main_v60 (F := Ideal) x3 x4 x5 (ix3 b q k)
      = gtBox (fun k => val_main_v33 (F := Ideal) x3 x5 (ix3 b q k)) (x4 (ix2 b q)) k := by
  rw [val_main_v60_apply, val_main_call3_v1_apply, val_main_v54_apply,
    val_main_call3_v2_apply, val_main_call3_v0_apply, val_main_cst_15_apply, idxc3_at, idx54_at,
    Ideal.ofBits_def, Ideal.ofBits_zero_f32]
  unfold gtBox Scalar.select
  exact if_congr (v53_at x4 b q) rfl rfl

/-- One coordinate's term of the L1 distance. -/
theorem v66_at (b : Fin 16) (q : Fin 1024) (k : Fin 4) :
    val_main_v66 (F := Ideal) x1 x2 x3 x4 x5 (ix3 b q k)
      = absE (predBox (fun k => x1 (ix3 b q k)) (val_main_v17 (F := Ideal) x2 x5 (ix2 b q)) (x4 (ix2 b q)) k
          - gtBox (fun k => val_main_v33 (F := Ideal) x3 x5 (ix3 b q k)) (x4 (ix2 b q)) k) := by
  rw [val_main_v66_apply, val_main_v65_apply, v59_at, v60_at]
  rfl

/-- The reference's L1 sum is the total of the per-query L1 distances. -/
theorem l1_sum :
    val_main_v67 (F := Ideal) x1 x2 x3 x4 x5 ix0
      = total (l1At x1 (val_main_v17 (F := Ideal) x2 x5) (val_main_v33 (F := Ideal) x3 x5) x4) := by
  rw [val_main_v67_apply, val_main_cst_18_apply, Ideal.ofBits_def, Ideal.ofBits_zero_f32, zero_add, sum_idx3]
  unfold total
  refine Finset.sum_congr rfl fun b _ => Finset.sum_congr rfl fun q _ => ?_
  rw [Fin.sum_univ_four, v66_at, v66_at, v66_at, v66_at]
  rfl

/-! ## The background count -/

/-- The word 0x3F800000 is 1: exponent field 127, no fraction, so 2^23 · 2^(127 - 127 - 23). -/
theorem one_eq : (one : EReal) = 1 := by
  simp [one, Ideal.ofBits, Ideal.ieee]
  rw [← EReal.coe_mul, ← EReal.coe_one]
  exact congrArg _ (by norm_num)

/-- The number of background queries. -/
def bgCount (lab : SBQ.Idx → BitVec 32) : ℕ :=
  ∑ b : Fin 16, ∑ q : Fin 1024, if background (lab (ix2 b q)) then 1 else 0

/-- There are at most 16 · 1024 of them. -/
theorem bgCount_le (lab : SBQ.Idx → BitVec 32) : bgCount lab ≤ 16384 := by
  unfold bgCount
  calc _ ≤ ∑ _b : Fin 16, ∑ _q : Fin 1024, 1 :=
        Finset.sum_le_sum fun b _ => Finset.sum_le_sum fun q _ => by split <;> omega
    _ = 16384 := by simp

/-- The total of the 1 / 0 indicators is that number. -/
theorem total_objAt (lab : SBQ.Idx → BitVec 32) : total (objAt lab) = ((bgCount lab : ℕ) : EReal) := by
  unfold total objAt objOf bgCount
  push_cast
  rfl

/-- The larger, as signed words, of a small non-negative word and 1 is the larger of the two values. -/
theorem maxsi_one_toInt (w : BitVec 32) (hw : w.toNat < 2 ^ 31) :
    (IntOp.maxsi w 1#32).toInt = max (w.toNat : ℤ) 1 := by
  have hti : w.toInt = w.toNat := StableHlo.Predicate.toInt_eq_toNat_of_lt hw
  have h1 : (1#32 : BitVec 32).toInt = 1 := by decide
  unfold IntOp.maxsi
  split <;> rename_i hc <;> simp only [BitVec.slt, hti, h1, decide_eq_true_eq] at hc
  · rw [hti]; omega
  · rw [h1]; omega

/-- The integer sum of the widened label mask is the number of background queries: 16384 words, each 0 or 1,
    so the 32-bit additions never wrap. -/
theorem v62_toNat :
    (val_main_v62 (F := Ideal) x2 x5 ix0).toNat = bgCount (val_main_v17 (F := Ideal) x2 x5) := by
  classical
  unfold val_main_v62
  rw [Host.reduce_eq_fold]
  have hall : (Finset.univ.filter fun i : S16x1024x1.Idx => reducesTo_S16x1024x1_S_d0_1_2.drop i = ix0) = Finset.univ :=
    Finset.filter_true_of_mem fun i _ => (eq_ix0 _)
  rw [hall]
  have hval : ∀ i, (val_main_v61 (F := Ideal) x2 x5 i).toNat
      = if val_main_v57 (F := Ideal) x2 x5 i = 1#1 then 1 else 0 :=
    fun i => StableHlo.Predicate.toNat_setWidth_bit _
  have hsum : ∑ i, (val_main_v61 (F := Ideal) x2 x5 i).toNat = bgCount (val_main_v17 (F := Ideal) x2 x5) := by
    rw [sum_idx3]
    unfold bgCount
    refine Finset.sum_congr rfl fun b _ => Finset.sum_congr rfl fun q _ => ?_
    rw [Fin.sum_univ_one, hval, val_main_v57_apply, idx57_at]
    exact if_congr (v56_at x2 x5 b q) rfl rfl
  show (Finset.fold IntOp.addi 0#32 (val_main_v61 (F := Ideal) x2 x5) Finset.univ).toNat = _
  rw [StableHlo.Predicate.toNat_fold_addi _ _ (by rw [hsum]; exact lt_of_le_of_lt (bgCount_le _) (by norm_num)), hsum]

/-- The reference's divisor is the background count, at least 1, as an extended real. -/
theorem obj_count :
    val_main_v64 (F := Ideal) x2 x5 ix0 = max (total (objAt (val_main_v17 (F := Ideal) x2 x5))) one := by
  have hlt : (val_main_v62 (F := Ideal) x2 x5 ix0).toNat < 2 ^ 31 := by
    rw [v62_toNat]; exact lt_of_le_of_lt (bgCount_le _) (by norm_num)
  rw [val_main_v64_apply, val_main_v63_apply, val_main_c_17_apply, total_objAt, one_eq]
  show (((IntOp.maxsi (val_main_v62 (F := Ideal) x2 x5 ix0) 1#32).toInt : ℝ) : EReal) = _
  rw [maxsi_one_toInt _ hlt, v62_toNat, Int.cast_max, EReal.coe_strictMono.monotone.map_max, Int.cast_natCast,
    Int.cast_one, EReal.coe_one]
  rfl

end

end Cert.ReferenceIdeal.BoxTerm

end
-- ==== Proof.RefGiou.lean ====
import proofs.«407362_j87308095193844_3_alg».proof.Proof.RefRead
import proofs.«407362_j87308095193844_3_alg».proof.Proof.Spec
import Idealize.ShloMosaic.Lib.ValueIdx
import Idealize.ShloMosaic.PureOps.Ideal.Laws
import Idealize.ShloMosaic.Lib.Pipeline.Value
import Idealize.ShloMosaic.Lib.ValueLayout
import Idealize.ShloMosaic.Lib.StableHlo.Predicate

noncomputable section

namespace Cert.ReferenceIdeal.GiouTerm

open Idealize.ShloMosaic Idealize.ShloMosaic.ValueIdx Cert.ReferenceIdeal Cert.ReferenceIdeal.Gen Cert.ReferenceIdeal.ReadP Cert.Loss

/-! ## Reading an array at an index named by its coordinates -/

/-- A rank-2 read depends on the index's coordinates only. -/
theorem at2 {α : Type} {n0 n1 : Nat} (y : (⟨2, ![n0, n1]⟩ : Shape).Idx → α) (j : (⟨2, ![n0, n1]⟩ : Shape).Idx)
    (a : Fin n0) (b : Fin n1) (h0 : (j 0).val = a.val) (h1 : (j 1).val = b.val) : y j = y (ix2 a b) := by
  congr 1; funext d
  match d with
  | ⟨0, _⟩ => exact Fin.ext h0
  | ⟨1, _⟩ => exact Fin.ext h1

/-- A rank-3 read depends on the index's coordinates only. -/
theorem at3 {α : Type} {n0 n1 n2 : Nat} (y : (⟨3, ![n0, n1, n2]⟩ : Shape).Idx → α) (j : (⟨3, ![n0, n1, n2]⟩ : Shape).Idx)
    (a : Fin n0) (b : Fin n1) (c : Fin n2) (h0 : (j 0).val = a.val) (h1 : (j 1).val = b.val) (h2 : (j 2).val = c.val) :
    y j = y (ix3 a b c) := by
  congr 1; funext d
  match d with
  | ⟨0, _⟩ => exact Fin.ext h0
  | ⟨1, _⟩ => exact Fin.ext h1
  | ⟨2, _⟩ => exact Fin.ext h2

/-- A rank-4 read depends on the index's coordinates only. -/
theorem at4 {α : Type} {n0 n1 n2 n3 : Nat} (y : (⟨4, ![n0, n1, n2, n3]⟩ : Shape).Idx → α)
    (j : (⟨4, ![n0, n1, n2, n3]⟩ : Shape).Idx) (a : Fin n0) (b : Fin n1) (c : Fin n2) (d : Fin n3)
    (h0 : (j 0).val = a.val) (h1 : (j 1).val = b.val) (h2 : (j 2).val = c.val) (h3 : (j 3).val = d.val) :
    y j = y (ix4 a b c d) := by
  congr 1; funext e
  match e with
  | ⟨0, _⟩ => exact Fin.ext h0
  | ⟨1, _⟩ => exact Fin.ext h1
  | ⟨2, _⟩ => exact Fin.ext h2
  | ⟨3, _⟩ => exact Fin.ext h3

/-! ## Row-major positions of [16, 1024] and [16, 1024, 1024] split back into their coordinates -/

theorem rs2_0 (b : Fin 16) (q : Fin 1024) : (b.val * 1024 + q.val) / 1024 = b.val := by
  have := b.isLt; have := q.isLt; omega
theorem rs2_1 (b : Fin 16) (q : Fin 1024) : (b.val * 1024 + q.val) / 1 % 1024 = q.val := by
  have := b.isLt; have := q.isLt; omega
theorem rs3_0 (b : Fin 16) (i j : Fin 1024) : ((b.val * 1024 + i.val) * 1024 + j.val) / 1048576 = b.val := by
  have := b.isLt; have := i.isLt; have := j.isLt; omega
theorem rs3_1 (b : Fin 16) (i j : Fin 1024) : ((b.val * 1024 + i.val) * 1024 + j.val) / 1024 % 1024 = i.val := by
  have := b.isLt; have := i.isLt; have := j.isLt; omega
theorem rs3_2 (b : Fin 16) (i j : Fin 1024) : ((b.val * 1024 + i.val) * 1024 + j.val) / 1 % 1024 = j.val := by
  have := b.isLt; have := i.isLt; have := j.isLt; omega

/-- Of two one-bit words, the "or" is set exactly when one of them is. -/
theorem ori_eq_one (x y : BitVec 1) : IntOp.ori x y = 1#1 ↔ x = 1#1 ∨ y = 1#1 := by
  revert x y; decide

/-- A number below 1024 as a 32-bit word: its unsigned reading is the number. -/
theorem toNat_ofNat_lt (i : Fin 1024) : (BitVec.ofNat 32 i.val).toNat = i.val := by
  rw [BitVec.toNat_ofNat]; exact Nat.mod_eq_of_lt (by have := i.isLt; omega)

/-- A number below 1024 is not below zero as a signed word. -/
theorem not_slt_zero (i : Fin 1024) : ¬ IntOp.cmpi .slt (BitVec.ofNat 32 i.val) 0#32 = 1#1 := by
  rw [StableHlo.Predicate.slt_iff_toNat (by rw [toNat_ofNat_lt]; have := i.isLt; omega) (by decide)]
  exact Nat.not_lt_zero _

/-- An iota entry below 1024 is not negative, so the wrap-around select keeps it: column 0 of the start indices at row i is i. -/
theorem startIdx_col0 (i : Fin 1024) :
    val_main_call6_v14 (F := Ideal) (ix2 i (0 : Fin 2)) = BitVec.ofNat 32 i.val := by
  unfold val_main_call6_v14
  refine (concatenate_pair_apply_left (t := S1024x2) (s₁ := S1024x1) (s₂ := S1024x1) (1 : Fin 2) _ _
    concatenates_S1024x1_S1024x1_S1024x2_d1 (ix2 i (0 : Fin 2)) rfl (ix2 i (0 : Fin 1)) ?_).trans ?_
  · intro b; match b with
    | ⟨0, _⟩ => rfl
    | ⟨1, _⟩ => rfl
  · rw [val_main_call6_v12_apply, val_main_call6_v6_apply, val_main_call6_v3_apply, val_main_call6_v0_apply,
      val_main_call6_v2_apply, val_main_call6_c_apply]
    exact if_neg (not_slt_zero i)

/-- Column 1 of the start indices at row i is i as well. -/
theorem startIdx_col1 (i : Fin 1024) :
    val_main_call6_v14 (F := Ideal) (ix2 i (1 : Fin 2)) = BitVec.ofNat 32 i.val := by
  unfold val_main_call6_v14
  refine (concatenate_pair_apply_right (t := S1024x2) (s₁ := S1024x1) (s₂ := S1024x1) (1 : Fin 2) _ _
    concatenates_S1024x1_S1024x1_S1024x2_d1 (ix2 i (1 : Fin 2)) rfl rfl (ix2 i (0 : Fin 1)) ?_ ?_).trans ?_
  · intro b hb; match b with
    | ⟨0, _⟩ => rfl
    | ⟨1, _⟩ => exact absurd rfl hb
  · rfl
  · rw [val_main_call6_v13_apply, val_main_call6_v11_apply, val_main_call6_v8_apply, val_main_call6_v1_apply,
      val_main_call6_v7_apply, val_main_call6_c_1_apply]
    exact if_neg (not_slt_zero i)

/-- The diagonal gather's dimension numbers: offset axis the batch, both query axes collapsed and start-indexed. -/
abbrev dg : GatherDims S16x1024x1024 S1024x2 S16x1024 := gather_S16x1024x1024_S1024x2_S16x1024_0_12_n_n_12_1_1611

/-- A word that is a number below 1024, read signed, then clamped into [0, 1023], is that number. -/
theorem clamp_ofNat (i : Fin 1024) : min (BitVec.ofNat 32 i.val).toInt.toNat (1024 - 1) = i.val := by
  rw [StableHlo.Predicate.toInt_ofNat_small _ (by have := i.isLt; omega)]
  have := i.isLt
  simp only [Int.toNat_natCast]
  omega

/-- The diagonal gather at (b, i): on the batch axis the offset coordinate b, on each query axis the start index i
    (no batching axes; the two collapsed axes carry no offset). -/
theorem gather_diag {α : Type} (x : S16x1024x1024.Idx → α) (b : Fin 16) (i : Fin 1024) :
    Host.gather dg x (val_main_call6_v14 (F := Ideal)) (ix2 b i) = x (ix3 b i i) := by
  unfold Host.gather
  congr 1
  funext a
  refine Fin.ext ?_
  have hc1 : (1 : Fin 3) ∉ dg.sKept := fun h =>
    ((GatherDims.mem_sKept _ _).mp h).1 (show (1 : Fin 3) ∈ ([1, 2] : List (Fin 3)) by decide)
  have hc2 : (2 : Fin 3) ∉ dg.sKept := fun h =>
    ((GatherDims.mem_sKept _ _).mp h).1 (show (2 : Fin 3) ∈ ([1, 2] : List (Fin 3)) by decide)
  have hm0 : (0 : Fin 3) ∉ dg.startIndexMap := by show (0 : Fin 3) ∉ ([1, 2] : List (Fin 3)); decide
  have hm1 : (1 : Fin 3) ∈ dg.startIndexMap := by show (1 : Fin 3) ∈ ([1, 2] : List (Fin 3)); decide
  have hm2 : (2 : Fin 3) ∈ dg.startIndexMap := by show (2 : Fin 3) ∈ ([1, 2] : List (Fin 3)); decide
  match a with
  | ⟨0, _⟩ =>
    show dg.start (ix2 b i) (val_main_call6_v14 (F := Ideal)) 0 + dg.batchCoord (ix2 b i) 0 + dg.offCoord (ix2 b i) 0 = b.val
    rw [GatherDims.batchCoord_eq_zero _ _ _ List.not_mem_nil]
    unfold GatherDims.start
    rw [dif_neg hm0]
    simp only [Nat.add_zero, Nat.zero_add]
    rfl
  | ⟨1, _⟩ =>
    show dg.start (ix2 b i) (val_main_call6_v14 (F := Ideal)) 1 + dg.batchCoord (ix2 b i) 1 + dg.offCoord (ix2 b i) 1 = i.val
    rw [GatherDims.batchCoord_eq_zero _ _ _ List.not_mem_nil, GatherDims.offCoord_eq_zero _ _ _ hc1]
    simp only [Nat.add_zero]
    unfold GatherDims.start
    rw [dif_pos hm1]
    have hsi : dg.siIdx (ix2 b i) ⟨List.idxOf (1 : Fin 3) dg.startIndexMap, List.idxOf_lt_length_iff.2 hm1⟩
        = ix2 i (0 : Fin 2) := by
      funext c; refine Fin.ext ?_
      match c with
      | ⟨0, _⟩ => rfl
      | ⟨1, _⟩ => rfl
    rw [hsi, startIdx_col0]
    exact clamp_ofNat i
  | ⟨2, _⟩ =>
    show dg.start (ix2 b i) (val_main_call6_v14 (F := Ideal)) 2 + dg.batchCoord (ix2 b i) 2 + dg.offCoord (ix2 b i) 2 = i.val
    rw [GatherDims.batchCoord_eq_zero _ _ _ List.not_mem_nil, GatherDims.offCoord_eq_zero _ _ _ hc2]
    simp only [Nat.add_zero]
    unfold GatherDims.start
    rw [dif_pos hm2]
    have hsi : dg.siIdx (ix2 b i) ⟨List.idxOf (2 : Fin 3) dg.startIndexMap, List.idxOf_lt_length_iff.2 hm2⟩
        = ix2 i (1 : Fin 2) := by
      funext c; refine Fin.ext ?_
      match c with
      | ⟨0, _⟩ => rfl
      | ⟨1, _⟩ => rfl
    rw [hsi, startIdx_col1]
    exact clamp_ofNat i

variable (x1 : (⟨S16x1024x4, .f32⟩ : BufTy).Contents (Elt Ideal)) (x2 : (⟨S16x64, .i32⟩ : BufTy).Contents (Elt Ideal))
  (x3 : (⟨S16x64x4, .f32⟩ : BufTy).Contents (Elt Ideal)) (x4 : (⟨S16x1024, .i32⟩ : BufTy).Contents (Elt Ideal))
  (x5 : (⟨S16x64, .i32⟩ : BufTy).Contents (Elt Ideal))

/-- The diagonal: entry (b, i) of the gathered array is the pairwise array's at (b, i, i). -/
theorem v147_apply (b : Fin 16) (i : Fin 1024) :
    val_main_v147 (F := Ideal) x1 x2 x3 x4 x5 (ix2 b i) = val_main_v146 (F := Ideal) x1 x2 x3 x4 x5 (ix3 b i i) := by
  unfold val_main_v147
  exact gather_diag _ b i

/-! ## The two masked boxes -/

/-- The predicted box the pairwise formula sees: zeroed where the query is unmatched or its label is background. -/
theorem v59_at (b : Fin 16) (q : Fin 1024) (k : Fin 4) :
    val_main_v59 (F := Ideal) x1 x2 x4 x5 (ix3 b q k)
      = predBox (fun k => x1 (ix3 b q k)) (val_main_v17 (F := Ideal) x2 x5 (ix2 b q)) (x4 (ix2 b q)) k := by
  rw [val_main_v59_apply, val_main_call2_v1_apply, val_main_v58_apply, val_main_v54_apply, val_main_v53_apply,
    val_main_v52_apply, val_main_c_12_apply, val_main_v57_apply, val_main_v56_apply, val_main_v55_apply,
    val_main_c_13_apply, val_main_call2_v2_apply, val_main_call2_v0_apply, val_main_cst_14_apply]
  rw [at2 x4 _ b q rfl rfl, at2 (val_main_v17 (F := Ideal) x2 x5) _ b q rfl rfl]
  unfold predBox
  by_cases h : unmatched (x4 (ix2 b q)) ∨ background (val_main_v17 (F := Ideal) x2 x5 (ix2 b q))
  · rw [if_pos h, (ori_eq_one _ _).2 (h.imp StableHlo.Predicate.cmpi_eq_iff.2 StableHlo.Predicate.cmpi_eq_iff.2),
      select_one]
    exact Ideal.ofBits_zero_f32
  · rw [if_neg h, eq_zero_of_ne_one (fun hh => h (((ori_eq_one _ _).1 hh).imp StableHlo.Predicate.cmpi_eq_iff.1
      StableHlo.Predicate.cmpi_eq_iff.1)), select_zero]

/-- The ground-truth box the pairwise formula sees: zeroed where the query is unmatched. -/
theorem v60_at (b : Fin 16) (q : Fin 1024) (k : Fin 4) :
    val_main_v60 (F := Ideal) x3 x4 x5 (ix3 b q k)
      = gtBox (fun k => val_main_v33 (F := Ideal) x3 x5 (ix3 b q k)) (x4 (ix2 b q)) k := by
  rw [val_main_v60_apply, val_main_call3_v1_apply, val_main_v54_apply, val_main_v53_apply,
    val_main_v52_apply, val_main_c_12_apply, val_main_call3_v2_apply, val_main_call3_v0_apply, val_main_cst_15_apply]
  rw [at2 x4 _ b q rfl rfl]
  unfold gtBox
  by_cases h : unmatched (x4 (ix2 b q))
  · rw [if_pos h, StableHlo.Predicate.cmpi_eq_iff.2 h, select_one]
    exact Ideal.ofBits_zero_f32
  · rw [if_neg h, eq_zero_of_ne_one (fun hh => h (StableHlo.Predicate.cmpi_eq_iff.1 hh)), select_zero]

/-! ## The pairwise formula, read at explicit coordinates -/

/-- The masked predicted box of query (b, q), as the pairwise arrays read it. -/
abbrev pB (b : Fin 16) (q : Fin 1024) : Fin 4 → EReal := fun k => val_main_v59 (F := Ideal) x1 x2 x4 x5 (ix3 b q k)
/-- The masked ground-truth box of query (b, q). -/
abbrev gB (b : Fin 16) (q : Fin 1024) : Fin 4 → EReal := fun k => val_main_v60 (F := Ideal) x3 x4 x5 (ix3 b q k)

/-- The lower corner's coordinate c (0 or 1) among a box's four. -/
abbrev lo (c : Fin 2) : Fin 4 := ⟨c.val, by have := c.isLt; omega⟩
/-- The upper corner's coordinate c among a box's four: 2 + c. -/
abbrev hi (c : Fin 2) : Fin 4 := ⟨2 + c.val, by have := c.isLt; omega⟩

/-! ### The four coordinates of each box as [16, 1024] arrays (a slice of width one, then the reshape that drops it) -/

theorem v70_at (b : Fin 16) (q : Fin 1024) :
    val_main_v70 (F := Ideal) x1 x2 x4 x5 (ix2 b q) = pB x1 x2 x4 x5 b q 2 := by
  rw [val_main_v70_apply, val_main_v69_apply]
  exact at3 _ _ b q 2 (rs2_0 b q) (rs2_1 b q) rfl
theorem v72_at (b : Fin 16) (q : Fin 1024) :
    val_main_v72 (F := Ideal) x1 x2 x4 x5 (ix2 b q) = pB x1 x2 x4 x5 b q 0 := by
  rw [val_main_v72_apply, val_main_v71_apply]
  exact at3 _ _ b q 0 (rs2_0 b q) (rs2_1 b q) rfl
theorem v75_at (b : Fin 16) (q : Fin 1024) :
    val_main_v75 (F := Ideal) x1 x2 x4 x5 (ix2 b q) = pB x1 x2 x4 x5 b q 3 := by
  rw [val_main_v75_apply, val_main_v74_apply]
  exact at3 _ _ b q 3 (rs2_0 b q) (rs2_1 b q) rfl
theorem v77_at (b : Fin 16) (q : Fin 1024) :
    val_main_v77 (F := Ideal) x1 x2 x4 x5 (ix2 b q) = pB x1 x2 x4 x5 b q 1 := by
  rw [val_main_v77_apply, val_main_v76_apply]
  exact at3 _ _ b q 1 (rs2_0 b q) (rs2_1 b q) rfl
theorem v81_at (b : Fin 16) (q : Fin 1024) :
    val_main_v81 (F := Ideal) x3 x4 x5 (ix2 b q) = gB x3 x4 x5 b q 2 := by
  rw [val_main_v81_apply, val_main_v80_apply]
  exact at3 _ _ b q 2 (rs2_0 b q) (rs2_1 b q) rfl
theorem v83_at (b : Fin 16) (q : Fin 1024) :
    val_main_v83 (F := Ideal) x3 x4 x5 (ix2 b q) = gB x3 x4 x5 b q 0 := by
  rw [val_main_v83_apply, val_main_v82_apply]
  exact at3 _ _ b q 0 (rs2_0 b q) (rs2_1 b q) rfl
theorem v86_at (b : Fin 16) (q : Fin 1024) :
    val_main_v86 (F := Ideal) x3 x4 x5 (ix2 b q) = gB x3 x4 x5 b q 3 := by
  rw [val_main_v86_apply, val_main_v85_apply]
  exact at3 _ _ b q 3 (rs2_0 b q) (rs2_1 b q) rfl
theorem v88_at (b : Fin 16) (q : Fin 1024) :
    val_main_v88 (F := Ideal) x3 x4 x5 (ix2 b q) = gB x3 x4 x5 b q 1 := by
  rw [val_main_v88_apply, val_main_v87_apply]
  exact at3 _ _ b q 1 (rs2_0 b q) (rs2_1 b q) rfl

/-- The predicted box's area: width times height. -/
theorem v79_at (b : Fin 16) (q : Fin 1024) :
    val_main_v79 (F := Ideal) x1 x2 x4 x5 (ix2 b q)
      = (pB x1 x2 x4 x5 b q 2 - pB x1 x2 x4 x5 b q 0) * (pB x1 x2 x4 x5 b q 3 - pB x1 x2 x4 x5 b q 1) := by
  rw [val_main_v79_apply, val_main_v73_apply, val_main_v78_apply, v70_at, v72_at, v75_at, v77_at]
  rfl
/-- The ground-truth box's area. -/
theorem v90_at (b : Fin 16) (q : Fin 1024) :
    val_main_v90 (F := Ideal) x3 x4 x5 (ix2 b q)
      = (gB x3 x4 x5 b q 2 - gB x3 x4 x5 b q 0) * (gB x3 x4 x5 b q 3 - gB x3 x4 x5 b q 1) := by
  rw [val_main_v90_apply, val_main_v84_apply, val_main_v89_apply, v81_at, v83_at, v86_at, v88_at]
  rfl

/-! ### The intersection of box i of the predicted boxes with box j of the ground truth -/

/-- The larger of the two lower corners, coordinate c. -/
theorem v97_at (b : Fin 16) (i j : Fin 1024) (c : Fin 2) :
    val_main_v97 (F := Ideal) x1 x2 x3 x4 x5 (ix4 b i j c)
      = max (pB x1 x2 x4 x5 b i (lo c)) (gB x3 x4 x5 b j (lo c)) := by
  rw [val_main_v97_apply, val_main_v95_apply, val_main_v92_apply, val_main_v91_apply, val_main_v96_apply,
    val_main_v94_apply, val_main_v93_apply, Ideal.maximumf_def]
  exact congrArg₂ max (at3 _ _ b i (lo c) rfl rfl rfl) (at3 _ _ b j (lo c) rfl rfl rfl)

/-- The smaller of the two upper corners, coordinate c. -/
theorem v104_at (b : Fin 16) (i j : Fin 1024) (c : Fin 2) :
    val_main_v104 (F := Ideal) x1 x2 x3 x4 x5 (ix4 b i j c)
      = min (pB x1 x2 x4 x5 b i (hi c)) (gB x3 x4 x5 b j (hi c)) := by
  rw [val_main_v104_apply, val_main_v102_apply, val_main_v99_apply, val_main_v98_apply, val_main_v103_apply,
    val_main_v101_apply, val_main_v100_apply, Ideal.minimumf_def]
  exact congrArg₂ min (at3 _ _ b i (hi c) rfl rfl rfl) (at3 _ _ b j (hi c) rfl rfl rfl)

/-- The intersection's extent along coordinate c, clipped at zero. -/
theorem v106_at (b : Fin 16) (i j : Fin 1024) (c : Fin 2) :
    val_main_v106 (F := Ideal) x1 x2 x3 x4 x5 (ix4 b i j c)
      = max 0 (min (pB x1 x2 x4 x5 b i (hi c)) (gB x3 x4 x5 b j (hi c))
          - max (pB x1 x2 x4 x5 b i (lo c)) (gB x3 x4 x5 b j (lo c))) := by
  rw [val_main_v106_apply, val_main_call4_v1_apply, val_main_call4_v0_apply, val_main_cst_19_apply,
    val_main_v105_apply, v104_at, v97_at, Ideal.ofBits_def, Ideal.ofBits_zero_f32]
  rfl

theorem v108_at (b : Fin 16) (i j : Fin 1024) :
    val_main_v108 (F := Ideal) x1 x2 x3 x4 x5 (ix3 b i j) = val_main_v106 (F := Ideal) x1 x2 x3 x4 x5 (ix4 b i j 0) := by
  rw [val_main_v108_apply, val_main_v107_apply]
  exact at4 _ _ b i j 0 (rs3_0 b i j) (rs3_1 b i j) (rs3_2 b i j) rfl
theorem v110_at (b : Fin 16) (i j : Fin 1024) :
    val_main_v110 (F := Ideal) x1 x2 x3 x4 x5 (ix3 b i j) = val_main_v106 (F := Ideal) x1 x2 x3 x4 x5 (ix4 b i j 1) := by
  rw [val_main_v110_apply, val_main_v109_apply]
  exact at4 _ _ b i j 1 (rs3_0 b i j) (rs3_1 b i j) (rs3_2 b i j) rfl

/-- The intersection's area. -/
theorem v111_at (b : Fin 16) (i j : Fin 1024) :
    val_main_v111 (F := Ideal) x1 x2 x3 x4 x5 (ix3 b i j) = interArea (pB x1 x2 x4 x5 b i) (gB x3 x4 x5 b j) := by
  rw [val_main_v111_apply, v108_at, v110_at, v106_at, v106_at]
  rfl

/-- The union's area: the two areas less the intersection. -/
theorem v117_at (b : Fin 16) (i j : Fin 1024) :
    val_main_v117 (F := Ideal) x1 x2 x3 x4 x5 (ix3 b i j) = unionArea (pB x1 x2 x4 x5 b i) (gB x3 x4 x5 b j) := by
  rw [val_main_v117_apply, val_main_v116_apply, val_main_v114_apply, val_main_v112_apply, val_main_v115_apply,
    val_main_v113_apply, v111_at]
  rw [at2 (val_main_v79 (F := Ideal) x1 x2 x4 x5) _ b i rfl rfl, at2 (val_main_v90 (F := Ideal) x3 x4 x5) _ b j rfl rfl,
    v79_at, v90_at]
  rfl

/-- The intersection over the union, the union guarded from below. -/
theorem v120_at (b : Fin 16) (i j : Fin 1024) :
    val_main_v120 (F := Ideal) x1 x2 x3 x4 x5 (ix3 b i j)
      = Ideal.div (interArea (pB x1 x2 x4 x5 b i) (gB x3 x4 x5 b j))
          (max (unionArea (pB x1 x2 x4 x5 b i) (gB x3 x4 x5 b j)) tiny) := by
  rw [val_main_v120_apply, val_main_v119_apply, val_main_v118_apply, val_main_cst_20_apply, v111_at, v117_at]
  rfl

/-! ### The smallest box enclosing both -/

/-- The smaller of the two lower corners, coordinate c. -/
theorem v127_at (b : Fin 16) (i j : Fin 1024) (c : Fin 2) :
    val_main_v127 (F := Ideal) x1 x2 x3 x4 x5 (ix4 b i j c)
      = min (pB x1 x2 x4 x5 b i (lo c)) (gB x3 x4 x5 b j (lo c)) := by
  rw [val_main_v127_apply, val_main_v125_apply, val_main_v122_apply, val_main_v121_apply, val_main_v126_apply,
    val_main_v124_apply, val_main_v123_apply, Ideal.minimumf_def]
  exact congrArg₂ min (at3 _ _ b i (lo c) rfl rfl rfl) (at3 _ _ b j (lo c) rfl rfl rfl)

/-- The larger of the two upper corners, coordinate c. -/
theorem v134_at (b : Fin 16) (i j : Fin 1024) (c : Fin 2) :
    val_main_v134 (F := Ideal) x1 x2 x3 x4 x5 (ix4 b i j c)
      = max (pB x1 x2 x4 x5 b i (hi c)) (gB x3 x4 x5 b j (hi c)) := by
  rw [val_main_v134_apply, val_main_v132_apply, val_main_v129_apply, val_main_v128_apply, val_main_v133_apply,
    val_main_v131_apply, val_main_v130_apply, Ideal.maximumf_def]
  exact congrArg₂ max (at3 _ _ b i (hi c) rfl rfl rfl) (at3 _ _ b j (hi c) rfl rfl rfl)

/-- The enclosing box's extent along coordinate c, clipped at zero. -/
theorem v136_at (b : Fin 16) (i j : Fin 1024) (c : Fin 2) :
    val_main_v136 (F := Ideal) x1 x2 x3 x4 x5 (ix4 b i j c)
      = max 0 (max (pB x1 x2 x4 x5 b i (hi c)) (gB x3 x4 x5 b j (hi c))
          - min (pB x1 x2 x4 x5 b i (lo c)) (gB x3 x4 x5 b j (lo c))) := by
  rw [val_main_v136_apply, val_main_call5_v1_apply, val_main_call5_v0_apply, val_main_cst_21_apply,
    val_main_v135_apply, v134_at, v127_at, Ideal.ofBits_def, Ideal.ofBits_zero_f32]
  rfl

theorem v138_at (b : Fin 16) (i j : Fin 1024) :
    val_main_v138 (F := Ideal) x1 x2 x3 x4 x5 (ix3 b i j) = val_main_v136 (F := Ideal) x1 x2 x3 x4 x5 (ix4 b i j 0) := by
  rw [val_main_v138_apply, val_main_v137_apply]
  exact at4 _ _ b i j 0 (rs3_0 b i j) (rs3_1 b i j) (rs3_2 b i j) rfl
theorem v140_at (b : Fin 16) (i j : Fin 1024) :
    val_main_v140 (F := Ideal) x1 x2 x3 x4 x5 (ix3 b i j) = val_main_v136 (F := Ideal) x1 x2 x3 x4 x5 (ix4 b i j 1) := by
  rw [val_main_v140_apply, val_main_v139_apply]
  exact at4 _ _ b i j 1 (rs3_0 b i j) (rs3_1 b i j) (rs3_2 b i j) rfl

/-- The enclosing box's area. -/
theorem v141_at (b : Fin 16) (i j : Fin 1024) :
    val_main_v141 (F := Ideal) x1 x2 x3 x4 x5 (ix3 b i j) = encloseArea (pB x1 x2 x4 x5 b i) (gB x3 x4 x5 b j) := by
  rw [val_main_v141_apply, v138_at, v140_at, v136_at, v136_at]
  rfl

/-- The share of the enclosing box the union leaves empty, the enclosing area guarded from below. -/
theorem v145_at (b : Fin 16) (i j : Fin 1024) :
    val_main_v145 (F := Ideal) x1 x2 x3 x4 x5 (ix3 b i j)
      = Ideal.div (encloseArea (pB x1 x2 x4 x5 b i) (gB x3 x4 x5 b j) - unionArea (pB x1 x2 x4 x5 b i) (gB x3 x4 x5 b j))
          (max (encloseArea (pB x1 x2 x4 x5 b i) (gB x3 x4 x5 b j)) tiny) := by
  rw [val_main_v145_apply, val_main_v142_apply, val_main_v144_apply, val_main_v143_apply, val_main_cst_22_apply,
    v141_at, v117_at]
  rfl

/-- The pair (i, j)'s generalised intersection over union. -/
theorem v146_at (b : Fin 16) (i j : Fin 1024) :
    val_main_v146 (F := Ideal) x1 x2 x3 x4 x5 (ix3 b i j) = giouBoxes (pB x1 x2 x4 x5 b i) (gB x3 x4 x5 b j) := by
  rw [val_main_v146_apply, v120_at, v145_at]
  rfl

/-! ## The diagonal and its sum -/

/-- On the diagonal both boxes are query i's: the entry is that query's term of the loss. -/
theorem v146_diag (b : Fin 16) (i : Fin 1024) :
    val_main_v146 (F := Ideal) x1 x2 x3 x4 x5 (ix3 b i i)
      = giouAt x1 (val_main_v17 (F := Ideal) x2 x5) (val_main_v33 (F := Ideal) x3 x5) x4 b i := by
  rw [v146_at]
  unfold giouAt giouOf
  congr 1
  · funext k; exact v59_at x1 x2 x4 x5 b i k
  · funext k; exact v60_at x3 x4 x5 b i k

/-- The reference's sum of the diagonal, from the zero word, is the total of the queries' terms:
    zero is neutral for the sum, and a sum over the [16, 1024] index set is the double sum over its coordinates. -/
theorem giou_sum :
    val_main_v148 (F := Ideal) x1 x2 x3 x4 x5 ix0
      = total (giouAt x1 (val_main_v17 (F := Ideal) x2 x5) (val_main_v33 (F := Ideal) x3 x5) x4) := by
  rw [val_main_v148_apply, val_main_cst_23_apply, Ideal.ofBits_def, Ideal.ofBits_zero_f32, zero_add, sum_idx2]
  unfold total
  refine Finset.sum_congr rfl fun b _ => Finset.sum_congr rfl fun i _ => ?_
  rw [v147_apply, v146_diag]

end Cert.ReferenceIdeal.GiouTerm

end
-- ==== Proof.RefLoss.lean ====
/-
  The reference computes the loss: its result, as a function of its arguments, is the loss of the arguments with the labels
  and ground-truth boxes it scatters, whenever every ground-truth class is below 92.
-/
import proofs.«407362_j87308095193844_3_alg».proof.Proof.RefValue
import proofs.«407362_j87308095193844_3_alg».proof.Proof.RefClass
import proofs.«407362_j87308095193844_3_alg».proof.Proof.RefBoxes
import proofs.«407362_j87308095193844_3_alg».proof.Proof.RefGiou

noncomputable section

namespace Cert.ReferenceIdeal.LossValue

open Idealize.ShloMosaic Idealize.ShloMosaic.ValueIdx Cert.ReferenceIdeal Cert.ReferenceIdeal.Gen Cert.ReferenceIdeal.ReadP Cert.Loss

/-- The reference's result is the loss. -/
theorem value_eq (x0 : (⟨S16x1024x92, .f32⟩ : BufTy).Contents (Elt Ideal)) (x1 : (⟨S16x1024x4, .f32⟩ : BufTy).Contents (Elt Ideal))
    (x2 : (⟨S16x64, .i32⟩ : BufTy).Contents (Elt Ideal)) (x3 : (⟨S16x64x4, .f32⟩ : BufTy).Contents (Elt Ideal))
    (x4 : (⟨S16x1024, .i32⟩ : BufTy).Contents (Elt Ideal)) (x5 : (⟨S16x64, .i32⟩ : BufTy).Contents (Elt Ideal))
    (x6 : (⟨S92, .f32⟩ : BufTy).Contents (Elt Ideal)) (hx2 : ∀ i, (x2 i).toNat < 92) :
    val_main_v155 (F := Ideal) x0 x1 x2 x3 x4 x5 x6
      = fun _ => loss x0 x1 (val_main_v17 (F := Ideal) x2 x5) (val_main_v33 (F := Ideal) x3 x5) x4 x6 := by
  funext i
  obtain rfl : i = ix0 := eq_ix0 i
  have hlab := labels_lt x2 x5 hx2
  unfold loss
  exact value_of_sums x0 x1 x2 x3 x4 x5 x6 _ _ _ _ _ (ClassTerm.weightedNll_sum x0 x2 x5 x6 hlab)
    (ClassTerm.weight_sum x2 x5 x6 hlab) (BoxTerm.l1_sum x1 x2 x3 x4 x5) (BoxTerm.obj_count x2 x5)
    (GiouTerm.giou_sum x1 x2 x3 x4 x5)

end Cert.ReferenceIdeal.LossValue

end
-- ==== Proof.RefRunOps.lean ====
import proofs.«407362_j87308095193844_3_alg».proof.Proof.Gen.ReferenceIdeal
import Idealize.ShloMosaic.Lib.StableHlo.Run

/-! The reference program's operations, cut into stretches.

The program's 251 host operations, in program order (a called function's operations standing in its
call's place), cut into 14 consecutive stretches `ops1 … ops14`. For each stretch: every operation
touches TensorCore references only (`opsK_sub`), every operation determines its results (`opsK_fresh`),
and the list `opsK_W` holds every buffer the stretch writes (`opsK_writes`), so a buffer outside it keeps
its contents through the stretch. -/

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 21 of the 251: `main_v0` … `main_v15`. -/
abbrev ops1 : List (HloOp τ sig (Elt F)) :=
  [ nullary main_v0 (iotaInDim S16 32 0),
    unary main_v0 main_v1 (broadcastInDim S16x1 ![0] bcast_S16_S16x1_0 : (⟨S16, .i32⟩ : BufTy).Contents (Elt F) → (⟨S16x1, .i32⟩ : BufTy).Contents (Elt F)),
    nullary main_c (constantI S_ 32 0#32),
    unary main_c main_v2 (broadcastInDim S16x1024 ![] bcast_S_S16x1024 : (⟨S_, .i32⟩ : BufTy).Contents (Elt F) → (⟨S16x1024, .i32⟩ : BufTy).Contents (Elt F)),
    nullary main_c_0 (constantI S_ 32 0#32),
    unary main_c_0 main_v3 (broadcastInDim S16x1 ![] bcast_S_S16x1 : (⟨S_, .i32⟩ : BufTy).Contents (Elt F) → (⟨S16x1, .i32⟩ : BufTy).Contents (Elt F)),
    binary main_v1 main_v3 main_v4 (cmpi .slt : (⟨S16x1, .i32⟩ : BufTy).Contents (Elt F) → (⟨S16x1, .i32⟩ : BufTy).Contents (Elt F) → (⟨S16x1, .i1⟩ : BufTy).Contents (Elt F)),
    nullary main_c_1 (constantI S_ 32 16#32),
    unary main_c_1 main_v5 (broadcastInDim S16x1 ![] bcast_S_S16x1 : (⟨S_, .i32⟩ : BufTy).Contents (Elt F) → (⟨S16x1, .i32⟩ : BufTy).Contents (Elt F)),
    binary main_v1 main_v5 main_v6 (addi : (⟨S16x1, .i32⟩ : BufTy).Contents (Elt F) → (⟨S16x1, .i32⟩ : BufTy).Contents (Elt F) → (⟨S16x1, .i32⟩ : BufTy).Contents (Elt F)),
    ternary main_v4 main_v6 main_v1 main_v7 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_2 (constantI S_ 32 0#32),
    unary main_c_2 main_v8 (broadcastInDim S16x64 ![] bcast_S_S16x64 : (⟨S_, .i32⟩ : BufTy).Contents (Elt F) → (⟨S16x64, .i32⟩ : BufTy).Contents (Elt F)),
    binary main_arg5 main_v8 main_v9 (cmpi .slt : (⟨S16x64, .i32⟩ : BufTy).Contents (Elt F) → (⟨S16x64, .i32⟩ : BufTy).Contents (Elt F) → (⟨S16x64, .i1⟩ : BufTy).Contents (Elt F)),
    nullary main_c_3 (constantI S_ 32 1024#32),
    unary main_c_3 main_v10 (broadcastInDim S16x64 ![] bcast_S_S16x64 : (⟨S_, .i32⟩ : BufTy).Contents (Elt F) → (⟨S16x64, .i32⟩ : BufTy).Contents (Elt F)),
    binary main_arg5 main_v10 main_v11 (addi : (⟨S16x64, .i32⟩ : BufTy).Contents (Elt F) → (⟨S16x64, .i32⟩ : BufTy).Contents (Elt F) → (⟨S16x64, .i32⟩ : BufTy).Contents (Elt F)),
    ternary main_v9 main_v11 main_arg5 main_v12 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    unary main_v7 main_v13 (broadcastInDim S16x64 ![0, 1] bcast_S16x1_S16x64_0_1 : (⟨S16x1, .i32⟩ : BufTy).Contents (Elt F) → (⟨S16x64, .i32⟩ : BufTy).Contents (Elt F)),
    unary main_v13 main_v14 (broadcastInDim S16x64x1 ![0, 1] bcast_S16x64_S16x64x1_0_1 : (⟨S16x64, .i32⟩ : BufTy).Contents (Elt F) → (⟨S16x64x1, .i32⟩ : BufTy).Contents (Elt F)),
    unary main_v12 main_v15 (broadcastInDim S16x64x1 ![0, 1] bcast_S16x64_S16x64x1_0_1 : (⟨S16x64, .i32⟩ : BufTy).Contents (Elt F) → (⟨S16x64x1, .i32⟩ : BufTy).Contents (Elt F)) ]

/-- Every operation of the stretch touches TensorCore references only. -/
theorem ops1_sub : (ops1 : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
/-- Every operation of the stretch determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The buffers that stretch 1 writes. -/
abbrev ops1_W : List (Ref sig .tc) := [main_v0, main_v1, main_c, main_v2, main_c_0, main_v3, main_v4, main_c_1, main_v5, main_v6, main_v7, main_c_2, main_v8, main_v9, main_c_3, main_v10, main_v11, main_v12, main_v13, main_v14, main_v15]
set_option maxRecDepth 8192 in
set_option maxHeartbeats 2000000 in
/-- Every operation of stretch 1 writes only buffers of that list. -/
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 22 … 42 of the 251: `main_v16` … `main_v31`. -/
abbrev ops2 : List (HloOp τ sig (Elt F)) :=
  [ binary main_v14 main_v15 main_v16 ((fun a b => concatenate S16x64x2 2 [⟨S16x64x1, a⟩, ⟨S16x64x1, b⟩] concatenates_S16x64x1_S16x64x1_S16x64x2_d2) : (⟨S16x64x1, .i32⟩ : BufTy).Contents (Elt F) → (⟨S16x64x1, .i32⟩ : BufTy).Contents (Elt F) → (⟨S16x64x2, .i32⟩ : BufTy).Contents (Elt F)),
    ternary main_v2 main_v16 main_arg2 main_v17 ((fun x i u => Host.scatter scatter_S16x1024_S16x64x2_S16x64_n_01_01_2 (fun _ b => b) x i u) : (⟨S16x1024, .i32⟩ : BufTy).Contents (Elt F) → (⟨S16x64x2, .i32⟩ : BufTy).Contents (Elt F) → (⟨S16x64, .i32⟩ : BufTy).Contents (Elt F) → (⟨S16x1024, .i32⟩ : BufTy).Contents (Elt F)),
    nullary main_cst (constant S_ .f32 0x00000000#32),
    unary main_cst main_v18 (broadcastInDim S16x1024x4 ![] bcast_S_S16x1024x4 : (⟨S_, .f32⟩ : BufTy).Contents (Elt F) → (⟨S16x1024x4, .f32⟩ : BufTy).Contents (Elt F)),
    nullary main_c_4 (constantI S_ 32 0#32),
    unary main_c_4 main_v19 (broadcastInDim S16x1 ![] bcast_S_S16x1 : (⟨S_, .i32⟩ : BufTy).Contents (Elt F) → (⟨S16x1, .i32⟩ : BufTy).Contents (Elt F)),
    binary main_v1 main_v19 main_v20 (cmpi .slt : (⟨S16x1, .i32⟩ : BufTy).Contents (Elt F) → (⟨S16x1, .i32⟩ : BufTy).Contents (Elt F) → (⟨S16x1, .i1⟩ : BufTy).Contents (Elt F)),
    nullary main_c_5 (constantI S_ 32 16#32),
    unary main_c_5 main_v21 (broadcastInDim S16x1 ![] bcast_S_S16x1 : (⟨S_, .i32⟩ : BufTy).Contents (Elt F) → (⟨S16x1, .i32⟩ : BufTy).Contents (Elt F)),
    binary main_v1 main_v21 main_v22 (addi : (⟨S16x1, .i32⟩ : BufTy).Contents (Elt F) → (⟨S16x1, .i32⟩ : BufTy).Contents (Elt F) → (⟨S16x1, .i32⟩ : BufTy).Contents (Elt F)),
    ternary main_v20 main_v22 main_v1 main_v23 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_6 (constantI S_ 32 0#32),
    unary main_c_6 main_v24 (broadcastInDim S16x64 ![] bcast_S_S16x64 : (⟨S_, .i32⟩ : BufTy).Contents (Elt F) → (⟨S16x64, .i32⟩ : BufTy).Contents (Elt F)),
    binary main_arg5 main_v24 main_v25 (cmpi .slt : (⟨S16x64, .i32⟩ : BufTy).Contents (Elt F) → (⟨S16x64, .i32⟩ : BufTy).Contents (Elt F) → (⟨S16x64, .i1⟩ : BufTy).Contents (Elt F)),
    nullary main_c_7 (constantI S_ 32 1024#32),
    unary main_c_7 main_v26 (broadcastInDim S16x64 ![] bcast_S_S16x64 : (⟨S_, .i32⟩ : BufTy).Contents (Elt F) → (⟨S16x64, .i32⟩ : BufTy).Contents (Elt F)),
    binary main_arg5 main_v26 main_v27 (addi : (⟨S16x64, .i32⟩ : BufTy).Contents (Elt F) → (⟨S16x64, .i32⟩ : BufTy).Contents (Elt F) → (⟨S16x64, .i32⟩ : BufTy).Contents (Elt F)),
    ternary main_v25 main_v27 main_arg5 main_v28 (select : (⟨S16x64, .i1⟩ : BufTy).Contents (Elt F) → (⟨S16x64, .i32⟩ : BufTy).Contents (Elt F) → (⟨S16x64, .i32⟩ : BufTy).Contents (Elt F) → (⟨S16x64, .i32⟩ : BufTy).Contents (Elt F)),
    unary main_v23 main_v29 (broadcastInDim S16x64 ![0, 1] bcast_S16x1_S16x64_0_1 : (⟨S16x1, .i32⟩ : BufTy).Contents (Elt F) → (⟨S16x64, .i32⟩ : BufTy).Contents (Elt F)),
    unary main_v29 main_v30 (broadcastInDim S16x64x1 ![0, 1] bcast_S16x64_S16x64x1_0_1 : (⟨S16x64, .i32⟩ : BufTy).Contents (Elt F) → (⟨S16x64x1, .i32⟩ : BufTy).Contents (Elt F)),
    unary main_v28 main_v31 (broadcastInDim S16x64x1 ![0, 1] bcast_S16x64_S16x64x1_0_1 : (⟨S16x64, .i32⟩ : BufTy).Contents (Elt F) → (⟨S16x64x1, .i32⟩ : BufTy).Contents (Elt F)) ]

/-- Every operation of the stretch touches TensorCore references only. -/
theorem ops2_sub : (ops2 : List (HloOp τ sig (Elt F))).Forall fun op => op.bufs ⊆ tcRefs τ sig :=
  ⟨binary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
/-- Every operation of the stretch determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The buffers that stretch 2 writes. -/
abbrev ops2_W : List (Ref sig .tc) := [main_v16, main_v17, main_cst, main_v18, main_c_4, main_v19, main_v20, main_c_5, main_v21, main_v22, main_v23, main_c_6, main_v24, main_v25, main_c_7, main_v26, main_v27, main_v28, main_v29, main_v30, main_v31]
set_option maxRecDepth 8192 in
set_option maxHeartbeats 2000000 in
/-- Every operation of stretch 2 writes only buffers of that list. -/
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 43 … 59 of the 251: `main_v32` … `main_v34`. -/
abbrev ops3 : List (HloOp τ sig (Elt F)) :=
  [ binary main_v30 main_v31 main_v32 ((fun a b => concatenate S16x64x2 2 [⟨S16x64x1, a⟩, ⟨S16x64x1, b⟩] concatenates_S16x64x1_S16x64x1_S16x64x2_d2) : (⟨S16x64x1, .i32⟩ : BufTy).Contents (Elt F) → (⟨S16x64x1, .i32⟩ : BufTy).Contents (Elt F) → (⟨S16x64x2, .i32⟩ : BufTy).Contents (Elt F)),
    ternary main_v18 main_v32 main_arg3 main_v33 ((fun x i u => Host.scatter scatter_S16x1024x4_S16x64x2_S16x64x4_2_01_01_2 (fun _ b => b) x i u) : (⟨S16x1024x4, .f32⟩ : BufTy).Contents (Elt F) → (⟨S16x64x2, .i32⟩ : BufTy).Contents (Elt F) → (⟨S16x64x4, .f32⟩ : BufTy).Contents (Elt F) → (⟨S16x1024x4, .f32⟩ : BufTy).Contents (Elt F)),
    TRef.nullary (TRef.of (T := ⟨S_, .f32⟩) main_call0_cst) (constant S_ .f32 0xFF800000#32),
    TRef.binary (TRef.of (T := ⟨S16x1024x92, .f32⟩) main_arg0) (TRef.of (T := ⟨S_, .f32⟩) main_call0_cst) (TRef.of (T := ⟨S16x1024, .f32⟩) main_call0_v0) (fun x v => Host.reduce FloatOps.maximumf x v reducesTo_S16x1024x92_S16x1024_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S16x1024, .f32⟩) main_call0_v1) (broadcastInDim S16x1024 ![] bcast_S_S16x1024),
    TRef.binary (TRef.of (T := ⟨S16x1024, .f32⟩) main_call0_v1) (TRef.of (T := ⟨S16x1024, .f32⟩) main_call0_v0) (TRef.of (T := ⟨S16x1024, .f32⟩) main_call0_v2) maximumf,
    TRef.unary (TRef.of (T := ⟨S16x1024, .f32⟩) main_call0_v2) (TRef.of (T := ⟨S16x1024x1, .f32⟩) main_call0_v3) (broadcastInDim S16x1024x1 ![0, 1] bcast_S16x1024_S16x1024x1_0_1),
    TRef.unary (TRef.of (T := ⟨S16x1024x1, .f32⟩) main_call0_v3) (TRef.of (T := ⟨S16x1024x92, .f32⟩) main_call0_v4) (broadcastInDim S16x1024x92 ![0, 1, 2] bcast_S16x1024x1_S16x1024x92_0_1_2),
    TRef.binary (TRef.of (T := ⟨S16x1024x92, .f32⟩) main_arg0) (TRef.of (T := ⟨S16x1024x92, .f32⟩) main_call0_v4) (TRef.of (T := ⟨S16x1024x92, .f32⟩) main_call0_v5) subf,
    TRef.unary (TRef.of (T := ⟨S16x1024x92, .f32⟩) main_call0_v5) (TRef.of (T := ⟨S16x1024x92, .f32⟩) main_call0_v6) Host.exp,
    TRef.nullary (TRef.of (T := ⟨S_, .f32⟩) main_call0_cst_1) (constant S_ .f32 0x00000000#32),
    TRef.binary (TRef.of (T := ⟨S16x1024x92, .f32⟩) main_call0_v6) (TRef.of (T := ⟨S_, .f32⟩) main_call0_cst_1) (TRef.of (T := ⟨S16x1024, .f32⟩) main_call0_v7) (fun x v => Host.reduceAdd x v reducesTo_S16x1024x92_S16x1024_d2 h_S_),
    TRef.unary (TRef.of (T := ⟨S16x1024, .f32⟩) main_call0_v7) (TRef.of (T := ⟨S16x1024x1, .f32⟩) main_call0_v8) (broadcastInDim S16x1024x1 ![0, 1] bcast_S16x1024_S16x1024x1_0_1),
    TRef.unary (TRef.of (T := ⟨S16x1024x1, .f32⟩) main_call0_v8) (TRef.of (T := ⟨S16x1024x1, .f32⟩) main_call0_v9) Host.log,
    TRef.unary (TRef.of (T := ⟨S16x1024x1, .f32⟩) main_call0_v9) (TRef.of (T := ⟨S16x1024x92, .f32⟩) main_call0_v10) (broadcastInDim S16x1024x92 ![0, 1, 2] bcast_S16x1024x1_S16x1024x92_0_1_2),
    TRef.binary (TRef.of (T := ⟨S16x1024x92, .f32⟩) main_call0_v5) (TRef.of (T := ⟨S16x1024x92, .f32⟩) main_call0_v10) (TRef.of (T := ⟨S16x1024x92, .f32⟩) main_v34) subf ]

/-- Every operation of the stretch touches TensorCore references only. -/
theorem ops3_sub : (ops3 : List (HloOp τ sig (Elt F))).Forall fun op => op.bufs ⊆ tcRefs τ sig :=
  ⟨binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
/-- Every operation of the stretch determines its results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl⟩

/-- The buffers that stretch 3 writes. -/
abbrev ops3_W : List (Ref sig .tc) := [main_v32, main_v33, main_call0_cst, main_call0_v0, main_call0_cst_0, main_call0_v1, main_call0_v2, main_call0_v3, main_call0_v4, main_call0_v5, main_call0_v6, main_call0_cst_1, main_call0_v7, main_call0_v8, main_call0_v9, main_call0_v10, main_v34]
set_option maxRecDepth 8192 in
set_option maxHeartbeats 2000000 in
/-- Every operation of stretch 3 writes only buffers of that list. -/
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 60 … 84 of the 251: `main_v35` … `main_v38`. -/
abbrev ops4 : List (HloOp τ sig (Elt F)) :=
  [ reshape main_v34 main_v35 rfl shapeCasts_S16x1024x92_S16384x92,
    reshape main_v17 main_v36 rfl shapeCasts_S16x1024_S16384,
    unary main_v36 main_v37 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16384x1, .i32⟩) main_call1_v0) (broadcastInDim S16384x1 ![] bcast_S_S16384x1),
    TRef.binary (TRef.of (T := ⟨S16384x1, .i32⟩) main_v37) (TRef.of (T := ⟨S16384x1, .i32⟩) main_call1_v0) (TRef.of (T := ⟨S16384x1, .i1⟩) main_call1_v1) (cmpi .slt),
    TRef.nullary (TRef.of (T := ⟨S_, .i32⟩) main_call1_c_0) (constantI S_ 32 92#32),
    TRef.unary (TRef.of (T := ⟨S_, .i32⟩) main_call1_c_0) (TRef.of (T := ⟨S16384x1, .i32⟩) main_call1_v2) (broadcastInDim S16384x1 ![] bcast_S_S16384x1),
    TRef.binary (TRef.of (T := ⟨S16384x1, .i32⟩) main_v37) (TRef.of (T := ⟨S16384x1, .i32⟩) main_call1_v2) (TRef.of (T := ⟨S16384x1, .i32⟩) main_call1_v3) addi,
    TRef.ternary (TRef.of (T := ⟨S16384x1, .i1⟩) main_call1_v1) (TRef.of (T := ⟨S16384x1, .i32⟩) main_call1_v3) (TRef.of (T := ⟨S16384x1, .i32⟩) main_v37) (TRef.of (T := ⟨S16384x1, .i32⟩) main_call1_v4) select,
    TRef.reshape (TRef.of (T := ⟨S16384x1, .i32⟩) main_call1_v4) (TRef.of (T := ⟨S16384x1x1, .i32⟩) main_call1_v5) rfl shapeCasts_S16384x1_S16384x1x1,
    TRef.nullary (TRef.of (T := ⟨S1, .i32⟩) main_call1_c_1) (constantI S1 32 91#32),
    TRef.nullary (TRef.of (T := ⟨S_, .i32⟩) main_call1_c_2) (constantI S_ 32 0#32),
    TRef.unary (TRef.of (T := ⟨S_, .i32⟩) main_call1_c_2) (TRef.of (T := ⟨S16384x1x1, .i32⟩) main_call1_v6) (broadcastInDim S16384x1x1 ![] bcast_S_S16384x1x1),
    TRef.binary (TRef.of (T := ⟨S16384x1x1, .i32⟩) main_call1_v5) (TRef.of (T := ⟨S16384x1x1, .i32⟩) main_call1_v6) (TRef.of (T := ⟨S16384x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16384x1x1, .i32⟩) main_call1_v9) (broadcastInDim S16384x1x1 ![0, 1, 2] bcast_S1x1x1_S16384x1x1_0_1_2),
    TRef.binary (TRef.of (T := ⟨S16384x1x1, .i32⟩) main_call1_v5) (TRef.of (T := ⟨S16384x1x1, .i32⟩) main_call1_v9) (TRef.of (T := ⟨S16384x1x1, .i1⟩) main_call1_v10) (cmpi .sle),
    TRef.binary (TRef.of (T := ⟨S16384x1x1, .i1⟩) main_call1_v7) (TRef.of (T := ⟨S16384x1x1, .i1⟩) main_call1_v10) (TRef.of (T := ⟨S16384x1x1, .i1⟩) main_call1_v11) andi,
    TRef.nullary (TRef.of (T := ⟨S_, .i1⟩) main_call1_c_3) (constantI S_ 1 1#1),
    TRef.binary (TRef.of (T := ⟨S16384x1x1, .i1⟩) main_call1_v11) (TRef.of (T := ⟨S_, .i1⟩) main_call1_c_3) (TRef.of (T := ⟨S16384x1, .i1⟩) main_call1_v12) (fun x v => Host.reduce IntOp.andi x v reducesTo_S16384x1x1_S16384x1_d2 h_S_),
    TRef.binary (TRef.of (T := ⟨S16384x92, .f32⟩) main_v35) (TRef.of (T := ⟨S16384x1x1, .i32⟩) main_call1_v5) (TRef.of (T := ⟨S16384x1, .f32⟩) main_call1_v13) (fun x i => Host.gather gather_S16384x92_S16384x1x1_S16384x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16384x1, .f32⟩) main_call1_v14) (broadcastInDim S16384x1 ![] bcast_S_S16384x1),
    TRef.ternary (TRef.of (T := ⟨S16384x1, .i1⟩) main_call1_v12) (TRef.of (T := ⟨S16384x1, .f32⟩) main_call1_v13) (TRef.of (T := ⟨S16384x1, .f32⟩) main_call1_v14) (TRef.of (T := ⟨S16384x1, .f32⟩) main_v38) select ]

/-- Every operation of the stretch touches TensorCore references only. -/
theorem ops4_sub : (ops4 : List (HloOp τ sig (Elt F))).Forall fun op => op.bufs ⊆ tcRefs τ sig :=
  ⟨reshape_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
/-- Every operation of the stretch determines its results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The buffers that stretch 4 writes. -/
abbrev ops4_W : List (Ref sig .tc) := [main_v35, main_v36, main_v37, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v38]
set_option maxRecDepth 8192 in
set_option maxHeartbeats 2000000 in
/-- Every operation of stretch 4 writes only buffers of that list. -/
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 85 … 95 of the 251: `main_v39` … `main_v47`. -/
abbrev ops5 : List (HloOp τ sig (Elt F)) :=
  [ reshape main_v38 main_v39 rfl shapeCasts_S16384x1_S16384,
    unary main_v39 main_v40 (Host.negf : (⟨S16384, .f32⟩ : BufTy).Contents (Elt F) → (⟨S16384, .f32⟩ : BufTy).Contents (Elt F)),
    nullary main_c_8 (constantI S_ 32 0#32),
    unary main_c_8 main_v41 (broadcastInDim S16384 ![] bcast_S_S16384 : (⟨S_, .i32⟩ : BufTy).Contents (Elt F) → (⟨S16384, .i32⟩ : BufTy).Contents (Elt F)),
    binary main_v36 main_v41 main_v42 (cmpi .slt : (⟨S16384, .i32⟩ : BufTy).Contents (Elt F) → (⟨S16384, .i32⟩ : BufTy).Contents (Elt F) → (⟨S16384, .i1⟩ : BufTy).Contents (Elt F)),
    nullary main_c_9 (constantI S_ 32 92#32),
    unary main_c_9 main_v43 (broadcastInDim S16384 ![] bcast_S_S16384 : (⟨S_, .i32⟩ : BufTy).Contents (Elt F) → (⟨S16384, .i32⟩ : BufTy).Contents (Elt F)),
    binary main_v36 main_v43 main_v44 (addi : (⟨S16384, .i32⟩ : BufTy).Contents (Elt F) → (⟨S16384, .i32⟩ : BufTy).Contents (Elt F) → (⟨S16384, .i32⟩ : BufTy).Contents (Elt F)),
    ternary main_v42 main_v44 main_v36 main_v45 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v45 main_v46 (broadcastInDim S16384x1 ![0] bcast_S16384_S16384x1_0 : (⟨S16384, .i32⟩ : BufTy).Contents (Elt F) → (⟨S16384x1, .i32⟩ : BufTy).Contents (Elt F)),
    binary main_arg6 main_v46 main_v47 ((fun x i => Host.gather gather_S92_S16384x1_S16384_n_0_n_n_0_1_1 x i) : (⟨S92, .f32⟩ : BufTy).Contents (Elt F) → (⟨S16384x1, .i32⟩ : BufTy).Contents (Elt F) → (⟨S16384, .f32⟩ : BufTy).Contents (Elt F)) ]

/-- Every operation of the stretch touches TensorCore references only. -/
theorem ops5_sub : (ops5 : List (HloOp τ sig (Elt F))).Forall fun op => op.bufs ⊆ tcRefs τ sig :=
  ⟨reshape_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩
/-- Every operation of the stretch determines its results. -/
theorem ops5_fresh : (ops5 : List (HloOp τ sig (Elt F))).Forall fun op => op.fresh = ∅ :=
  ⟨rfl, rfl, rfl, rfl, rfl, rfl, rfl, rfl, rfl, rfl, rfl⟩

/-- The buffers that stretch 5 writes. -/
abbrev ops5_W : List (Ref sig .tc) := [main_v39, main_v40, main_c_8, main_v41, main_v42, main_c_9, main_v43, main_v44, main_v45, main_v46, main_v47]
set_option maxRecDepth 8192 in
set_option maxHeartbeats 2000000 in
/-- Every operation of stretch 5 writes only buffers of that list. -/
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 96 … 120 of the 251: `main_v48` … `main_v60`. -/
abbrev ops6 : List (HloOp τ sig (Elt F)) :=
  [ binary main_v47 main_v40 main_v48 (mulf : (⟨S16384, .f32⟩ : BufTy).Contents (Elt F) → (⟨S16384, .f32⟩ : BufTy).Contents (Elt F) → (⟨S16384, .f32⟩ : BufTy).Contents (Elt F)),
    nullary main_cst_10 (constant S_ .f32 0x00000000#32),
    binary main_v48 main_cst_10 main_v49 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_11 (constant S_ .f32 0x00000000#32),
    binary main_v47 main_cst_11 main_v50 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    binary main_v49 main_v50 main_v51 (Host.divf : (⟨S_, .f32⟩ : BufTy).Contents (Elt F) → (⟨S_, .f32⟩ : BufTy).Contents (Elt F) → (⟨S_, .f32⟩ : BufTy).Contents (Elt F)),
    nullary main_c_12 (constantI S_ 32 4294967295#32),
    unary main_c_12 main_v52 (broadcastInDim S16x1024 ![] bcast_S_S16x1024 : (⟨S_, .i32⟩ : BufTy).Contents (Elt F) → (⟨S16x1024, .i32⟩ : BufTy).Contents (Elt F)),
    binary main_arg4 main_v52 main_v53 (cmpi .eq : (⟨S16x1024, .i32⟩ : BufTy).Contents (Elt F) → (⟨S16x1024, .i32⟩ : BufTy).Contents (Elt F) → (⟨S16x1024, .i1⟩ : BufTy).Contents (Elt F)),
    unary main_v53 main_v54 (broadcastInDim S16x1024x1 ![0, 1] bcast_S16x1024_S16x1024x1_0_1 : (⟨S16x1024, .i1⟩ : BufTy).Contents (Elt F) → (⟨S16x1024x1, .i1⟩ : BufTy).Contents (Elt F)),
    nullary main_c_13 (constantI S_ 32 0#32),
    unary main_c_13 main_v55 (broadcastInDim S16x1024 ![] bcast_S_S16x1024 : (⟨S_, .i32⟩ : BufTy).Contents (Elt F) → (⟨S16x1024, .i32⟩ : BufTy).Contents (Elt F)),
    binary main_v17 main_v55 main_v56 (cmpi .eq : (⟨S16x1024, .i32⟩ : BufTy).Contents (Elt F) → (⟨S16x1024, .i32⟩ : BufTy).Contents (Elt F) → (⟨S16x1024, .i1⟩ : BufTy).Contents (Elt F)),
    unary main_v56 main_v57 (broadcastInDim S16x1024x1 ![0, 1] bcast_S16x1024_S16x1024x1_0_1 : (⟨S16x1024, .i1⟩ : BufTy).Contents (Elt F) → (⟨S16x1024x1, .i1⟩ : BufTy).Contents (Elt F)),
    binary main_v54 main_v57 main_v58 (ori : (⟨S16x1024x1, .i1⟩ : BufTy).Contents (Elt F) → (⟨S16x1024x1, .i1⟩ : BufTy).Contents (Elt F) → (⟨S16x1024x1, .i1⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S16x1024x1, .i1⟩) main_v58) (TRef.of (T := ⟨S16x1024x4, .i1⟩) main_call2_v1) (broadcastInDim S16x1024x4 ![0, 1, 2] bcast_S16x1024x1_S16x1024x4_0_1_2),
    TRef.unary (TRef.of (T := ⟨S_, .f32⟩) main_call2_v0) (TRef.of (T := ⟨S16x1024x4, .f32⟩) main_call2_v2) (broadcastInDim S16x1024x4 ![] bcast_S_S16x1024x4),
    TRef.ternary (TRef.of (T := ⟨S16x1024x4, .i1⟩) main_call2_v1) (TRef.of (T := ⟨S16x1024x4, .f32⟩) main_call2_v2) (TRef.of (T := ⟨S16x1024x4, .f32⟩) main_arg1) (TRef.of (T := ⟨S16x1024x4, .f32⟩) main_v59) select,
    nullary main_cst_15 (constant S_ .f32 0x00000000#32),
    TRef.unary (TRef.of (T := ⟨S_, .f32⟩) main_cst_15) (TRef.of (T := ⟨S_, .f32⟩) main_call3_v0) id,
    TRef.unary (TRef.of (T := ⟨S16x1024x1, .i1⟩) main_v54) (TRef.of (T := ⟨S16x1024x4, .i1⟩) main_call3_v1) (broadcastInDim S16x1024x4 ![0, 1, 2] bcast_S16x1024x1_S16x1024x4_0_1_2),
    TRef.unary (TRef.of (T := ⟨S_, .f32⟩) main_call3_v0) (TRef.of (T := ⟨S16x1024x4, .f32⟩) main_call3_v2) (broadcastInDim S16x1024x4 ![] bcast_S_S16x1024x4),
    TRef.ternary (TRef.of (T := ⟨S16x1024x4, .i1⟩) main_call3_v1) (TRef.of (T := ⟨S16x1024x4, .f32⟩) main_call3_v2) (TRef.of (T := ⟨S16x1024x4, .f32⟩) main_v33) (TRef.of (T := ⟨S16x1024x4, .f32⟩) main_v60) select ]

/-- Every operation of the stretch touches TensorCore references only. -/
theorem ops6_sub : (ops6 : List (HloOp τ sig (Elt F))).Forall fun op => op.bufs ⊆ tcRefs τ sig :=
  ⟨binary_bufs_sub .., nullary_bufs_sub .., binary_bufs_sub .., nullary_bufs_sub .., binary_bufs_sub .., binary_bufs_sub .., nullary_bufs_sub .., unary_bufs_sub .., binary_bufs_sub .., unary_bufs_sub .., nullary_bufs_sub .., unary_bufs_sub .., binary_bufs_sub .., unary_bufs_sub .., binary_bufs_sub .., nullary_bufs_sub .., unary_bufs_sub .., unary_bufs_sub .., unary_bufs_sub .., ternary_bufs_sub .., nullary_bufs_sub .., unary_bufs_sub .., unary_bufs_sub .., unary_bufs_sub .., ternary_bufs_sub ..⟩
/-- Every operation of the stretch determines its results. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The buffers that stretch 6 writes. -/
abbrev ops6_W : List (Ref sig .tc) := [main_v48, main_cst_10, main_v49, main_cst_11, main_v50, main_v51, main_c_12, main_v52, main_v53, main_v54, main_c_13, main_v55, main_v56, main_v57, main_v58, main_cst_14, main_call2_v0, main_call2_v1, main_call2_v2, main_v59, main_cst_15, main_call3_v0, main_call3_v1, main_call3_v2, main_v60]
set_option maxRecDepth 8192 in
set_option maxHeartbeats 2000000 in
/-- Every operation of stretch 6 writes only buffers of that list. -/
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 121 … 142 of the 251: `main_v61` … `main_v79`. -/
abbrev ops7 : List (HloOp τ sig (Elt F)) :=
  [ unary main_v57 main_v61 ((extui 32 · natLt_1_32) : (⟨S16x1024x1, .i1⟩ : BufTy).Contents (Elt F) → (⟨S16x1024x1, .i32⟩ : BufTy).Contents (Elt F)),
    nullary main_c_16 (constantI S_ 32 0#32),
    binary main_v61 main_c_16 main_v62 ((fun x v => Host.reduce IntOp.addi x v reducesTo_S16x1024x1_S_d0_1_2 h_S_) : (⟨S16x1024x1, .i32⟩ : BufTy).Contents (Elt F) → (⟨S_, .i32⟩ : BufTy).Contents (Elt F) → (⟨S_, .i32⟩ : BufTy).Contents (Elt F)),
    nullary main_c_17 (constantI S_ 32 1#32),
    binary main_v62 main_c_17 main_v63 (maxsi : (⟨S_, .i32⟩ : BufTy).Contents (Elt F) → (⟨S_, .i32⟩ : BufTy).Contents (Elt F) → (⟨S_, .i32⟩ : BufTy).Contents (Elt F)),
    unary main_v63 main_v64 (sitofp .f32 : (⟨S_, .i32⟩ : BufTy).Contents (Elt F) → (⟨S_, .f32⟩ : BufTy).Contents (Elt F)),
    binary main_v59 main_v60 main_v65 (subf : (⟨S16x1024x4, .f32⟩ : BufTy).Contents (Elt F) → (⟨S16x1024x4, .f32⟩ : BufTy).Contents (Elt F) → (⟨S16x1024x4, .f32⟩ : BufTy).Contents (Elt F)),
    unary main_v65 main_v66 (Host.absf : (⟨S16x1024x4, .f32⟩ : BufTy).Contents (Elt F) → (⟨S16x1024x4, .f32⟩ : BufTy).Contents (Elt F)),
    nullary main_cst_18 (constant S_ .f32 0x00000000#32),
    binary main_v66 main_cst_18 main_v67 ((fun x v => Host.reduceAdd x v reducesTo_S16x1024x4_S_d0_1_2 h_S_) : (⟨S16x1024x4, .f32⟩ : BufTy).Contents (Elt F) → (⟨S_, .f32⟩ : BufTy).Contents (Elt F) → (⟨S_, .f32⟩ : BufTy).Contents (Elt F)),
    binary main_v67 main_v64 main_v68 (Host.divf : (⟨S_, .f32⟩ : BufTy).Contents (Elt F) → (⟨S_, .f32⟩ : BufTy).Contents (Elt F) → (⟨S_, .f32⟩ : BufTy).Contents (Elt F)),
    unary main_v59 main_v69 ((extractStridedSlice S16x1024x1 ![0, 0, 2] · slices_S16x1024x4_S16x1024x1_0_0_2) : (⟨S16x1024x4, .f32⟩ : BufTy).Contents (Elt F) → (⟨S16x1024x1, .f32⟩ : BufTy).Contents (Elt F)),
    reshape main_v69 main_v70 rfl shapeCasts_S16x1024x1_S16x1024,
    unary main_v59 main_v71 ((extractStridedSlice S16x1024x1 ![0, 0, 0] · slices_S16x1024x4_S16x1024x1_0_0_0) : (⟨S16x1024x4, .f32⟩ : BufTy).Contents (Elt F) → (⟨S16x1024x1, .f32⟩ : BufTy).Contents (Elt F)),
    reshape main_v71 main_v72 rfl shapeCasts_S16x1024x1_S16x1024,
    binary main_v70 main_v72 main_v73 (subf : (⟨S16x1024, .f32⟩ : BufTy).Contents (Elt F) → (⟨S16x1024, .f32⟩ : BufTy).Contents (Elt F) → (⟨S16x1024, .f32⟩ : BufTy).Contents (Elt F)),
    unary main_v59 main_v74 ((extractStridedSlice S16x1024x1 ![0, 0, 3] · slices_S16x1024x4_S16x1024x1_0_0_3) : (⟨S16x1024x4, .f32⟩ : BufTy).Contents (Elt F) → (⟨S16x1024x1, .f32⟩ : BufTy).Contents (Elt F)),
    reshape main_v74 main_v75 rfl shapeCasts_S16x1024x1_S16x1024,
    unary main_v59 main_v76 ((extractStridedSlice S16x1024x1 ![0, 0, 1] · slices_S16x1024x4_S16x1024x1_0_0_1) : (⟨S16x1024x4, .f32⟩ : BufTy).Contents (Elt F) → (⟨S16x1024x1, .f32⟩ : BufTy).Contents (Elt F)),
    reshape main_v76 main_v77 rfl shapeCasts_S16x1024x1_S16x1024,
    binary main_v75 main_v77 main_v78 (subf : (⟨S16x1024, .f32⟩ : BufTy).Contents (Elt F) → (⟨S16x1024, .f32⟩ : BufTy).Contents (Elt F) → (⟨S16x1024, .f32⟩ : BufTy).Contents (Elt F)),
    binary main_v73 main_v78 main_v79 (mulf : (⟨S16x1024, .f32⟩ : BufTy).Contents (Elt F) → (⟨S16x1024, .f32⟩ : BufTy).Contents (Elt F) → (⟨S16x1024, .f32⟩ : BufTy).Contents (Elt F)) ]

/-- Every operation of the stretch touches TensorCore references only. -/
theorem ops7_sub : (ops7 : List (HloOp τ sig (Elt F))).Forall fun op => op.bufs ⊆ tcRefs τ sig :=
  ⟨unary_bufs_sub .., nullary_bufs_sub .., binary_bufs_sub .., nullary_bufs_sub .., binary_bufs_sub .., unary_bufs_sub .., binary_bufs_sub .., unary_bufs_sub .., nullary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub ..⟩
/-- Every operation of the stretch determines its results. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The buffers that stretch 7 writes. -/
abbrev ops7_W : List (Ref sig .tc) := [main_v61, main_c_16, main_v62, main_c_17, main_v63, main_v64, main_v65, main_v66, main_cst_18, main_v67, main_v68, main_v69, main_v70, main_v71, main_v72, main_v73, main_v74, main_v75, main_v76, main_v77, main_v78, main_v79]
set_option maxRecDepth 8192 in
set_option maxHeartbeats 2000000 in
/-- Every operation of stretch 7 writes only buffers of that list. -/
theorem ops7_writes : (ops7 : List (HloOp τ sig (Elt F))).Forall fun op => op.writes ⊆ (ops7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 143 … 161 of the 251: `main_v80` … `main_v98`. -/
abbrev ops8 : List (HloOp τ sig (Elt F)) :=
  [ unary main_v60 main_v80 ((extractStridedSlice S16x1024x1 ![0, 0, 2] · slices_S16x1024x4_S16x1024x1_0_0_2) : (⟨S16x1024x4, .f32⟩ : BufTy).Contents (Elt F) → (⟨S16x1024x1, .f32⟩ : BufTy).Contents (Elt F)),
    reshape main_v80 main_v81 rfl shapeCasts_S16x1024x1_S16x1024,
    unary main_v60 main_v82 ((extractStridedSlice S16x1024x1 ![0, 0, 0] · slices_S16x1024x4_S16x1024x1_0_0_0) : (⟨S16x1024x4, .f32⟩ : BufTy).Contents (Elt F) → (⟨S16x1024x1, .f32⟩ : BufTy).Contents (Elt F)),
    reshape main_v82 main_v83 rfl shapeCasts_S16x1024x1_S16x1024,
    binary main_v81 main_v83 main_v84 (subf : (⟨S16x1024, .f32⟩ : BufTy).Contents (Elt F) → (⟨S16x1024, .f32⟩ : BufTy).Contents (Elt F) → (⟨S16x1024, .f32⟩ : BufTy).Contents (Elt F)),
    unary main_v60 main_v85 ((extractStridedSlice S16x1024x1 ![0, 0, 3] · slices_S16x1024x4_S16x1024x1_0_0_3) : (⟨S16x1024x4, .f32⟩ : BufTy).Contents (Elt F) → (⟨S16x1024x1, .f32⟩ : BufTy).Contents (Elt F)),
    reshape main_v85 main_v86 rfl shapeCasts_S16x1024x1_S16x1024,
    unary main_v60 main_v87 ((extractStridedSlice S16x1024x1 ![0, 0, 1] · slices_S16x1024x4_S16x1024x1_0_0_1) : (⟨S16x1024x4, .f32⟩ : BufTy).Contents (Elt F) → (⟨S16x1024x1, .f32⟩ : BufTy).Contents (Elt F)),
    reshape main_v87 main_v88 rfl shapeCasts_S16x1024x1_S16x1024,
    binary main_v86 main_v88 main_v89 (subf : (⟨S16x1024, .f32⟩ : BufTy).Contents (Elt F) → (⟨S16x1024, .f32⟩ : BufTy).Contents (Elt F) → (⟨S16x1024, .f32⟩ : BufTy).Contents (Elt F)),
    binary main_v84 main_v89 main_v90 (mulf : (⟨S16x1024, .f32⟩ : BufTy).Contents (Elt F) → (⟨S16x1024, .f32⟩ : BufTy).Contents (Elt F) → (⟨S16x1024, .f32⟩ : BufTy).Contents (Elt F)),
    unary main_v59 main_v91 ((extractStridedSlice S16x1024x2 ![0, 0, 0] · slices_S16x1024x4_S16x1024x2_0_0_0) : (⟨S16x1024x4, .f32⟩ : BufTy).Contents (Elt F) → (⟨S16x1024x2, .f32⟩ : BufTy).Contents (Elt F)),
    unary main_v91 main_v92 (broadcastInDim S16x1024x1x2 ![0, 1, 3] bcast_S16x1024x2_S16x1024x1x2_0_1_3 : (⟨S16x1024x2, .f32⟩ : BufTy).Contents (Elt F) → (⟨S16x1024x1x2, .f32⟩ : BufTy).Contents (Elt F)),
    unary main_v60 main_v93 ((extractStridedSlice S16x1024x2 ![0, 0, 0] · slices_S16x1024x4_S16x1024x2_0_0_0) : (⟨S16x1024x4, .f32⟩ : BufTy).Contents (Elt F) → (⟨S16x1024x2, .f32⟩ : BufTy).Contents (Elt F)),
    unary main_v93 main_v94 (broadcastInDim S16x1x1024x2 ![0, 2, 3] bcast_S16x1024x2_S16x1x1024x2_0_2_3 : (⟨S16x1024x2, .f32⟩ : BufTy).Contents (Elt F) → (⟨S16x1x1024x2, .f32⟩ : BufTy).Contents (Elt F)),
    unary main_v92 main_v95 (broadcastInDim S16x1024x1024x2 ![0, 1, 2, 3] bcast_S16x1024x1x2_S16x1024x1024x2_0_1_2_3 : (⟨S16x1024x1x2, .f32⟩ : BufTy).Contents (Elt F) → (⟨S16x1024x1024x2, .f32⟩ : BufTy).Contents (Elt F)),
    unary main_v94 main_v96 (broadcastInDim S16x1024x1024x2 ![0, 1, 2, 3] bcast_S16x1x1024x2_S16x1024x1024x2_0_1_2_3 : (⟨S16x1x1024x2, .f32⟩ : BufTy).Contents (Elt F) → (⟨S16x1024x1024x2, .f32⟩ : BufTy).Contents (Elt F)),
    binary main_v95 main_v96 main_v97 (maximumf : (⟨S16x1024x1024x2, .f32⟩ : BufTy).Contents (Elt F) → (⟨S16x1024x1024x2, .f32⟩ : BufTy).Contents (Elt F) → (⟨S16x1024x1024x2, .f32⟩ : BufTy).Contents (Elt F)),
    unary main_v59 main_v98 ((extractStridedSlice S16x1024x2 ![0, 0, 2] · slices_S16x1024x4_S16x1024x2_0_0_2) : (⟨S16x1024x4, .f32⟩ : BufTy).Contents (Elt F) → (⟨S16x1024x2, .f32⟩ : BufTy).Contents (Elt F)) ]

/-- Every operation of the stretch touches TensorCore references only. -/
theorem ops8_sub : (ops8 : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., unary_bufs_sub .., unary_bufs_sub .., binary_bufs_sub .., unary_bufs_sub ..⟩
/-- Every operation of the stretch determines its results. -/
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers that stretch 8 writes. -/
abbrev ops8_W : List (Ref sig .tc) := [main_v80, main_v81, main_v82, main_v83, main_v84, main_v85, main_v86, main_v87, main_v88, main_v89, main_v90, main_v91, main_v92, main_v93, main_v94, main_v95, main_v96, main_v97, main_v98]
set_option maxRecDepth 8192 in
set_option maxHeartbeats 2000000 in
/-- Every operation of stretch 8 writes only buffers of that list. -/
theorem ops8_writes : (ops8 : List (HloOp τ sig (Elt F))).Forall fun op => op.writes ⊆ (ops8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 162 … 182 of the 251: `main_v99` … `main_v116`. -/
abbrev ops9 : List (HloOp τ sig (Elt F)) :=
  [ unary main_v98 main_v99 (broadcastInDim S16x1024x1x2 ![0, 1, 3] bcast_S16x1024x2_S16x1024x1x2_0_1_3 : (⟨S16x1024x2, .f32⟩ : BufTy).Contents (Elt F) → (⟨S16x1024x1x2, .f32⟩ : BufTy).Contents (Elt F)),
    unary main_v60 main_v100 ((extractStridedSlice S16x1024x2 ![0, 0, 2] · slices_S16x1024x4_S16x1024x2_0_0_2) : (⟨S16x1024x4, .f32⟩ : BufTy).Contents (Elt F) → (⟨S16x1024x2, .f32⟩ : BufTy).Contents (Elt F)),
    unary main_v100 main_v101 (broadcastInDim S16x1x1024x2 ![0, 2, 3] bcast_S16x1024x2_S16x1x1024x2_0_2_3 : (⟨S16x1024x2, .f32⟩ : BufTy).Contents (Elt F) → (⟨S16x1x1024x2, .f32⟩ : BufTy).Contents (Elt F)),
    unary main_v99 main_v102 (broadcastInDim S16x1024x1024x2 ![0, 1, 2, 3] bcast_S16x1024x1x2_S16x1024x1024x2_0_1_2_3 : (⟨S16x1024x1x2, .f32⟩ : BufTy).Contents (Elt F) → (⟨S16x1024x1024x2, .f32⟩ : BufTy).Contents (Elt F)),
    unary main_v101 main_v103 (broadcastInDim S16x1024x1024x2 ![0, 1, 2, 3] bcast_S16x1x1024x2_S16x1024x1024x2_0_1_2_3 : (⟨S16x1x1024x2, .f32⟩ : BufTy).Contents (Elt F) → (⟨S16x1024x1024x2, .f32⟩ : BufTy).Contents (Elt F)),
    binary main_v102 main_v103 main_v104 (minimumf : (⟨S16x1024x1024x2, .f32⟩ : BufTy).Contents (Elt F) → (⟨S16x1024x1024x2, .f32⟩ : BufTy).Contents (Elt F) → (⟨S16x1024x1024x2, .f32⟩ : BufTy).Contents (Elt F)),
    binary main_v104 main_v97 main_v105 (subf : (⟨S16x1024x1024x2, .f32⟩ : BufTy).Contents (Elt F) → (⟨S16x1024x1024x2, .f32⟩ : BufTy).Contents (Elt F) → (⟨S16x1024x1024x2, .f32⟩ : BufTy).Contents (Elt F)),
    nullary main_cst_19 (constant S_ .f32 0x00000000#32),
    TRef.unary (TRef.of (T := ⟨S_, .f32⟩) main_cst_19) (TRef.of (T := ⟨S_, .f32⟩) main_call4_v0) id,
    TRef.unary (TRef.of (T := ⟨S_, .f32⟩) main_call4_v0) (TRef.of (T := ⟨S16x1024x1024x2, .f32⟩) main_call4_v1) (broadcastInDim S16x1024x1024x2 ![] bcast_S_S16x1024x1024x2),
    TRef.binary (TRef.of (T := ⟨S16x1024x1024x2, .f32⟩) main_call4_v1) (TRef.of (T := ⟨S16x1024x1024x2, .f32⟩) main_v105) (TRef.of (T := ⟨S16x1024x1024x2, .f32⟩) main_v106) maximumf,
    unary main_v106 main_v107 ((extractStridedSlice S16x1024x1024x1 ![0, 0, 0, 0] · slices_S16x1024x1024x2_S16x1024x1024x1_0_0_0_0) : (⟨S16x1024x1024x2, .f32⟩ : BufTy).Contents (Elt F) → (⟨S16x1024x1024x1, .f32⟩ : BufTy).Contents (Elt F)),
    reshape main_v107 main_v108 rfl shapeCasts_S16x1024x1024x1_S16x1024x1024,
    unary main_v106 main_v109 ((extractStridedSlice S16x1024x1024x1 ![0, 0, 0, 1] · slices_S16x1024x1024x2_S16x1024x1024x1_0_0_0_1) : (⟨S16x1024x1024x2, .f32⟩ : BufTy).Contents (Elt F) → (⟨S16x1024x1024x1, .f32⟩ : BufTy).Contents (Elt F)),
    reshape main_v109 main_v110 rfl shapeCasts_S16x1024x1024x1_S16x1024x1024,
    binary main_v108 main_v110 main_v111 (mulf : (⟨S16x1024x1024, .f32⟩ : BufTy).Contents (Elt F) → (⟨S16x1024x1024, .f32⟩ : BufTy).Contents (Elt F) → (⟨S16x1024x1024, .f32⟩ : BufTy).Contents (Elt F)),
    unary main_v79 main_v112 (broadcastInDim S16x1024x1 ![0, 1] bcast_S16x1024_S16x1024x1_0_1 : (⟨S16x1024, .f32⟩ : BufTy).Contents (Elt F) → (⟨S16x1024x1, .f32⟩ : BufTy).Contents (Elt F)),
    unary main_v90 main_v113 (broadcastInDim S16x1x1024 ![0, 2] bcast_S16x1024_S16x1x1024_0_2 : (⟨S16x1024, .f32⟩ : BufTy).Contents (Elt F) → (⟨S16x1x1024, .f32⟩ : BufTy).Contents (Elt F)),
    unary main_v112 main_v114 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    unary main_v113 main_v115 (broadcastInDim S16x1024x1024 ![0, 1, 2] bcast_S16x1x1024_S16x1024x1024_0_1_2 : (⟨S16x1x1024, .f32⟩ : BufTy).Contents (Elt F) → (⟨S16x1024x1024, .f32⟩ : BufTy).Contents (Elt F)),
    binary main_v114 main_v115 main_v116 (addf : (⟨S16x1024x1024, .f32⟩ : BufTy).Contents (Elt F) → (⟨S16x1024x1024, .f32⟩ : BufTy).Contents (Elt F) → (⟨S16x1024x1024, .f32⟩ : BufTy).Contents (Elt F)) ]

/-- Every operation of the stretch touches TensorCore references only. -/
theorem ops9_sub : (ops9 : List (HloOp τ sig (Elt F))).Forall fun op => op.bufs ⊆ tcRefs τ sig :=
  ⟨unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., binary_bufs_sub ..⟩
/-- Every operation of the stretch determines its results. -/
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The buffers that stretch 9 writes. -/
abbrev ops9_W : List (Ref sig .tc) := [main_v99, main_v100, main_v101, main_v102, main_v103, main_v104, main_v105, main_cst_19, main_call4_v0, main_call4_v1, main_v106, main_v107, main_v108, main_v109, main_v110, main_v111, main_v112, main_v113, main_v114, main_v115, main_v116]
set_option maxRecDepth 8192 in
set_option maxHeartbeats 2000000 in
/-- Every operation of stretch 9 writes only buffers of that list. -/
theorem ops9_writes : (ops9 : List (HloOp τ sig (Elt F))).Forall fun op => op.writes ⊆ (ops9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 183 … 202 of the 251: `main_v117` … `main_v135`. -/
abbrev ops10 : List (HloOp τ sig (Elt F)) :=
  [ binary main_v116 main_v111 main_v117 (subf : (⟨S16x1024x1024, .f32⟩ : BufTy).Contents (Elt F) → (⟨S16x1024x1024, .f32⟩ : BufTy).Contents (Elt F) → (⟨S16x1024x1024, .f32⟩ : BufTy).Contents (Elt F)),
    nullary main_cst_20 (constant S_ .f32 0x33D6BF95#32),
    unary main_cst_20 main_v118 (broadcastInDim S16x1024x1024 ![] bcast_S_S16x1024x1024 : (⟨S_, .f32⟩ : BufTy).Contents (Elt F) → (⟨S16x1024x1024, .f32⟩ : BufTy).Contents (Elt F)),
    binary main_v117 main_v118 main_v119 (maximumf : (⟨S16x1024x1024, .f32⟩ : BufTy).Contents (Elt F) → (⟨S16x1024x1024, .f32⟩ : BufTy).Contents (Elt F) → (⟨S16x1024x1024, .f32⟩ : BufTy).Contents (Elt F)),
    binary main_v111 main_v119 main_v120 (Host.divf : (⟨S16x1024x1024, .f32⟩ : BufTy).Contents (Elt F) → (⟨S16x1024x1024, .f32⟩ : BufTy).Contents (Elt F) → (⟨S16x1024x1024, .f32⟩ : BufTy).Contents (Elt F)),
    unary main_v59 main_v121 ((extractStridedSlice S16x1024x2 ![0, 0, 0] · slices_S16x1024x4_S16x1024x2_0_0_0) : (⟨S16x1024x4, .f32⟩ : BufTy).Contents (Elt F) → (⟨S16x1024x2, .f32⟩ : BufTy).Contents (Elt F)),
    unary main_v121 main_v122 (broadcastInDim S16x1024x1x2 ![0, 1, 3] bcast_S16x1024x2_S16x1024x1x2_0_1_3 : (⟨S16x1024x2, .f32⟩ : BufTy).Contents (Elt F) → (⟨S16x1024x1x2, .f32⟩ : BufTy).Contents (Elt F)),
    unary main_v60 main_v123 ((extractStridedSlice S16x1024x2 ![0, 0, 0] · slices_S16x1024x4_S16x1024x2_0_0_0) : (⟨S16x1024x4, .f32⟩ : BufTy).Contents (Elt F) → (⟨S16x1024x2, .f32⟩ : BufTy).Contents (Elt F)),
    unary main_v123 main_v124 (broadcastInDim S16x1x1024x2 ![0, 2, 3] bcast_S16x1024x2_S16x1x1024x2_0_2_3 : (⟨S16x1024x2, .f32⟩ : BufTy).Contents (Elt F) → (⟨S16x1x1024x2, .f32⟩ : BufTy).Contents (Elt F)),
    unary main_v122 main_v125 (broadcastInDim S16x1024x1024x2 ![0, 1, 2, 3] bcast_S16x1024x1x2_S16x1024x1024x2_0_1_2_3 : (⟨S16x1024x1x2, .f32⟩ : BufTy).Contents (Elt F) → (⟨S16x1024x1024x2, .f32⟩ : BufTy).Contents (Elt F)),
    unary main_v124 main_v126 (broadcastInDim S16x1024x1024x2 ![0, 1, 2, 3] bcast_S16x1x1024x2_S16x1024x1024x2_0_1_2_3 : (⟨S16x1x1024x2, .f32⟩ : BufTy).Contents (Elt F) → (⟨S16x1024x1024x2, .f32⟩ : BufTy).Contents (Elt F)),
    binary main_v125 main_v126 main_v127 (minimumf : (⟨S16x1024x1024x2, .f32⟩ : BufTy).Contents (Elt F) → (⟨S16x1024x1024x2, .f32⟩ : BufTy).Contents (Elt F) → (⟨S16x1024x1024x2, .f32⟩ : BufTy).Contents (Elt F)),
    unary main_v59 main_v128 ((extractStridedSlice S16x1024x2 ![0, 0, 2] · slices_S16x1024x4_S16x1024x2_0_0_2) : (⟨S16x1024x4, .f32⟩ : BufTy).Contents (Elt F) → (⟨S16x1024x2, .f32⟩ : BufTy).Contents (Elt F)),
    unary main_v128 main_v129 (broadcastInDim S16x1024x1x2 ![0, 1, 3] bcast_S16x1024x2_S16x1024x1x2_0_1_3 : (⟨S16x1024x2, .f32⟩ : BufTy).Contents (Elt F) → (⟨S16x1024x1x2, .f32⟩ : BufTy).Contents (Elt F)),
    unary main_v60 main_v130 ((extractStridedSlice S16x1024x2 ![0, 0, 2] · slices_S16x1024x4_S16x1024x2_0_0_2) : (⟨S16x1024x4, .f32⟩ : BufTy).Contents (Elt F) → (⟨S16x1024x2, .f32⟩ : BufTy).Contents (Elt F)),
    unary main_v130 main_v131 (broadcastInDim S16x1x1024x2 ![0, 2, 3] bcast_S16x1024x2_S16x1x1024x2_0_2_3 : (⟨S16x1024x2, .f32⟩ : BufTy).Contents (Elt F) → (⟨S16x1x1024x2, .f32⟩ : BufTy).Contents (Elt F)),
    unary main_v129 main_v132 (broadcastInDim S16x1024x1024x2 ![0, 1, 2, 3] bcast_S16x1024x1x2_S16x1024x1024x2_0_1_2_3 : (⟨S16x1024x1x2, .f32⟩ : BufTy).Contents (Elt F) → (⟨S16x1024x1024x2, .f32⟩ : BufTy).Contents (Elt F)),
    unary main_v131 main_v133 (broadcastInDim S16x1024x1024x2 ![0, 1, 2, 3] bcast_S16x1x1024x2_S16x1024x1024x2_0_1_2_3 : (⟨S16x1x1024x2, .f32⟩ : BufTy).Contents (Elt F) → (⟨S16x1024x1024x2, .f32⟩ : BufTy).Contents (Elt F)),
    binary main_v132 main_v133 main_v134 (maximumf : (⟨S16x1024x1024x2, .f32⟩ : BufTy).Contents (Elt F) → (⟨S16x1024x1024x2, .f32⟩ : BufTy).Contents (Elt F) → (⟨S16x1024x1024x2, .f32⟩ : BufTy).Contents (Elt F)),
    binary main_v134 main_v127 main_v135 (subf : (⟨S16x1024x1024x2, .f32⟩ : BufTy).Contents (Elt F) → (⟨S16x1024x1024x2, .f32⟩ : BufTy).Contents (Elt F) → (⟨S16x1024x1024x2, .f32⟩ : BufTy).Contents (Elt F)) ]

/-- Every operation of the stretch touches TensorCore references only. -/
theorem ops10_sub : (ops10 : List (HloOp τ sig (Elt F))).Forall fun op => op.bufs ⊆ tcRefs τ sig :=
  ⟨binary_bufs_sub .., nullary_bufs_sub .., unary_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub ..⟩
/-- Every operation of the stretch determines its results. -/
theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The buffers that stretch 10 writes. -/
abbrev ops10_W : List (Ref sig .tc) := [main_v117, main_cst_20, main_v118, main_v119, main_v120, main_v121, main_v122, main_v123, main_v124, main_v125, main_v126, main_v127, main_v128, main_v129, main_v130, main_v131, main_v132, main_v133, main_v134, main_v135]
set_option maxRecDepth 8192 in
set_option maxHeartbeats 2000000 in
/-- Every operation of stretch 10 writes only buffers of that list. -/
theorem ops10_writes : (ops10 : List (HloOp τ sig (Elt F))).Forall fun op => op.writes ⊆ (ops10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 203 … 217 of the 251: `main_cst_21` … `main_v146`. -/
abbrev ops11 : List (HloOp τ sig (Elt F)) :=
  [ nullary main_cst_21 (constant S_ .f32 0x00000000#32),
    TRef.unary (TRef.of (T := ⟨S_, .f32⟩) main_cst_21) (TRef.of (T := ⟨S_, .f32⟩) main_call5_v0) id,
    TRef.unary (TRef.of (T := ⟨S_, .f32⟩) main_call5_v0) (TRef.of (T := ⟨S16x1024x1024x2, .f32⟩) main_call5_v1) (broadcastInDim S16x1024x1024x2 ![] bcast_S_S16x1024x1024x2),
    TRef.binary (TRef.of (T := ⟨S16x1024x1024x2, .f32⟩) main_call5_v1) (TRef.of (T := ⟨S16x1024x1024x2, .f32⟩) main_v135) (TRef.of (T := ⟨S16x1024x1024x2, .f32⟩) main_v136) maximumf,
    unary main_v136 main_v137 ((extractStridedSlice S16x1024x1024x1 ![0, 0, 0, 0] · slices_S16x1024x1024x2_S16x1024x1024x1_0_0_0_0) : (⟨S16x1024x1024x2, .f32⟩ : BufTy).Contents (Elt F) → (⟨S16x1024x1024x1, .f32⟩ : BufTy).Contents (Elt F)),
    reshape main_v137 main_v138 rfl shapeCasts_S16x1024x1024x1_S16x1024x1024,
    unary main_v136 main_v139 ((extractStridedSlice S16x1024x1024x1 ![0, 0, 0, 1] · slices_S16x1024x1024x2_S16x1024x1024x1_0_0_0_1) : (⟨S16x1024x1024x2, .f32⟩ : BufTy).Contents (Elt F) → (⟨S16x1024x1024x1, .f32⟩ : BufTy).Contents (Elt F)),
    reshape main_v139 main_v140 rfl shapeCasts_S16x1024x1024x1_S16x1024x1024,
    binary main_v138 main_v140 main_v141 (mulf : (⟨S16x1024x1024, .f32⟩ : BufTy).Contents (Elt F) → (⟨S16x1024x1024, .f32⟩ : BufTy).Contents (Elt F) → (⟨S16x1024x1024, .f32⟩ : BufTy).Contents (Elt F)),
    binary main_v141 main_v117 main_v142 (subf : (⟨S16x1024x1024, .f32⟩ : BufTy).Contents (Elt F) → (⟨S16x1024x1024, .f32⟩ : BufTy).Contents (Elt F) → (⟨S16x1024x1024, .f32⟩ : BufTy).Contents (Elt F)),
    nullary main_cst_22 (constant S_ .f32 0x33D6BF95#32),
    unary main_cst_22 main_v143 (broadcastInDim S16x1024x1024 ![] bcast_S_S16x1024x1024 : (⟨S_, .f32⟩ : BufTy).Contents (Elt F) → (⟨S16x1024x1024, .f32⟩ : BufTy).Contents (Elt F)),
    binary main_v141 main_v143 main_v144 (maximumf : (⟨S16x1024x1024, .f32⟩ : BufTy).Contents (Elt F) → (⟨S16x1024x1024, .f32⟩ : BufTy).Contents (Elt F) → (⟨S16x1024x1024, .f32⟩ : BufTy).Contents (Elt F)),
    binary main_v142 main_v144 main_v145 (Host.divf : (⟨S16x1024x1024, .f32⟩ : BufTy).Contents (Elt F) → (⟨S16x1024x1024, .f32⟩ : BufTy).Contents (Elt F) → (⟨S16x1024x1024, .f32⟩ : BufTy).Contents (Elt F)),
    binary main_v120 main_v145 main_v146 (subf : (⟨S16x1024x1024, .f32⟩ : BufTy).Contents (Elt F) → (⟨S16x1024x1024, .f32⟩ : BufTy).Contents (Elt F) → (⟨S16x1024x1024, .f32⟩ : BufTy).Contents (Elt F)) ]

/-- Every operation of the stretch touches TensorCore references only. -/
theorem ops11_sub : (ops11 : List (HloOp τ sig (Elt F))).Forall fun op => op.bufs ⊆ tcRefs τ sig :=
  ⟨nullary_bufs_sub .., unary_bufs_sub .., unary_bufs_sub .., binary_bufs_sub .., unary_bufs_sub .., reshape_bufs_sub .., unary_bufs_sub .., reshape_bufs_sub .., binary_bufs_sub .., binary_bufs_sub .., nullary_bufs_sub .., unary_bufs_sub .., binary_bufs_sub .., binary_bufs_sub .., binary_bufs_sub ..⟩
/-- Every operation of the stretch determines its results. -/
theorem ops11_fresh : (ops11 : List (HloOp τ sig (Elt F))).Forall fun op => op.fresh = ∅ :=
  ⟨rfl, rfl, rfl, rfl, rfl, rfl, rfl, rfl, rfl, rfl, rfl, rfl, rfl, rfl, rfl⟩

/-- The buffers that stretch 11 writes. -/
abbrev ops11_W : List (Ref sig .tc) := [main_cst_21, main_call5_v0, main_call5_v1, main_v136, main_v137, main_v138, main_v139, main_v140, main_v141, main_v142, main_cst_22, main_v143, main_v144, main_v145, main_v146]
set_option maxRecDepth 8192 in
set_option maxHeartbeats 2000000 in
/-- Every operation of stretch 11 writes only buffers of that list. -/
theorem ops11_writes : (ops11 : List (HloOp τ sig (Elt F))).Forall fun op => op.writes ⊆ (ops11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 218 … 235 of the 251: `main_call6_v0` … `main_call6_v13`. -/
abbrev ops12 : List (HloOp τ sig (Elt F)) :=
  [ TRef.nullary (TRef.of (T := ⟨S1024, .i32⟩) main_call6_v0) (iotaInDim S1024 32 0),
    TRef.nullary (TRef.of (T := ⟨S1024, .i32⟩) main_call6_v1) (iotaInDim S1024 32 0),
    TRef.nullary (TRef.of (T := ⟨S_, .i32⟩) main_call6_c) (constantI S_ 32 0#32),
    TRef.unary (TRef.of (T := ⟨S_, .i32⟩) main_call6_c) (TRef.of (T := ⟨S1024, .i32⟩) main_call6_v2) (broadcastInDim S1024 ![] bcast_S_S1024),
    TRef.binary (TRef.of (T := ⟨S1024, .i32⟩) main_call6_v0) (TRef.of (T := ⟨S1024, .i32⟩) main_call6_v2) (TRef.of (T := ⟨S1024, .i1⟩) main_call6_v3) (cmpi .slt),
    TRef.nullary (TRef.of (T := ⟨S_, .i32⟩) main_call6_c_0) (constantI S_ 32 1024#32),
    TRef.unary (TRef.of (T := ⟨S_, .i32⟩) main_call6_c_0) (TRef.of (T := ⟨S1024, .i32⟩) main_call6_v4) (broadcastInDim S1024 ![] bcast_S_S1024),
    TRef.binary (TRef.of (T := ⟨S1024, .i32⟩) main_call6_v0) (TRef.of (T := ⟨S1024, .i32⟩) main_call6_v4) (TRef.of (T := ⟨S1024, .i32⟩) main_call6_v5) addi,
    TRef.ternary (TRef.of (T := ⟨S1024, .i1⟩) main_call6_v3) (TRef.of (T := ⟨S1024, .i32⟩) main_call6_v5) (TRef.of (T := ⟨S1024, .i32⟩) main_call6_v0) (TRef.of (T := ⟨S1024, .i32⟩) main_call6_v6) select,
    TRef.nullary (TRef.of (T := ⟨S_, .i32⟩) main_call6_c_1) (constantI S_ 32 0#32),
    TRef.unary (TRef.of (T := ⟨S_, .i32⟩) main_call6_c_1) (TRef.of (T := ⟨S1024, .i32⟩) main_call6_v7) (broadcastInDim S1024 ![] bcast_S_S1024),
    TRef.binary (TRef.of (T := ⟨S1024, .i32⟩) main_call6_v1) (TRef.of (T := ⟨S1024, .i32⟩) main_call6_v7) (TRef.of (T := ⟨S1024, .i1⟩) main_call6_v8) (cmpi .slt),
    TRef.nullary (TRef.of (T := ⟨S_, .i32⟩) main_call6_c_2) (constantI S_ 32 1024#32),
    TRef.unary (TRef.of (T := ⟨S_, .i32⟩) main_call6_c_2) (TRef.of (T := ⟨S1024, .i32⟩) main_call6_v9) (broadcastInDim S1024 ![] bcast_S_S1024),
    TRef.binary (TRef.of (T := ⟨S1024, .i32⟩) main_call6_v1) (TRef.of (T := ⟨S1024, .i32⟩) main_call6_v9) (TRef.of (T := ⟨S1024, .i32⟩) main_call6_v10) addi,
    TRef.ternary (TRef.of (T := ⟨S1024, .i1⟩) main_call6_v8) (TRef.of (T := ⟨S1024, .i32⟩) main_call6_v10) (TRef.of (T := ⟨S1024, .i32⟩) main_call6_v1) (TRef.of (T := ⟨S1024, .i32⟩) main_call6_v11) select,
    TRef.unary (TRef.of (T := ⟨S1024, .i32⟩) main_call6_v6) (TRef.of (T := ⟨S1024x1, .i32⟩) main_call6_v12) (broadcastInDim S1024x1 ![0] bcast_S1024_S1024x1_0),
    TRef.unary (TRef.of (T := ⟨S1024, .i32⟩) main_call6_v11) (TRef.of (T := ⟨S1024x1, .i32⟩) main_call6_v13) (broadcastInDim S1024x1 ![0] bcast_S1024_S1024x1_0) ]

/-- Every operation of the stretch touches TensorCore references only. -/
theorem ops12_sub : (ops12 : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
/-- Every operation of the stretch determines its results. -/
theorem ops12_fresh : (ops12 : List (HloOp τ sig (Elt F))).Forall fun op => op.fresh = ∅ :=
  ⟨rfl, rfl, rfl, rfl, rfl, rfl, rfl, rfl, rfl, rfl, rfl, rfl, rfl, rfl, rfl, rfl, rfl, rfl⟩

/-- The buffers that stretch 12 writes. -/
abbrev ops12_W : List (Ref sig .tc) := [main_call6_v0, main_call6_v1, main_call6_c, main_call6_v2, main_call6_v3, main_call6_c_0, main_call6_v4, main_call6_v5, main_call6_v6, main_call6_c_1, main_call6_v7, main_call6_v8, main_call6_c_2, main_call6_v9, main_call6_v10, main_call6_v11, main_call6_v12, main_call6_v13]
set_option maxRecDepth 8192 in
set_option maxHeartbeats 2000000 in
/-- Every operation of stretch 12 writes only buffers of that list. -/
theorem ops12_writes : (ops12 : List (HloOp τ sig (Elt F))).Forall fun op => op.writes ⊆ (ops12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 236 … 244 of the 251: `main_call6_v14` … `main_cst_26`. -/
abbrev ops13 : List (HloOp τ sig (Elt F)) :=
  [ TRef.binary (TRef.of (T := ⟨S1024x1, .i32⟩) main_call6_v12) (TRef.of (T := ⟨S1024x1, .i32⟩) main_call6_v13) (TRef.of (T := ⟨S1024x2, .i32⟩) main_call6_v14) (fun a b => concatenate S1024x2 1 [⟨S1024x1, a⟩, ⟨S1024x1, b⟩] concatenates_S1024x1_S1024x1_S1024x2_d1),
    TRef.binary (TRef.of (T := ⟨S16x1024x1024, .f32⟩) main_v146) (TRef.of (T := ⟨S1024x2, .i32⟩) main_call6_v14) (TRef.of (T := ⟨S16x1024, .f32⟩) main_v147) (fun x i => Host.gather gather_S16x1024x1024_S1024x2_S16x1024_0_12_n_n_12_1_1611 x i),
    nullary main_cst_23 (constant S_ .f32 0x00000000#32),
    binary main_v147 main_cst_23 main_v148 ((fun x v => Host.reduceAdd x v reducesTo_S16x1024_S_d0_1 h_S_) : (⟨S16x1024, .f32⟩ : BufTy).Contents (Elt F) → (⟨S_, .f32⟩ : BufTy).Contents (Elt F) → (⟨S_, .f32⟩ : BufTy).Contents (Elt F)),
    nullary main_cst_24 (constant S_ .f32 0x46800000#32),
    binary main_v148 main_cst_24 main_v149 (Host.divf : (⟨S_, .f32⟩ : BufTy).Contents (Elt F) → (⟨S_, .f32⟩ : BufTy).Contents (Elt F) → (⟨S_, .f32⟩ : BufTy).Contents (Elt F)),
    nullary main_cst_25 (constant S_ .f32 0x3F800000#32),
    binary main_cst_25 main_v149 main_v150 (subf : (⟨S_, .f32⟩ : BufTy).Contents (Elt F) → (⟨S_, .f32⟩ : BufTy).Contents (Elt F) → (⟨S_, .f32⟩ : BufTy).Contents (Elt F)),
    nullary main_cst_26 (constant S_ .f32 0x3F800000#32) ]

/-- Every operation of the stretch touches TensorCore references only. -/
theorem ops13_sub : (ops13 : List (HloOp τ sig (Elt F))).Forall fun op => op.bufs ⊆ tcRefs τ sig :=
  ⟨binary_bufs_sub .., binary_bufs_sub .., nullary_bufs_sub .., binary_bufs_sub .., nullary_bufs_sub .., binary_bufs_sub .., nullary_bufs_sub .., binary_bufs_sub .., nullary_bufs_sub ..⟩
/-- Every operation of the stretch determines its results. -/
theorem ops13_fresh : (ops13 : List (HloOp τ sig (Elt F))).Forall fun op => op.fresh = ∅ :=
  ⟨rfl, rfl, rfl, rfl, rfl, rfl, rfl, rfl, rfl⟩

/-- The buffers that stretch 13 writes. -/
abbrev ops13_W : List (Ref sig .tc) := [main_call6_v14, main_v147, main_cst_23, main_v148, main_cst_24, main_v149, main_cst_25, main_v150, main_cst_26]
set_option maxRecDepth 8192 in
set_option maxHeartbeats 2000000 in
/-- Every operation of stretch 13 writes only buffers of that list. -/
theorem ops13_writes : (ops13 : List (HloOp τ sig (Elt F))).Forall fun op => op.writes ⊆ (ops13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 245 … 251 of the 251: `main_v151` … `main_v155`. -/
abbrev ops14 : List (HloOp τ sig (Elt F)) :=
  [ binary main_cst_26 main_v51 main_v151 (mulf : (⟨S_, .f32⟩ : BufTy).Contents (Elt F) → (⟨S_, .f32⟩ : BufTy).Contents (Elt F) → (⟨S_, .f32⟩ : BufTy).Contents (Elt F)),
    nullary main_cst_27 (constant S_ .f32 0x40A00000#32),
    binary main_cst_27 main_v68 main_v152 (mulf : (⟨S_, .f32⟩ : BufTy).Contents (Elt F) → (⟨S_, .f32⟩ : BufTy).Contents (Elt F) → (⟨S_, .f32⟩ : BufTy).Contents (Elt F)),
    binary main_v151 main_v152 main_v153 (addf : (⟨S_, .f32⟩ : BufTy).Contents (Elt F) → (⟨S_, .f32⟩ : BufTy).Contents (Elt F) → (⟨S_, .f32⟩ : BufTy).Contents (Elt F)),
    nullary main_cst_28 (constant S_ .f32 0x40000000#32),
    binary main_cst_28 main_v150 main_v154 (mulf : (⟨S_, .f32⟩ : BufTy).Contents (Elt F) → (⟨S_, .f32⟩ : BufTy).Contents (Elt F) → (⟨S_, .f32⟩ : BufTy).Contents (Elt F)),
    binary main_v153 main_v154 main_v155 (addf : (⟨S_, .f32⟩ : BufTy).Contents (Elt F) → (⟨S_, .f32⟩ : BufTy).Contents (Elt F) → (⟨S_, .f32⟩ : BufTy).Contents (Elt F)) ]

/-- Every operation of the stretch touches TensorCore references only. -/
theorem ops14_sub : (ops14 : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub ..⟩
/-- Every operation of the stretch determines its results. -/
theorem ops14_fresh : (ops14 : List (HloOp τ sig (Elt F))).Forall fun op => op.fresh = ∅ :=
  ⟨rfl, rfl, rfl, rfl, rfl, rfl, rfl⟩

/-- The buffers that stretch 14 writes. -/
abbrev ops14_W : List (Ref sig .tc) := [main_v151, main_cst_27, main_v152, main_v153, main_cst_28, main_v154, main_v155]
set_option maxRecDepth 8192 in
set_option maxHeartbeats 2000000 in
/-- Every operation of stretch 14 writes only buffers of that list. -/
theorem ops14_writes : (ops14 : List (HloOp τ sig (Elt F))).Forall fun op => op.writes ⊆ (ops14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.HandRun

end
-- ==== Proof.RefRunMain.lean ====
import proofs.«407362_j87308095193844_3_alg».proof.Proof.RefRunOps

/-! The reference program is the straight line of its operations.

`ops` is the whole list: the stretches one after the other. Each printed window of `@main` is the line of
its own stretches (a called function's body unfolding in its call's place), lines compose over
concatenation (`seq_append`), and so `@main` is `seq ops`. Every operation of the list touches TensorCore
references only and determines its results, stretch by stretch. -/

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference program's 251 operations, in order: the stretches one after the other. -/
abbrev ops : List (HloOp τ sig (Elt F)) :=
  ops1 ++ (ops2 ++ (ops3 ++ (ops4 ++ (ops5 ++ (ops6 ++ (ops7 ++ (ops8 ++ (ops9 ++ (ops10 ++ (ops11 ++ (ops12 ++ (ops13 ++ ops14))))))))))))

set_option maxRecDepth 8192 in
set_option maxHeartbeats 4000000 in
/-- The printed window 0 of `@main` is the line of stretches 1 … 5. -/
theorem main_part0_eq (c : Dev nD) : main_part0 (F := F) c = (seq ops1 >>= fun _ => seq ops2 >>= fun _ => seq ops3 >>= fun _ => seq ops4 >>= fun _ => seq ops5) := rfl
set_option maxRecDepth 8192 in
set_option maxHeartbeats 4000000 in
/-- The printed window 1 of `@main` is the line of stretches 6 … 8. -/
theorem main_part1_eq (c : Dev nD) : main_part1 (F := F) c = (seq ops6 >>= fun _ => seq ops7 >>= fun _ => seq ops8) := rfl
set_option maxRecDepth 8192 in
set_option maxHeartbeats 4000000 in
/-- The printed window 2 of `@main` is the line of stretches 9 … 13. -/
theorem main_part2_eq (c : Dev nD) : main_part2 (F := F) c = (seq ops9 >>= fun _ => seq ops10 >>= fun _ => seq ops11 >>= fun _ => seq ops12 >>= fun _ => seq ops13) := rfl
set_option maxRecDepth 8192 in
set_option maxHeartbeats 4000000 in
/-- The printed window 3 of `@main` is the line of stretch 14. -/
theorem main_part3_eq (c : Dev nD) : main_part3 (F := F) c = seq ops14 := rfl
/-- `@main` is the straight line of all the operations: the windows in order, lines composing over concatenation. -/
theorem main_eq (c : Dev nD) : main (F := F) c = seq ops := by
  have h : main (F := F) c = (main_part0 c >>= fun _ => main_part1 c >>= fun _ => main_part2 c >>= fun _ => main_part3 c) := rfl
  rw [h, main_part0_eq, main_part1_eq, main_part2_eq, main_part3_eq]
  simp only [ops, seq_append, bind_assoc]
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h
    exacts [List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h, List.forall_iff_forall_mem.mp ops13_sub op h, List.forall_iff_forall_mem.mp ops14_sub op h]
theorem ops_fresh : ∀ op ∈ (ops : List (HloOp τ sig (Elt F))), op.fresh = ∅ := fun op h => by
  simp only [ops, List.mem_append] at h
  rcases h with h | h | h | h | h | h | h | h | h | h | h | h | h | h
  exacts [List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h, List.forall_iff_forall_mem.mp ops11_fresh op h, List.forall_iff_forall_mem.mp ops12_fresh op h, List.forall_iff_forall_mem.mp ops13_fresh op h, List.forall_iff_forall_mem.mp ops14_fresh op h]

end Cert.ReferenceIdeal.HandRun

end
-- ==== Proof.RefRunWin1.lean ====
import proofs.«407362_j87308095193844_3_alg».proof.Proof.RefRunOps
import proofs.«407362_j87308095193844_3_alg».proof.Proof.RefRead

/-! The reference program read stretch by stretch: stretches 1 … 5.

`valK V0` is the device's buffer contents after the first `K` stretches from contents `V0`. For every
buffer written by then and still read later (and for the arguments and the result) `valK_‹buffer›` says
what `valK V0` holds there: the buffer's stage of the operation-by-operation reading (`ReadP.val_‹buffer›`:
the operation's pure function applied to its operands' stages) at `V0`'s contents of the arguments it
depends on. Inside a stretch a stage is met by unfolding the stages of that stretch's own operations; a
buffer the stretch does not write keeps its contents through it. -/

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! Transports along a literal reference's type equation are the identity: the reference's buffer type is
    the carried type by computation, and a transport is equal, across the two spellings of that type, to what it
    transports. One pair of facts per buffer a called function's operation names. -/
theorem toBuf_main_call0_cst {Val : EltTy → Type} (h hd hs) (v : (⟨S_, .f32⟩ : BufTy).Contents Val) :
    (TRef.of (sig := sig) (T := ⟨S_, .f32⟩) main_call0_cst h hd hs).toBuf v = v := eq_of_heq (cast_heq _ v)
theorem ofBuf_main_call0_cst {Val : EltTy → Type} (h hd hs) (u : (⟨S_, .f32⟩ : BufTy).Contents Val) :
    (TRef.of (sig := sig) (T := ⟨S_, .f32⟩) main_call0_cst h hd hs).ofBuf u = u := eq_of_heq (cast_heq _ u)
theorem toBuf_main_arg0 {Val : EltTy → Type} (h hd hs) (v : (⟨S16x1024x92, .f32⟩ : BufTy).Contents Val) :
    (TRef.of (sig := sig) (T := ⟨S16x1024x92, .f32⟩) main_arg0 h hd hs).toBuf v = v := eq_of_heq (cast_heq _ v)
theorem ofBuf_main_arg0 {Val : EltTy → Type} (h hd hs) (u : (⟨S16x1024x92, .f32⟩ : BufTy).Contents Val) :
    (TRef.of (sig := sig) (T := ⟨S16x1024x92, .f32⟩) main_arg0 h hd hs).ofBuf u = u := eq_of_heq (cast_heq _ u)
theorem toBuf_main_call0_v0 {Val : EltTy → Type} (h hd hs) (v : (⟨S16x1024, .f32⟩ : BufTy).Contents Val) :
    (TRef.of (sig := sig) (T := ⟨S16x1024, .f32⟩) main_call0_v0 h hd hs).toBuf v = v := eq_of_heq (cast_heq _ v)
theorem ofBuf_main_call0_v0 {Val : EltTy → Type} (h hd hs) (u : (⟨S16x1024, .f32⟩ : BufTy).Contents Val) :
    (TRef.of (sig := sig) (T := ⟨S16x1024, .f32⟩) main_call0_v0 h hd hs).ofBuf u = u := eq_of_heq (cast_heq _ u)
theorem toBuf_main_call0_cst_0 {Val : EltTy → Type} (h hd hs) (v : (⟨S_, .f32⟩ : BufTy).Contents Val) :
    (TRef.of (sig := sig) (T := ⟨S_, .f32⟩) main_call0_cst_0 h hd hs).toBuf v = v := eq_of_heq (cast_heq _ v)
theorem ofBuf_main_call0_cst_0 {Val : EltTy → Type} (h hd hs) (u : (⟨S_, .f32⟩ : BufTy).Contents Val) :
    (TRef.of (sig := sig) (T := ⟨S_, .f32⟩) main_call0_cst_0 h hd hs).ofBuf u = u := eq_of_heq (cast_heq _ u)
theorem toBuf_main_call0_v1 {Val : EltTy → Type} (h hd hs) (v : (⟨S16x1024, .f32⟩ : BufTy).Contents Val) :
    (TRef.of (sig := sig) (T := ⟨S16x1024, .f32⟩) main_call0_v1 h hd hs).toBuf v = v := eq_of_heq (cast_heq _ v)
theorem ofBuf_main_call0_v1 {Val : EltTy → Type} (h hd hs) (u : (⟨S16x1024, .f32⟩ : BufTy).Contents Val) :
    (TRef.of (sig := sig) (T := ⟨S16x1024, .f32⟩) main_call0_v1 h hd hs).ofBuf u = u := eq_of_heq (cast_heq _ u)
theorem toBuf_main_call0_v2 {Val : EltTy → Type} (h hd hs) (v : (⟨S16x1024, .f32⟩ : BufTy).Contents Val) :
    (TRef.of (sig := sig) (T := ⟨S16x1024, .f32⟩) main_call0_v2 h hd hs).toBuf v = v := eq_of_heq (cast_heq _ v)
theorem ofBuf_main_call0_v2 {Val : EltTy → Type} (h hd hs) (u : (⟨S16x1024, .f32⟩ : BufTy).Contents Val) :
    (TRef.of (sig := sig) (T := ⟨S16x1024, .f32⟩) main_call0_v2 h hd hs).ofBuf u = u := eq_of_heq (cast_heq _ u)
theorem toBuf_main_call0_v3 {Val : EltTy → Type} (h hd hs) (v : (⟨S16x1024x1, .f32⟩ : BufTy).Contents Val) :
    (TRef.of (sig := sig) (T := ⟨S16x1024x1, .f32⟩) main_call0_v3 h hd hs).toBuf v = v := eq_of_heq (cast_heq _ v)
theorem ofBuf_main_call0_v3 {Val : EltTy → Type} (h hd hs) (u : (⟨S16x1024x1, .f32⟩ : BufTy).Contents Val) :
    (TRef.of (sig := sig) (T := ⟨S16x1024x1, .f32⟩) main_call0_v3 h hd hs).ofBuf u = u := eq_of_heq (cast_heq _ u)
theorem toBuf_main_call0_v4 {Val : EltTy → Type} (h hd hs) (v : (⟨S16x1024x92, .f32⟩ : BufTy).Contents Val) :
    (TRef.of (sig := sig) (T := ⟨S16x1024x92, .f32⟩) main_call0_v4 h hd hs).toBuf v = v := eq_of_heq (cast_heq _ v)
theorem ofBuf_main_call0_v4 {Val : EltTy → Type} (h hd hs) (u : (⟨S16x1024x92, .f32⟩ : BufTy).Contents Val) :
    (TRef.of (sig := sig) (T := ⟨S16x1024x92, .f32⟩) main_call0_v4 h hd hs).ofBuf u = u := eq_of_heq (cast_heq _ u)
theorem toBuf_main_call0_v5 {Val : EltTy → Type} (h hd hs) (v : (⟨S16x1024x92, .f32⟩ : BufTy).Contents Val) :
    (TRef.of (sig := sig) (T := ⟨S16x1024x92, .f32⟩) main_call0_v5 h hd hs).toBuf v = v := eq_of_heq (cast_heq _ v)
theorem ofBuf_main_call0_v5 {Val : EltTy → Type} (h hd hs) (u : (⟨S16x1024x92, .f32⟩ : BufTy).Contents Val) :
    (TRef.of (sig := sig) (T := ⟨S16x1024x92, .f32⟩) main_call0_v5 h hd hs).ofBuf u = u := eq_of_heq (cast_heq _ u)
theorem toBuf_main_call0_v6 {Val : EltTy → Type} (h hd hs) (v : (⟨S16x1024x92, .f32⟩ : BufTy).Contents Val) :
    (TRef.of (sig := sig) (T := ⟨S16x1024x92, .f32⟩) main_call0_v6 h hd hs).toBuf v = v := eq_of_heq (cast_heq _ v)
theorem ofBuf_main_call0_v6 {Val : EltTy → Type} (h hd hs) (u : (⟨S16x1024x92, .f32⟩ : BufTy).Contents Val) :
    (TRef.of (sig := sig) (T := ⟨S16x1024x92, .f32⟩) main_call0_v6 h hd hs).ofBuf u = u := eq_of_heq (cast_heq _ u)
theorem toBuf_main_call0_cst_1 {Val : EltTy → Type} (h hd hs) (v : (⟨S_, .f32⟩ : BufTy).Contents Val) :
    (TRef.of (sig := sig) (T := ⟨S_, .f32⟩) main_call0_cst_1 h hd hs).toBuf v = v := eq_of_heq (cast_heq _ v)
theorem ofBuf_main_call0_cst_1 {Val : EltTy → Type} (h hd hs) (u : (⟨S_, .f32⟩ : BufTy).Contents Val) :
    (TRef.of (sig := sig) (T := ⟨S_, .f32⟩) main_call0_cst_1 h hd hs).ofBuf u = u := eq_of_heq (cast_heq _ u)
theorem toBuf_main_call0_v7 {Val : EltTy → Type} (h hd hs) (v : (⟨S16x1024, .f32⟩ : BufTy).Contents Val) :
    (TRef.of (sig := sig) (T := ⟨S16x1024, .f32⟩) main_call0_v7 h hd hs).toBuf v = v := eq_of_heq (cast_heq _ v)
theorem ofBuf_main_call0_v7 {Val : EltTy → Type} (h hd hs) (u : (⟨S16x1024, .f32⟩ : BufTy).Contents Val) :
    (TRef.of (sig := sig) (T := ⟨S16x1024, .f32⟩) main_call0_v7 h hd hs).ofBuf u = u := eq_of_heq (cast_heq _ u)
theorem toBuf_main_call0_v8 {Val : EltTy → Type} (h hd hs) (v : (⟨S16x1024x1, .f32⟩ : BufTy).Contents Val) :
    (TRef.of (sig := sig) (T := ⟨S16x1024x1, .f32⟩) main_call0_v8 h hd hs).toBuf v = v := eq_of_heq (cast_heq _ v)
theorem ofBuf_main_call0_v8 {Val : EltTy → Type} (h hd hs) (u : (⟨S16x1024x1, .f32⟩ : BufTy).Contents Val) :
    (TRef.of (sig := sig) (T := ⟨S16x1024x1, .f32⟩) main_call0_v8 h hd hs).ofBuf u = u := eq_of_heq (cast_heq _ u)
theorem toBuf_main_call0_v9 {Val : EltTy → Type} (h hd hs) (v : (⟨S16x1024x1, .f32⟩ : BufTy).Contents Val) :
    (TRef.of (sig := sig) (T := ⟨S16x1024x1, .f32⟩) main_call0_v9 h hd hs).toBuf v = v := eq_of_heq (cast_heq _ v)
theorem ofBuf_main_call0_v9 {Val : EltTy → Type} (h hd hs) (u : (⟨S16x1024x1, .f32⟩ : BufTy).Contents Val) :
    (TRef.of (sig := sig) (T := ⟨S16x1024x1, .f32⟩) main_call0_v9 h hd hs).ofBuf u = u := eq_of_heq (cast_heq _ u)
theorem toBuf_main_call0_v10 {Val : EltTy → Type} (h hd hs) (v : (⟨S16x1024x92, .f32⟩ : BufTy).Contents Val) :
    (TRef.of (sig := sig) (T := ⟨S16x1024x92, .f32⟩) main_call0_v10 h hd hs).toBuf v = v := eq_of_heq (cast_heq _ v)
theorem ofBuf_main_call0_v10 {Val : EltTy → Type} (h hd hs) (u : (⟨S16x1024x92, .f32⟩ : BufTy).Contents Val) :
    (TRef.of (sig := sig) (T := ⟨S16x1024x92, .f32⟩) main_call0_v10 h hd hs).ofBuf u = u := eq_of_heq (cast_heq _ u)
theorem toBuf_main_v34 {Val : EltTy → Type} (h hd hs) (v : (⟨S16x1024x92, .f32⟩ : BufTy).Contents Val) :
    (TRef.of (sig := sig) (T := ⟨S16x1024x92, .f32⟩) main_v34 h hd hs).toBuf v = v := eq_of_heq (cast_heq _ v)
theorem ofBuf_main_v34 {Val : EltTy → Type} (h hd hs) (u : (⟨S16x1024x92, .f32⟩ : BufTy).Contents Val) :
    (TRef.of (sig := sig) (T := ⟨S16x1024x92, .f32⟩) main_v34 h hd hs).ofBuf u = u := eq_of_heq (cast_heq _ u)
theorem toBuf_main_call1_c {Val : EltTy → Type} (h hd hs) (v : (⟨S_, .i32⟩ : BufTy).Contents Val) :
    (TRef.of (sig := sig) (T := ⟨S_, .i32⟩) main_call1_c h hd hs).toBuf v = v := eq_of_heq (cast_heq _ v)
theorem ofBuf_main_call1_c {Val : EltTy → Type} (h hd hs) (u : (⟨S_, .i32⟩ : BufTy).Contents Val) :
    (TRef.of (sig := sig) (T := ⟨S_, .i32⟩) main_call1_c h hd hs).ofBuf u = u := eq_of_heq (cast_heq _ u)
theorem toBuf_main_call1_v0 {Val : EltTy → Type} (h hd hs) (v : (⟨S16384x1, .i32⟩ : BufTy).Contents Val) :
    (TRef.of (sig := sig) (T := ⟨S16384x1, .i32⟩) main_call1_v0 h hd hs).toBuf v = v := eq_of_heq (cast_heq _ v)
theorem ofBuf_main_call1_v0 {Val : EltTy → Type} (h hd hs) (u : (⟨S16384x1, .i32⟩ : BufTy).Contents Val) :
    (TRef.of (sig := sig) (T := ⟨S16384x1, .i32⟩) main_call1_v0 h hd hs).ofBuf u = u := eq_of_heq (cast_heq _ u)
theorem toBuf_main_v37 {Val : EltTy → Type} (h hd hs) (v : (⟨S16384x1, .i32⟩ : BufTy).Contents Val) :
    (TRef.of (sig := sig) (T := ⟨S16384x1, .i32⟩) main_v37 h hd hs).toBuf v = v := eq_of_heq (cast_heq _ v)
theorem ofBuf_main_v37 {Val : EltTy → Type} (h hd hs) (u : (⟨S16384x1, .i32⟩ : BufTy).Contents Val) :
    (TRef.of (sig := sig) (T := ⟨S16384x1, .i32⟩) main_v37 h hd hs).ofBuf u = u := eq_of_heq (cast_heq _ u)
theorem toBuf_main_call1_v1 {Val : EltTy → Type} (h hd hs) (v : (⟨S16384x1, .i1⟩ : BufTy).Contents Val) :
    (TRef.of (sig := sig) (T := ⟨S16384x1, .i1⟩) main_call1_v1 h hd hs).toBuf v = v := eq_of_heq (cast_heq _ v)
theorem ofBuf_main_call1_v1 {Val : EltTy → Type} (h hd hs) (u : (⟨S16384x1, .i1⟩ : BufTy).Contents Val) :
    (TRef.of (sig := sig) (T := ⟨S16384x1, .i1⟩) main_call1_v1 h hd hs).ofBuf u = u := eq_of_heq (cast_heq _ u)
theorem toBuf_main_call1_c_0 {Val : EltTy → Type} (h hd hs) (v : (⟨S_, .i32⟩ : BufTy).Contents Val) :
    (TRef.of (sig := sig) (T := ⟨S_, .i32⟩) main_call1_c_0 h hd hs).toBuf v = v := eq_of_heq (cast_heq _ v)
theorem ofBuf_main_call1_c_0 {Val : EltTy → Type} (h hd hs) (u : (⟨S_, .i32⟩ : BufTy).Contents Val) :
    (TRef.of (sig := sig) (T := ⟨S_, .i32⟩) main_call1_c_0 h hd hs).ofBuf u = u := eq_of_heq (cast_heq _ u)
theorem toBuf_main_call1_v2 {Val : EltTy → Type} (h hd hs) (v : (⟨S16384x1, .i32⟩ : BufTy).Contents Val) :
    (TRef.of (sig := sig) (T := ⟨S16384x1, .i32⟩) main_call1_v2 h hd hs).toBuf v = v := eq_of_heq (cast_heq _ v)
theorem ofBuf_main_call1_v2 {Val : EltTy → Type} (h hd hs) (u : (⟨S16384x1, .i32⟩ : BufTy).Contents Val) :
    (TRef.of (sig := sig) (T := ⟨S16384x1, .i32⟩) main_call1_v2 h hd hs).ofBuf u = u := eq_of_heq (cast_heq _ u)
theorem toBuf_main_call1_v3 {Val : EltTy → Type} (h hd hs) (v : (⟨S16384x1, .i32⟩ : BufTy).Contents Val) :
    (TRef.of (sig := sig) (T := ⟨S16384x1, .i32⟩) main_call1_v3 h hd hs).toBuf v = v := eq_of_heq (cast_heq _ v)
theorem ofBuf_main_call1_v3 {Val : EltTy → Type} (h hd hs) (u : (⟨S16384x1, .i32⟩ : BufTy).Contents Val) :
    (TRef.of (sig := sig) (T := ⟨S16384x1, .i32⟩) main_call1_v3 h hd hs).ofBuf u = u := eq_of_heq (cast_heq _ u)
theorem toBuf_main_call1_v4 {Val : EltTy → Type} (h hd hs) (v : (⟨S16384x1, .i32⟩ : BufTy).Contents Val) :
    (TRef.of (sig := sig) (T := ⟨S16384x1, .i32⟩) main_call1_v4 h hd hs).toBuf v = v := eq_of_heq (cast_heq _ v)
theorem ofBuf_main_call1_v4 {Val : EltTy → Type} (h hd hs) (u : (⟨S16384x1, .i32⟩ : BufTy).Contents Val) :
    (TRef.of (sig := sig) (T := ⟨S16384x1, .i32⟩) main_call1_v4 h hd hs).ofBuf u = u := eq_of_heq (cast_heq _ u)
theorem toBuf_main_call1_v5 {Val : EltTy → Type} (h hd hs) (v : (⟨S16384x1x1, .i32⟩ : BufTy).Contents Val) :
    (TRef.of (sig := sig) (T := ⟨S16384x1x1, .i32⟩) main_call1_v5 h hd hs).toBuf v = v := eq_of_heq (cast_heq _ v)
theorem ofBuf_main_call1_v5 {Val : EltTy → Type} (h hd hs) (u : (⟨S16384x1x1, .i32⟩ : BufTy).Contents Val) :
    (TRef.of (sig := sig) (T := ⟨S16384x1x1, .i32⟩) main_call1_v5 h hd hs).ofBuf u = u := eq_of_heq (cast_heq _ u)
theorem toBuf_main_call1_c_1 {Val : EltTy → Type} (h hd hs) (v : (⟨S1, .i32⟩ : BufTy).Contents Val) :
    (TRef.of (sig := sig) (T := ⟨S1, .i32⟩) main_call1_c_1 h hd hs).toBuf v = v := eq_of_heq (cast_heq _ v)
theorem ofBuf_main_call1_c_1 {Val : EltTy → Type} (h hd hs) (u : (⟨S1, .i32⟩ : BufTy).Contents Val) :
    (TRef.of (sig := sig) (T := ⟨S1, .i32⟩) main_call1_c_1 h hd hs).ofBuf u = u := eq_of_heq (cast_heq _ u)
theorem toBuf_main_call1_c_2 {Val : EltTy → Type} (h hd hs) (v : (⟨S_, .i32⟩ : BufTy).Contents Val) :
    (TRef.of (sig := sig) (T := ⟨S_, .i32⟩) main_call1_c_2 h hd hs).toBuf v = v := eq_of_heq (cast_heq _ v)
theorem ofBuf_main_call1_c_2 {Val : EltTy → Type} (h hd hs) (u : (⟨S_, .i32⟩ : BufTy).Contents Val) :
    (TRef.of (sig := sig) (T := ⟨S_, .i32⟩) main_call1_c_2 h hd hs).ofBuf u = u := eq_of_heq (cast_heq _ u)
theorem toBuf_main_call1_v6 {Val : EltTy → Type} (h hd hs) (v : (⟨S16384x1x1, .i32⟩ : BufTy).Contents Val) :
    (TRef.of (sig := sig) (T := ⟨S16384x1x1, .i32⟩) main_call1_v6 h hd hs).toBuf v = v := eq_of_heq (cast_heq _ v)
theorem ofBuf_main_call1_v6 {Val : EltTy → Type} (h hd hs) (u : (⟨S16384x1x1, .i32⟩ : BufTy).Contents Val) :
    (TRef.of (sig := sig) (T := ⟨S16384x1x1, .i32⟩) main_call1_v6 h hd hs).ofBuf u = u := eq_of_heq (cast_heq _ u)
theorem toBuf_main_call1_v7 {Val : EltTy → Type} (h hd hs) (v : (⟨S16384x1x1, .i1⟩ : BufTy).Contents Val) :
    (TRef.of (sig := sig) (T := ⟨S16384x1x1, .i1⟩) main_call1_v7 h hd hs).toBuf v = v := eq_of_heq (cast_heq _ v)
theorem ofBuf_main_call1_v7 {Val : EltTy → Type} (h hd hs) (u : (⟨S16384x1x1, .i1⟩ : BufTy).Contents Val) :
    (TRef.of (sig := sig) (T := ⟨S16384x1x1, .i1⟩) main_call1_v7 h hd hs).ofBuf u = u := eq_of_heq (cast_heq _ u)
theorem toBuf_main_call1_v8 {Val : EltTy → Type} (h hd hs) (v : (⟨S1x1x1, .i32⟩ : BufTy).Contents Val) :
    (TRef.of (sig := sig) (T := ⟨S1x1x1, .i32⟩) main_call1_v8 h hd hs).toBuf v = v := eq_of_heq (cast_heq _ v)
theorem ofBuf_main_call1_v8 {Val : EltTy → Type} (h hd hs) (u : (⟨S1x1x1, .i32⟩ : BufTy).Contents Val) :
    (TRef.of (sig := sig) (T := ⟨S1x1x1, .i32⟩) main_call1_v8 h hd hs).ofBuf u = u := eq_of_heq (cast_heq _ u)
theorem toBuf_main_call1_v9 {Val : EltTy → Type} (h hd hs) (v : (⟨S16384x1x1, .i32⟩ : BufTy).Contents Val) :
    (TRef.of (sig := sig) (T := ⟨S16384x1x1, .i32⟩) main_call1_v9 h hd hs).toBuf v = v := eq_of_heq (cast_heq _ v)
theorem ofBuf_main_call1_v9 {Val : EltTy → Type} (h hd hs) (u : (⟨S16384x1x1, .i32⟩ : BufTy).Contents Val) :
    (TRef.of (sig := sig) (T := ⟨S16384x1x1, .i32⟩) main_call1_v9 h hd hs).ofBuf u = u := eq_of_heq (cast_heq _ u)
theorem toBuf_main_call1_v10 {Val : EltTy → Type} (h hd hs) (v : (⟨S16384x1x1, .i1⟩ : BufTy).Contents Val) :
    (TRef.of (sig := sig) (T := ⟨S16384x1x1, .i1⟩) main_call1_v10 h hd hs).toBuf v = v := eq_of_heq (cast_heq _ v)
theorem ofBuf_main_call1_v10 {Val : EltTy → Type} (h hd hs) (u : (⟨S16384x1x1, .i1⟩ : BufTy).Contents Val) :
    (TRef.of (sig := sig) (T := ⟨S16384x1x1, .i1⟩) main_call1_v10 h hd hs).ofBuf u = u := eq_of_heq (cast_heq _ u)
theorem toBuf_main_call1_v11 {Val : EltTy → Type} (h hd hs) (v : (⟨S16384x1x1, .i1⟩ : BufTy).Contents Val) :
    (TRef.of (sig := sig) (T := ⟨S16384x1x1, .i1⟩) main_call1_v11 h hd hs).toBuf v = v := eq_of_heq (cast_heq _ v)
theorem ofBuf_main_call1_v11 {Val : EltTy → Type} (h hd hs) (u : (⟨S16384x1x1, .i1⟩ : BufTy).Contents Val) :
    (TRef.of (sig := sig) (T := ⟨S16384x1x1, .i1⟩) main_call1_v11 h hd hs).ofBuf u = u := eq_of_heq (cast_heq _ u)
theorem toBuf_main_call1_c_3 {Val : EltTy → Type} (h hd hs) (v : (⟨S_, .i1⟩ : BufTy).Contents Val) :
    (TRef.of (sig := sig) (T := ⟨S_, .i1⟩) main_call1_c_3 h hd hs).toBuf v = v := eq_of_heq (cast_heq _ v)
theorem ofBuf_main_call1_c_3 {Val : EltTy → Type} (h hd hs) (u : (⟨S_, .i1⟩ : BufTy).Contents Val) :
    (TRef.of (sig := sig) (T := ⟨S_, .i1⟩) main_call1_c_3 h hd hs).ofBuf u = u := eq_of_heq (cast_heq _ u)
theorem toBuf_main_call1_v12 {Val : EltTy → Type} (h hd hs) (v : (⟨S16384x1, .i1⟩ : BufTy).Contents Val) :
    (TRef.of (sig := sig) (T := ⟨S16384x1, .i1⟩) main_call1_v12 h hd hs).toBuf v = v := eq_of_heq (cast_heq _ v)
theorem ofBuf_main_call1_v12 {Val : EltTy → Type} (h hd hs) (u : (⟨S16384x1, .i1⟩ : BufTy).Contents Val) :
    (TRef.of (sig := sig) (T := ⟨S16384x1, .i1⟩) main_call1_v12 h hd hs).ofBuf u = u := eq_of_heq (cast_heq _ u)
theorem toBuf_main_v35 {Val : EltTy → Type} (h hd hs) (v : (⟨S16384x92, .f32⟩ : BufTy).Contents Val) :
    (TRef.of (sig := sig) (T := ⟨S16384x92, .f32⟩) main_v35 h hd hs).toBuf v = v := eq_of_heq (cast_heq _ v)
theorem ofBuf_main_v35 {Val : EltTy → Type} (h hd hs) (u : (⟨S16384x92, .f32⟩ : BufTy).Contents Val) :
    (TRef.of (sig := sig) (T := ⟨S16384x92, .f32⟩) main_v35 h hd hs).ofBuf u = u := eq_of_heq (cast_heq _ u)
theorem toBuf_main_call1_v13 {Val : EltTy → Type} (h hd hs) (v : (⟨S16384x1, .f32⟩ : BufTy).Contents Val) :
    (TRef.of (sig := sig) (T := ⟨S16384x1, .f32⟩) main_call1_v13 h hd hs).toBuf v = v := eq_of_heq (cast_heq _ v)
theorem ofBuf_main_call1_v13 {Val : EltTy → Type} (h hd hs) (u : (⟨S16384x1, .f32⟩ : BufTy).Contents Val) :
    (TRef.of (sig := sig) (T := ⟨S16384x1, .f32⟩) main_call1_v13 h hd hs).ofBuf u = u := eq_of_heq (cast_heq _ u)
theorem toBuf_main_call1_cst {Val : EltTy → Type} (h hd hs) (v : (⟨S_, .f32⟩ : BufTy).Contents Val) :
    (TRef.of (sig := sig) (T := ⟨S_, .f32⟩) main_call1_cst h hd hs).toBuf v = v := eq_of_heq (cast_heq _ v)
theorem ofBuf_main_call1_cst {Val : EltTy → Type} (h hd hs) (u : (⟨S_, .f32⟩ : BufTy).Contents Val) :
    (TRef.of (sig := sig) (T := ⟨S_, .f32⟩) main_call1_cst h hd hs).ofBuf u = u := eq_of_heq (cast_heq _ u)
theorem toBuf_main_call1_v14 {Val : EltTy → Type} (h hd hs) (v : (⟨S16384x1, .f32⟩ : BufTy).Contents Val) :
    (TRef.of (sig := sig) (T := ⟨S16384x1, .f32⟩) main_call1_v14 h hd hs).toBuf v = v := eq_of_heq (cast_heq _ v)
theorem ofBuf_main_call1_v14 {Val : EltTy → Type} (h hd hs) (u : (⟨S16384x1, .f32⟩ : BufTy).Contents Val) :
    (TRef.of (sig := sig) (T := ⟨S16384x1, .f32⟩) main_call1_v14 h hd hs).ofBuf u = u := eq_of_heq (cast_heq _ u)
theorem toBuf_main_v38 {Val : EltTy → Type} (h hd hs) (v : (⟨S16384x1, .f32⟩ : BufTy).Contents Val) :
    (TRef.of (sig := sig) (T := ⟨S16384x1, .f32⟩) main_v38 h hd hs).toBuf v = v := eq_of_heq (cast_heq _ v)
theorem ofBuf_main_v38 {Val : EltTy → Type} (h hd hs) (u : (⟨S16384x1, .f32⟩ : BufTy).Contents Val) :
    (TRef.of (sig := sig) (T := ⟨S16384x1, .f32⟩) main_v38 h hd hs).ofBuf u = u := eq_of_heq (cast_heq _ u)
theorem toBuf_main_cst_14 {Val : EltTy → Type} (h hd hs) (v : (⟨S_, .f32⟩ : BufTy).Contents Val) :
    (TRef.of (sig := sig) (T := ⟨S_, .f32⟩) main_cst_14 h hd hs).toBuf v = v := eq_of_heq (cast_heq _ v)
theorem ofBuf_main_cst_14 {Val : EltTy → Type} (h hd hs) (u : (⟨S_, .f32⟩ : BufTy).Contents Val) :
    (TRef.of (sig := sig) (T := ⟨S_, .f32⟩) main_cst_14 h hd hs).ofBuf u = u := eq_of_heq (cast_heq _ u)
theorem toBuf_main_call2_v0 {Val : EltTy → Type} (h hd hs) (v : (⟨S_, .f32⟩ : BufTy).Contents Val) :
    (TRef.of (sig := sig) (T := ⟨S_, .f32⟩) main_call2_v0 h hd hs).toBuf v = v := eq_of_heq (cast_heq _ v)
theorem ofBuf_main_call2_v0 {Val : EltTy → Type} (h hd hs) (u : (⟨S_, .f32⟩ : BufTy).Contents Val) :
    (TRef.of (sig := sig) (T := ⟨S_, .f32⟩) main_call2_v0 h hd hs).ofBuf u = u := eq_of_heq (cast_heq _ u)
theorem toBuf_main_v58 {Val : EltTy → Type} (h hd hs) (v : (⟨S16x1024x1, .i1⟩ : BufTy).Contents Val) :
    (TRef.of (sig := sig) (T := ⟨S16x1024x1, .i1⟩) main_v58 h hd hs).toBuf v = v := eq_of_heq (cast_heq _ v)
theorem ofBuf_main_v58 {Val : EltTy → Type} (h hd hs) (u : (⟨S16x1024x1, .i1⟩ : BufTy).Contents Val) :
    (TRef.of (sig := sig) (T := ⟨S16x1024x1, .i1⟩) main_v58 h hd hs).ofBuf u = u := eq_of_heq (cast_heq _ u)
theorem toBuf_main_call2_v1 {Val : EltTy → Type} (h hd hs) (v : (⟨S16x1024x4, .i1⟩ : BufTy).Contents Val) :
    (TRef.of (sig := sig) (T := ⟨S16x1024x4, .i1⟩) main_call2_v1 h hd hs).toBuf v = v := eq_of_heq (cast_heq _ v)
theorem ofBuf_main_call2_v1 {Val : EltTy → Type} (h hd hs) (u : (⟨S16x1024x4, .i1⟩ : BufTy).Contents Val) :
    (TRef.of (sig := sig) (T := ⟨S16x1024x4, .i1⟩) main_call2_v1 h hd hs).ofBuf u = u := eq_of_heq (cast_heq _ u)
theorem toBuf_main_call2_v2 {Val : EltTy → Type} (h hd hs) (v : (⟨S16x1024x4, .f32⟩ : BufTy).Contents Val) :
    (TRef.of (sig := sig) (T := ⟨S16x1024x4, .f32⟩) main_call2_v2 h hd hs).toBuf v = v := eq_of_heq (cast_heq _ v)
theorem ofBuf_main_call2_v2 {Val : EltTy → Type} (h hd hs) (u : (⟨S16x1024x4, .f32⟩ : BufTy).Contents Val) :
    (TRef.of (sig := sig) (T := ⟨S16x1024x4, .f32⟩) main_call2_v2 h hd hs).ofBuf u = u := eq_of_heq (cast_heq _ u)
theorem toBuf_main_arg1 {Val : EltTy → Type} (h hd hs) (v : (⟨S16x1024x4, .f32⟩ : BufTy).Contents Val) :
    (TRef.of (sig := sig) (T := ⟨S16x1024x4, .f32⟩) main_arg1 h hd hs).toBuf v = v := eq_of_heq (cast_heq _ v)
theorem ofBuf_main_arg1 {Val : EltTy → Type} (h hd hs) (u : (⟨S16x1024x4, .f32⟩ : BufTy).Contents Val) :
    (TRef.of (sig := sig) (T := ⟨S16x1024x4, .f32⟩) main_arg1 h hd hs).ofBuf u = u := eq_of_heq (cast_heq _ u)
theorem toBuf_main_v59 {Val : EltTy → Type} (h hd hs) (v : (⟨S16x1024x4, .f32⟩ : BufTy).Contents Val) :
    (TRef.of (sig := sig) (T := ⟨S16x1024x4, .f32⟩) main_v59 h hd hs).toBuf v = v := eq_of_heq (cast_heq _ v)
theorem ofBuf_main_v59 {Val : EltTy → Type} (h hd hs) (u : (⟨S16x1024x4, .f32⟩ : BufTy).Contents Val) :
    (TRef.of (sig := sig) (T := ⟨S16x1024x4, .f32⟩) main_v59 h hd hs).ofBuf u = u := eq_of_heq (cast_heq _ u)
theorem toBuf_main_cst_15 {Val : EltTy → Type} (h hd hs) (v : (⟨S_, .f32⟩ : BufTy).Contents Val) :
    (TRef.of (sig := sig) (T := ⟨S_, .f32⟩) main_cst_15 h hd hs).toBuf v = v := eq_of_heq (cast_heq _ v)
theorem ofBuf_main_cst_15 {Val : EltTy → Type} (h hd hs) (u : (⟨S_, .f32⟩ : BufTy).Contents Val) :
    (TRef.of (sig := sig) (T := ⟨S_, .f32⟩) main_cst_15 h hd hs).ofBuf u = u := eq_of_heq (cast_heq _ u)
theorem toBuf_main_call3_v0 {Val : EltTy → Type} (h hd hs) (v : (⟨S_, .f32⟩ : BufTy).Contents Val) :
    (TRef.of (sig := sig) (T := ⟨S_, .f32⟩) main_call3_v0 h hd hs).toBuf v = v := eq_of_heq (cast_heq _ v)
theorem ofBuf_main_call3_v0 {Val : EltTy → Type} (h hd hs) (u : (⟨S_, .f32⟩ : BufTy).Contents Val) :
    (TRef.of (sig := sig) (T := ⟨S_, .f32⟩) main_call3_v0 h hd hs).ofBuf u = u := eq_of_heq (cast_heq _ u)
theorem toBuf_main_v54 {Val : EltTy → Type} (h hd hs) (v : (⟨S16x1024x1, .i1⟩ : BufTy).Contents Val) :
    (TRef.of (sig := sig) (T := ⟨S16x1024x1, .i1⟩) main_v54 h hd hs).toBuf v = v := eq_of_heq (cast_heq _ v)
theorem ofBuf_main_v54 {Val : EltTy → Type} (h hd hs) (u : (⟨S16x1024x1, .i1⟩ : BufTy).Contents Val) :
    (TRef.of (sig := sig) (T := ⟨S16x1024x1, .i1⟩) main_v54 h hd hs).ofBuf u = u := eq_of_heq (cast_heq _ u)
theorem toBuf_main_call3_v1 {Val : EltTy → Type} (h hd hs) (v : (⟨S16x1024x4, .i1⟩ : BufTy).Contents Val) :
    (TRef.of (sig := sig) (T := ⟨S16x1024x4, .i1⟩) main_call3_v1 h hd hs).toBuf v = v := eq_of_heq (cast_heq _ v)
theorem ofBuf_main_call3_v1 {Val : EltTy → Type} (h hd hs) (u : (⟨S16x1024x4, .i1⟩ : BufTy).Contents Val) :
    (TRef.of (sig := sig) (T := ⟨S16x1024x4, .i1⟩) main_call3_v1 h hd hs).ofBuf u = u := eq_of_heq (cast_heq _ u)
theorem toBuf_main_call3_v2 {Val : EltTy → Type} (h hd hs) (v : (⟨S16x1024x4, .f32⟩ : BufTy).Contents Val) :
    (TRef.of (sig := sig) (T := ⟨S16x1024x4, .f32⟩) main_call3_v2 h hd hs).toBuf v = v := eq_of_heq (cast_heq _ v)
theorem ofBuf_main_call3_v2 {Val : EltTy → Type} (h hd hs) (u : (⟨S16x1024x4, .f32⟩ : BufTy).Contents Val) :
    (TRef.of (sig := sig) (T := ⟨S16x1024x4, .f32⟩) main_call3_v2 h hd hs).ofBuf u = u := eq_of_heq (cast_heq _ u)
theorem toBuf_main_v33 {Val : EltTy → Type} (h hd hs) (v : (⟨S16x1024x4, .f32⟩ : BufTy).Contents Val) :
    (TRef.of (sig := sig) (T := ⟨S16x1024x4, .f32⟩) main_v33 h hd hs).toBuf v = v := eq_of_heq (cast_heq _ v)
theorem ofBuf_main_v33 {Val : EltTy → Type} (h hd hs) (u : (⟨S16x1024x4, .f32⟩ : BufTy).Contents Val) :
    (TRef.of (sig := sig) (T := ⟨S16x1024x4, .f32⟩) main_v33 h hd hs).ofBuf u = u := eq_of_heq (cast_heq _ u)
theorem toBuf_main_v60 {Val : EltTy → Type} (h hd hs) (v : (⟨S16x1024x4, .f32⟩ : BufTy).Contents Val) :
    (TRef.of (sig := sig) (T := ⟨S16x1024x4, .f32⟩) main_v60 h hd hs).toBuf v = v := eq_of_heq (cast_heq _ v)
theorem ofBuf_main_v60 {Val : EltTy → Type} (h hd hs) (u : (⟨S16x1024x4, .f32⟩ : BufTy).Contents Val) :
    (TRef.of (sig := sig) (T := ⟨S16x1024x4, .f32⟩) main_v60 h hd hs).ofBuf u = u := eq_of_heq (cast_heq _ u)
theorem toBuf_main_cst_19 {Val : EltTy → Type} (h hd hs) (v : (⟨S_, .f32⟩ : BufTy).Contents Val) :
    (TRef.of (sig := sig) (T := ⟨S_, .f32⟩) main_cst_19 h hd hs).toBuf v = v := eq_of_heq (cast_heq _ v)
theorem ofBuf_main_cst_19 {Val : EltTy → Type} (h hd hs) (u : (⟨S_, .f32⟩ : BufTy).Contents Val) :
    (TRef.of (sig := sig) (T := ⟨S_, .f32⟩) main_cst_19 h hd hs).ofBuf u = u := eq_of_heq (cast_heq _ u)
theorem toBuf_main_call4_v0 {Val : EltTy → Type} (h hd hs) (v : (⟨S_, .f32⟩ : BufTy).Contents Val) :
    (TRef.of (sig := sig) (T := ⟨S_, .f32⟩) main_call4_v0 h hd hs).toBuf v = v := eq_of_heq (cast_heq _ v)
theorem ofBuf_main_call4_v0 {Val : EltTy → Type} (h hd hs) (u : (⟨S_, .f32⟩ : BufTy).Contents Val) :
    (TRef.of (sig := sig) (T := ⟨S_, .f32⟩) main_call4_v0 h hd hs).ofBuf u = u := eq_of_heq (cast_heq _ u)
theorem toBuf_main_call4_v1 {Val : EltTy → Type} (h hd hs) (v : (⟨S16x1024x1024x2, .f32⟩ : BufTy).Contents Val) :
    (TRef.of (sig := sig) (T := ⟨S16x1024x1024x2, .f32⟩) main_call4_v1 h hd hs).toBuf v = v := eq_of_heq (cast_heq _ v)
theorem ofBuf_main_call4_v1 {Val : EltTy → Type} (h hd hs) (u : (⟨S16x1024x1024x2, .f32⟩ : BufTy).Contents Val) :
    (TRef.of (sig := sig) (T := ⟨S16x1024x1024x2, .f32⟩) main_call4_v1 h hd hs).ofBuf u = u := eq_of_heq (cast_heq _ u)
theorem toBuf_main_v105 {Val : EltTy → Type} (h hd hs) (v : (⟨S16x1024x1024x2, .f32⟩ : BufTy).Contents Val) :
    (TRef.of (sig := sig) (T := ⟨S16x1024x1024x2, .f32⟩) main_v105 h hd hs).toBuf v = v := eq_of_heq (cast_heq _ v)
theorem ofBuf_main_v105 {Val : EltTy → Type} (h hd hs) (u : (⟨S16x1024x1024x2, .f32⟩ : BufTy).Contents Val) :
    (TRef.of (sig := sig) (T := ⟨S16x1024x1024x2, .f32⟩) main_v105 h hd hs).ofBuf u = u := eq_of_heq (cast_heq _ u)
theorem toBuf_main_v106 {Val : EltTy → Type} (h hd hs) (v : (⟨S16x1024x1024x2, .f32⟩ : BufTy).Contents Val) :
    (TRef.of (sig := sig) (T := ⟨S16x1024x1024x2, .f32⟩) main_v106 h hd hs).toBuf v = v := eq_of_heq (cast_heq _ v)
theorem ofBuf_main_v106 {Val : EltTy → Type} (h hd hs) (u : (⟨S16x1024x1024x2, .f32⟩ : BufTy).Contents Val) :
    (TRef.of (sig := sig) (T := ⟨S16x1024x1024x2, .f32⟩) main_v106 h hd hs).ofBuf u = u := eq_of_heq (cast_heq _ u)
theorem toBuf_main_cst_21 {Val : EltTy → Type} (h hd hs) (v : (⟨S_, .f32⟩ : BufTy).Contents Val) :
    (TRef.of (sig := sig) (T := ⟨S_, .f32⟩) main_cst_21 h hd hs).toBuf v = v := eq_of_heq (cast_heq _ v)
theorem ofBuf_main_cst_21 {Val : EltTy → Type} (h hd hs) (u : (⟨S_, .f32⟩ : BufTy).Contents Val) :
    (TRef.of (sig := sig) (T := ⟨S_, .f32⟩) main_cst_21 h hd hs).ofBuf u = u := eq_of_heq (cast_heq _ u)
theorem toBuf_main_call5_v0 {Val : EltTy → Type} (h hd hs) (v : (⟨S_, .f32⟩ : BufTy).Contents Val) :
    (TRef.of (sig := sig) (T := ⟨S_, .f32⟩) main_call5_v0 h hd hs).toBuf v = v := eq_of_heq (cast_heq _ v)
theorem ofBuf_main_call5_v0 {Val : EltTy → Type} (h hd hs) (u : (⟨S_, .f32⟩ : BufTy).Contents Val) :
    (TRef.of (sig := sig) (T := ⟨S_, .f32⟩) main_call5_v0 h hd hs).ofBuf u = u := eq_of_heq (cast_heq _ u)
theorem toBuf_main_call5_v1 {Val : EltTy → Type} (h hd hs) (v : (⟨S16x1024x1024x2, .f32⟩ : BufTy).Contents Val) :
    (TRef.of (sig := sig) (T := ⟨S16x1024x1024x2, .f32⟩) main_call5_v1 h hd hs).toBuf v = v := eq_of_heq (cast_heq _ v)
theorem ofBuf_main_call5_v1 {Val : EltTy → Type} (h hd hs) (u : (⟨S16x1024x1024x2, .f32⟩ : BufTy).Contents Val) :
    (TRef.of (sig := sig) (T := ⟨S16x1024x1024x2, .f32⟩) main_call5_v1 h hd hs).ofBuf u = u := eq_of_heq (cast_heq _ u)
theorem toBuf_main_v135 {Val : EltTy → Type} (h hd hs) (v : (⟨S16x1024x1024x2, .f32⟩ : BufTy).Contents Val) :
    (TRef.of (sig := sig) (T := ⟨S16x1024x1024x2, .f32⟩) main_v135 h hd hs).toBuf v = v := eq_of_heq (cast_heq _ v)
theorem ofBuf_main_v135 {Val : EltTy → Type} (h hd hs) (u : (⟨S16x1024x1024x2, .f32⟩ : BufTy).Contents Val) :
    (TRef.of (sig := sig) (T := ⟨S16x1024x1024x2, .f32⟩) main_v135 h hd hs).ofBuf u = u := eq_of_heq (cast_heq _ u)
theorem toBuf_main_v136 {Val : EltTy → Type} (h hd hs) (v : (⟨S16x1024x1024x2, .f32⟩ : BufTy).Contents Val) :
    (TRef.of (sig := sig) (T := ⟨S16x1024x1024x2, .f32⟩) main_v136 h hd hs).toBuf v = v := eq_of_heq (cast_heq _ v)
theorem ofBuf_main_v136 {Val : EltTy → Type} (h hd hs) (u : (⟨S16x1024x1024x2, .f32⟩ : BufTy).Contents Val) :
    (TRef.of (sig := sig) (T := ⟨S16x1024x1024x2, .f32⟩) main_v136 h hd hs).ofBuf u = u := eq_of_heq (cast_heq _ u)
theorem toBuf_main_call6_v0 {Val : EltTy → Type} (h hd hs) (v : (⟨S1024, .i32⟩ : BufTy).Contents Val) :
    (TRef.of (sig := sig) (T := ⟨S1024, .i32⟩) main_call6_v0 h hd hs).toBuf v = v := eq_of_heq (cast_heq _ v)
theorem ofBuf_main_call6_v0 {Val : EltTy → Type} (h hd hs) (u : (⟨S1024, .i32⟩ : BufTy).Contents Val) :
    (TRef.of (sig := sig) (T := ⟨S1024, .i32⟩) main_call6_v0 h hd hs).ofBuf u = u := eq_of_heq (cast_heq _ u)
theorem toBuf_main_call6_v1 {Val : EltTy → Type} (h hd hs) (v : (⟨S1024, .i32⟩ : BufTy).Contents Val) :
    (TRef.of (sig := sig) (T := ⟨S1024, .i32⟩) main_call6_v1 h hd hs).toBuf v = v := eq_of_heq (cast_heq _ v)
theorem ofBuf_main_call6_v1 {Val : EltTy → Type} (h hd hs) (u : (⟨S1024, .i32⟩ : BufTy).Contents Val) :
    (TRef.of (sig := sig) (T := ⟨S1024, .i32⟩) main_call6_v1 h hd hs).ofBuf u = u := eq_of_heq (cast_heq _ u)
theorem toBuf_main_call6_c {Val : EltTy → Type} (h hd hs) (v : (⟨S_, .i32⟩ : BufTy).Contents Val) :
    (TRef.of (sig := sig) (T := ⟨S_, .i32⟩) main_call6_c h hd hs).toBuf v = v := eq_of_heq (cast_heq _ v)
theorem ofBuf_main_call6_c {Val : EltTy → Type} (h hd hs) (u : (⟨S_, .i32⟩ : BufTy).Contents Val) :
    (TRef.of (sig := sig) (T := ⟨S_, .i32⟩) main_call6_c h hd hs).ofBuf u = u := eq_of_heq (cast_heq _ u)
theorem toBuf_main_call6_v2 {Val : EltTy → Type} (h hd hs) (v : (⟨S1024, .i32⟩ : BufTy).Contents Val) :
    (TRef.of (sig := sig) (T := ⟨S1024, .i32⟩) main_call6_v2 h hd hs).toBuf v = v := eq_of_heq (cast_heq _ v)
theorem ofBuf_main_call6_v2 {Val : EltTy → Type} (h hd hs) (u : (⟨S1024, .i32⟩ : BufTy).Contents Val) :
    (TRef.of (sig := sig) (T := ⟨S1024, .i32⟩) main_call6_v2 h hd hs).ofBuf u = u := eq_of_heq (cast_heq _ u)
theorem toBuf_main_call6_v3 {Val : EltTy → Type} (h hd hs) (v : (⟨S1024, .i1⟩ : BufTy).Contents Val) :
    (TRef.of (sig := sig) (T := ⟨S1024, .i1⟩) main_call6_v3 h hd hs).toBuf v = v := eq_of_heq (cast_heq _ v)
theorem ofBuf_main_call6_v3 {Val : EltTy → Type} (h hd hs) (u : (⟨S1024, .i1⟩ : BufTy).Contents Val) :
    (TRef.of (sig := sig) (T := ⟨S1024, .i1⟩) main_call6_v3 h hd hs).ofBuf u = u := eq_of_heq (cast_heq _ u)
theorem toBuf_main_call6_c_0 {Val : EltTy → Type} (h hd hs) (v : (⟨S_, .i32⟩ : BufTy).Contents Val) :
    (TRef.of (sig := sig) (T := ⟨S_, .i32⟩) main_call6_c_0 h hd hs).toBuf v = v := eq_of_heq (cast_heq _ v)
theorem ofBuf_main_call6_c_0 {Val : EltTy → Type} (h hd hs) (u : (⟨S_, .i32⟩ : BufTy).Contents Val) :
    (TRef.of (sig := sig) (T := ⟨S_, .i32⟩) main_call6_c_0 h hd hs).ofBuf u = u := eq_of_heq (cast_heq _ u)
theorem toBuf_main_call6_v4 {Val : EltTy → Type} (h hd hs) (v : (⟨S1024, .i32⟩ : BufTy).Contents Val) :
    (TRef.of (sig := sig) (T := ⟨S1024, .i32⟩) main_call6_v4 h hd hs).toBuf v = v := eq_of_heq (cast_heq _ v)
theorem ofBuf_main_call6_v4 {Val : EltTy → Type} (h hd hs) (u : (⟨S1024, .i32⟩ : BufTy).Contents Val) :
    (TRef.of (sig := sig) (T := ⟨S1024, .i32⟩) main_call6_v4 h hd hs).ofBuf u = u := eq_of_heq (cast_heq _ u)
theorem toBuf_main_call6_v5 {Val : EltTy → Type} (h hd hs) (v : (⟨S1024, .i32⟩ : BufTy).Contents Val) :
    (TRef.of (sig := sig) (T := ⟨S1024, .i32⟩) main_call6_v5 h hd hs).toBuf v = v := eq_of_heq (cast_heq _ v)
theorem ofBuf_main_call6_v5 {Val : EltTy → Type} (h hd hs) (u : (⟨S1024, .i32⟩ : BufTy).Contents Val) :
    (TRef.of (sig := sig) (T := ⟨S1024, .i32⟩) main_call6_v5 h hd hs).ofBuf u = u := eq_of_heq (cast_heq _ u)
theorem toBuf_main_call6_v6 {Val : EltTy → Type} (h hd hs) (v : (⟨S1024, .i32⟩ : BufTy).Contents Val) :
    (TRef.of (sig := sig) (T := ⟨S1024, .i32⟩) main_call6_v6 h hd hs).toBuf v = v := eq_of_heq (cast_heq _ v)
theorem ofBuf_main_call6_v6 {Val : EltTy → Type} (h hd hs) (u : (⟨S1024, .i32⟩ : BufTy).Contents Val) :
    (TRef.of (sig := sig) (T := ⟨S1024, .i32⟩) main_call6_v6 h hd hs).ofBuf u = u := eq_of_heq (cast_heq _ u)
theorem toBuf_main_call6_c_1 {Val : EltTy → Type} (h hd hs) (v : (⟨S_, .i32⟩ : BufTy).Contents Val) :
    (TRef.of (sig := sig) (T := ⟨S_, .i32⟩) main_call6_c_1 h hd hs).toBuf v = v := eq_of_heq (cast_heq _ v)
theorem ofBuf_main_call6_c_1 {Val : EltTy → Type} (h hd hs) (u : (⟨S_, .i32⟩ : BufTy).Contents Val) :
    (TRef.of (sig := sig) (T := ⟨S_, .i32⟩) main_call6_c_1 h hd hs).ofBuf u = u := eq_of_heq (cast_heq _ u)
theorem toBuf_main_call6_v7 {Val : EltTy → Type} (h hd hs) (v : (⟨S1024, .i32⟩ : BufTy).Contents Val) :
    (TRef.of (sig := sig) (T := ⟨S1024, .i32⟩) main_call6_v7 h hd hs).toBuf v = v := eq_of_heq (cast_heq _ v)
theorem ofBuf_main_call6_v7 {Val : EltTy → Type} (h hd hs) (u : (⟨S1024, .i32⟩ : BufTy).Contents Val) :
    (TRef.of (sig := sig) (T := ⟨S1024, .i32⟩) main_call6_v7 h hd hs).ofBuf u = u := eq_of_heq (cast_heq _ u)
theorem toBuf_main_call6_v8 {Val : EltTy → Type} (h hd hs) (v : (⟨S1024, .i1⟩ : BufTy).Contents Val) :
    (TRef.of (sig := sig) (T := ⟨S1024, .i1⟩) main_call6_v8 h hd hs).toBuf v = v := eq_of_heq (cast_heq _ v)
theorem ofBuf_main_call6_v8 {Val : EltTy → Type} (h hd hs) (u : (⟨S1024, .i1⟩ : BufTy).Contents Val) :
    (TRef.of (sig := sig) (T := ⟨S1024, .i1⟩) main_call6_v8 h hd hs).ofBuf u = u := eq_of_heq (cast_heq _ u)
theorem toBuf_main_call6_c_2 {Val : EltTy → Type} (h hd hs) (v : (⟨S_, .i32⟩ : BufTy).Contents Val) :
    (TRef.of (sig := sig) (T := ⟨S_, .i32⟩) main_call6_c_2 h hd hs).toBuf v = v := eq_of_heq (cast_heq _ v)
theorem ofBuf_main_call6_c_2 {Val : EltTy → Type} (h hd hs) (u : (⟨S_, .i32⟩ : BufTy).Contents Val) :
    (TRef.of (sig := sig) (T := ⟨S_, .i32⟩) main_call6_c_2 h hd hs).ofBuf u = u := eq_of_heq (cast_heq _ u)
theorem toBuf_main_call6_v9 {Val : EltTy → Type} (h hd hs) (v : (⟨S1024, .i32⟩ : BufTy).Contents Val) :
    (TRef.of (sig := sig) (T := ⟨S1024, .i32⟩) main_call6_v9 h hd hs).toBuf v = v := eq_of_heq (cast_heq _ v)
theorem ofBuf_main_call6_v9 {Val : EltTy → Type} (h hd hs) (u : (⟨S1024, .i32⟩ : BufTy).Contents Val) :
    (TRef.of (sig := sig) (T := ⟨S1024, .i32⟩) main_call6_v9 h hd hs).ofBuf u = u := eq_of_heq (cast_heq _ u)
theorem toBuf_main_call6_v10 {Val : EltTy → Type} (h hd hs) (v : (⟨S1024, .i32⟩ : BufTy).Contents Val) :
    (TRef.of (sig := sig) (T := ⟨S1024, .i32⟩) main_call6_v10 h hd hs).toBuf v = v := eq_of_heq (cast_heq _ v)
theorem ofBuf_main_call6_v10 {Val : EltTy → Type} (h hd hs) (u : (⟨S1024, .i32⟩ : BufTy).Contents Val) :
    (TRef.of (sig := sig) (T := ⟨S1024, .i32⟩) main_call6_v10 h hd hs).ofBuf u = u := eq_of_heq (cast_heq _ u)
theorem toBuf_main_call6_v11 {Val : EltTy → Type} (h hd hs) (v : (⟨S1024, .i32⟩ : BufTy).Contents Val) :
    (TRef.of (sig := sig) (T := ⟨S1024, .i32⟩) main_call6_v11 h hd hs).toBuf v = v := eq_of_heq (cast_heq _ v)
theorem ofBuf_main_call6_v11 {Val : EltTy → Type} (h hd hs) (u : (⟨S1024, .i32⟩ : BufTy).Contents Val) :
    (TRef.of (sig := sig) (T := ⟨S1024, .i32⟩) main_call6_v11 h hd hs).ofBuf u = u := eq_of_heq (cast_heq _ u)
theorem toBuf_main_call6_v12 {Val : EltTy → Type} (h hd hs) (v : (⟨S1024x1, .i32⟩ : BufTy).Contents Val) :
    (TRef.of (sig := sig) (T := ⟨S1024x1, .i32⟩) main_call6_v12 h hd hs).toBuf v = v := eq_of_heq (cast_heq _ v)
theorem ofBuf_main_call6_v12 {Val : EltTy → Type} (h hd hs) (u : (⟨S1024x1, .i32⟩ : BufTy).Contents Val) :
    (TRef.of (sig := sig) (T := ⟨S1024x1, .i32⟩) main_call6_v12 h hd hs).ofBuf u = u := eq_of_heq (cast_heq _ u)
theorem toBuf_main_call6_v13 {Val : EltTy → Type} (h hd hs) (v : (⟨S1024x1, .i32⟩ : BufTy).Contents Val) :
    (TRef.of (sig := sig) (T := ⟨S1024x1, .i32⟩) main_call6_v13 h hd hs).toBuf v = v := eq_of_heq (cast_heq _ v)
theorem ofBuf_main_call6_v13 {Val : EltTy → Type} (h hd hs) (u : (⟨S1024x1, .i32⟩ : BufTy).Contents Val) :
    (TRef.of (sig := sig) (T := ⟨S1024x1, .i32⟩) main_call6_v13 h hd hs).ofBuf u = u := eq_of_heq (cast_heq _ u)
theorem toBuf_main_call6_v14 {Val : EltTy → Type} (h hd hs) (v : (⟨S1024x2, .i32⟩ : BufTy).Contents Val) :
    (TRef.of (sig := sig) (T := ⟨S1024x2, .i32⟩) main_call6_v14 h hd hs).toBuf v = v := eq_of_heq (cast_heq _ v)
theorem ofBuf_main_call6_v14 {Val : EltTy → Type} (h hd hs) (u : (⟨S1024x2, .i32⟩ : BufTy).Contents Val) :
    (TRef.of (sig := sig) (T := ⟨S1024x2, .i32⟩) main_call6_v14 h hd hs).ofBuf u = u := eq_of_heq (cast_heq _ u)
theorem toBuf_main_v146 {Val : EltTy → Type} (h hd hs) (v : (⟨S16x1024x1024, .f32⟩ : BufTy).Contents Val) :
    (TRef.of (sig := sig) (T := ⟨S16x1024x1024, .f32⟩) main_v146 h hd hs).toBuf v = v := eq_of_heq (cast_heq _ v)
theorem ofBuf_main_v146 {Val : EltTy → Type} (h hd hs) (u : (⟨S16x1024x1024, .f32⟩ : BufTy).Contents Val) :
    (TRef.of (sig := sig) (T := ⟨S16x1024x1024, .f32⟩) main_v146 h hd hs).ofBuf u = u := eq_of_heq (cast_heq _ u)
theorem toBuf_main_v147 {Val : EltTy → Type} (h hd hs) (v : (⟨S16x1024, .f32⟩ : BufTy).Contents Val) :
    (TRef.of (sig := sig) (T := ⟨S16x1024, .f32⟩) main_v147 h hd hs).toBuf v = v := eq_of_heq (cast_heq _ v)
theorem ofBuf_main_v147 {Val : EltTy → Type} (h hd hs) (u : (⟨S16x1024, .f32⟩ : BufTy).Contents Val) :
    (TRef.of (sig := sig) (T := ⟨S16x1024, .f32⟩) main_v147 h hd hs).ofBuf u = u := eq_of_heq (cast_heq _ u)

/-- The device's buffer contents before the first stretch. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl

/-- The device's buffer contents after the first 1 stretch. -/
def val1 (V0 : Valuation τ sig (Elt F)) : Valuation τ sig (Elt F) := after ops1 (val0 V0)
/-- A buffer that stretch 1 does not write keeps its contents through it. -/
theorem val1_keep (V0 : Valuation τ sig (Elt F)) (r : Ref sig .tc) (h : r ∉ ops1_W) :
    val1 V0 (Proc.devRef .tc r) = val0 V0 (Proc.devRef .tc r) :=
  after_of_writes_sub ops1 _ ops1_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
set_option maxRecDepth 8192 in
set_option maxHeartbeats 2000000 in
theorem val1_main_v1 (V0 : Valuation τ sig (Elt F)) : val1 V0 (no_index (Proc.devRef .tc main_v1)) = ReadP.val_main_v1 (F := F) := by
  unfold val1
  simp only [ops1]
  after_results_simp
  all_goals rfl
set_option maxRecDepth 8192 in
set_option maxHeartbeats 2000000 in
theorem val1_main_v2 (V0 : Valuation τ sig (Elt F)) : val1 V0 (no_index (Proc.devRef .tc main_v2)) = ReadP.val_main_v2 (F := F) := by
  unfold val1
  simp only [ops1]
  after_results_simp
  all_goals rfl
set_option maxRecDepth 8192 in
set_option maxHeartbeats 2000000 in
theorem val1_main_v14 (V0 : Valuation τ sig (Elt F)) : val1 V0 (no_index (Proc.devRef .tc main_v14)) = ReadP.val_main_v14 (F := F) := by
  unfold val1
  simp only [ops1]
  after_results_simp
  all_goals rfl
set_option maxRecDepth 8192 in
set_option maxHeartbeats 2000000 in
theorem val1_main_v15 (V0 : Valuation τ sig (Elt F)) : val1 V0 (no_index (Proc.devRef .tc main_v15)) = ReadP.val_main_v15 (F := F) (V0 (Proc.devRef .tc main_arg5)) := by
  unfold val1
  simp only [ops1]
  after_results_simp
  simp only [val0_main_arg5] <;> rfl

/-- The device's buffer contents after the first 2 stretches. -/
def val2 (V0 : Valuation τ sig (Elt F)) : Valuation τ sig (Elt F) := after ops2 (val1 V0)
/-- A buffer that stretch 2 does not write keeps its contents through it. -/
theorem val2_keep (V0 : Valuation τ sig (Elt F)) (r : Ref sig .tc) (h : r ∉ ops2_W) :
    val2 V0 (Proc.devRef .tc r) = val1 V0 (Proc.devRef .tc r) :=
  after_of_writes_sub ops2 _ ops2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
set_option maxRecDepth 8192 in
set_option maxHeartbeats 2000000 in
theorem val2_main_v17 (V0 : Valuation τ sig (Elt F)) : val2 V0 (no_index (Proc.devRef .tc main_v17)) = ReadP.val_main_v17 (F := F) (V0 (Proc.devRef .tc main_arg2)) (V0 (Proc.devRef .tc main_arg5)) := by
  unfold val2
  simp only [ops2]
  after_results_simp
  simp only [val1_main_arg2, val1_main_v15, val1_main_v14, val1_main_v2] <;> rfl
set_option maxRecDepth 8192 in
set_option maxHeartbeats 2000000 in
theorem val2_main_v18 (V0 : Valuation τ sig (Elt F)) : val2 V0 (no_index (Proc.devRef .tc main_v18)) = ReadP.val_main_v18 (F := F) := by
  unfold val2
  simp only [ops2]
  after_results_simp
  all_goals rfl
set_option maxRecDepth 8192 in
set_option maxHeartbeats 2000000 in
theorem val2_main_v30 (V0 : Valuation τ sig (Elt F)) : val2 V0 (no_index (Proc.devRef .tc main_v30)) = ReadP.val_main_v30 (F := F) := by
  unfold val2
  simp only [ops2]
  after_results_simp
  simp only [val1_main_v1] <;> rfl
set_option maxRecDepth 8192 in
set_option maxHeartbeats 2000000 in
theorem val2_main_v31 (V0 : Valuation τ sig (Elt F)) : val2 V0 (no_index (Proc.devRef .tc main_v31)) = ReadP.val_main_v31 (F := F) (V0 (Proc.devRef .tc main_arg5)) := by
  unfold val2
  simp only [ops2]
  after_results_simp
  simp only [val1_main_arg5] <;> rfl

/-- The device's buffer contents after the first 3 stretches. -/
def val3 (V0 : Valuation τ sig (Elt F)) : Valuation τ sig (Elt F) := after ops3 (val2 V0)
/-- A buffer that stretch 3 does not write keeps its contents through it. -/
theorem val3_keep (V0 : Valuation τ sig (Elt F)) (r : Ref sig .tc) (h : r ∉ ops3_W) :
    val3 V0 (Proc.devRef .tc r) = val2 V0 (Proc.devRef .tc r) :=
  after_of_writes_sub ops3 _ ops3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_v17 (V0 : Valuation τ sig (Elt F)) : val3 V0 (no_index (Proc.devRef .tc main_v17)) = ReadP.val_main_v17 (F := F) (V0 (Proc.devRef .tc main_arg2)) (V0 (Proc.devRef .tc main_arg5)) :=
  (val3_keep V0 main_v17 (by decide)).trans (val2_main_v17 V0)
set_option maxRecDepth 8192 in
set_option maxHeartbeats 2000000 in
theorem val3_main_v33 (V0 : Valuation τ sig (Elt F)) : val3 V0 (no_index (Proc.devRef .tc main_v33)) = ReadP.val_main_v33 (F := F) (V0 (Proc.devRef .tc main_arg3)) (V0 (Proc.devRef .tc main_arg5)) := by
  unfold val3
  simp only [ops3]
  after_results_simp
  try simp only [toBuf_main_call0_cst, ofBuf_main_call0_cst, toBuf_main_arg0, ofBuf_main_arg0, toBuf_main_call0_v0, ofBuf_main_call0_v0, toBuf_main_call0_cst_0, ofBuf_main_call0_cst_0, toBuf_main_call0_v1, ofBuf_main_call0_v1, toBuf_main_call0_v2, ofBuf_main_call0_v2, toBuf_main_call0_v3, ofBuf_main_call0_v3, toBuf_main_call0_v4, ofBuf_main_call0_v4, toBuf_main_call0_v5, ofBuf_main_call0_v5, toBuf_main_call0_v6, ofBuf_main_call0_v6, toBuf_main_call0_cst_1, ofBuf_main_call0_cst_1, toBuf_main_call0_v7, ofBuf_main_call0_v7, toBuf_main_call0_v8, ofBuf_main_call0_v8, toBuf_main_call0_v9, ofBuf_main_call0_v9, toBuf_main_call0_v10, ofBuf_main_call0_v10, toBuf_main_v34, ofBuf_main_v34]
  simp only [val2_main_arg3, val2_main_v31, val2_main_v30, val2_main_v18] <;> rfl
set_option maxRecDepth 8192 in
set_option maxHeartbeats 2000000 in
theorem val3_main_v34 (V0 : Valuation τ sig (Elt F)) : val3 V0 (no_index (Proc.devRef .tc main_v34)) = ReadP.val_main_v34 (F := F) (V0 (Proc.devRef .tc main_arg0)) := by
  unfold val3
  simp only [ops3]
  after_results_simp
  try simp only [toBuf_main_call0_cst, ofBuf_main_call0_cst, toBuf_main_arg0, ofBuf_main_arg0, toBuf_main_call0_v0, ofBuf_main_call0_v0, toBuf_main_call0_cst_0, ofBuf_main_call0_cst_0, toBuf_main_call0_v1, ofBuf_main_call0_v1, toBuf_main_call0_v2, ofBuf_main_call0_v2, toBuf_main_call0_v3, ofBuf_main_call0_v3, toBuf_main_call0_v4, ofBuf_main_call0_v4, toBuf_main_call0_v5, ofBuf_main_call0_v5, toBuf_main_call0_v6, ofBuf_main_call0_v6, toBuf_main_call0_cst_1, ofBuf_main_call0_cst_1, toBuf_main_call0_v7, ofBuf_main_call0_v7, toBuf_main_call0_v8, ofBuf_main_call0_v8, toBuf_main_call0_v9, ofBuf_main_call0_v9, toBuf_main_call0_v10, ofBuf_main_call0_v10, toBuf_main_v34, ofBuf_main_v34]
  simp only [val2_main_arg0] <;> rfl

/-- The device's buffer contents after the first 4 stretches. -/
def val4 (V0 : Valuation τ sig (Elt F)) : Valuation τ sig (Elt F) := after ops4 (val3 V0)
/-- A buffer that stretch 4 does not write keeps its contents through it. -/
theorem val4_keep (V0 : Valuation τ sig (Elt F)) (r : Ref sig .tc) (h : r ∉ ops4_W) :
    val4 V0 (Proc.devRef .tc r) = val3 V0 (Proc.devRef .tc r) :=
  after_of_writes_sub ops4 _ ops4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_v17 (V0 : Valuation τ sig (Elt F)) : val4 V0 (no_index (Proc.devRef .tc main_v17)) = ReadP.val_main_v17 (F := F) (V0 (Proc.devRef .tc main_arg2)) (V0 (Proc.devRef .tc main_arg5)) :=
  (val4_keep V0 main_v17 (by decide)).trans (val3_main_v17 V0)
theorem val4_main_v33 (V0 : Valuation τ sig (Elt F)) : val4 V0 (no_index (Proc.devRef .tc main_v33)) = ReadP.val_main_v33 (F := F) (V0 (Proc.devRef .tc main_arg3)) (V0 (Proc.devRef .tc main_arg5)) :=
  (val4_keep V0 main_v33 (by decide)).trans (val3_main_v33 V0)
set_option maxRecDepth 8192 in
set_option maxHeartbeats 2000000 in
theorem val4_main_v36 (V0 : Valuation τ sig (Elt F)) : val4 V0 (no_index (Proc.devRef .tc main_v36)) = ReadP.val_main_v36 (F := F) (V0 (Proc.devRef .tc main_arg2)) (V0 (Proc.devRef .tc main_arg5)) := by
  unfold val4
  simp only [ops4]
  after_results_simp
  try simp only [toBuf_main_call1_c, ofBuf_main_call1_c, toBuf_main_call1_v0, ofBuf_main_call1_v0, toBuf_main_v37, ofBuf_main_v37, toBuf_main_call1_v1, ofBuf_main_call1_v1, toBuf_main_call1_c_0, ofBuf_main_call1_c_0, toBuf_main_call1_v2, ofBuf_main_call1_v2, toBuf_main_call1_v3, ofBuf_main_call1_v3, toBuf_main_call1_v4, ofBuf_main_call1_v4, toBuf_main_call1_v5, ofBuf_main_call1_v5, toBuf_main_call1_c_1, ofBuf_main_call1_c_1, toBuf_main_call1_c_2, ofBuf_main_call1_c_2, toBuf_main_call1_v6, ofBuf_main_call1_v6, toBuf_main_call1_v7, ofBuf_main_call1_v7, toBuf_main_call1_v8, ofBuf_main_call1_v8, toBuf_main_call1_v9, ofBuf_main_call1_v9, toBuf_main_call1_v10, ofBuf_main_call1_v10, toBuf_main_call1_v11, ofBuf_main_call1_v11, toBuf_main_call1_c_3, ofBuf_main_call1_c_3, toBuf_main_call1_v12, ofBuf_main_call1_v12, toBuf_main_v35, ofBuf_main_v35, toBuf_main_call1_v13, ofBuf_main_call1_v13, toBuf_main_call1_cst, ofBuf_main_call1_cst, toBuf_main_call1_v14, ofBuf_main_call1_v14, toBuf_main_v38, ofBuf_main_v38]
  simp only [val3_main_v17] <;> rfl
set_option maxRecDepth 8192 in
set_option maxHeartbeats 2000000 in
theorem val4_main_v38 (V0 : Valuation τ sig (Elt F)) : val4 V0 (no_index (Proc.devRef .tc main_v38)) = ReadP.val_main_v38 (F := F) (V0 (Proc.devRef .tc main_arg0)) (V0 (Proc.devRef .tc main_arg2)) (V0 (Proc.devRef .tc main_arg5)) := by
  unfold val4
  simp only [ops4]
  after_results_simp
  try simp only [toBuf_main_call1_c, ofBuf_main_call1_c, toBuf_main_call1_v0, ofBuf_main_call1_v0, toBuf_main_v37, ofBuf_main_v37, toBuf_main_call1_v1, ofBuf_main_call1_v1, toBuf_main_call1_c_0, ofBuf_main_call1_c_0, toBuf_main_call1_v2, ofBuf_main_call1_v2, toBuf_main_call1_v3, ofBuf_main_call1_v3, toBuf_main_call1_v4, ofBuf_main_call1_v4, toBuf_main_call1_v5, ofBuf_main_call1_v5, toBuf_main_call1_c_1, ofBuf_main_call1_c_1, toBuf_main_call1_c_2, ofBuf_main_call1_c_2, toBuf_main_call1_v6, ofBuf_main_call1_v6, toBuf_main_call1_v7, ofBuf_main_call1_v7, toBuf_main_call1_v8, ofBuf_main_call1_v8, toBuf_main_call1_v9, ofBuf_main_call1_v9, toBuf_main_call1_v10, ofBuf_main_call1_v10, toBuf_main_call1_v11, ofBuf_main_call1_v11, toBuf_main_call1_c_3, ofBuf_main_call1_c_3, toBuf_main_call1_v12, ofBuf_main_call1_v12, toBuf_main_v35, ofBuf_main_v35, toBuf_main_call1_v13, ofBuf_main_call1_v13, toBuf_main_call1_cst, ofBuf_main_call1_cst, toBuf_main_call1_v14, ofBuf_main_call1_v14, toBuf_main_v38, ofBuf_main_v38]
  simp only [val3_main_v17, val3_main_v34] <;> rfl

/-- The device's buffer contents after the first 5 stretches. -/
def val5 (V0 : Valuation τ sig (Elt F)) : Valuation τ sig (Elt F) := after ops5 (val4 V0)
/-- A buffer that stretch 5 does not write keeps its contents through it. -/
theorem val5_keep (V0 : Valuation τ sig (Elt F)) (r : Ref sig .tc) (h : r ∉ ops5_W) :
    val5 V0 (Proc.devRef .tc r) = val4 V0 (Proc.devRef .tc r) :=
  after_of_writes_sub ops5 _ ops5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_v17 (V0 : Valuation τ sig (Elt F)) : val5 V0 (no_index (Proc.devRef .tc main_v17)) = ReadP.val_main_v17 (F := F) (V0 (Proc.devRef .tc main_arg2)) (V0 (Proc.devRef .tc main_arg5)) :=
  (val5_keep V0 main_v17 (by decide)).trans (val4_main_v17 V0)
theorem val5_main_v33 (V0 : Valuation τ sig (Elt F)) : val5 V0 (no_index (Proc.devRef .tc main_v33)) = ReadP.val_main_v33 (F := F) (V0 (Proc.devRef .tc main_arg3)) (V0 (Proc.devRef .tc main_arg5)) :=
  (val5_keep V0 main_v33 (by decide)).trans (val4_main_v33 V0)
set_option maxRecDepth 8192 in
set_option maxHeartbeats 2000000 in
theorem val5_main_v40 (V0 : Valuation τ sig (Elt F)) : val5 V0 (no_index (Proc.devRef .tc main_v40)) = ReadP.val_main_v40 (F := F) (V0 (Proc.devRef .tc main_arg0)) (V0 (Proc.devRef .tc main_arg2)) (V0 (Proc.devRef .tc main_arg5)) := by
  unfold val5
  simp only [ops5]
  after_results_simp
  simp only [val4_main_v38] <;> rfl
set_option maxRecDepth 8192 in
set_option maxHeartbeats 2000000 in
theorem val5_main_v47 (V0 : Valuation τ sig (Elt F)) : val5 V0 (no_index (Proc.devRef .tc main_v47)) = ReadP.val_main_v47 (F := F) (V0 (Proc.devRef .tc main_arg2)) (V0 (Proc.devRef .tc main_arg5)) (V0 (Proc.devRef .tc main_arg6)) := by
  unfold val5
  simp only [ops5]
  after_results_simp
  simp only [val4_main_v36, val4_main_arg6] <;> rfl

end Cert.ReferenceIdeal.HandRun

end
-- ==== Proof.RefRunWin2.lean ====
import proofs.«407362_j87308095193844_3_alg».proof.Proof.RefRunWin1

/-! The reference program read stretch by stretch: stretches 6 … 8.

`valK V0` is the device's buffer contents after the first `K` stretches from contents `V0`. For every
buffer written by then and still read later (and for the arguments and the result) `valK_‹buffer›` says
what `valK V0` holds there: the buffer's stage of the operation-by-operation reading (`ReadP.val_‹buffer›`:
the operation's pure function applied to its operands' stages) at `V0`'s contents of the arguments it
depends on. Inside a stretch a stage is met by unfolding the stages of that stretch's own operations; a
buffer the stretch does not write keeps its contents through it. -/

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first 6 stretches. -/
def val6 (V0 : Valuation τ sig (Elt F)) : Valuation τ sig (Elt F) := after ops6 (val5 V0)
/-- A buffer that stretch 6 does not write keeps its contents through it. -/
theorem val6_keep (V0 : Valuation τ sig (Elt F)) (r : Ref sig .tc) (h : r ∉ ops6_W) :
    val6 V0 (Proc.devRef .tc r) = val5 V0 (Proc.devRef .tc r) :=
  after_of_writes_sub ops6 _ ops6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
set_option maxRecDepth 8192 in
set_option maxHeartbeats 2000000 in
theorem val6_main_v51 (V0 : Valuation τ sig (Elt F)) : val6 V0 (no_index (Proc.devRef .tc main_v51)) = ReadP.val_main_v51 (F := F) (V0 (Proc.devRef .tc main_arg0)) (V0 (Proc.devRef .tc main_arg2)) (V0 (Proc.devRef .tc main_arg5)) (V0 (Proc.devRef .tc main_arg6)) := by
  unfold val6
  simp only [ops6]
  after_results_simp
  try simp only [toBuf_main_cst_14, ofBuf_main_cst_14, toBuf_main_call2_v0, ofBuf_main_call2_v0, toBuf_main_v58, ofBuf_main_v58, toBuf_main_call2_v1, ofBuf_main_call2_v1, toBuf_main_call2_v2, ofBuf_main_call2_v2, toBuf_main_arg1, ofBuf_main_arg1, toBuf_main_v59, ofBuf_main_v59, toBuf_main_cst_15, ofBuf_main_cst_15, toBuf_main_call3_v0, ofBuf_main_call3_v0, toBuf_main_v54, ofBuf_main_v54, toBuf_main_call3_v1, ofBuf_main_call3_v1, toBuf_main_call3_v2, ofBuf_main_call3_v2, toBuf_main_v33, ofBuf_main_v33, toBuf_main_v60, ofBuf_main_v60]
  simp only [val5_main_v47, val5_main_v40] <;> rfl
set_option maxRecDepth 8192 in
set_option maxHeartbeats 2000000 in
theorem val6_main_v57 (V0 : Valuation τ sig (Elt F)) : val6 V0 (no_index (Proc.devRef .tc main_v57)) = ReadP.val_main_v57 (F := F) (V0 (Proc.devRef .tc main_arg2)) (V0 (Proc.devRef .tc main_arg5)) := by
  unfold val6
  simp only [ops6]
  after_results_simp
  try simp only [toBuf_main_cst_14, ofBuf_main_cst_14, toBuf_main_call2_v0, ofBuf_main_call2_v0, toBuf_main_v58, ofBuf_main_v58, toBuf_main_call2_v1, ofBuf_main_call2_v1, toBuf_main_call2_v2, ofBuf_main_call2_v2, toBuf_main_arg1, ofBuf_main_arg1, toBuf_main_v59, ofBuf_main_v59, toBuf_main_cst_15, ofBuf_main_cst_15, toBuf_main_call3_v0, ofBuf_main_call3_v0, toBuf_main_v54, ofBuf_main_v54, toBuf_main_call3_v1, ofBuf_main_call3_v1, toBuf_main_call3_v2, ofBuf_main_call3_v2, toBuf_main_v33, ofBuf_main_v33, toBuf_main_v60, ofBuf_main_v60]
  simp only [val5_main_v17] <;> rfl
set_option maxRecDepth 8192 in
set_option maxHeartbeats 2000000 in
theorem val6_main_v59 (V0 : Valuation τ sig (Elt F)) : val6 V0 (no_index (Proc.devRef .tc main_v59)) = ReadP.val_main_v59 (F := F) (V0 (Proc.devRef .tc main_arg1)) (V0 (Proc.devRef .tc main_arg2)) (V0 (Proc.devRef .tc main_arg4)) (V0 (Proc.devRef .tc main_arg5)) := by
  unfold val6
  simp only [ops6]
  after_results_simp
  try simp only [toBuf_main_cst_14, ofBuf_main_cst_14, toBuf_main_call2_v0, ofBuf_main_call2_v0, toBuf_main_v58, ofBuf_main_v58, toBuf_main_call2_v1, ofBuf_main_call2_v1, toBuf_main_call2_v2, ofBuf_main_call2_v2, toBuf_main_arg1, ofBuf_main_arg1, toBuf_main_v59, ofBuf_main_v59, toBuf_main_cst_15, ofBuf_main_cst_15, toBuf_main_call3_v0, ofBuf_main_call3_v0, toBuf_main_v54, ofBuf_main_v54, toBuf_main_call3_v1, ofBuf_main_call3_v1, toBuf_main_call3_v2, ofBuf_main_call3_v2, toBuf_main_v33, ofBuf_main_v33, toBuf_main_v60, ofBuf_main_v60]
  simp only [val5_main_arg1, val5_main_v17, val5_main_arg4] <;> rfl
set_option maxRecDepth 8192 in
set_option maxHeartbeats 2000000 in
theorem val6_main_v60 (V0 : Valuation τ sig (Elt F)) : val6 V0 (no_index (Proc.devRef .tc main_v60)) = ReadP.val_main_v60 (F := F) (V0 (Proc.devRef .tc main_arg3)) (V0 (Proc.devRef .tc main_arg4)) (V0 (Proc.devRef .tc main_arg5)) := by
  unfold val6
  simp only [ops6]
  after_results_simp
  try simp only [toBuf_main_cst_14, ofBuf_main_cst_14, toBuf_main_call2_v0, ofBuf_main_call2_v0, toBuf_main_v58, ofBuf_main_v58, toBuf_main_call2_v1, ofBuf_main_call2_v1, toBuf_main_call2_v2, ofBuf_main_call2_v2, toBuf_main_arg1, ofBuf_main_arg1, toBuf_main_v59, ofBuf_main_v59, toBuf_main_cst_15, ofBuf_main_cst_15, toBuf_main_call3_v0, ofBuf_main_call3_v0, toBuf_main_v54, ofBuf_main_v54, toBuf_main_call3_v1, ofBuf_main_call3_v1, toBuf_main_call3_v2, ofBuf_main_call3_v2, toBuf_main_v33, ofBuf_main_v33, toBuf_main_v60, ofBuf_main_v60]
  simp only [val5_main_v33, val5_main_arg4] <;> rfl

/-- The device's buffer contents after the first 7 stretches. -/
def val7 (V0 : Valuation τ sig (Elt F)) : Valuation τ sig (Elt F) := after ops7 (val6 V0)
/-- A buffer that stretch 7 does not write keeps its contents through it. -/
theorem val7_keep (V0 : Valuation τ sig (Elt F)) (r : Ref sig .tc) (h : r ∉ ops7_W) :
    val7 V0 (Proc.devRef .tc r) = val6 V0 (Proc.devRef .tc r) :=
  after_of_writes_sub ops7 _ ops7_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_v51 (V0 : Valuation τ sig (Elt F)) : val7 V0 (no_index (Proc.devRef .tc main_v51)) = ReadP.val_main_v51 (F := F) (V0 (Proc.devRef .tc main_arg0)) (V0 (Proc.devRef .tc main_arg2)) (V0 (Proc.devRef .tc main_arg5)) (V0 (Proc.devRef .tc main_arg6)) :=
  (val7_keep V0 main_v51 (by decide)).trans (val6_main_v51 V0)
theorem val7_main_v59 (V0 : Valuation τ sig (Elt F)) : val7 V0 (no_index (Proc.devRef .tc main_v59)) = ReadP.val_main_v59 (F := F) (V0 (Proc.devRef .tc main_arg1)) (V0 (Proc.devRef .tc main_arg2)) (V0 (Proc.devRef .tc main_arg4)) (V0 (Proc.devRef .tc main_arg5)) :=
  (val7_keep V0 main_v59 (by decide)).trans (val6_main_v59 V0)
theorem val7_main_v60 (V0 : Valuation τ sig (Elt F)) : val7 V0 (no_index (Proc.devRef .tc main_v60)) = ReadP.val_main_v60 (F := F) (V0 (Proc.devRef .tc main_arg3)) (V0 (Proc.devRef .tc main_arg4)) (V0 (Proc.devRef .tc main_arg5)) :=
  (val7_keep V0 main_v60 (by decide)).trans (val6_main_v60 V0)
set_option maxRecDepth 8192 in
set_option maxHeartbeats 2000000 in
theorem val7_main_v68 (V0 : Valuation τ sig (Elt F)) : val7 V0 (no_index (Proc.devRef .tc main_v68)) = ReadP.val_main_v68 (F := F) (V0 (Proc.devRef .tc main_arg1)) (V0 (Proc.devRef .tc main_arg2)) (V0 (Proc.devRef .tc main_arg3)) (V0 (Proc.devRef .tc main_arg4)) (V0 (Proc.devRef .tc main_arg5)) := by
  unfold val7
  simp only [ops7]
  after_results_simp
  simp only [val6_main_v57, val6_main_v60, val6_main_v59] <;> rfl
set_option maxRecDepth 8192 in
set_option maxHeartbeats 2000000 in
theorem val7_main_v79 (V0 : Valuation τ sig (Elt F)) : val7 V0 (no_index (Proc.devRef .tc main_v79)) = ReadP.val_main_v79 (F := F) (V0 (Proc.devRef .tc main_arg1)) (V0 (Proc.devRef .tc main_arg2)) (V0 (Proc.devRef .tc main_arg4)) (V0 (Proc.devRef .tc main_arg5)) := by
  unfold val7
  simp only [ops7]
  after_results_simp
  simp only [val6_main_v59] <;> rfl

/-- The device's buffer contents after the first 8 stretches. -/
def val8 (V0 : Valuation τ sig (Elt F)) : Valuation τ sig (Elt F) := after ops8 (val7 V0)
/-- A buffer that stretch 8 does not write keeps its contents through it. -/
theorem val8_keep (V0 : Valuation τ sig (Elt F)) (r : Ref sig .tc) (h : r ∉ ops8_W) :
    val8 V0 (Proc.devRef .tc r) = val7 V0 (Proc.devRef .tc r) :=
  after_of_writes_sub ops8 _ ops8_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_v51 (V0 : Valuation τ sig (Elt F)) : val8 V0 (no_index (Proc.devRef .tc main_v51)) = ReadP.val_main_v51 (F := F) (V0 (Proc.devRef .tc main_arg0)) (V0 (Proc.devRef .tc main_arg2)) (V0 (Proc.devRef .tc main_arg5)) (V0 (Proc.devRef .tc main_arg6)) :=
  (val8_keep V0 main_v51 (by decide)).trans (val7_main_v51 V0)
theorem val8_main_v59 (V0 : Valuation τ sig (Elt F)) : val8 V0 (no_index (Proc.devRef .tc main_v59)) = ReadP.val_main_v59 (F := F) (V0 (Proc.devRef .tc main_arg1)) (V0 (Proc.devRef .tc main_arg2)) (V0 (Proc.devRef .tc main_arg4)) (V0 (Proc.devRef .tc main_arg5)) :=
  (val8_keep V0 main_v59 (by decide)).trans (val7_main_v59 V0)
theorem val8_main_v60 (V0 : Valuation τ sig (Elt F)) : val8 V0 (no_index (Proc.devRef .tc main_v60)) = ReadP.val_main_v60 (F := F) (V0 (Proc.devRef .tc main_arg3)) (V0 (Proc.devRef .tc main_arg4)) (V0 (Proc.devRef .tc main_arg5)) :=
  (val8_keep V0 main_v60 (by decide)).trans (val7_main_v60 V0)
theorem val8_main_v68 (V0 : Valuation τ sig (Elt F)) : val8 V0 (no_index (Proc.devRef .tc main_v68)) = ReadP.val_main_v68 (F := F) (V0 (Proc.devRef .tc main_arg1)) (V0 (Proc.devRef .tc main_arg2)) (V0 (Proc.devRef .tc main_arg3)) (V0 (Proc.devRef .tc main_arg4)) (V0 (Proc.devRef .tc main_arg5)) :=
  (val8_keep V0 main_v68 (by decide)).trans (val7_main_v68 V0)
theorem val8_main_v79 (V0 : Valuation τ sig (Elt F)) : val8 V0 (no_index (Proc.devRef .tc main_v79)) = ReadP.val_main_v79 (F := F) (V0 (Proc.devRef .tc main_arg1)) (V0 (Proc.devRef .tc main_arg2)) (V0 (Proc.devRef .tc main_arg4)) (V0 (Proc.devRef .tc main_arg5)) :=
  (val8_keep V0 main_v79 (by decide)).trans (val7_main_v79 V0)
set_option maxRecDepth 8192 in
set_option maxHeartbeats 2000000 in
theorem val8_main_v90 (V0 : Valuation τ sig (Elt F)) : val8 V0 (no_index (Proc.devRef .tc main_v90)) = ReadP.val_main_v90 (F := F) (V0 (Proc.devRef .tc main_arg3)) (V0 (Proc.devRef .tc main_arg4)) (V0 (Proc.devRef .tc main_arg5)) := by
  unfold val8
  simp only [ops8]
  after_results_simp
  simp only [val7_main_v60] <;> rfl
set_option maxRecDepth 8192 in
set_option maxHeartbeats 2000000 in
theorem val8_main_v97 (V0 : Valuation τ sig (Elt F)) : val8 V0 (no_index (Proc.devRef .tc main_v97)) = ReadP.val_main_v97 (F := F) (V0 (Proc.devRef .tc main_arg1)) (V0 (Proc.devRef .tc main_arg2)) (V0 (Proc.devRef .tc main_arg3)) (V0 (Proc.devRef .tc main_arg4)) (V0 (Proc.devRef .tc main_arg5)) := by
  unfold val8
  simp only [ops8]
  after_results_simp
  simp only [val7_main_v60, val7_main_v59] <;> rfl
set_option maxRecDepth 8192 in
set_option maxHeartbeats 2000000 in
theorem val8_main_v98 (V0 : Valuation τ sig (Elt F)) : val8 V0 (no_index (Proc.devRef .tc main_v98)) = ReadP.val_main_v98 (F := F) (V0 (Proc.devRef .tc main_arg1)) (V0 (Proc.devRef .tc main_arg2)) (V0 (Proc.devRef .tc main_arg4)) (V0 (Proc.devRef .tc main_arg5)) := by
  unfold val8
  simp only [ops8]
  after_results_simp
  simp only [val7_main_v59] <;> rfl

end Cert.ReferenceIdeal.HandRun

end
-- ==== Proof.RefRunWin3.lean ====
import proofs.«407362_j87308095193844_3_alg».proof.Proof.RefRunWin2

/-! The reference program read stretch by stretch: stretches 9 … 11.

`valK V0` is the device's buffer contents after the first `K` stretches from contents `V0`. For every
buffer written by then and still read later (and for the arguments and the result) `valK_‹buffer›` says
what `valK V0` holds there: the buffer's stage of the operation-by-operation reading (`ReadP.val_‹buffer›`:
the operation's pure function applied to its operands' stages) at `V0`'s contents of the arguments it
depends on. Inside a stretch a stage is met by unfolding the stages of that stretch's own operations; a
buffer the stretch does not write keeps its contents through it. -/

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first 9 stretches. -/
def val9 (V0 : Valuation τ sig (Elt F)) : Valuation τ sig (Elt F) := after ops9 (val8 V0)
/-- A buffer that stretch 9 does not write keeps its contents through it. -/
theorem val9_keep (V0 : Valuation τ sig (Elt F)) (r : Ref sig .tc) (h : r ∉ ops9_W) :
    val9 V0 (Proc.devRef .tc r) = val8 V0 (Proc.devRef .tc r) :=
  after_of_writes_sub ops9 _ ops9_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_v51 (V0 : Valuation τ sig (Elt F)) : val9 V0 (no_index (Proc.devRef .tc main_v51)) = ReadP.val_main_v51 (F := F) (V0 (Proc.devRef .tc main_arg0)) (V0 (Proc.devRef .tc main_arg2)) (V0 (Proc.devRef .tc main_arg5)) (V0 (Proc.devRef .tc main_arg6)) :=
  (val9_keep V0 main_v51 (by decide)).trans (val8_main_v51 V0)
theorem val9_main_v59 (V0 : Valuation τ sig (Elt F)) : val9 V0 (no_index (Proc.devRef .tc main_v59)) = ReadP.val_main_v59 (F := F) (V0 (Proc.devRef .tc main_arg1)) (V0 (Proc.devRef .tc main_arg2)) (V0 (Proc.devRef .tc main_arg4)) (V0 (Proc.devRef .tc main_arg5)) :=
  (val9_keep V0 main_v59 (by decide)).trans (val8_main_v59 V0)
theorem val9_main_v60 (V0 : Valuation τ sig (Elt F)) : val9 V0 (no_index (Proc.devRef .tc main_v60)) = ReadP.val_main_v60 (F := F) (V0 (Proc.devRef .tc main_arg3)) (V0 (Proc.devRef .tc main_arg4)) (V0 (Proc.devRef .tc main_arg5)) :=
  (val9_keep V0 main_v60 (by decide)).trans (val8_main_v60 V0)
theorem val9_main_v68 (V0 : Valuation τ sig (Elt F)) : val9 V0 (no_index (Proc.devRef .tc main_v68)) = ReadP.val_main_v68 (F := F) (V0 (Proc.devRef .tc main_arg1)) (V0 (Proc.devRef .tc main_arg2)) (V0 (Proc.devRef .tc main_arg3)) (V0 (Proc.devRef .tc main_arg4)) (V0 (Proc.devRef .tc main_arg5)) :=
  (val9_keep V0 main_v68 (by decide)).trans (val8_main_v68 V0)
set_option maxRecDepth 8192 in
set_option maxHeartbeats 2000000 in
theorem val9_main_v111 (V0 : Valuation τ sig (Elt F)) : val9 V0 (no_index (Proc.devRef .tc main_v111)) = ReadP.val_main_v111 (F := F) (V0 (Proc.devRef .tc main_arg1)) (V0 (Proc.devRef .tc main_arg2)) (V0 (Proc.devRef .tc main_arg3)) (V0 (Proc.devRef .tc main_arg4)) (V0 (Proc.devRef .tc main_arg5)) := by
  unfold val9
  simp only [ops9]
  after_results_simp
  try simp only [toBuf_main_cst_19, ofBuf_main_cst_19, toBuf_main_call4_v0, ofBuf_main_call4_v0, toBuf_main_call4_v1, ofBuf_main_call4_v1, toBuf_main_v105, ofBuf_main_v105, toBuf_main_v106, ofBuf_main_v106]
  simp only [val8_main_v97, val8_main_v60, val8_main_v98] <;> rfl
set_option maxRecDepth 8192 in
set_option maxHeartbeats 2000000 in
theorem val9_main_v116 (V0 : Valuation τ sig (Elt F)) : val9 V0 (no_index (Proc.devRef .tc main_v116)) = ReadP.val_main_v116 (F := F) (V0 (Proc.devRef .tc main_arg1)) (V0 (Proc.devRef .tc main_arg2)) (V0 (Proc.devRef .tc main_arg3)) (V0 (Proc.devRef .tc main_arg4)) (V0 (Proc.devRef .tc main_arg5)) := by
  unfold val9
  simp only [ops9]
  after_results_simp
  try simp only [toBuf_main_cst_19, ofBuf_main_cst_19, toBuf_main_call4_v0, ofBuf_main_call4_v0, toBuf_main_call4_v1, ofBuf_main_call4_v1, toBuf_main_v105, ofBuf_main_v105, toBuf_main_v106, ofBuf_main_v106]
  simp only [val8_main_v90, val8_main_v79] <;> rfl

/-- The device's buffer contents after the first 10 stretches. -/
def val10 (V0 : Valuation τ sig (Elt F)) : Valuation τ sig (Elt F) := after ops10 (val9 V0)
/-- A buffer that stretch 10 does not write keeps its contents through it. -/
theorem val10_keep (V0 : Valuation τ sig (Elt F)) (r : Ref sig .tc) (h : r ∉ ops10_W) :
    val10 V0 (Proc.devRef .tc r) = val9 V0 (Proc.devRef .tc r) :=
  after_of_writes_sub ops10 _ ops10_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_v51 (V0 : Valuation τ sig (Elt F)) : val10 V0 (no_index (Proc.devRef .tc main_v51)) = ReadP.val_main_v51 (F := F) (V0 (Proc.devRef .tc main_arg0)) (V0 (Proc.devRef .tc main_arg2)) (V0 (Proc.devRef .tc main_arg5)) (V0 (Proc.devRef .tc main_arg6)) :=
  (val10_keep V0 main_v51 (by decide)).trans (val9_main_v51 V0)
theorem val10_main_v68 (V0 : Valuation τ sig (Elt F)) : val10 V0 (no_index (Proc.devRef .tc main_v68)) = ReadP.val_main_v68 (F := F) (V0 (Proc.devRef .tc main_arg1)) (V0 (Proc.devRef .tc main_arg2)) (V0 (Proc.devRef .tc main_arg3)) (V0 (Proc.devRef .tc main_arg4)) (V0 (Proc.devRef .tc main_arg5)) :=
  (val10_keep V0 main_v68 (by decide)).trans (val9_main_v68 V0)
set_option maxRecDepth 8192 in
set_option maxHeartbeats 2000000 in
theorem val10_main_v117 (V0 : Valuation τ sig (Elt F)) : val10 V0 (no_index (Proc.devRef .tc main_v117)) = ReadP.val_main_v117 (F := F) (V0 (Proc.devRef .tc main_arg1)) (V0 (Proc.devRef .tc main_arg2)) (V0 (Proc.devRef .tc main_arg3)) (V0 (Proc.devRef .tc main_arg4)) (V0 (Proc.devRef .tc main_arg5)) := by
  unfold val10
  simp only [ops10]
  after_results_simp
  simp only [val9_main_v111, val9_main_v116] <;> rfl
set_option maxRecDepth 8192 in
set_option maxHeartbeats 2000000 in
theorem val10_main_v120 (V0 : Valuation τ sig (Elt F)) : val10 V0 (no_index (Proc.devRef .tc main_v120)) = ReadP.val_main_v120 (F := F) (V0 (Proc.devRef .tc main_arg1)) (V0 (Proc.devRef .tc main_arg2)) (V0 (Proc.devRef .tc main_arg3)) (V0 (Proc.devRef .tc main_arg4)) (V0 (Proc.devRef .tc main_arg5)) := by
  unfold val10
  simp only [ops10]
  after_results_simp
  simp only [val9_main_v116, val9_main_v111] <;> rfl
set_option maxRecDepth 8192 in
set_option maxHeartbeats 2000000 in
theorem val10_main_v135 (V0 : Valuation τ sig (Elt F)) : val10 V0 (no_index (Proc.devRef .tc main_v135)) = ReadP.val_main_v135 (F := F) (V0 (Proc.devRef .tc main_arg1)) (V0 (Proc.devRef .tc main_arg2)) (V0 (Proc.devRef .tc main_arg3)) (V0 (Proc.devRef .tc main_arg4)) (V0 (Proc.devRef .tc main_arg5)) := by
  unfold val10
  simp only [ops10]
  after_results_simp
  simp only [val9_main_v60, val9_main_v59] <;> rfl

/-- The device's buffer contents after the first 11 stretches. -/
def val11 (V0 : Valuation τ sig (Elt F)) : Valuation τ sig (Elt F) := after ops11 (val10 V0)
/-- A buffer that stretch 11 does not write keeps its contents through it. -/
theorem val11_keep (V0 : Valuation τ sig (Elt F)) (r : Ref sig .tc) (h : r ∉ ops11_W) :
    val11 V0 (Proc.devRef .tc r) = val10 V0 (Proc.devRef .tc r) :=
  after_of_writes_sub ops11 _ ops11_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_v51 (V0 : Valuation τ sig (Elt F)) : val11 V0 (no_index (Proc.devRef .tc main_v51)) = ReadP.val_main_v51 (F := F) (V0 (Proc.devRef .tc main_arg0)) (V0 (Proc.devRef .tc main_arg2)) (V0 (Proc.devRef .tc main_arg5)) (V0 (Proc.devRef .tc main_arg6)) :=
  (val11_keep V0 main_v51 (by decide)).trans (val10_main_v51 V0)
theorem val11_main_v68 (V0 : Valuation τ sig (Elt F)) : val11 V0 (no_index (Proc.devRef .tc main_v68)) = ReadP.val_main_v68 (F := F) (V0 (Proc.devRef .tc main_arg1)) (V0 (Proc.devRef .tc main_arg2)) (V0 (Proc.devRef .tc main_arg3)) (V0 (Proc.devRef .tc main_arg4)) (V0 (Proc.devRef .tc main_arg5)) :=
  (val11_keep V0 main_v68 (by decide)).trans (val10_main_v68 V0)
set_option maxRecDepth 8192 in
set_option maxHeartbeats 2000000 in
theorem val11_main_v146 (V0 : Valuation τ sig (Elt F)) : val11 V0 (no_index (Proc.devRef .tc main_v146)) = ReadP.val_main_v146 (F := F) (V0 (Proc.devRef .tc main_arg1)) (V0 (Proc.devRef .tc main_arg2)) (V0 (Proc.devRef .tc main_arg3)) (V0 (Proc.devRef .tc main_arg4)) (V0 (Proc.devRef .tc main_arg5)) := by
  unfold val11
  simp only [ops11]
  after_results_simp
  try simp only [toBuf_main_cst_21, ofBuf_main_cst_21, toBuf_main_call5_v0, ofBuf_main_call5_v0, toBuf_main_call5_v1, ofBuf_main_call5_v1, toBuf_main_v135, ofBuf_main_v135, toBuf_main_v136, ofBuf_main_v136]
  simp only [val10_main_v135, val10_main_v117, val10_main_v120] <;> rfl

end Cert.ReferenceIdeal.HandRun

end
-- ==== Proof.RefRunWin4.lean ====
import proofs.«407362_j87308095193844_3_alg».proof.Proof.RefRunWin3

/-! The reference program read stretch by stretch: stretches 12 … 14.

`valK V0` is the device's buffer contents after the first `K` stretches from contents `V0`. For every
buffer written by then and still read later (and for the arguments and the result) `valK_‹buffer›` says
what `valK V0` holds there: the buffer's stage of the operation-by-operation reading (`ReadP.val_‹buffer›`:
the operation's pure function applied to its operands' stages) at `V0`'s contents of the arguments it
depends on. Inside a stretch a stage is met by unfolding the stages of that stretch's own operations; a
buffer the stretch does not write keeps its contents through it. -/

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first 12 stretches. -/
def val12 (V0 : Valuation τ sig (Elt F)) : Valuation τ sig (Elt F) := after ops12 (val11 V0)
/-- A buffer that stretch 12 does not write keeps its contents through it. -/
theorem val12_keep (V0 : Valuation τ sig (Elt F)) (r : Ref sig .tc) (h : r ∉ ops12_W) :
    val12 V0 (Proc.devRef .tc r) = val11 V0 (Proc.devRef .tc r) :=
  after_of_writes_sub ops12 _ ops12_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_v51 (V0 : Valuation τ sig (Elt F)) : val12 V0 (no_index (Proc.devRef .tc main_v51)) = ReadP.val_main_v51 (F := F) (V0 (Proc.devRef .tc main_arg0)) (V0 (Proc.devRef .tc main_arg2)) (V0 (Proc.devRef .tc main_arg5)) (V0 (Proc.devRef .tc main_arg6)) :=
  (val12_keep V0 main_v51 (by decide)).trans (val11_main_v51 V0)
theorem val12_main_v68 (V0 : Valuation τ sig (Elt F)) : val12 V0 (no_index (Proc.devRef .tc main_v68)) = ReadP.val_main_v68 (F := F) (V0 (Proc.devRef .tc main_arg1)) (V0 (Proc.devRef .tc main_arg2)) (V0 (Proc.devRef .tc main_arg3)) (V0 (Proc.devRef .tc main_arg4)) (V0 (Proc.devRef .tc main_arg5)) :=
  (val12_keep V0 main_v68 (by decide)).trans (val11_main_v68 V0)
theorem val12_main_v146 (V0 : Valuation τ sig (Elt F)) : val12 V0 (no_index (Proc.devRef .tc main_v146)) = ReadP.val_main_v146 (F := F) (V0 (Proc.devRef .tc main_arg1)) (V0 (Proc.devRef .tc main_arg2)) (V0 (Proc.devRef .tc main_arg3)) (V0 (Proc.devRef .tc main_arg4)) (V0 (Proc.devRef .tc main_arg5)) :=
  (val12_keep V0 main_v146 (by decide)).trans (val11_main_v146 V0)
set_option maxRecDepth 8192 in
set_option maxHeartbeats 2000000 in
theorem val12_main_call6_v12 (V0 : Valuation τ sig (Elt F)) : val12 V0 (no_index (Proc.devRef .tc main_call6_v12)) = ReadP.val_main_call6_v12 (F := F) := by
  unfold val12
  simp only [ops12]
  after_results_simp
  try simp only [toBuf_main_call6_v0, ofBuf_main_call6_v0, toBuf_main_call6_v1, ofBuf_main_call6_v1, toBuf_main_call6_c, ofBuf_main_call6_c, toBuf_main_call6_v2, ofBuf_main_call6_v2, toBuf_main_call6_v3, ofBuf_main_call6_v3, toBuf_main_call6_c_0, ofBuf_main_call6_c_0, toBuf_main_call6_v4, ofBuf_main_call6_v4, toBuf_main_call6_v5, ofBuf_main_call6_v5, toBuf_main_call6_v6, ofBuf_main_call6_v6, toBuf_main_call6_c_1, ofBuf_main_call6_c_1, toBuf_main_call6_v7, ofBuf_main_call6_v7, toBuf_main_call6_v8, ofBuf_main_call6_v8, toBuf_main_call6_c_2, ofBuf_main_call6_c_2, toBuf_main_call6_v9, ofBuf_main_call6_v9, toBuf_main_call6_v10, ofBuf_main_call6_v10, toBuf_main_call6_v11, ofBuf_main_call6_v11, toBuf_main_call6_v12, ofBuf_main_call6_v12, toBuf_main_call6_v13, ofBuf_main_call6_v13]
  all_goals rfl
set_option maxRecDepth 8192 in
set_option maxHeartbeats 2000000 in
theorem val12_main_call6_v13 (V0 : Valuation τ sig (Elt F)) : val12 V0 (no_index (Proc.devRef .tc main_call6_v13)) = ReadP.val_main_call6_v13 (F := F) := by
  unfold val12
  simp only [ops12]
  after_results_simp
  try simp only [toBuf_main_call6_v0, ofBuf_main_call6_v0, toBuf_main_call6_v1, ofBuf_main_call6_v1, toBuf_main_call6_c, ofBuf_main_call6_c, toBuf_main_call6_v2, ofBuf_main_call6_v2, toBuf_main_call6_v3, ofBuf_main_call6_v3, toBuf_main_call6_c_0, ofBuf_main_call6_c_0, toBuf_main_call6_v4, ofBuf_main_call6_v4, toBuf_main_call6_v5, ofBuf_main_call6_v5, toBuf_main_call6_v6, ofBuf_main_call6_v6, toBuf_main_call6_c_1, ofBuf_main_call6_c_1, toBuf_main_call6_v7, ofBuf_main_call6_v7, toBuf_main_call6_v8, ofBuf_main_call6_v8, toBuf_main_call6_c_2, ofBuf_main_call6_c_2, toBuf_main_call6_v9, ofBuf_main_call6_v9, toBuf_main_call6_v10, ofBuf_main_call6_v10, toBuf_main_call6_v11, ofBuf_main_call6_v11, toBuf_main_call6_v12, ofBuf_main_call6_v12, toBuf_main_call6_v13, ofBuf_main_call6_v13]
  all_goals rfl

/-- The device's buffer contents after the first 13 stretches. -/
def val13 (V0 : Valuation τ sig (Elt F)) : Valuation τ sig (Elt F) := after ops13 (val12 V0)
/-- A buffer that stretch 13 does not write keeps its contents through it. -/
theorem val13_keep (V0 : Valuation τ sig (Elt F)) (r : Ref sig .tc) (h : r ∉ ops13_W) :
    val13 V0 (Proc.devRef .tc r) = val12 V0 (Proc.devRef .tc r) :=
  after_of_writes_sub ops13 _ ops13_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)
theorem val13_main_arg5 (V0 : Valuation τ sig (Elt F)) : val13 V0 (no_index (Proc.devRef .tc main_arg5)) = V0 (Proc.devRef .tc main_arg5) :=
  (val13_keep V0 main_arg5 (by decide)).trans (val12_main_arg5 V0)
theorem val13_main_arg6 (V0 : Valuation τ sig (Elt F)) : val13 V0 (no_index (Proc.devRef .tc main_arg6)) = V0 (Proc.devRef .tc main_arg6) :=
  (val13_keep V0 main_arg6 (by decide)).trans (val12_main_arg6 V0)
theorem val13_main_v51 (V0 : Valuation τ sig (Elt F)) : val13 V0 (no_index (Proc.devRef .tc main_v51)) = ReadP.val_main_v51 (F := F) (V0 (Proc.devRef .tc main_arg0)) (V0 (Proc.devRef .tc main_arg2)) (V0 (Proc.devRef .tc main_arg5)) (V0 (Proc.devRef .tc main_arg6)) :=
  (val13_keep V0 main_v51 (by decide)).trans (val12_main_v51 V0)
theorem val13_main_v68 (V0 : Valuation τ sig (Elt F)) : val13 V0 (no_index (Proc.devRef .tc main_v68)) = ReadP.val_main_v68 (F := F) (V0 (Proc.devRef .tc main_arg1)) (V0 (Proc.devRef .tc main_arg2)) (V0 (Proc.devRef .tc main_arg3)) (V0 (Proc.devRef .tc main_arg4)) (V0 (Proc.devRef .tc main_arg5)) :=
  (val13_keep V0 main_v68 (by decide)).trans (val12_main_v68 V0)
set_option maxRecDepth 8192 in
set_option maxHeartbeats 2000000 in
theorem val13_main_v150 (V0 : Valuation τ sig (Elt F)) : val13 V0 (no_index (Proc.devRef .tc main_v150)) = ReadP.val_main_v150 (F := F) (V0 (Proc.devRef .tc main_arg1)) (V0 (Proc.devRef .tc main_arg2)) (V0 (Proc.devRef .tc main_arg3)) (V0 (Proc.devRef .tc main_arg4)) (V0 (Proc.devRef .tc main_arg5)) := by
  unfold val13
  simp only [ops13]
  after_results_simp
  try simp only [toBuf_main_call6_v12, ofBuf_main_call6_v12, toBuf_main_call6_v13, ofBuf_main_call6_v13, toBuf_main_call6_v14, ofBuf_main_call6_v14, toBuf_main_v146, ofBuf_main_v146, toBuf_main_v147, ofBuf_main_v147]
  simp only [val12_main_call6_v13, val12_main_call6_v12, val12_main_v146] <;> rfl
set_option maxRecDepth 8192 in
set_option maxHeartbeats 2000000 in
theorem val13_main_cst_26 (V0 : Valuation τ sig (Elt F)) : val13 V0 (no_index (Proc.devRef .tc main_cst_26)) = ReadP.val_main_cst_26 (F := F) := by
  unfold val13
  simp only [ops13]
  after_results_simp
  try simp only [toBuf_main_call6_v12, ofBuf_main_call6_v12, toBuf_main_call6_v13, ofBuf_main_call6_v13, toBuf_main_call6_v14, ofBuf_main_call6_v14, toBuf_main_v146, ofBuf_main_v146, toBuf_main_v147, ofBuf_main_v147]
  all_goals rfl

/-- The device's buffer contents after the first 14 stretches. -/
def val14 (V0 : Valuation τ sig (Elt F)) : Valuation τ sig (Elt F) := after ops14 (val13 V0)
/-- A buffer that stretch 14 does not write keeps its contents through it. -/
theorem val14_keep (V0 : Valuation τ sig (Elt F)) (r : Ref sig .tc) (h : r ∉ ops14_W) :
    val14 V0 (Proc.devRef .tc r) = val13 V0 (Proc.devRef .tc r) :=
  after_of_writes_sub ops14 _ ops14_writes h
theorem val14_main_arg0 (V0 : Valuation τ sig (Elt F)) : val14 V0 (no_index (Proc.devRef .tc main_arg0)) = V0 (Proc.devRef .tc main_arg0) :=
  (val14_keep V0 main_arg0 (by decide)).trans (val13_main_arg0 V0)
theorem val14_main_arg1 (V0 : Valuation τ sig (Elt F)) : val14 V0 (no_index (Proc.devRef .tc main_arg1)) = V0 (Proc.devRef .tc main_arg1) :=
  (val14_keep V0 main_arg1 (by decide)).trans (val13_main_arg1 V0)
theorem val14_main_arg2 (V0 : Valuation τ sig (Elt F)) : val14 V0 (no_index (Proc.devRef .tc main_arg2)) = V0 (Proc.devRef .tc main_arg2) :=
  (val14_keep V0 main_arg2 (by decide)).trans (val13_main_arg2 V0)
theorem val14_main_arg3 (V0 : Valuation τ sig (Elt F)) : val14 V0 (no_index (Proc.devRef .tc main_arg3)) = V0 (Proc.devRef .tc main_arg3) :=
  (val14_keep V0 main_arg3 (by decide)).trans (val13_main_arg3 V0)
theorem val14_main_arg4 (V0 : Valuation τ sig (Elt F)) : val14 V0 (no_index (Proc.devRef .tc main_arg4)) = V0 (Proc.devRef .tc main_arg4) :=
  (val14_keep V0 main_arg4 (by decide)).trans (val13_main_arg4 V0)
theorem val14_main_arg5 (V0 : Valuation τ sig (Elt F)) : val14 V0 (no_index (Proc.devRef .tc main_arg5)) = V0 (Proc.devRef .tc main_arg5) :=
  (val14_keep V0 main_arg5 (by decide)).trans (val13_main_arg5 V0)
theorem val14_main_arg6 (V0 : Valuation τ sig (Elt F)) : val14 V0 (no_index (Proc.devRef .tc main_arg6)) = V0 (Proc.devRef .tc main_arg6) :=
  (val14_keep V0 main_arg6 (by decide)).trans (val13_main_arg6 V0)
set_option maxRecDepth 8192 in
set_option maxHeartbeats 2000000 in
theorem val14_main_v155 (V0 : Valuation τ sig (Elt F)) : val14 V0 (no_index (Proc.devRef .tc main_v155)) = ReadP.val_main_v155 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val14
  simp only [ops14]
  after_results_simp
  simp only [val13_main_v150, val13_main_v68, val13_main_v51, val13_main_cst_26] <;> rfl

end Cert.ReferenceIdeal.HandRun

end
-- ==== Proof.RefRun.lean ====
import proofs.«407362_j87308095193844_3_alg».proof.Proof.RefRunMain
import proofs.«407362_j87308095193844_3_alg».proof.Proof.RefRunWin4
import Idealize.ShloMosaic.Lib.StableHlo.Run
import Idealize.ShloMosaic.Lib.Pipeline.Frame

/-! The run of the reference program.

The contents after the whole operation list are the contents after the last stretch (`after` over a
concatenation is `after` of the second list at `after` of the first), so the result buffer ends at its
stage of the operation-by-operation reading, at the launch contents of the arguments, and the arguments,
which no operation writes, keep their launch contents.

`run`: from any memory with zero counters every weakly fair execution terminates with the result buffer
at that stage and the arguments unchanged. -/

set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The contents after the whole list are the contents after the last stretch. -/
theorem after_ops (V0 : Valuation τ sig (Elt F)) : after ops V0 = val14 V0 := by
  simp only [ops, after_append]
  rfl

/-- On every device, for any float values, from any memory with zero counters: every weakly fair execution of
    `@main` terminates with the result buffer at its stage of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v155) = Cert.ReferenceIdeal.ReadP.val_main_v155 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v155).trans (by simp only [after_ops]; exact val14_main_v155 (launchContents m c)),
      (h c main_arg0).trans (by simp only [after_ops]; exact val14_main_arg0 (launchContents m c)),
      (h c main_arg1).trans (by simp only [after_ops]; exact val14_main_arg1 (launchContents m c)),
      (h c main_arg2).trans (by simp only [after_ops]; exact val14_main_arg2 (launchContents m c)),
      (h c main_arg3).trans (by simp only [after_ops]; exact val14_main_arg3 (launchContents m c)),
      (h c main_arg4).trans (by simp only [after_ops]; exact val14_main_arg4 (launchContents m c)),
      (h c main_arg5).trans (by simp only [after_ops]; exact val14_main_arg5 (launchContents m c)),
      (h c main_arg6).trans (by simp only [after_ops]; exact val14_main_arg6 (launchContents m c))⟩)
    (run_seq scopedRefs_eq scopedSems_eq defs main (fun _ => ops) main_eq (fun _ => ops_sub) m ρ (fun _ => ops_fresh))

end Cert.ReferenceIdeal.HandRun

end
-- ==== Proof.Bridge.lean ====
/-
  The two programs scatter the same labels and the same ground-truth boxes: the host lines before the kernel's region and
  the reference's first lines are the same operations of the same arguments (an iota of batch rows and the wrapped column
  indices joined into index pairs, then a set-scatter into zeros).
-/
import proofs.«407362_j87308095193844_3_alg».proof.Proof.KBlocks
import proofs.«407362_j87308095193844_3_alg».proof.Proof.RefRead

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ) (c : Dev Cert.KernelIdeal.nD)

/-- The kernel program's labels are the reference's, as functions of the ground-truth classes and column indices. -/
theorem labels_eq :
    Cert.KernelIdeal.Blocks.labels m c
      = Cert.ReferenceIdeal.ReadP.val_main_v17 (F := Ideal)
          (m ((c.tc : Thread Cert.KernelIdeal.nD Cert.KernelIdeal.τ).loc Cert.KernelIdeal.main_arg2))
          (m ((c.tc : Thread Cert.KernelIdeal.nD Cert.KernelIdeal.τ).loc Cert.KernelIdeal.main_arg5)) := by
  rw [Cert.KernelIdeal.Blocks.labels_eq]
  rfl

/-- The kernel program's ground-truth boxes are the reference's. -/
theorem gtBoxes_eq :
    Cert.KernelIdeal.Blocks.gtBoxes m c
      = Cert.ReferenceIdeal.ReadP.val_main_v33 (F := Ideal)
          (m ((c.tc : Thread Cert.KernelIdeal.nD Cert.KernelIdeal.τ).loc Cert.KernelIdeal.main_arg3))
          (m ((c.tc : Thread Cert.KernelIdeal.nD Cert.KernelIdeal.τ).loc Cert.KernelIdeal.main_arg5)) := by
  rw [Cert.KernelIdeal.Blocks.gtBoxes_eq]
  rfl

end Cert.Bridge

end
-- ==== Proof.lean ====
/-
  A matching loss for object detection (16 batch rows × 1024 queries, 92 classes): a class-weighted cross-entropy against
  the matched ground-truth classes, an L1 distance and a generalised intersection-over-union between predicted and
  ground-truth boxes, zeroed on unmatched / background queries. The kernel program computes it in ONE region over four
  grid points — each point reduces its four batch rows to five sums packed in a tile — with the scatter of the
  ground-truth classes and boxes onto the queries before the region and the combination of the tiles after it; the
  reference computes the same sums with gathers, a pairwise GIoU matrix of which it keeps the diagonal, and whole-array
  reductions. Over the extended reals both results are ONE function of the arguments (Proof/Spec.lean's `loss`):
  sums re-associate freely, a one-hot product sum picks its entry (x · 0 = 0 and x · 1 = x for every extended real),
  and the diagonal of the pairwise matrix is the per-query formula. The labels must be classes (below 92) for the
  reference's indexing and the kernel's one-hot compare to agree: that is the precondition's added conjunct, carried
  through the scatter (a set-scatter only writes update elements into the zero array).
  Frames: the kernel's two are the generated frame; the reference's is its run with the result dropped.
-/
import proofs.«407362_j87308095193844_3_alg».proof.Defs
import proofs.«407362_j87308095193844_3_alg».proof.Proof.Gen.Kernel
import proofs.«407362_j87308095193844_3_alg».proof.Proof.Gen.Kernel.Skeleton
import proofs.«407362_j87308095193844_3_alg».proof.Proof.Gen.Kernel.Launch
import proofs.«407362_j87308095193844_3_alg».proof.Proof.Gen.Kernel.Points
import proofs.«407362_j87308095193844_3_alg».proof.Proof.Gen.Kernel.Frame
import proofs.«407362_j87308095193844_3_alg».proof.Proof.Gen.KernelIdeal
import proofs.«407362_j87308095193844_3_alg».proof.Proof.Gen.KernelIdeal.Skeleton
import proofs.«407362_j87308095193844_3_alg».proof.Proof.Gen.KernelIdeal.Launch
import proofs.«407362_j87308095193844_3_alg».proof.Proof.Gen.KernelIdeal.Points
import proofs.«407362_j87308095193844_3_alg».proof.Proof.Gen.KernelIdeal.Frame
import proofs.«407362_j87308095193844_3_alg».proof.Proof.Gen.ReferenceIdeal
import proofs.«407362_j87308095193844_3_alg».proof.Proof.Gen.Pre_finite_inputs
import proofs.«407362_j87308095193844_3_alg».proof.Proof.KValue
import proofs.«407362_j87308095193844_3_alg».proof.Proof.RefLoss
import proofs.«407362_j87308095193844_3_alg».proof.Proof.RefRun
import proofs.«407362_j87308095193844_3_alg».proof.Proof.Bridge
import Idealize.ShloMosaic.Adequacy
import Idealize.ShloMosaic.Init

noncomputable section

namespace Cert.Proof

open Idealize.ShloMosaic Idealize.SL.Sem

/-- The reference's frame: its run, the result forgotten. -/
theorem frame_reference : Cert.frame_ReferenceIdeal := fun m ρ _ =>
  (θ_run Cert.ReferenceIdeal.defs _ _).mono (fun _ h c => (h c).2) (Cert.ReferenceIdeal.HandRun.run (F := Ideal) m ρ)

/-- Both idealized programs end at the loss of the (agreeing) arguments. -/
theorem algebraic : Cert.algebraic_KernelIdeal_ReferenceIdeal := by
  intro m ρ m' ρ' hpre hagree
  refine ⟨_, Cert.KernelIdeal.LossValue.run m ρ hpre, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3, e4, e5, e6⟩ := hagree c
  rw [e0, e1, e2, e3, e4, e5, e6,
    Cert.ReferenceIdeal.LossValue.value_eq _ _ _ _ _ _ _ (Cert.LabelRange.gtClass_lt _ _ _ _ _ _ _ (hpre c)),
    Cert.Bridge.labels_eq, Cert.Bridge.gtBoxes_eq]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
